-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v82)) (v2 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1250000 : Shape := ⟨1, ![1250000]⟩
abbrev S125000x64 : Shape := ⟨2, ![125000, 64]⟩
abbrev S3x64x64 : Shape := ⟨3, ![3, 64, 64]⟩
abbrev S3x64 : Shape := ⟨2, ![3, 64]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel
  bcast_S_S125000x64 : S_.BroadcastsInDim S125000x64 (![] : Fin 0 → Fin S125000x64.rank)
  reducesTo_S125000x64_S_d0_1 : S125000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_arg2 : IVec S4096 32) (main_v28 : IVec S_ 1) (main_v33 : IVec S4096 1) : IVec S_ 1 :=
  let main_c_12 : IVec S_ 1 := constantI S_ 1 1#1
  let main_v34 : IVec S_ 1 := (fun x v => Host.reduce IntOp.andi x v reducesTo_S4096_S_d0 h_S_) main_v33 main_c_12
  let main_v35 : IVec S_ 1 := andi main_v28 main_v34
  let main_c_13 : IVec S_ 32 := constantI S_ 32 0#32
  let main_v36 : IVec S4096 32 := broadcastInDim S4096 ![] bcast_S_S4096 main_c_13
  let main_v37 : IVec S4096 1 := cmpi .sge main_arg1 main_v36
  let main_c_14 : IVec S_ 32 := constantI S_ 32 75000#32
  let main_v38 : IVec S4096 32 := broadcastInDim S4096 ![] bcast_S_S4096 main_c_14
  let main_v39 : IVec S4096 1 := cmpi .slt main_arg1 main_v38
  let main_v40 : IVec S4096 1 := andi main_v37 main_v39
  let main_c_15 : IVec S_ 1 := constantI S_ 1 1#1
  let main_v41 : IVec S_ 1 := (fun x v => Host.reduce IntOp.andi x v reducesTo_S4096_S_d0 h_S_) main_v40 main_c_15
  let main_v42 : IVec S_ 1 := andi main_v35 main_v41
  let main_c_16 : IVec S_ 32 := constantI S_ 32 0#32
  let main_v43 : IVec S4096 32 := broadcastInDim S4096 ![] bcast_S_S4096 main_c_16
  let main_v44 : IVec S4096 1 := cmpi .sge main_arg2 main_v43
  let main_c_17 : IVec S_ 32 := constantI S_ 32 75000#32
  let main_v45 : IVec S4096 32 := broadcastInDim S4096 ![] bcast_S_S4096 main_c_17
  let main_v46 : IVec S4096 1 := cmpi .slt main_arg2 main_v45
  let main_v47 : IVec S4096 1 := andi main_v44 main_v46
  let main_c_18 : IVec S_ 1 := constantI S_ 1 1#1
  let main_v48 : IVec S_ 1 := (fun x v => Host.reduce IntOp.andi x v reducesTo_S4096_S_d0 h_S_) main_v47 main_c_18
  let main_v49 : IVec S_ 1 := andi main_v42 main_v48
  main_v49

def fn_part1 {F : FTy → Type} [FloatOps F] (main_arg0 : IVec S4096 32) (main_arg1 : IVec S4096 32) (main_arg2 : IVec S4096 32) (main_arg9 : FVec F S3x64x64 .f32) (main_arg10 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg9
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg10
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_c_10 : IVec S_ 32 := constantI S_ 32 0#32
  let main_v29 : IVec S4096 32 := broadcastInDim S4096 ![] bcast_S_S4096 main_c_10
  let main_v30 : IVec S4096 1 := cmpi .sge main_arg0 main_v29
  let main_c_11 : IVec S_ 32 := constantI S_ 32 50000#32
  let main_v31 : IVec S4096 32 := broadcastInDim S4096 ![] bcast_S_S4096 main_c_11
  let main_v32 : IVec S4096 1 := cmpi .slt main_arg0 main_v31
  let main_v33 : IVec S4096 1 := andi main_v30 main_v32
  fn_part2 (F := F) main_arg1 main_arg2 main_v28 main_v33

def fn {F : FTy → Type} [FloatOps F] (main_arg0 : IVec S4096 32) (main_arg1 : IVec S4096 32) (main_arg2 : IVec S4096 32) (main_arg3 : IVec S1250000 32) (main_arg4 : IVec S1250000 32) (main_arg5 : FVec F S1250000 .f32) (main_arg6 : FVec F S125000x64 .f32) (main_arg7 : FVec F S3x64x64 .f32) (main_arg8 : FVec F S3x64 .f32) (main_arg9 : FVec F S3x64x64 .f32) (main_arg10 : FVec F S3x64 .f32) : IVec S_ 1 :=
  let main_v0 : FVec F S1250000 .f32 := Host.absf main_arg5
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  let main_v4 : FVec F S125000x64 .f32 := Host.absf main_arg6
  let main_cst_0 : FVec F S_ .f32 := constant S_ .f32 0x7F800000#32
  let main_v5 : FVec F S125000x64 .f32 := broadcastInDim S125000x64 ![] bcast_S_S125000x64 main_cst_0
  let main_v6 : IVec S125000x64 1 := cmpf .olt main_v4 main_v5
  let main_c_1 : IVec S_ 1 := constantI S_ 1 1#1
  let main_v7 : IVec S_ 1 := (fun x v => Host.reduce IntOp.andi x v reducesTo_S125000x64_S_d0_1 h_S_) main_v6 main_c_1
  let main_v8 : IVec S_ 1 := andi main_v3 main_v7
  let main_v9 : FVec F S3x64x64 .f32 := Host.absf main_arg7
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg8
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg0 main_arg1 main_arg2 main_arg9 main_arg10 main_v13 main_v16
-- ==== Kernel.lean ====
abbrev S4096 : Shape := ⟨1, ![4096]⟩
abbrev S1250000 : Shape := ⟨1, ![1250000]⟩
abbrev S125000x64 : Shape := ⟨2, ![125000, 64]⟩
abbrev S3x64x64 : Shape := ⟨3, ![3, 64, 64]⟩
abbrev S3x64 : Shape := ⟨2, ![3, 64]⟩
abbrev S1250000x1 : Shape := ⟨2, ![1250000, 1]⟩
abbrev S_ : Shape := ⟨0, ![]⟩
abbrev S1250000x64 : Shape := ⟨2, ![1250000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1000x64 : Shape := ⟨2, ![1000, 64]⟩
abbrev S1000 : Shape := ⟨1, ![1000]⟩
abbrev S1000x1 : Shape := ⟨2, ![1000, 1]⟩
abbrev S125000x256 : Shape := ⟨2, ![125000, 256]⟩
abbrev S12288 : Shape := ⟨1, ![12288]⟩
abbrev S125000x2x128 : Shape := ⟨3, ![125000, 2, 128]⟩
abbrev S12288x2x128 : Shape := ⟨3, ![12288, 2, 128]⟩
abbrev S1x2x128 : Shape := ⟨3, ![1, 2, 128]⟩
abbrev S1 : Shape := ⟨1, ![1]⟩
abbrev S12288x256 : Shape := ⟨2, ![12288, 256]⟩
abbrev S4096x256 : Shape := ⟨2, ![4096, 256]⟩

abbrev nBuf : Space → Nat
  | .hbm => 108
  | .vmem => 40
  | .smem => 1
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S1250000, .i32⟩
  | .hbm, ⟨4, _⟩ => ⟨S1250000, .i32⟩
  | .hbm, ⟨5, _⟩ => ⟨S1250000, .f32⟩
  | .hbm, ⟨6, _⟩ => ⟨S125000x64, .f32⟩
  | .hbm, ⟨7, _⟩ => ⟨S3x64x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S1250000x1, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S1250000x64, .f32⟩
  | .hbm, ⟨22, _⟩ => ⟨S1250000x64, .f32⟩
  | .hbm, ⟨23, _⟩ => ⟨S_, .f32⟩
  | .hbm, ⟨24, _⟩ => ⟨S125000x64, .f32⟩
  | .hbm, ⟨25, _⟩ => ⟨S1250000x1, .i32⟩
  | .hbm, ⟨26, _⟩ => ⟨S125000x64, .f32⟩
  | .hbm, ⟨27, _⟩ => ⟨S1x64x64, .f32⟩
  | .hbm, ⟨28, _⟩ => ⟨S64x64, .f32⟩
  | .hbm, ⟨29, _⟩ => ⟨S64x64, .f32⟩
  | .hbm, ⟨30, _⟩ => ⟨S1x64x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S125000x64, .f32⟩
  | .hbm, ⟨38, _⟩ => ⟨S125000x64, .f32⟩
  | .hbm, ⟨39, _⟩ => ⟨S1250000x1, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S125000x64, .f32⟩
  | .hbm, ⟨53, _⟩ => ⟨S1250000x1, .i32⟩
  | .hbm, ⟨54, _⟩ => ⟨S125000x64, .f32⟩
  | .hbm, ⟨55, _⟩ => ⟨S1x64x64, .f32⟩
  | .hbm, ⟨56, _⟩ => ⟨S64x64, .f32⟩
  | .hbm, ⟨57, _⟩ => ⟨S64x64, .f32⟩
  | .hbm, ⟨58, _⟩ => ⟨S1x64x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S64, .f32⟩
  | .hbm, ⟨65, _⟩ => ⟨S125000x64, .f32⟩
  | .hbm, ⟨66, _⟩ => ⟨S125000x64, .f32⟩
  | .hbm, ⟨67, _⟩ => ⟨S1250000x1, .f32⟩
  | .hbm, ⟨68, _⟩ => ⟨S_, .i32⟩
  | .hbm, ⟨69, _⟩ => ⟨S1250000, .i32⟩
  | .hbm, ⟨70, _⟩ => ⟨S1250000, .i1⟩
  | .hbm, ⟨71, _⟩ => ⟨S_, .i32⟩
  | .hbm, ⟨72, _⟩ => ⟨S1250000, .i32⟩
  | .hbm, ⟨73, _⟩ => ⟨S1250000, .i32⟩
  | .hbm, ⟨74, _⟩ => ⟨S1250000, .i32⟩
  | .hbm, ⟨75, _⟩ => ⟨S1250000x1, .i32⟩
  | .hbm, ⟨76, _⟩ => ⟨S1250000x64, .f32⟩
  | .hbm, ⟨77, _⟩ => ⟨S1250000x64, .f32⟩
  | .hbm, ⟨78, _⟩ => ⟨S1250000x64, .f32⟩
  | .hbm, ⟨79, _⟩ => ⟨S_, .f32⟩
  | .hbm, ⟨80, _⟩ => ⟨S125000x64, .f32⟩
  | .hbm, ⟨81, _⟩ => ⟨S1250000x1, .i32⟩
  | .hbm, ⟨82, _⟩ => ⟨S125000x64, .f32⟩
  | .hbm, ⟨83, _⟩ => ⟨S1x64x64, .f32⟩
  | .hbm, ⟨84, _⟩ => ⟨S64x64, .f32⟩
  | .hbm, ⟨85, _⟩ => ⟨S64x64, .f32⟩
  | .hbm, ⟨86, _⟩ => ⟨S1x64x64, .f32⟩
  | .hbm, ⟨87, _⟩ => ⟨S64x64, .f32⟩
  | .hbm, ⟨88, _⟩ => ⟨S64x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S64, .f32⟩
  | .hbm, ⟨93, _⟩ => ⟨S125000x64, .f32⟩
  | .hbm, ⟨94, _⟩ => ⟨S125000x64, .f32⟩
  | .hbm, ⟨95, _⟩ => ⟨S125000x256, .f32⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S125000x2x128, .f32⟩
  | .hbm, ⟨103, _⟩ => ⟨S12288x2x128, .f32⟩
  | .hbm, ⟨104, _⟩ => ⟨S12288x256, .f32⟩
  | .hbm, ⟨105, _⟩ => ⟨S4096x256, .f32⟩
  | .hbm, ⟨106, _⟩ => ⟨S4096x256, .f32⟩
  | .hbm, ⟨107, _⟩ => ⟨S4096x256, .f32⟩
  | .local _ .vmem, ⟨0, _⟩ => ⟨S1000x64, .f32⟩
  | .local _ .vmem, ⟨1, _⟩ => ⟨S1000x64, .f32⟩
  | .local _ .vmem, ⟨2, _⟩ => ⟨S1000x64, .f32⟩
  | .local _ .vmem, ⟨3, _⟩ => ⟨S1000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S1000x64, .f32⟩
  | .local _ .vmem, ⟨14, _⟩ => ⟨S1000x64, .f32⟩
  | .local _ .vmem, ⟨15, _⟩ => ⟨S1000x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S1000x64, .f32⟩
  | .local _ .vmem, ⟨33, _⟩ => ⟨S1000x64, .f32⟩
  | .local _ .vmem, ⟨34, _⟩ => ⟨S1000x64, .f32⟩
  | .local _ .vmem, ⟨35, _⟩ => ⟨S1000x64, .f32⟩
  | .local _ .vmem, ⟨36, _⟩ => ⟨S1x2x128, .f32⟩
  | .local _ .vmem, ⟨37, _⟩ => ⟨S1x2x128, .f32⟩
  | .local _ .vmem, ⟨38, _⟩ => ⟨S1x2x128, .f32⟩
  | .local _ .vmem, ⟨39, _⟩ => ⟨S1x2x128, .f32⟩
  | .local _ .smem, ⟨0, _⟩ => ⟨S12288, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v48 : Ref sig .tc := ⟨.hbm, 67, rfl⟩
abbrev main_c_4 : Ref sig .tc := ⟨.hbm, 68, rfl⟩
abbrev main_v49 : Ref sig .tc := ⟨.hbm, 69, rfl⟩
abbrev main_v50 : Ref sig .tc := ⟨.hbm, 70, rfl⟩
abbrev main_c_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71_0 : Ref sig .tc := ⟨.hbm, 93, rfl⟩
abbrev main_v71_1 : Ref sig .tc := ⟨.hbm, 94, rfl⟩
abbrev main_v72 : Ref sig .tc := ⟨.hbm, 95, rfl⟩
abbrev main_c_7 : Ref sig .tc := ⟨.hbm, 96, rfl⟩
abbrev main_v73 : Ref sig .tc := ⟨.hbm, 97, rfl⟩
abbrev main_v74 : Ref sig .tc := ⟨.hbm, 98, rfl⟩
abbrev main_c_8 : Ref sig .tc := ⟨.hbm, 99, rfl⟩
abbrev main_v75 : Ref sig .tc := ⟨.hbm, 100, rfl⟩
abbrev main_v76 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v77 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![12288], ![false]⟩

abbrev pre3 : Pipeline.Prefetch sig := ⟨1, ![main_v77.idx], fun | 0 => main_v77.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S12288.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S12288) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S125000x64 : S_.BroadcastsInDim S125000x64 (![] : Fin 0 → Fin S125000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S125000x64_S125000x64_S125000x64_S125000x64_S125000x256_d1 : Shape.Concatenates [S125000x64, S125000x64, S125000x64, S125000x64] S125000x256 1
  bcast_S_S4096 : S_.BroadcastsInDim S4096 (![] : Fin 0 → Fin S4096.rank)
  concatenates_S4096_S4096_S4096_S12288_d0 : Shape.Concatenates [S4096, S4096, S4096] S12288 0
  shapeCasts_S125000x256_S125000x2x128 : S125000x256.ShapeCasts S125000x2x128
  numel1_S1 : S1.numel = 1
  inb_S1x2x128_S1x2x128_0_0_0 : ∀ a, (![0, 0, 0] : Fin 3 → Nat) a + S1x2x128.size a ≤ S1x2x128.size a
  h_S1x2x128 : 0 < S1x2x128.numel
  shapeCasts_S1x2x128_S1x2x128 : S1x2x128.ShapeCasts S1x2x128
  shapeCasts_S12288x2x128_S12288x256 : S12288x2x128.ShapeCasts S12288x256
  slices_S12288x256_S4096x256_0_0 : S12288x256.Slices ![0, 0] S4096x256
  slices_S12288x256_S4096x256_4096_0 : S12288x256.Slices ![4096, 0] S4096x256
  slices_S12288x256_S4096x256_8192_0 : S12288x256.Slices ![8192, 0] S4096x256
  gather_S125000x64_S1250000x1_S1250000x64_1_0_n_n_0_1_164_wf : GatherDims.WF S125000x64 S1250000x1 S1250000x64 [1] [0] [] [0] [] 1 ![1, 64]
  scatter_S125000x64_S1250000x1_S1250000x64_1_0_0_1_wf : ScatterDims.WF S125000x64 S1250000x1 S1250000x64 [1] [0] [0] 1
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S125000x64.size a
  hwx0_0 : ∀ i : grid0.Coords, EltTy.bits .f32 = 32 ∨ (Rect.block (s := S125000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S125000x64.size a
  hwx0_1 : ∀ i : grid0.Coords, EltTy.bits .f32 = 32 ∨ (Rect.block (s := S125000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x64.size a ≤ S125000x64.size a
  hwx0_6 : ∀ i : grid0.Coords, EltTy.bits .f32 = 32 ∨ (Rect.block (s := S125000x64) S1000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S125000x64.size a
  hwx0_7 : ∀ i : grid0.Coords, EltTy.bits .f32 = 32 ∨ (Rect.block (s := S125000x64) S1000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S125000x64.size a
  hwx1_0 : ∀ i : grid1.Coords, EltTy.bits .f32 = 32 ∨ (Rect.block (s := S125000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S125000x64.size a
  hwx1_1 : ∀ i : grid1.Coords, EltTy.bits .f32 = 32 ∨ (Rect.block (s := S125000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S125000x64.size a
  hwx1_6 : ∀ i : grid1.Coords, EltTy.bits .f32 = 32 ∨ (Rect.block (s := S125000x64) S1000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x64.size a ≤ S125000x64.size a
  hwx1_7 : ∀ i : grid1.Coords, EltTy.bits .f32 = 32 ∨ (Rect.block (s := S125000x64) S1000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S125000x64.size a
  hwx2_0 : ∀ i : grid2.Coords, EltTy.bits .f32 = 32 ∨ (Rect.block (s := S125000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S125000x64.size a
  hwx2_1 : ∀ i : grid2.Coords, EltTy.bits .f32 = 32 ∨ (Rect.block (s := S125000x64) S1000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x64.size a ≤ S125000x64.size a
  hwx2_6 : ∀ i : grid2.Coords, EltTy.bits .f32 = 32 ∨ (Rect.block (s := S125000x64) S1000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x64.size a ≤ S125000x64.size a
  hwx2_7 : ∀ i : grid2.Coords, EltTy.bits .f32 = 32 ∨ (Rect.block (s := S125000x64) S1000x64.size (cc2_transform_7 i) (hinb2_7 i)).WholeWords (EltTy.packing .f32)
  hrank3 : 0 < grid3.rank
  k3_off1_inb : ∀ i : grid3.Coords, ∀ a, (k3_off1 i) a + S1.size a ≤ S12288.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2x128.size a ≤ S12288x2x128.size a
  hwx3_1 : ∀ i : grid3.Coords, EltTy.bits .f32 = 32 ∨ (Rect.block (s := S12288x2x128) S1x2x128.size (cc3_transform_1 i) (hinb3_1 i)).WholeWords (EltTy.packing .f32)

variable [Facts₀]

def gather_S125000x64_S1250000x1_S1250000x64_1_0_n_n_0_1_164 : GatherDims S125000x64 S1250000x1 S1250000x64 where
  offsetDims := [1]
  collapsedSliceDims := [0]
  operandBatchingDims := []
  startIndicesBatchingDims := []
  startIndexMap := [0]
  indexVectorDim := 1
  sliceSizes := ![1, 64]
  wf := gather_S125000x64_S1250000x1_S1250000x64_1_0_n_n_0_1_164_wf
def scatter_S125000x64_S1250000x1_S1250000x64_1_0_0_1 : ScatterDims S125000x64 S1250000x1 S1250000x64 where
  updateWindowDims := [1]
  insertedWindowDims := [0]
  scatterDimsToOperandDims := [0]
  indexVectorDim := 1
  wf := scatter_S125000x64_S1250000x1_S1250000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v12) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S1000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S1000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v36) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S1000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S1000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47_0) S1000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71_0) S1000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v71_1) S1000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev spec3_0 : Pipeline.WinSpec sig grid3.rank :=
  Pipeline.WinSpec.ofSpec (Memref.whole main_v78) S1x2x128.size reads3_0 false false 2 stage3_0 sem3_0 nbuf3_0 hstage3_0

abbrev spec3_1 : Pipeline.WinSpec sig grid3.rank :=
  Pipeline.WinSpec.ofSpec (Memref.whole main_v79) S1x2x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x2x128.size a ≤ S125000x2x128.size a), EltTy.bits .f32 = 32 ∨ (Rect.block (s := S125000x2x128) S1x2x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))

class Facts : Prop extends Facts₀ where
  harr3 : ∀ w, (spec3 w).arr.IsWhole

variable [Facts]
-- ==== ReferenceIdeal.lean ====
abbrev S4096 : Shape := ⟨1, ![4096]⟩
abbrev S1250000 : Shape := ⟨1, ![1250000]⟩
abbrev S125000x64 : Shape := ⟨2, ![125000, 64]⟩
abbrev S3x64x64 : Shape := ⟨3, ![3, 64, 64]⟩
abbrev S3x64 : Shape := ⟨2, ![3, 64]⟩
abbrev S1250000x1 : Shape := ⟨2, ![1250000, 1]⟩
abbrev S_ : Shape := ⟨0, ![]⟩
abbrev S1250000x64 : Shape := ⟨2, ![1250000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S125000 : Shape := ⟨1, ![125000]⟩
abbrev S125000x1 : Shape := ⟨2, ![125000, 1]⟩
abbrev S125000x256 : Shape := ⟨2, ![125000, 256]⟩
abbrev S50000x256 : Shape := ⟨2, ![50000, 256]⟩
abbrev S75000x256 : Shape := ⟨2, ![75000, 256]⟩
abbrev S4096x1 : Shape := ⟨2, ![4096, 1]⟩
abbrev S4096x256 : Shape := ⟨2, ![4096, 256]⟩

abbrev nBuf : Space → Nat
  | .hbm => 227
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S1250000, .i32⟩
  | 4 => ⟨S1250000, .i32⟩
  | 5 => ⟨S1250000, .f32⟩
  | 6 => ⟨S125000x64, .f32⟩
  | 7 => ⟨S3x64x64, .f32⟩
  | 8 => ⟨S3x64, .f32⟩
  | 9 => ⟨S3x64x64, .f32⟩
  | 10 => ⟨S3x64, .f32⟩
  | 11 => ⟨S1250000x1, .f32⟩
  | 12 => ⟨S_, .i32⟩
  | 13 => ⟨S1250000, .i32⟩
  | 14 => ⟨S1250000, .i1⟩
  | 15 => ⟨S_, .i32⟩
  | 16 => ⟨S1250000, .i32⟩
  | 17 => ⟨S1250000, .i32⟩
  | 18 => ⟨S1250000, .i32⟩
  | 19 => ⟨S1250000x1, .i32⟩
  | 20 => ⟨S1250000x64, .f32⟩
  | 21 => ⟨S1250000x64, .f32⟩
  | 22 => ⟨S1250000x64, .f32⟩
  | 23 => ⟨S_, .f32⟩
  | 24 => ⟨S125000x64, .f32⟩
  | 25 => ⟨S1250000x1, .i32⟩
  | 26 => ⟨S125000x64, .f32⟩
  | 27 => ⟨S1x64x64, .f32⟩
  | 28 => ⟨S64x64, .f32⟩
  | 29 => ⟨S64x64, .f32⟩
  | 30 => ⟨S125000x64, .f32⟩
  | 31 => ⟨S1x64, .f32⟩
  | 32 => ⟨S64, .f32⟩
  | 33 => ⟨S1x64, .f32⟩
  | 34 => ⟨S125000x64, .f32⟩
  | 35 => ⟨S125000x64, .f32⟩
  | 36 => ⟨S_, .f32⟩
  | 37 => ⟨S_, .f32⟩
  | 38 => ⟨S125000x64, .f32⟩
  | 39 => ⟨S125000x64, .i1⟩
  | 40 => ⟨S_, .f32⟩
  | 41 => ⟨S125000x64, .f32⟩
  | 42 => ⟨S125000x64, .f32⟩
  | 43 => ⟨S125000x64, .f32⟩
  | 44 => ⟨S125000x64, .f32⟩
  | 45 => ⟨S1x64x64, .f32⟩
  | 46 => ⟨S64x64, .f32⟩
  | 47 => ⟨S64x64, .f32⟩
  | 48 => ⟨S125000x64, .f32⟩
  | 49 => ⟨S1x64, .f32⟩
  | 50 => ⟨S64, .f32⟩
  | 51 => ⟨S1x64, .f32⟩
  | 52 => ⟨S125000x64, .f32⟩
  | 53 => ⟨S125000x64, .f32⟩
  | 54 => ⟨S_, .f32⟩
  | 55 => ⟨S_, .f32⟩
  | 56 => ⟨S125000x64, .f32⟩
  | 57 => ⟨S125000x64, .i1⟩
  | 58 => ⟨S_, .f32⟩
  | 59 => ⟨S125000x64, .f32⟩
  | 60 => ⟨S125000x64, .f32⟩
  | 61 => ⟨S125000x64, .f32⟩
  | 62 => ⟨S125000x64, .f32⟩
  | 63 => ⟨S125000x64, .f32⟩
  | 64 => ⟨S_, .f32⟩
  | 65 => ⟨S125000, .f32⟩
  | 66 => ⟨S125000x1, .f32⟩
  | 67 => ⟨S125000x1, .f32⟩
  | 68 => ⟨S_, .f32⟩
  | 69 => ⟨S125000x1, .f32⟩
  | 70 => ⟨S125000x1, .f32⟩
  | 71 => ⟨S125000x64, .f32⟩
  | 72 => ⟨S125000x64, .f32⟩
  | 73 => ⟨S1250000x1, .f32⟩
  | 74 => ⟨S_, .i32⟩
  | 75 => ⟨S1250000, .i32⟩
  | 76 => ⟨S1250000, .i1⟩
  | 77 => ⟨S_, .i32⟩
  | 78 => ⟨S1250000, .i32⟩
  | 79 => ⟨S1250000, .i32⟩
  | 80 => ⟨S1250000, .i32⟩
  | 81 => ⟨S1250000x1, .i32⟩
  | 82 => ⟨S1250000x64, .f32⟩
  | 83 => ⟨S1250000x64, .f32⟩
  | 84 => ⟨S1250000x64, .f32⟩
  | 85 => ⟨S_, .f32⟩
  | 86 => ⟨S125000x64, .f32⟩
  | 87 => ⟨S1250000x1, .i32⟩
  | 88 => ⟨S125000x64, .f32⟩
  | 89 => ⟨S1x64x64, .f32⟩
  | 90 => ⟨S64x64, .f32⟩
  | 91 => ⟨S64x64, .f32⟩
  | 92 => ⟨S125000x64, .f32⟩
  | 93 => ⟨S1x64, .f32⟩
  | 94 => ⟨S64, .f32⟩
  | 95 => ⟨S1x64, .f32⟩
  | 96 => ⟨S125000x64, .f32⟩
  | 97 => ⟨S125000x64, .f32⟩
  | 98 => ⟨S_, .f32⟩
  | 99 => ⟨S_, .f32⟩
  | 100 => ⟨S125000x64, .f32⟩
  | 101 => ⟨S125000x64, .i1⟩
  | 102 => ⟨S_, .f32⟩
  | 103 => ⟨S125000x64, .f32⟩
  | 104 => ⟨S125000x64, .f32⟩
  | 105 => ⟨S125000x64, .f32⟩
  | 106 => ⟨S125000x64, .f32⟩
  | 107 => ⟨S1x64x64, .f32⟩
  | 108 => ⟨S64x64, .f32⟩
  | 109 => ⟨S64x64, .f32⟩
  | 110 => ⟨S125000x64, .f32⟩
  | 111 => ⟨S1x64, .f32⟩
  | 112 => ⟨S64, .f32⟩
  | 113 => ⟨S1x64, .f32⟩
  | 114 => ⟨S125000x64, .f32⟩
  | 115 => ⟨S125000x64, .f32⟩
  | 116 => ⟨S_, .f32⟩
  | 117 => ⟨S_, .f32⟩
  | 118 => ⟨S125000x64, .f32⟩
  | 119 => ⟨S125000x64, .i1⟩
  | 120 => ⟨S_, .f32⟩
  | 121 => ⟨S125000x64, .f32⟩
  | 122 => ⟨S125000x64, .f32⟩
  | 123 => ⟨S125000x64, .f32⟩
  | 124 => ⟨S125000x64, .f32⟩
  | 125 => ⟨S125000x64, .f32⟩
  | 126 => ⟨S_, .f32⟩
  | 127 => ⟨S125000, .f32⟩
  | _ => ⟨S4096, .i32⟩

abbrev hbmTy0_1 (i : Nat) : BufTy := match i % 128 with
  | 0 => ⟨S125000x1, .f32⟩
  | 1 => ⟨S125000x1, .f32⟩
  | 2 => ⟨S_, .f32⟩
  | 3 => ⟨S125000x1, .f32⟩
  | 4 => ⟨S125000x1, .f32⟩
  | 5 => ⟨S125000x64, .f32⟩
  | 6 => ⟨S125000x64, .f32⟩
  | 7 => ⟨S1250000x1, .f32⟩
  | 8 => ⟨S_, .i32⟩
  | 9 => ⟨S1250000, .i32⟩
  | 10 => ⟨S1250000, .i1⟩
  | 11 => ⟨S_, .i32⟩
  | 12 => ⟨S1250000, .i32⟩
  | 13 => ⟨S1250000, .i32⟩
  | 14 => ⟨S1250000, .i32⟩
  | 15 => ⟨S1250000x1, .i32⟩
  | 16 => ⟨S1250000x64, .f32⟩
  | 17 => ⟨S1250000x64, .f32⟩
  | 18 => ⟨S1250000x64, .f32⟩
  | 19 => ⟨S_, .f32⟩
  | 20 => ⟨S125000x64, .f32⟩
  | 21 => ⟨S1250000x1, .i32⟩
  | 22 => ⟨S125000x64, .f32⟩
  | 23 => ⟨S1x64x64, .f32⟩
  | 24 => ⟨S64x64, .f32⟩
  | 25 => ⟨S64x64, .f32⟩
  | 26 => ⟨S125000x64, .f32⟩
  | 27 => ⟨S1x64, .f32⟩
  | 28 => ⟨S64, .f32⟩
  | 29 => ⟨S1x64, .f32⟩
  | 30 => ⟨S125000x64, .f32⟩
  | 31 => ⟨S125000x64, .f32⟩
  | 32 => ⟨S_, .f32⟩
  | 33 => ⟨S_, .f32⟩
  | 34 => ⟨S125000x64, .f32⟩
  | 35 => ⟨S125000x64, .i1⟩
  | 36 => ⟨S_, .f32⟩
  | 37 => ⟨S125000x64, .f32⟩
  | 38 => ⟨S125000x64, .f32⟩
  | 39 => ⟨S125000x64, .f32⟩
  | 40 => ⟨S125000x64, .f32⟩
  | 41 => ⟨S1x64x64, .f32⟩
  | 42 => ⟨S64x64, .f32⟩
  | 43 => ⟨S64x64, .f32⟩
  | 44 => ⟨S125000x64, .f32⟩
  | 45 => ⟨S1x64, .f32⟩
  | 46 => ⟨S64, .f32⟩
  | 47 => ⟨S1x64, .f32⟩
  | 48 => ⟨S125000x64, .f32⟩
  | 49 => ⟨S125000x64, .f32⟩
  | 50 => ⟨S_, .f32⟩
  | 51 => ⟨S_, .f32⟩
  | 52 => ⟨S125000x64, .f32⟩
  | 53 => ⟨S125000x64, .i1⟩
  | 54 => ⟨S_, .f32⟩
  | 55 => ⟨S125000x64, .f32⟩
  | 56 => ⟨S125000x64, .f32⟩
  | 57 => ⟨S125000x64, .f32⟩
  | 58 => ⟨S125000x64, .f32⟩
  | 59 => ⟨S125000x64, .f32⟩
  | 60 => ⟨S_, .f32⟩
  | 61 => ⟨S125000, .f32⟩
  | 62 => ⟨S125000x1, .f32⟩
  | 63 => ⟨S125000x1, .f32⟩
  | 64 => ⟨S_, .f32⟩
  | 65 => ⟨S125000x1, .f32⟩
  | 66 => ⟨S125000x1, .f32⟩
  | 67 => ⟨S125000x64, .f32⟩
  | 68 => ⟨S125000x64, .f32⟩
  | 69 => ⟨S125000x256, .f32⟩
  | 70 => ⟨S50000x256, .f32⟩
  | 71 => ⟨S75000x256, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x256, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x256, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x256, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v33 : Ref sig .tc := ⟨.hbm, 61, rfl⟩
abbrev main_v34 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v35 : Ref sig .tc := ⟨.hbm, 67, rfl⟩
abbrev main_cst_3 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_4 : Ref sig .tc := ⟨.hbm, 74, rfl⟩
abbrev main_v41 : Ref sig .tc := ⟨.hbm, 75, rfl⟩
abbrev main_v42 : Ref sig .tc := ⟨.hbm, 76, rfl⟩
abbrev main_c_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_call3_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_8 : Ref sig .tc := ⟨.hbm, 116, rfl⟩
abbrev main_call4_cst : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v73 : Ref sig .tc := ⟨.hbm, 123, rfl⟩
abbrev main_v74 : Ref sig .tc := ⟨.hbm, 124, rfl⟩
abbrev main_call5_v0 : Ref sig .tc := ⟨.hbm, 125, rfl⟩
abbrev main_call5_cst : Ref sig .tc := ⟨.hbm, 126, rfl⟩
abbrev main_call5_v1 : Ref sig .tc := ⟨.hbm, 127, rfl⟩
abbrev main_call5_v2 : Ref sig .tc := ⟨.hbm, 128, rfl⟩
abbrev main_v75 : Ref sig .tc := ⟨.hbm, 129, rfl⟩
abbrev main_cst_9 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_c_10 : Ref sig .tc := ⟨.hbm, 136, rfl⟩
abbrev main_v81 : Ref sig .tc := ⟨.hbm, 137, rfl⟩
abbrev main_v82 : Ref sig .tc := ⟨.hbm, 138, rfl⟩
abbrev main_c_11 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_12 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_13 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_14 : Ref sig .tc := ⟨.hbm, 178, rfl⟩
abbrev main_call7_cst : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_v113 : Ref sig .tc := ⟨.hbm, 185, rfl⟩
abbrev main_v114 : Ref sig .tc := ⟨.hbm, 186, rfl⟩
abbrev main_call8_v0 : Ref sig .tc := ⟨.hbm, 187, rfl⟩
abbrev main_call8_cst : Ref sig .tc := ⟨.hbm, 188, rfl⟩
abbrev main_call8_v1 : Ref sig .tc := ⟨.hbm, 189, rfl⟩
abbrev main_call8_v2 : Ref sig .tc := ⟨.hbm, 190, rfl⟩
abbrev main_v115 : Ref sig .tc := ⟨.hbm, 191, rfl⟩
abbrev main_cst_15 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_c_16 : Ref sig .tc := ⟨.hbm, 200, rfl⟩
abbrev main_v123 : Ref sig .tc := ⟨.hbm, 201, rfl⟩
abbrev main_v124 : Ref sig .tc := ⟨.hbm, 202, rfl⟩
abbrev main_c_17 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_c_18 : Ref sig .tc := ⟨.hbm, 209, rfl⟩
abbrev main_v130 : Ref sig .tc := ⟨.hbm, 210, rfl⟩
abbrev main_v131 : Ref sig .tc := ⟨.hbm, 211, rfl⟩
abbrev main_c_19 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_c_20 : Ref sig .tc := ⟨.hbm, 218, rfl⟩
abbrev main_v137 : Ref sig .tc := ⟨.hbm, 219, rfl⟩
abbrev main_v138 : Ref sig .tc := ⟨.hbm, 220, rfl⟩
abbrev main_c_21 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩

abbrev nD : Nat := 1
abbrev τ : Topo := Topo.v7x

variable {F : FTy → Type} [FloatOps F]

class Facts₀ : Prop where
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S125000x64 : S_.BroadcastsInDim S125000x64 (![] : Fin 0 → Fin S125000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S125000x64_0_1 : S1x64.BroadcastsInDim S125000x64 (![0, 1] : Fin 2 → Fin S125000x64.rank)
  reducesTo_S125000x64_S125000_d1 : S125000x64.ReducesTo [1] S125000
  h_S_ : 0 < S_.numel
  bcast_S125000_S125000x1_0 : S125000.BroadcastsInDim S125000x1 (![0] : Fin 1 → Fin S125000x1.rank)
  bcast_S_S125000x1 : S_.BroadcastsInDim S125000x1 (![] : Fin 0 → Fin S125000x1.rank)
  bcast_S125000x1_S125000x64_0_1 : S125000x1.BroadcastsInDim S125000x64 (![0, 1] : Fin 2 → Fin S125000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S125000x64_S125000x64_S125000x64_S125000x64_S125000x256_d1 : Shape.Concatenates [S125000x64, S125000x64, S125000x64, S125000x64] S125000x256 1
  slices_S125000x256_S50000x256_0_0 : S125000x256.Slices ![0, 0] S50000x256
  slices_S125000x256_S75000x256_50000_0 : S125000x256.Slices ![50000, 0] S75000x256
  bcast_S_S4096 : S_.BroadcastsInDim S4096 (![] : Fin 0 → Fin S4096.rank)
  bcast_S4096_S4096x1_0 : S4096.BroadcastsInDim S4096x1 (![0] : Fin 1 → Fin S4096x1.rank)
  gather_S125000x64_S1250000x1_S1250000x64_1_0_n_n_0_1_164_wf : GatherDims.WF S125000x64 S1250000x1 S1250000x64 [1] [0] [] [0] [] 1 ![1, 64]
  scatter_S125000x64_S1250000x1_S1250000x64_1_0_0_1_wf : ScatterDims.WF S125000x64 S1250000x1 S1250000x64 [1] [0] [0] 1
  dot_S125000x64_S64x64_S125000x64_1_0_0_1_n_n_wf : DotDims.WF S125000x64 S64x64 S125000x64 [1] [0] [0] [1] [] []
  gather_S50000x256_S4096x1_S4096x256_1_0_n_n_0_1_1256_wf : GatherDims.WF S50000x256 S4096x1 S4096x256 [1] [0] [] [0] [] 1 ![1, 256]
  gather_S75000x256_S4096x1_S4096x256_1_0_n_n_0_1_1256_wf : GatherDims.WF S75000x256 S4096x1 S4096x256 [1] [0] [] [0] [] 1 ![1, 256]

variable [Facts₀]

def gather_S125000x64_S1250000x1_S1250000x64_1_0_n_n_0_1_164 : GatherDims S125000x64 S1250000x1 S1250000x64 where
  offsetDims := [1]
  collapsedSliceDims := [0]
  operandBatchingDims := []
  startIndicesBatchingDims := []
  startIndexMap := [0]
  indexVectorDim := 1
  sliceSizes := ![1, 64]
  wf := gather_S125000x64_S1250000x1_S1250000x64_1_0_n_n_0_1_164_wf
def scatter_S125000x64_S1250000x1_S1250000x64_1_0_0_1 : ScatterDims S125000x64 S1250000x1 S1250000x64 where
  updateWindowDims := [1]
  insertedWindowDims := [0]
  scatterDimsToOperandDims := [0]
  indexVectorDim := 1
  wf := scatter_S125000x64_S1250000x1_S1250000x64_1_0_0_1_wf
def dot_S125000x64_S64x64_S125000x64_1_0_0_1_n_n : DotDims S125000x64 S64x64 S125000x64 where
  lhsContracting := [1]
  rhsContracting := [0]
  lhsNonContracting := [0]
  rhsNonContracting := [1]
  lhsBatch := []
  rhsBatch := []
  wf := dot_S125000x64_S64x64_S125000x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def gather_S75000x256_S4096x1_S4096x256_1_0_n_n_0_1_1256 : GatherDims S75000x256 S4096x1 S4096x256 where
  offsetDims := [1]
  collapsedSliceDims := [0]
  operandBatchingDims := []
  startIndicesBatchingDims := []
  startIndexMap := [0]
  indexVectorDim := 1
  sliceSizes := ![1, 256]
  wf := gather_S75000x256_S4096x1_S4096x256_1_0_n_n_0_1_1256_wf

class Facts : Prop extends Facts₀ where

variable [Facts]
-- ==== Proof.K.R0Defs.lean ====
/-
  The fused dense layer of the first message-passing round (pallas_call 0), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×64 block, the whole 64×64 weight block and the whole bias vector: the only rectangles the body touches. -/
abbrev rA0 : Rect S1000x64 := Rect.unit (s := S1000x64) ![0, 0] S1000x64.size inb_S1000x64_S1000x64_0_0
abbrev rW0 : Rect S64x64 := Rect.unit (s := S64x64) ![0, 0] S64x64.size inb_S64x64_S64x64_0_0
abbrev rB0 : Rect S64 := Rect.unit (s := S64) ![0] S64.size inb_S64_S64_0

/-- The new node features of the block: leaky(agg·W1ᵀ + b1) + leaky((agg ⊙ nf)·W2ᵀ + b2), as the body computes them
    from the six input blocks. -/
def newFeat0 (x0 x1 : Vec F S1000x64 .f32) (x2 : Vec F S64x64 .f32) (x3 : Vec F S64 .f32) (x4 : Vec F S64x64 .f32) (x5 : Vec F S64 .f32) :
    FVec F S1000x64 .f32 :=
  k0_pay2 (View.ld x0 rA0) (View.ld x1 rA0) (View.ld x2 rW0) (View.ld x4 rW0) (View.ld x3 rB0) (View.ld x5 rB0)

/-- The row norms of the new features, floored at the small constant. -/
def rowNorm0 (x0 x1 : Vec F S1000x64 .f32) (x2 : Vec F S64x64 .f32) (x3 : Vec F S64 .f32) (x4 : Vec F S64x64 .f32) (x5 : Vec F S64 .f32) :
    FVec F S1000x1 .f32 :=
  k0_pay3 (View.ld x0 rA0) (View.ld x1 rA0) (View.ld x2 rW0) (View.ld x4 rW0) (View.ld x3 rB0) (View.ld x5 rB0)

/-- Window 6's staging buffer after the body: its one store. -/
def out0_6 (x0 x1 : Vec F S1000x64 .f32) (x2 : Vec F S64x64 .f32) (x3 : Vec F S64 .f32) (x4 : Vec F S64x64 .f32) (x5 : Vec F S64 .f32) : Vec F S1000x64 .f32 :=
  View.canon [⟨rA0, newFeat0 x0 x1 x2 x3 x4 x5⟩]

/-- Window 7's staging buffer after the body: the new features divided by their row norms. -/
def out0_7 (x0 x1 : Vec F S1000x64 .f32) (x2 : Vec F S64x64 .f32) (x3 : Vec F S64 .f32) (x4 : Vec F S64x64 .f32) (x5 : Vec F S64 .f32) : Vec F S1000x64 .f32 :=
  View.canon [⟨rA0, k0_pay1 (newFeat0 x0 x1 x2 x3 x4 x5) (rowNorm0 x0 x1 x2 x3 x4 x5)⟩]

/-- The proof data of pipeline 0 on core `c`: the arrays as the region finds them; after the body at point `t` each
    input's buffer at its block and each result's at what the body stored; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) := by dsimp only [dat0]

end Cert.Kernel.Hand

end
-- ==== Proof.K.R0.lean ====
/-
  The fused dense layer of the first message-passing round (pallas_call 0): the body obligation at the buffer contents
  `V` the region is entered with. Each of the six input windows' staging buffers holds its block at every point — the
  aggregated sums and the node features because they are fetched there, the weights and biases because their block never
  moves after the first point — so the body reads the six blocks, and stores the new features and their unit-length rows
  over the whole of the two result buffers.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import proofs.«401280_j80350248174011_2_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not: where it is not
    fetched its block index has not moved, and the body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, and the body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, and the body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, and the body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved, and the body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's stores cover the two result buffers -/

/-- One store over the whole 1000×64 buffer covers it. -/
theorem cover0_out (p0 : Vec F S1000x64 .f32) (y : S1000x64.Idx) :
    ∃ pc ∈ ([⟨rA0, p0⟩] : List (View.Piece (Elt F) S1000x64 .f32)), y ∈ pc.1.set :=
  View.cover_of_tiled [⟨rA0, p0⟩] S1000x64.size (by rfl) y

/-! ## The body's triple -/

set_option maxHeartbeats 1000000 in
/-- The kernel body on whole staging memrefs, the six inputs' at read contents `x0 … x5` and the two results' at anything,
    runs to the continuation holding the inputs' as they were, window 6's at the new features of the inputs and
    window 7's at those features over their row norms. -/
theorem sound_kernel0 (c : Dev nD) (E : Set ℕ) (i : grid0.Coords) (arg1 : Memref sig .tc .vmem S1000x64 .f32) (harg1 : arg1.IsWhole) (arg2 : Memref sig .tc .vmem S1000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S1000x64 .f32) (harg7 : arg7.IsWhole) (arg8 : Memref sig .tc .vmem S1000x64 .f32) (harg8 : arg8.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__fused_layer_kernel i arg1 harg1 arg2 harg2 arg3 harg3 arg4 harg4 arg5 harg5 arg6 harg6 arg7 harg7 arg8 harg8) K := by
  simp only [cc0__fused_layer_kernel_eq_skeleton]; unfold cc0__fused_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_out _)
  iexists _; isplitr
  swap; · iexact H7
  ipureintro
  try dsimp only
  exact View.read_writes_eq_canon _ _ _ (cover0_out _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The fused dense layer of the second message-passing round (pallas_call 1), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1000×64 block, the whole 64×64 weight block and the whole bias vector: the only rectangles the body touches. -/
abbrev rA1 : Rect S1000x64 := Rect.unit (s := S1000x64) ![0, 0] S1000x64.size inb_S1000x64_S1000x64_0_0
abbrev rW1 : Rect S64x64 := Rect.unit (s := S64x64) ![0, 0] S64x64.size inb_S64x64_S64x64_0_0
abbrev rB1 : Rect S64 := Rect.unit (s := S64) ![0] S64.size inb_S64_S64_0

/-- The new node features of the block: leaky(agg·W1ᵀ + b1) + leaky((agg ⊙ nf)·W2ᵀ + b2), as the body computes them
    from the six input blocks. -/
def newFeat1 (x0 x1 : Vec F S1000x64 .f32) (x2 : Vec F S64x64 .f32) (x3 : Vec F S64 .f32) (x4 : Vec F S64x64 .f32) (x5 : Vec F S64 .f32) :
    FVec F S1000x64 .f32 :=
  k1_pay2 (View.ld x0 rA1) (View.ld x1 rA1) (View.ld x2 rW1) (View.ld x4 rW1) (View.ld x3 rB1) (View.ld x5 rB1)

/-- The row lengths of the new features: the square root of each row's sum of squares, before the floor. -/
def rowRoot1 (x0 x1 : Vec F S1000x64 .f32) (x2 : Vec F S64x64 .f32) (x3 : Vec F S64 .f32) (x4 : Vec F S64x64 .f32) (x5 : Vec F S64 .f32) :
    FVec F S1000x1 .f32 :=
  k1_pay3 (View.ld x0 rA1) (View.ld x1 rA1) (View.ld x2 rW1) (View.ld x4 rW1) (View.ld x3 rB1) (View.ld x5 rB1)

/-- The row norms of the new features, floored at the small constant. -/
def rowNorm1 (x0 x1 : Vec F S1000x64 .f32) (x2 : Vec F S64x64 .f32) (x3 : Vec F S64 .f32) (x4 : Vec F S64x64 .f32) (x5 : Vec F S64 .f32) :
    FVec F S1000x1 .f32 :=
  maximumf (rowRoot1 x0 x1 x2 x3 x4 x5) (k1_pay4 (F := F))

/-- Window 6's staging buffer after the body: its one store. -/
def out1_6 (x0 x1 : Vec F S1000x64 .f32) (x2 : Vec F S64x64 .f32) (x3 : Vec F S64 .f32) (x4 : Vec F S64x64 .f32) (x5 : Vec F S64 .f32) : Vec F S1000x64 .f32 :=
  View.canon [⟨rA1, newFeat1 x0 x1 x2 x3 x4 x5⟩]

/-- Window 7's staging buffer after the body: the new features divided by their floored row norms (the floor is taken
    inside the stored value, on the row lengths and the small constant). -/
def out1_7 (x0 x1 : Vec F S1000x64 .f32) (x2 : Vec F S64x64 .f32) (x3 : Vec F S64 .f32) (x4 : Vec F S64x64 .f32) (x5 : Vec F S64 .f32) : Vec F S1000x64 .f32 :=
  View.canon [⟨rA1, k1_pay1 (newFeat1 x0 x1 x2 x3 x4 x5) (rowRoot1 x0 x1 x2 x3 x4 x5) (k1_pay4 (F := F))⟩]

/-- The value stored to window 7 is the new features over their floored row norms, spread along each row. -/
theorem stored1_7_eq (x0 x1 : Vec F S1000x64 .f32) (x2 : Vec F S64x64 .f32) (x3 : Vec F S64 .f32) (x4 : Vec F S64x64 .f32) (x5 : Vec F S64 .f32) :
    k1_pay1 (newFeat1 x0 x1 x2 x3 x4 x5) (rowRoot1 x0 x1 x2 x3 x4 x5) (k1_pay4 (F := F)) =
      divf (newFeat1 x0 x1 x2 x3 x4 x5) (broadcastTo S1000x64 (rowNorm1 x0 x1 x2 x3 x4 x5) broadcasts_S1000x1_S1000x64) := rfl

/-- The proof data of pipeline 1 on core `c`: the arrays as the region finds them; after the body at point `t` each
    input's buffer at its block and each result's at what the body stored; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]

end Cert.Kernel.Hand

end
-- ==== Proof.K.R1.lean ====
/-
  The body obligation of the fused dense layer of the second message-passing round (pallas_call 1): at every grid point
  the body, called on the staging buffers of its eight windows, leaves the six input buffers as it found them and the two
  result buffers at the values named beside the proof data: the new node features, and those features divided by their
  floored row norms.
-/
import proofs.«401280_j80350248174011_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

/- An input window whose body leaves its block in place holds, at every point, the block a fetch there would bring:
   where it is not fetched its block index has not moved since the previous point. Windows 0 and 1 are fetched at every
   point; windows 2 to 5 sit at one constant block and are fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover the result buffers -/

/-- One store of the whole 1000×64 rectangle covers the buffer. -/
theorem cover1_A (p0 : Vec F S1000x64 .f32) (y : S1000x64.Idx) :
    ∃ pc ∈ ([⟨rA1, p0⟩] : List (View.Piece (Elt F) S1000x64 .f32)), y ∈ pc.1.set :=
  View.cover_of_tiled [⟨rA1, p0⟩] S1000x64.size (by rfl) y

/-! ## The body's triple -/

set_option maxHeartbeats 4000000 in
/-- The body on whole staging buffers, the inputs' at contents `xW` and the results' at anything, runs to the
    continuation holding the inputs' as they were and the two results' at `out1_6` and `out1_7` of the inputs'. -/
theorem sound_kernel1 (c : Dev nD) (E : Set ℕ) (i : grid1.Coords) (arg0 : Memref sig .tc .vmem S1000x64 .f32) (harg0 : arg0.IsWhole) (arg1 : Memref sig .tc .vmem S1000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole) (arg7 : Memref sig .tc .vmem S1000x64 .f32) (harg7 : arg7.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5) ∗ owns (c : Thread nD τ) arg7 fullShare (out1_7 x0 x1 x2 x3 x4 x5)) -∗ K ⟨⟩))
      ⊢ wp frame (wpE (defs₀ (F := F)) Variants.none c none) E (cc1__fused_layer_kernel i arg0 harg0 arg1 harg1 arg2 harg2 arg3 harg3 arg4 harg4 arg5 harg5 arg6 harg6 arg7 harg7) K := by
  simp only [cc1__fused_layer_kernel_eq_skeleton]; unfold cc1__fused_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_A _)
  iexists _; isplitr
  swap; · iexact H7
  ipureintro
  try dsimp only
  exact View.read_writes_eq_canon _ _ _ (cover1_A _)

/-! ## The body obligation, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Defs.lean ====
/-
  The fused dense layer of the third message-passing round (pallas_call 2), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 1000×64 block, the whole 64×64 weight block and the whole bias vector: the only rectangles the body touches. -/
abbrev rA2 : Rect S1000x64 := Rect.unit (s := S1000x64) ![0, 0] S1000x64.size inb_S1000x64_S1000x64_0_0
abbrev rW2 : Rect S64x64 := Rect.unit (s := S64x64) ![0, 0] S64x64.size inb_S64x64_S64x64_0_0
abbrev rB2 : Rect S64 := Rect.unit (s := S64) ![0] S64.size inb_S64_S64_0

/-- The new node features of the block: leaky(agg·W1ᵀ + b1) + leaky((agg ⊙ nf)·W2ᵀ + b2), as the body computes them
    from the six input blocks. -/
def newFeat2 (x0 x1 : Vec F S1000x64 .f32) (x2 : Vec F S64x64 .f32) (x3 : Vec F S64 .f32) (x4 : Vec F S64x64 .f32) (x5 : Vec F S64 .f32) :
    FVec F S1000x64 .f32 :=
  k2_pay2 (View.ld x0 rA2) (View.ld x1 rA2) (View.ld x2 rW2) (View.ld x4 rW2) (View.ld x3 rB2) (View.ld x5 rB2)

/-- The row lengths of the new features: the square root of each row's sum of squares, before the floor. -/
def rowRoot2 (x0 x1 : Vec F S1000x64 .f32) (x2 : Vec F S64x64 .f32) (x3 : Vec F S64 .f32) (x4 : Vec F S64x64 .f32) (x5 : Vec F S64 .f32) :
    FVec F S1000x1 .f32 :=
  k2_pay3 (View.ld x0 rA2) (View.ld x1 rA2) (View.ld x2 rW2) (View.ld x4 rW2) (View.ld x3 rB2) (View.ld x5 rB2)

/-- The row norms of the new features, floored at the small constant. -/
def rowNorm2 (x0 x1 : Vec F S1000x64 .f32) (x2 : Vec F S64x64 .f32) (x3 : Vec F S64 .f32) (x4 : Vec F S64x64 .f32) (x5 : Vec F S64 .f32) :
    FVec F S1000x1 .f32 :=
  maximumf (rowRoot2 x0 x1 x2 x3 x4 x5) (k2_pay4 (F := F))

/-- Window 6's staging buffer after the body: its one store. -/
def out2_6 (x0 x1 : Vec F S1000x64 .f32) (x2 : Vec F S64x64 .f32) (x3 : Vec F S64 .f32) (x4 : Vec F S64x64 .f32) (x5 : Vec F S64 .f32) : Vec F S1000x64 .f32 :=
  View.canon [⟨rA2, newFeat2 x0 x1 x2 x3 x4 x5⟩]

/-- Window 7's staging buffer after the body: the new features divided by their floored row norms (the floor is taken
    inside the stored value, on the row lengths and the small constant). -/
def out2_7 (x0 x1 : Vec F S1000x64 .f32) (x2 : Vec F S64x64 .f32) (x3 : Vec F S64 .f32) (x4 : Vec F S64x64 .f32) (x5 : Vec F S64 .f32) : Vec F S1000x64 .f32 :=
  View.canon [⟨rA2, k2_pay1 (newFeat2 x0 x1 x2 x3 x4 x5) (rowRoot2 x0 x1 x2 x3 x4 x5) (k2_pay4 (F := F))⟩]

/-- The value stored to window 7 is the new features over their floored row norms, spread along each row. -/
theorem stored2_7_eq (x0 x1 : Vec F S1000x64 .f32) (x2 : Vec F S64x64 .f32) (x3 : Vec F S64 .f32) (x4 : Vec F S64x64 .f32) (x5 : Vec F S64 .f32) :
    k2_pay1 (newFeat2 x0 x1 x2 x3 x4 x5) (rowRoot2 x0 x1 x2 x3 x4 x5) (k2_pay4 (F := F)) =
      divf (newFeat2 x0 x1 x2 x3 x4 x5) (broadcastTo S1000x64 (rowNorm2 x0 x1 x2 x3 x4 x5) broadcasts_S1000x1_S1000x64) := rfl

/-- The proof data of pipeline 2 on core `c`: the arrays as the region finds them; after the body at point `t` each
    input's buffer at its block and each result's at what the body stored; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

end Cert.Kernel.Hand

end
-- ==== Proof.K.R2.lean ====
/-
  The body obligation of the fused dense layer of the third message-passing round (pallas_call 2): at every grid point
  the body, called on the staging buffers of its eight windows, leaves the six input buffers as it found them and the two
  result buffers at the values named beside the proof data: the new node features, and those features divided by their
  floored row norms.
-/
import proofs.«401280_j80350248174011_2_alg».proof.Proof.K.R2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

/- An input window whose body leaves its block in place holds, at every point, the block a fetch there would bring:
   where it is not fetched its block index has not moved since the previous point. Windows 0 and 1 are fetched at every
   point; windows 2 to 5 sit at one constant block and are fetched once. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover the result buffers -/

/-- One store of the whole 1000×64 rectangle covers the buffer. -/
theorem cover2_A (p0 : Vec F S1000x64 .f32) (y : S1000x64.Idx) :
    ∃ pc ∈ ([⟨rA2, p0⟩] : List (View.Piece (Elt F) S1000x64 .f32)), y ∈ pc.1.set :=
  View.cover_of_tiled [⟨rA2, p0⟩] S1000x64.size (by rfl) y

/-! ## The body's triple -/

set_option maxHeartbeats 4000000 in
/-- The body on whole staging buffers, the inputs' at contents `xW` and the results' at anything, runs to the
    continuation holding the inputs' as they were and the two results' at `out2_6` and `out2_7` of the inputs'. -/
theorem sound_kernel2 (c : Dev nD) (E : Set ℕ) (i : grid2.Coords) (arg0 : Memref sig .tc .vmem S1000x64 .f32) (harg0 : arg0.IsWhole) (arg1 : Memref sig .tc .vmem S1000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole) (arg7 : Memref sig .tc .vmem S1000x64 .f32) (harg7 : arg7.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5) ∗ owns (c : Thread nD τ) arg7 fullShare (out2_7 x0 x1 x2 x3 x4 x5)) -∗ K ⟨⟩))
      ⊢ wp frame (wpE (defs₀ (F := F)) Variants.none c none) E (cc2__fused_layer_kernel i arg0 harg0 arg1 harg1 arg2 harg2 arg3 harg3 arg4 harg4 arg5 harg5 arg6 harg6 arg7 harg7) K := by
  simp only [cc2__fused_layer_kernel_eq_skeleton]; unfold cc2__fused_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_A _)
  iexists _; isplitr
  swap; · iexact H7
  ipureintro
  try dsimp only
  exact View.read_writes_eq_canon _ _ _ (cover2_A _)

/-! ## The body obligation, at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Defs.lean ====
/-
  The row gather (pallas_call 3), at the buffer contents `V` the region is entered with and at admissible contents
  `a3` of its index table: a grid of 12288 points, point `t` copying the table row whose number the index table holds
  at `t` (a [1,2,128] block of the table viewed [125000,2,128]) into row `t` of the result. Window 0 is the table row,
  window 1 the result row. This module only NAMES what a point leaves in the result block and the proof data over it.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a3 : (pcfg3 (F := F)).Adm)

/-- Window `w`'s block at point `t`, read off its array as the region finds it. -/
def iblk3 (c : Dev nD) (w : Fin (cfg3 a3).W) (t : Fin (cfg3 a3).N) :
    (((cfg3 a3).win w).xblock ((cfg3 a3).grid.coords t)).Idx → Elt F ((cfg3 a3).win w).elt :=
  (((cfg3 a3).win w).blk t).view.read (Elt F) (V c (Pipeline.arrRef spec3 w))

/-- The whole 1×2×128 block: the only rectangle the body touches. -/
abbrev rG3 : Rect S1x2x128 := Rect.unit (s := S1x2x128) ![0, 0, 0] S1x2x128.size inb_S1x2x128_S1x2x128_0_0_0

/-- Window 1's staging buffer after the body: its one store, the table row as loaded. -/
def out3_1 (x0 : Vec F S1x2x128 .f32) : Vec F S1x2x128 .f32 :=
  View.canon [⟨rG3, k3_pay1 (View.ld x0 rG3)⟩]

/-- The proof data of pipeline 3 on core `c`: the arrays as the region finds them; after the body at point `t` the
    table row's buffer at its block and the result's at what the body stored; the scoped rest, the generator register
    and the index table (held whole at the admissible contents) untouched; nothing owed; full shares. -/
def dat3 (c : Dev nD) : Dat τ (Elt F) Unit ℕ (UR sig nD τ) ℕ (cfg3 a3) c where
  A w := V c (Pipeline.arrRef spec3 w)
  after w t := match w with
    | ⟨0, _⟩ => iblk3 V a3 c 0 t
    | ⟨1, _⟩ => out3_1 (iblk3 V a3 c 0 t)
  Φ _ := iprop(Pipeline.ΦA spec3 c ∗
    Pipeline.prefHeld (Ix := Unit) (Name := ℕ) (U := UR sig nD τ) (Lvl := ℕ) pre3 c (fun _ => fullShare) a3.1)
  q _ := fullShare
  owed _ := 0

theorem A_eq3 (c : Dev nD) (w : Fin (cfg3 a3).W) : (dat3 V a3 c).A w = V c (Pipeline.arrRef spec3 w) := by
  dsimp only [dat3]

theorem after3_0 (c : Dev nD) (t : Fin (cfg3 a3).N) : (dat3 V a3 c).after 0 t = iblk3 V a3 c 0 t := by dsimp only [dat3]; rfl
theorem after3_1 (c : Dev nD) (t : Fin (cfg3 a3).N) : (dat3 V a3 c).after 1 t = out3_1 (iblk3 V a3 c 0 t) := by dsimp only [dat3]; rfl

end Cert.Kernel.Hand

end
-- ==== Proof.K.R3.lean ====
/-
  The row gather (pallas_call 3): the body obligation at the buffer contents `V` the region is entered with and at
  admissible contents `a3` of the index table. The table row's staging buffer holds its block at every point — fetched
  there, or, where the index table repeats an entry, still in place from the point before — so the body loads that row and
  stores it over the whole of the result buffer. The index table itself is held whole in the invariant and is never read
  by the body: it rides through every point untouched.
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import proofs.«401280_j80350248174011_2_alg».proof.Proof.K.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a3 : (pcfg3 (F := F)).Adm)

/-- The table row's current staging buffer holds its block at every point, fetched there or not: unfetched, the block
    index (the index table's entry) has not moved. -/
theorem before3_0_of {c : Dev nD} (dat : Dat τ (Elt F) Unit ℕ (UR sig nD τ) ℕ (cfg3 a3) c) (hA : dat.A 0 = V c (Pipeline.arrRef spec3 0))
    (hafter : ∀ t, dat.after 0 t = iblk3 V a3 c 0 t) (t : Fin (cfg3 a3).N) (d) : dat.before 0 t d = iblk3 V a3 c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store tiles the result block, so it covers it. -/
theorem cover3_1 (p0 : Vec F S1x2x128 .f32) (y : S1x2x128.Idx) :
    ∃ pc ∈ ([⟨rG3, p0⟩] : List (View.Piece (Elt F) S1x2x128 .f32)), y ∈ pc.1.set :=
  View.cover_of_tiled [⟨rG3, p0⟩] S1x2x128.size (by rfl) y

set_option maxHeartbeats 1000000 in
/-- The body on whole staging memrefs, the table row's at read contents and the result's at anything, runs to the
    continuation holding the row as it was and the result at the row loaded; the index table is not touched. -/
theorem sound_kernel3 (c : Dev nD) (E : Set ℕ) (i : grid3.Coords) (arg1 : Memref sig .tc .smem S12288 .i32) (harg1 : arg1.IsWhole)
    (arg2 : Memref sig .tc .vmem S1x2x128 .f32) (harg2 : arg2.IsWhole) (arg3 : Memref sig .tc .vmem S1x2x128 .f32) (harg3 : arg3.IsWhole)
    (x0 : Vec F S1x2x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The table row's current staging buffer holds its block at every point. -/
theorem before3_0 (c : Dev nD) (t : Fin (cfg3 a3).N) (d) : (dat3 V a3 c).before 0 t d = iblk3 V a3 c 0 t :=
  before3_0_of V a3 (dat3 V a3 c) (A_eq3 V a3 c 0) (after3_0 V a3 c) t d

/-- The current staging memref of each window at point `t`. -/
abbrev st3_0 (t : Fin (cfg3 a3).N) := ((cfg3 a3).win 0).stage ((cfg3 a3).slots t 0)
abbrev st3_1 (t : Fin (cfg3 a3).N) := ((cfg3 a3).win 1).stage ((cfg3 a3).slots t 1)

/-- The kernel body at point `t`, on what the pipeline calls it with. -/
abbrev bodyAt3 (t : Fin (cfg3 a3).N) : Prog (TpuEff nD τ sig (Elt F) Λ₀ .tc) PUnit :=
  cc3__gather_kernel (grid3.coords t) (Memref.whole main_v77) (Memref.isWhole_whole _)
    (spec3_0.stage ((cfg3 a3).slots t 0)) (hstage3_0 (((cfg3 a3).slots t 0).cast nbuf3_0))
    (spec3_1.stage ((cfg3 a3).slots t 1)) (hstage3_1 (((cfg3 a3).slots t 1).cast nbuf3_1))

/-- What the body is called with at point `t`, the windows one by one, -/
def bodyPre3 (c : Dev nD) (t : Fin (cfg3 a3).N) : sProp 𝕄 :=
  iprop((dat3 V a3 c).Φ t.castSucc ∗ (dat3 V a3 c).owesAt () t.castSucc
    ∗ (∃ d, owns (c : Thread nD τ) (st3_0 a3 t) fullShare ((dat3 V a3 c).before 0 t d))
    ∗ (∃ d, owns (c : Thread nD τ) (st3_1 a3 t) fullShare ((dat3 V a3 c).before 1 t d)))

/-- and what it returns. -/
def bodyPost3 (c : Dev nD) (t : Fin (cfg3 a3).N) : sProp 𝕄 :=
  iprop((dat3 V a3 c).Φ t.succ ∗ (dat3 V a3 c).owesAt () t.succ
    ∗ owns (c : Thread nD τ) (st3_0 a3 t) fullShare ((dat3 V a3 c).after 0 t)
    ∗ owns (c : Thread nD τ) (st3_1 a3 t) fullShare ((dat3 V a3 c).after 1 t))

/-- The body at any point: the table row's memref holds its block, so the body's triple applies; the invariant (with the
    index table in it) and the core's debts pass through unread. -/
theorem sound_body3 (c : Dev nD) (t : Fin (cfg3 a3).N) :
    bodyPre3 V a3 c t ⊢ wp frame (wpE (defs₀ (F := F)) Variants.none c none) Set.univ (bodyAt3 a3 t) (fun _ => bodyPost3 V a3 c t) := by
  unfold bodyPre3 bodyPost3 bodyAt3
  simp only [before3_0]
  rw [show (dat3 V a3 c).Φ t.succ = (dat3 V a3 c).Φ t.castSucc from rfl,
    show (dat3 V a3 c).owesAt () t.succ = (dat3 V a3 c).owesAt () t.castSucc from rfl,
    after3_0, after3_1]
  iintro ⟨HΦ, Ho, ⟨%d0, H0⟩, ⟨%d1, H1⟩⟩
  iapply (sound_kernel3 c Set.univ _ _ _ _ _ _ _ (iblk3 V a3 c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V a3 c) (defs₀ (F := F)) Variants.none () Set.univ := fun t => by
  rw [bigSep_W3, bigSep_W3]
  exact sound_body3 V a3 c t

end Cert.Kernel.Hand

end
-- ==== Proof.K.Run.lean ====
/-
  The whole program as a chain of nine segments — five stretches of host operations and the four pallas_calls between
  them — run from the launch to the return. The contents of every unscoped buffer at each of the ten boundaries are a
  fold from the launch memory: a host stretch applies its operations, a pallas_call leaves its arrays at what its
  write-backs leave and every other buffer as entered. The gather call's index table is read off the boundary before it;
  the run needs every entry of it to name a row of the 125000-row table (`Ok`).
-/
import proofs.«401280_j80350248174011_2_alg».proof.Proof.Gen.Kernel.Launch
import proofs.«401280_j80350248174011_2_alg».proof.Proof.Gen.Kernel.Skeleton
import proofs.«401280_j80350248174011_2_alg».proof.Proof.Gen.Kernel.Points
import proofs.«401280_j80350248174011_2_alg».proof.Proof.K.R0
import proofs.«401280_j80350248174011_2_alg».proof.Proof.K.R1
import proofs.«401280_j80350248174011_2_alg».proof.Proof.K.R2
import proofs.«401280_j80350248174011_2_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (pallas_call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (pallas_call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (pallas_call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (the gather call's entry): the table laid out, the index table built. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- The index table's contents when the gather call is entered (one device). -/
def tbl : pre3.Contents (Elt F) := fun j => V7 m ρ (0 : Dev nD) (pre3.ref j)
theorem V7_pre (c : Dev nD) (j : Fin 1) : V7 m ρ c (pre3.ref j) = tbl m ρ j := by
  obtain rfl : c = 0 := Subsingleton.elim _ _; rfl
/-- Every entry of the index table names a row of the table. -/
abbrev Ok : Prop := ok3 (F := F) (tbl m ρ)

variable (hO : Ok m ρ)

/-- The index table as admissible contents. -/
abbrev a3 : (pcfg3 (F := F)).Adm := ⟨tbl m ρ, hO⟩

/-- After the gather call. -/
def W8 (c : Dev nD) : Valuation τ sig (Elt F) :=
  Pipeline.withArrays spec3 c (W7 m ρ c) fun w => (dat3 (V7 m ρ) (a3 m ρ hO) c).arrAt w (cfg3 (a3 m ρ hO)).N
theorem W8_arr (c : Dev nD) (w : Fin (cfg3 (a3 m ρ hO)).W) :
    W8 m ρ hO c (Proc.devRef .tc (Pipeline.arrRef spec3 w)) = (dat3 (V7 m ρ) (a3 m ρ hO) c).arrAt w (cfg3 (a3 m ρ hO)).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ hO c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ hO c b
theorem hF3 (c : Dev nD) (w : Fin (cfg3 (a3 m ρ hO)).W) :
    (dat3 (V7 m ρ) (a3 m ρ hO) c).arrAt w (cfg3 (a3 m ρ hO)).N = V8 m ρ hO c (Pipeline.arrRef spec3 w) :=
  (W8_arr m ρ hO c w).symm
theorem hrest3 (c : Dev nD) : ∀ b, b ∉ Finset.univ.image (Pipeline.arrRef spec3) → V8 m ρ hO c b = V7 m ρ c b :=
  fun b hb => W8_of_ne m ρ hO c b fun w e => hb (Finset.mem_image.mpr ⟨w, Finset.mem_univ _, e⟩)

/-- After the last host stretch: the return. -/
abbrev W9 : Dev nD → Valuation τ sig (Elt F) := fun c => StableHlo.after hostOps4 (W8 m ρ hO c)

/-! ## The proof data family and the thread state -/

/-- Admissible table contents per pallas_call: only the gather call has a table. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => a3 m ρ hO
  | ⟨_ + 4, h⟩ => absurd h (Nat.not_lt.2 (Nat.le_add_left _ _))

/-- Every pallas_call's proof data, each at its entry contents. -/
def pdats : (p : Fin 4) → (c : Dev nD) → Dat τ (Elt F) Unit ℕ (UR sig nD τ) ℕ (Pipeline.pin (pcfgs (F := F)) (adm m ρ hO) p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) (a3 m ρ hO) c
  | ⟨_ + 4, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W9 m ρ hO c) ∗ ∃ r, prngReg c r)

/-! ## The pallas_calls as segments -/

set_option backward.isDefEq.respectTransparency.types false in
/-- Pallas_call 0 as a segment: entered with every unscoped buffer at `W1`, left with them at `W2`: its arrays are split
    out of the unscoped buffers and put back at what the write-backs leave; the generator register passes through the
    region's invariant; nothing is owed. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`: its arrays are split
    out of the unscoped buffers and put back at what the write-backs leave; the generator register passes through the
    region's invariant; nothing is owed. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ c) (V4 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W5`, left with them at `W6`: its arrays are split
    out of the unscoped buffers and put back at what the write-backs leave; the generator register passes through the
    region's invariant; nothing is owed. -/
def reg2 : Pipeline.RegionSeg (pcfgs (F := F)) (adm m ρ hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) (adm m ρ hO) (pdats m ρ hO) (launch2 (F := F)).win (launch2 (F := F)).arr_whole c
      ((pdats m ρ hO 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ hO) (Ix := Unit) (Name := ℕ) (U := UR sig nD τ) (Lvl := ℕ)
      (launch2 (F := F)).win (launch2 (F := F)).arr_whole c (pdats m ρ hO) ((pdats m ρ hO 2 c).share_full fun _ => rfl)
      (V5 m ρ c) (V6 m ρ c) ((pdats m ρ hO 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call as a segment: entered with every unscoped buffer at `W7`, left with them at `W8`. Besides its two
    arrays the index table is split out of the unscoped buffers: it rides through the region's invariant whole and
    comes back unchanged. -/
def reg3 : Pipeline.RegionSeg (pcfgs (F := F)) (adm m ρ hO) (pdats m ρ hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V7 m ρ) (a3 m ρ hO) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ hO c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl m ρ))
  Z c := Pipeline.unscopedRestP (Ix := Unit) (Name := ℕ) (U := UR sig nD τ) (Lvl := ℕ) pre3 spec3 c (V7 m ρ c)
  hentry c := by
    rw [Pipeline.ownSems0_none]
    have hsplit := Pipeline.arrays_of_unscopedBufs (p := 3) (pcfgs (F := F)) (adm m ρ hO) (pdats m ρ hO) (launch3 (F := F)).win (launch3 (F := F)).arr_whole c
      ((pdats m ρ hO 3 c).share_full fun _ => rfl) (V7 m ρ c) fun _ => rfl
    have htb : (fun k => V7 m ρ c ((pcfgs (F := F) 3).pre.ref k)) = tbl m ρ := funext (V7_pre m ρ c)
    rw [Pipeline.unscopedBufs_held, Pipeline.unscopedRest_split (launch3 (F := F)).pre c (V7 m ρ c), htb] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 3 c).Φ 0 = iprop(Pipeline.ΦA spec3 c ∗ Pipeline.prefHeld (Ix := Unit) (Name := ℕ) (U := UR sig nD τ) (Lvl := ℕ) pre3 c (fun _ => fullShare) (tbl m ρ)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m ρ hO 3 c).Φ (Fin.last _) = iprop(Pipeline.ΦA spec3 c ∗ Pipeline.prefHeld (Ix := Unit) (Name := ℕ) (U := UR sig nD τ) (Lvl := ℕ) pre3 c (fun _ => fullShare) (tbl m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m ρ hO) (Ix := Unit) (Name := ℕ) (U := UR sig nD τ) (Lvl := ℕ)
      (launch3 (F := F)).win (launch3 (F := F)).arr_whole c (pdats m ρ hO) ((pdats m ρ hO 3 c).share_full fun _ => rfl)
      (V7 m ρ c) (V8 m ρ hO c) ((pdats m ρ hO 3 c).arrAt · (cfg3 (a3 m ρ hO)).N) (hF3 m ρ hO c) (hrest3 m ρ hO c)
    have htb : (fun k => V7 m ρ c ((pcfgs (F := F) 3).pre.ref k)) = tbl m ρ := funext (V7_pre m ρ c)
    rw [Pipeline.unscopedBufs_held, Pipeline.unscopedRest_split (launch3 (F := F)).pre c (V7 m ρ c), htb] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ)),
    .region (reg1 m ρ hO),
    .host (hseg hostOps2 hostOps2_sub hostOps2_fresh (W4 m ρ)),
    .region (reg2 m ρ hO),
    .host (hseg hostOps3 hostOps3_sub hostOps3_fresh (W6 m ρ)),
    .region (reg3 m ρ hO),
    .host (hseg hostOps4 hostOps4_sub hostOps4_fresh (W8 m ρ hO)) ]

set_option backward.isDefEq.respectTransparency.types false in
/-- THE RUN. From any memory with zero counters, when every entry of the index table names a table row: every weakly
    fair execution of the program terminates, nothing faulting, and every final memory holds each unscoped buffer at the
    last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by
      rewrite [main_chain c, Pipeline.Seg.run_eq_chain,
        show (segs m ρ hO).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W9 m ρ hO c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ hO c b)
    (hfin := fun c s' => by
      iintro ⟨Hh, HSI⟩
      unfold StableHlo.held
      imodintro
      iapply (pointsTo_read_all (Pipeline.ucRefs τ sig) (fun b => (((c : Thread nD τ)).1, b)) (W9 m ρ hO c) s')
      isplitl [Hh] <;> iassumption)
    (hQ := fun s h => h)

end Cert.Kernel.Hand

end
-- ==== Proof.K.TailIdx.lean ====
/-
  The kernel program's host tail, read at an index. Before the gather call the host lays the four feature tables side
  by side, builds the gather's index table (the user indices, then the positive and the negative item indices each moved
  up by 50000, the first item row) and views the [125000, 256] table as [125000, 2, 128]; after it, the gathered
  [12288, 2, 128] rows are viewed as [12288, 256] and cut into three blocks of 4096 rows. Each is read here at an index:
  the table's three thirds, the two row-major re-viewings (column c of a 256-wide row is half c / 128, lane c % 128), the
  three row blocks; and the gather call's index map, which reads word (grid coordinate) of the table, with the call's
  side condition that every word names a row of the 125000.
-/
import proofs.«401280_j80350248174011_2_alg».proof.Kernel
import Idealize.ShloMosaic.Lib.ValueIdx
import Idealize.ShloMosaic.Lib.Pipeline.Value

noncomputable section

namespace Cert.Kernel.Tail

open Cert.Kernel Cert.Kernel.Facts₀ Cert.Kernel.Facts
open Idealize.ShloMosaic Idealize.SL.Sem

variable {F : FTy → Type} [FloatOps F] [Cert.Kernel.Facts]

/-! ## The gather's index table -/

/-- The gather's index table: the user indices, then the positive and the negative item indices, each plus 50000. -/
def idxTab (u p n : IVec S4096 32) : IVec S12288 32 :=
  concatenate S12288 0 [⟨S4096, u⟩, ⟨S4096, addi p (broadcastInDim S4096 ![] bcast_S_S4096 (constantI S_ 32 50000#32))⟩,
    ⟨S4096, addi n (broadcastInDim S4096 ![] bcast_S_S4096 (constantI S_ 32 50000#32))⟩] concatenates_S4096_S4096_S4096_S12288_d0

variable (u p n : IVec S4096 32)

/-- Entry k of the first third is user index k. -/
theorem idxTab_user_at (k : Fin 12288) (i : Fin 4096) (hk : k.val = i.val) : idxTab u p n (ValueIdx.ix1 k) = u (ValueIdx.ix1 i) := by
  unfold idxTab
  refine concatenate_apply_piece (t := S12288) 0 _ _ _ 0 ?_ S4096 u ?_ rfl 0 ?_ (ValueIdx.ix1 i) ?_ ?_
  · simp only [List.length_cons, List.length_nil]; omega
  · rfl
  · rfl
  · exact fun b hb => absurd (Subsingleton.elim _ _) hb
  · show 0 + i.val = k.val
    omega

/-- Entry 4096 + k of the table is positive item index k plus 50000. -/
theorem idxTab_pos_at (k : Fin 12288) (i : Fin 4096) (hk : k.val = 4096 + i.val) :
    idxTab u p n (ValueIdx.ix1 k) = p (ValueIdx.ix1 i) + 50000#32 := by
  unfold idxTab
  show _ = (addi p (broadcastInDim S4096 ![] bcast_S_S4096 (constantI S_ 32 50000#32))) (ValueIdx.ix1 i)
  refine concatenate_apply_piece (t := S12288) 0 _ _ _ 1 ?_ S4096
    (addi p (broadcastInDim S4096 ![] bcast_S_S4096 (constantI S_ 32 50000#32))) ?_ rfl 4096 ?_ (ValueIdx.ix1 i) ?_ ?_
  · simp only [List.length_cons, List.length_nil]; omega
  · rfl
  · rfl
  · exact fun b hb => absurd (Subsingleton.elim _ _) hb
  · show 4096 + i.val = k.val
    omega

/-- Entry 8192 + k of the table is negative item index k plus 50000. -/
theorem idxTab_neg_at (k : Fin 12288) (i : Fin 4096) (hk : k.val = 8192 + i.val) :
    idxTab u p n (ValueIdx.ix1 k) = n (ValueIdx.ix1 i) + 50000#32 := by
  unfold idxTab
  show _ = (addi n (broadcastInDim S4096 ![] bcast_S_S4096 (constantI S_ 32 50000#32))) (ValueIdx.ix1 i)
  refine concatenate_apply_piece (t := S12288) 0 _ _ _ 2 ?_ S4096
    (addi n (broadcastInDim S4096 ![] bcast_S_S4096 (constantI S_ 32 50000#32))) ?_ rfl 8192 ?_ (ValueIdx.ix1 i) ?_ ?_
  · simp only [List.length_cons, List.length_nil]; omega
  · rfl
  · rfl
  · exact fun b hb => absurd (Subsingleton.elim _ _) hb
  · show 8192 + i.val = k.val
    omega

theorem idxTab_user (i : Fin 4096) : idxTab u p n (ValueIdx.ix1 ⟨i.val, by omega⟩) = u (ValueIdx.ix1 i) :=
  idxTab_user_at u p n _ i rfl
theorem idxTab_pos (i : Fin 4096) : idxTab u p n (ValueIdx.ix1 ⟨4096 + i.val, by omega⟩) = p (ValueIdx.ix1 i) + 50000#32 :=
  idxTab_pos_at u p n _ i rfl
theorem idxTab_neg (i : Fin 4096) : idxTab u p n (ValueIdx.ix1 ⟨8192 + i.val, by omega⟩) = n (ValueIdx.ix1 i) + 50000#32 :=
  idxTab_neg_at u p n _ i rfl

/-- An item index below 75000 moved up by 50000 does not wrap. -/
theorem toNat_add_50000 (w : BitVec 32) (h : w.toNat < 75000) : (w + 50000#32).toNat = 50000 + w.toNat := by
  rw [BitVec.toNat_add, BitVec.toNat_ofNat]; omega

/-- With the three index vectors in range, every word of the table names a row of the 125000. -/
theorem idxTab_lt (hu : ∀ j, (u j).toNat < 50000) (hp : ∀ j, (p j).toNat < 75000) (hn : ∀ j, (n j).toNat < 75000)
    (i : Fin 12288) : (idxTab u p n (ValueIdx.ix1 i)).toNat < 125000 := by
  by_cases h1 : i.val < 4096
  · rw [idxTab_user_at u p n i ⟨i.val, h1⟩ rfl]
    have := hu (ValueIdx.ix1 ⟨i.val, h1⟩); omega
  · by_cases h2 : i.val < 8192
    · rw [idxTab_pos_at u p n i ⟨i.val - 4096, by omega⟩ (by show i.val = 4096 + (i.val - 4096); omega),
        toNat_add_50000 _ (hp _)]
      have := hp (ValueIdx.ix1 ⟨i.val - 4096, by omega⟩); omega
    · have hi := i.isLt
      rw [idxTab_neg_at u p n i ⟨i.val - 8192, by omega⟩ (by show i.val = 8192 + (i.val - 8192); omega),
        toNat_add_50000 _ (hn _)]
      have := hn (ValueIdx.ix1 ⟨i.val - 8192, by omega⟩); omega

/-! ## The two row-major re-viewings and the three row blocks -/

/-- The [125000, 256] table viewed as [125000, 2, 128]. -/
def view3 (T : FVec F S125000x256 .f32) : FVec F S125000x2x128 .f32 :=
  shapeCast S125000x2x128 T shapeCasts_S125000x256_S125000x2x128

/-- Half a, lane l of row r is column 128·a + l of row r. -/
theorem view3_apply (T : FVec F S125000x256 .f32) (r : Fin 125000) (a : Fin 2) (l : Fin 128) :
    view3 T (ValueIdx.ix3 r a l) = T (ValueIdx.ix2 r ⟨128 * a.val + l.val, by omega⟩) := by
  unfold view3
  refine shapeCast_apply _ _ _ _ ?_
  rw [Shape.rowMajor_val_two, Shape.rowMajor_val_three]
  show r.val * 256 + (128 * a.val + l.val) = (r.val * 2 + a.val) * 128 + l.val
  omega

/-- The gathered [12288, 2, 128] rows viewed as [12288, 256]. -/
def flat (G : FVec F S12288x2x128 .f32) : FVec F S12288x256 .f32 :=
  shapeCast S12288x256 G shapeCasts_S12288x2x128_S12288x256

/-- Column c of row r is half c / 128, lane c % 128 of row r. -/
theorem flat_apply (G : FVec F S12288x2x128 .f32) (r : Fin 12288) (c : Fin 256) :
    flat G (ValueIdx.ix2 r c) = G (ValueIdx.ix3 r ⟨c.val / 128, by omega⟩ ⟨c.val % 128, by omega⟩) := by
  unfold flat
  refine shapeCast_apply _ _ _ _ ?_
  rw [Shape.rowMajor_val_two, Shape.rowMajor_val_three]
  show (r.val * 2 + c.val / 128) * 128 + c.val % 128 = r.val * 256 + c.val
  omega

/-- Rows 0 … 4095, 4096 … 8191, 8192 … 12287 of the flattened rows. -/
def rowsAt0 (G : FVec F S12288x2x128 .f32) : FVec F S4096x256 .f32 :=
  extractStridedSlice S4096x256 ![0, 0] (flat G) slices_S12288x256_S4096x256_0_0
def rowsAt1 (G : FVec F S12288x2x128 .f32) : FVec F S4096x256 .f32 :=
  extractStridedSlice S4096x256 ![4096, 0] (flat G) slices_S12288x256_S4096x256_4096_0
def rowsAt2 (G : FVec F S12288x2x128 .f32) : FVec F S4096x256 .f32 :=
  extractStridedSlice S4096x256 ![8192, 0] (flat G) slices_S12288x256_S4096x256_8192_0

theorem rowsAt0_apply (G : FVec F S12288x2x128 .f32) (i : Fin 4096) (j : Fin 256) :
    rowsAt0 G (ValueIdx.ix2 i j) = G (ValueIdx.ix3 ⟨i.val, by omega⟩ ⟨j.val / 128, by omega⟩ ⟨j.val % 128, by omega⟩) := by
  unfold rowsAt0
  rw [extractStridedSlice_apply _ _ _ _ (ValueIdx.ix2 ⟨i.val, by omega⟩ j)
    (fun a => match a with | ⟨0, _⟩ => (Nat.zero_add _).symm | ⟨1, _⟩ => (Nat.zero_add _).symm)]
  exact flat_apply G _ _

theorem rowsAt1_apply (G : FVec F S12288x2x128 .f32) (i : Fin 4096) (j : Fin 256) :
    rowsAt1 G (ValueIdx.ix2 i j) = G (ValueIdx.ix3 ⟨4096 + i.val, by omega⟩ ⟨j.val / 128, by omega⟩ ⟨j.val % 128, by omega⟩) := by
  unfold rowsAt1
  rw [extractStridedSlice_apply _ _ _ _ (ValueIdx.ix2 ⟨4096 + i.val, by omega⟩ j)
    (fun a => match a with | ⟨0, _⟩ => rfl | ⟨1, _⟩ => (Nat.zero_add _).symm)]
  exact flat_apply G _ _

theorem rowsAt2_apply (G : FVec F S12288x2x128 .f32) (i : Fin 4096) (j : Fin 256) :
    rowsAt2 G (ValueIdx.ix2 i j) = G (ValueIdx.ix3 ⟨8192 + i.val, by omega⟩ ⟨j.val / 128, by omega⟩ ⟨j.val % 128, by omega⟩) := by
  unfold rowsAt2
  rw [extractStridedSlice_apply _ _ _ _ (ValueIdx.ix2 ⟨8192 + i.val, by omega⟩ j)
    (fun a => match a with | ⟨0, _⟩ => rfl | ⟨1, _⟩ => (Nat.zero_add _).symm)]
  exact flat_apply G _ _

/-! ## The gather call's index map and side condition -/

/-- A grid coordinate of the gather call is below 12288. -/
theorem coord_lt (i : grid3.Coords) : (i 0).val < 12288 := (i 0).isLt

/-- The gather call's block index at grid point i: (word i of the table, 0, 0). -/
theorem transform0_eq (pf : pre3.Contents (Elt F)) (tab : IVec S12288 32) (hpf : pf 0 = tab) (i : grid3.Coords) :
    cc3_transform_0 k3_off1_inb numel1_S1 pf i = ![(tab (ValueIdx.ix1 ⟨(i 0).val, coord_lt i⟩)).toNat, 0, 0] := by
  subst hpf
  have hidx : ∀ h1, (Rect.unit (s := S12288) ![(Scalar.indexCast (BitVec.ofNat 32 (i 0).val)).toNat] S1.size (k3_off1_inb i)).emb
      (Shape.Idx.first h1) = ValueIdx.ix1 ⟨(i 0).val, coord_lt i⟩ := by
    intro h1
    funext a
    refine Fin.ext ?_
    obtain rfl : a = (0 : Fin 1) := Subsingleton.elim _ _
    rw [Rect.emb_apply]
    show (BitVec.ofNat 32 (i 0).val).toNat + 1 * (Shape.Idx.first h1 (0 : Fin 1)).val = (i 0).val
    have hz : (Shape.Idx.first h1 (0 : Fin 1)).val = 0 := by
      have : (Shape.Idx.first h1 (0 : Fin 1)).val < 1 := (Shape.Idx.first h1 (0 : Fin 1)).isLt
      omega
    rw [hz, BitVec.toNat_ofNat]
    have := coord_lt i
    omega
  have hw : pf.at 0 (Rect.unit (s := S12288) ![(Scalar.indexCast (BitVec.ofNat 32 (i 0).val)).toNat] S1.size (k3_off1_inb i)) numel1_S1
      = pf 0 (ValueIdx.ix1 ⟨(i 0).val, coord_lt i⟩) := congrArg (pf 0) (hidx _)
  exact congrArg (fun w : BitVec 32 => (![w.toNat, 0, 0] : Fin 3 → Nat)) hw

/-- The gather call's side condition, from the table's words all naming rows of the 125000. -/
theorem ok3_of_table (pf : pre3.Contents (Elt F)) (tab : IVec S12288 32) (hpf : pf 0 = tab)
    (h : ∀ i : Fin 12288, (tab (ValueIdx.ix1 i)).toNat < 125000) : ok3 (F := F) pf := by
  intro i
  refine ⟨?_, .inl rfl⟩
  rw [transform0_eq pf tab hpf i]
  have := h ⟨(i 0).val, coord_lt i⟩
  intro a
  match a with
  | ⟨0, _⟩ => show ((tab _).toNat + 1) * 1 ≤ 125000; omega
  | ⟨1, _⟩ => show (0 + 1) * 2 ≤ 2; omega
  | ⟨2, _⟩ => show (0 + 1) * 128 ≤ 128; omega

end Cert.Kernel.Tail

end
-- ==== Proof.K.FoldArgs.lean ====
/-
  Reading the run's fold at the buffers no segment writes. The contents of every unscoped buffer at the ten boundaries of
  the program are a fold from the launch memory: a host stretch changes only the buffers its operations write, a
  pallas_call only its result arrays. So each of the eleven arguments holds its launch contents at every boundary, a
  pallas_call's result that no later segment writes is still there at the later boundaries, and the index table the last
  call is entered with is the three index vectors laid end to end, the second and third shifted past the user rows.
-/
import proofs.«401280_j80350248174011_2_alg».proof.Proof.K.Run
import proofs.«401280_j80350248174011_2_alg».proof.Proof.K.TailIdx
import proofs.«401280_j80350248174011_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W9_of (hO : Ok m ρ) (c : Dev nD) (r : Ref sig .tc) (h : r ∉ hostOps4_W) :
    W9 m ρ hO c (Proc.devRef .tc r) = W8 m ρ hO c (Proc.devRef .tc r) :=
  StableHlo.after_of_writes_sub hostOps4 _ hostOps4_writes h

/-- The node-feature argument is pallas_call 0's second input window: an input's array is never written. -/
theorem W2_in1 (c : Dev nD) : W2 m ρ c (Proc.devRef .tc main_arg6) = W1 m ρ c (Proc.devRef .tc main_arg6) :=
  (W2_arr m ρ c 1).trans (((dat0 (V1 m ρ) c).arrAt_in 1 rfl _).trans (A_eq0 (V1 m ρ) c 1))

/-! ## The arguments hold their launch contents at every boundary -/
theorem W1_arg0 (c : Dev nD) : W1 m ρ c (Proc.devRef .tc main_arg0) = m ((c : Thread nD τ).loc main_arg0) :=
  (W1_of m ρ c main_arg0 (by decide)).trans rfl
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_of m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_of m ρ c main_arg0 (by decide)).trans (W6_arg0 m ρ c)
theorem W8_arg0 (hO : Ok m ρ) (c : Dev nD) : W8 m ρ hO c (Proc.devRef .tc main_arg0) = m ((c : Thread nD τ).loc main_arg0) :=
  (W8_of_ne m ρ hO c main_arg0 (by decide)).trans (W7_arg0 m ρ c)
theorem W9_arg0 (hO : Ok m ρ) (c : Dev nD) : W9 m ρ hO c (Proc.devRef .tc main_arg0) = m ((c : Thread nD τ).loc main_arg0) :=
  (W9_of m ρ hO c main_arg0 (by decide)).trans (W8_arg0 m ρ hO c)

theorem W1_arg1 (c : Dev nD) : W1 m ρ c (Proc.devRef .tc main_arg1) = m ((c : Thread nD τ).loc main_arg1) :=
  (W1_of m ρ c main_arg1 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (W5_of m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of m ρ c main_arg1 (by decide)).trans (W6_arg1 m ρ c)
theorem W8_arg1 (hO : Ok m ρ) (c : Dev nD) : W8 m ρ hO c (Proc.devRef .tc main_arg1) = m ((c : Thread nD τ).loc main_arg1) :=
  (W8_of_ne m ρ hO c main_arg1 (by decide)).trans (W7_arg1 m ρ c)
theorem W9_arg1 (hO : Ok m ρ) (c : Dev nD) : W9 m ρ hO c (Proc.devRef .tc main_arg1) = m ((c : Thread nD τ).loc main_arg1) :=
  (W9_of m ρ hO c main_arg1 (by decide)).trans (W8_arg1 m ρ hO c)

theorem W1_arg2 (c : Dev nD) : W1 m ρ c (Proc.devRef .tc main_arg2) = m ((c : Thread nD τ).loc main_arg2) :=
  (W1_of m ρ c main_arg2 (by decide)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_of m ρ c main_arg2 (by decide)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of m ρ c main_arg2 (by decide)).trans (W6_arg2 m ρ c)
theorem W8_arg2 (hO : Ok m ρ) (c : Dev nD) : W8 m ρ hO c (Proc.devRef .tc main_arg2) = m ((c : Thread nD τ).loc main_arg2) :=
  (W8_of_ne m ρ hO c main_arg2 (by decide)).trans (W7_arg2 m ρ c)
theorem W9_arg2 (hO : Ok m ρ) (c : Dev nD) : W9 m ρ hO c (Proc.devRef .tc main_arg2) = m ((c : Thread nD τ).loc main_arg2) :=
  (W9_of m ρ hO c main_arg2 (by decide)).trans (W8_arg2 m ρ hO c)

theorem W1_arg3 (c : Dev nD) : W1 m ρ c (Proc.devRef .tc main_arg3) = m ((c : Thread nD τ).loc main_arg3) :=
  (W1_of m ρ c main_arg3 (by decide)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (W5_of m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of m ρ c main_arg3 (by decide)).trans (W6_arg3 m ρ c)
theorem W8_arg3 (hO : Ok m ρ) (c : Dev nD) : W8 m ρ hO c (Proc.devRef .tc main_arg3) = m ((c : Thread nD τ).loc main_arg3) :=
  (W8_of_ne m ρ hO c main_arg3 (by decide)).trans (W7_arg3 m ρ c)
theorem W9_arg3 (hO : Ok m ρ) (c : Dev nD) : W9 m ρ hO c (Proc.devRef .tc main_arg3) = m ((c : Thread nD τ).loc main_arg3) :=
  (W9_of m ρ hO c main_arg3 (by decide)).trans (W8_arg3 m ρ hO c)

theorem W1_arg4 (c : Dev nD) : W1 m ρ c (Proc.devRef .tc main_arg4) = m ((c : Thread nD τ).loc main_arg4) :=
  (W1_of m ρ c main_arg4 (by decide)).trans rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_of m ρ c main_arg4 (by decide)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (W7_of m ρ c main_arg4 (by decide)).trans (W6_arg4 m ρ c)
theorem W8_arg4 (hO : Ok m ρ) (c : Dev nD) : W8 m ρ hO c (Proc.devRef .tc main_arg4) = m ((c : Thread nD τ).loc main_arg4) :=
  (W8_of_ne m ρ hO c main_arg4 (by decide)).trans (W7_arg4 m ρ c)
theorem W9_arg4 (hO : Ok m ρ) (c : Dev nD) : W9 m ρ hO c (Proc.devRef .tc main_arg4) = m ((c : Thread nD τ).loc main_arg4) :=
  (W9_of m ρ hO c main_arg4 (by decide)).trans (W8_arg4 m ρ hO c)

theorem W1_arg5 (c : Dev nD) : W1 m ρ c (Proc.devRef .tc main_arg5) = m ((c : Thread nD τ).loc main_arg5) :=
  (W1_of m ρ c main_arg5 (by decide)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_of m ρ c main_arg5 (by decide)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (W5_of m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_of m ρ c main_arg5 (by decide)).trans (W6_arg5 m ρ c)
theorem W8_arg5 (hO : Ok m ρ) (c : Dev nD) : W8 m ρ hO c (Proc.devRef .tc main_arg5) = m ((c : Thread nD τ).loc main_arg5) :=
  (W8_of_ne m ρ hO c main_arg5 (by decide)).trans (W7_arg5 m ρ c)
theorem W9_arg5 (hO : Ok m ρ) (c : Dev nD) : W9 m ρ hO c (Proc.devRef .tc main_arg5) = m ((c : Thread nD τ).loc main_arg5) :=
  (W9_of m ρ hO c main_arg5 (by decide)).trans (W8_arg5 m ρ hO c)

theorem W1_arg6 (c : Dev nD) : W1 m ρ c (Proc.devRef .tc main_arg6) = m ((c : Thread nD τ).loc main_arg6) :=
  (W1_of m ρ c main_arg6 (by decide)).trans rfl
theorem W2_arg6 (c : Dev nD) : W2 m ρ c (Proc.devRef .tc main_arg6) = m ((c : Thread nD τ).loc main_arg6) :=
  (W2_in1 m ρ c).trans (W1_arg6 m ρ c)
theorem W3_arg6 (c : Dev nD) : W3 m ρ c (Proc.devRef .tc main_arg6) = m ((c : Thread nD τ).loc main_arg6) :=
  (W3_of m ρ c main_arg6 (by decide)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (W5_of m ρ c main_arg6 (by decide)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (W7_of m ρ c main_arg6 (by decide)).trans (W6_arg6 m ρ c)
theorem W8_arg6 (hO : Ok m ρ) (c : Dev nD) : W8 m ρ hO c (Proc.devRef .tc main_arg6) = m ((c : Thread nD τ).loc main_arg6) :=
  (W8_of_ne m ρ hO c main_arg6 (by decide)).trans (W7_arg6 m ρ c)
theorem W9_arg6 (hO : Ok m ρ) (c : Dev nD) : W9 m ρ hO c (Proc.devRef .tc main_arg6) = m ((c : Thread nD τ).loc main_arg6) :=
  (W9_of m ρ hO c main_arg6 (by decide)).trans (W8_arg6 m ρ hO c)

theorem W1_arg7 (c : Dev nD) : W1 m ρ c (Proc.devRef .tc main_arg7) = m ((c : Thread nD τ).loc main_arg7) :=
  (W1_of m ρ c main_arg7 (by decide)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (W3_of m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (W5_of m ρ c main_arg7 (by decide)).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) :=
  (W7_of m ρ c main_arg7 (by decide)).trans (W6_arg7 m ρ c)
theorem W8_arg7 (hO : Ok m ρ) (c : Dev nD) : W8 m ρ hO c (Proc.devRef .tc main_arg7) = m ((c : Thread nD τ).loc main_arg7) :=
  (W8_of_ne m ρ hO c main_arg7 (by decide)).trans (W7_arg7 m ρ c)
theorem W9_arg7 (hO : Ok m ρ) (c : Dev nD) : W9 m ρ hO c (Proc.devRef .tc main_arg7) = m ((c : Thread nD τ).loc main_arg7) :=
  (W9_of m ρ hO c main_arg7 (by decide)).trans (W8_arg7 m ρ hO c)

theorem W1_arg8 (c : Dev nD) : W1 m ρ c (Proc.devRef .tc main_arg8) = m ((c : Thread nD τ).loc main_arg8) :=
  (W1_of m ρ c main_arg8 (by decide)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (W3_of m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (W5_of m ρ c main_arg8 (by decide)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (W7_of m ρ c main_arg8 (by decide)).trans (W6_arg8 m ρ c)
theorem W8_arg8 (hO : Ok m ρ) (c : Dev nD) : W8 m ρ hO c (Proc.devRef .tc main_arg8) = m ((c : Thread nD τ).loc main_arg8) :=
  (W8_of_ne m ρ hO c main_arg8 (by decide)).trans (W7_arg8 m ρ c)
theorem W9_arg8 (hO : Ok m ρ) (c : Dev nD) : W9 m ρ hO c (Proc.devRef .tc main_arg8) = m ((c : Thread nD τ).loc main_arg8) :=
  (W9_of m ρ hO c main_arg8 (by decide)).trans (W8_arg8 m ρ hO c)

theorem W1_arg9 (c : Dev nD) : W1 m ρ c (Proc.devRef .tc main_arg9) = m ((c : Thread nD τ).loc main_arg9) :=
  (W1_of m ρ c main_arg9 (by decide)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (W3_of m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (W5_of m ρ c main_arg9 (by decide)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_of m ρ c main_arg9 (by decide)).trans (W6_arg9 m ρ c)
theorem W8_arg9 (hO : Ok m ρ) (c : Dev nD) : W8 m ρ hO c (Proc.devRef .tc main_arg9) = m ((c : Thread nD τ).loc main_arg9) :=
  (W8_of_ne m ρ hO c main_arg9 (by decide)).trans (W7_arg9 m ρ c)
theorem W9_arg9 (hO : Ok m ρ) (c : Dev nD) : W9 m ρ hO c (Proc.devRef .tc main_arg9) = m ((c : Thread nD τ).loc main_arg9) :=
  (W9_of m ρ hO c main_arg9 (by decide)).trans (W8_arg9 m ρ hO c)

theorem W1_arg10 (c : Dev nD) : W1 m ρ c (Proc.devRef .tc main_arg10) = m ((c : Thread nD τ).loc main_arg10) :=
  (W1_of m ρ c main_arg10 (by decide)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (W3_of m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (W5_of m ρ c main_arg10 (by decide)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_of m ρ c main_arg10 (by decide)).trans (W6_arg10 m ρ c)
theorem W8_arg10 (hO : Ok m ρ) (c : Dev nD) : W8 m ρ hO c (Proc.devRef .tc main_arg10) = m ((c : Thread nD τ).loc main_arg10) :=
  (W8_of_ne m ρ hO c main_arg10 (by decide)).trans (W7_arg10 m ρ c)
theorem W9_arg10 (hO : Ok m ρ) (c : Dev nD) : W9 m ρ hO c (Proc.devRef .tc main_arg10) = m ((c : Thread nD τ).loc main_arg10) :=
  (W9_of m ρ hO c main_arg10 (by decide)).trans (W8_arg10 m ρ hO c)

/-! ## What passes through -/

/-- The new features of the first round are pallas_call 1's second input and nothing in the second host stretch. -/
theorem V3_nf (c : Dev nD) : V3 m ρ c main_v23_0 = W2 m ρ c (Proc.devRef .tc main_v23_0) :=
  W3_of m ρ c main_v23_0 (by decide)
/-- The new features of the second round, likewise, at pallas_call 2's entry. -/
theorem V5_nf (c : Dev nD) : V5 m ρ c main_v47_0 = W4 m ρ c (Proc.devRef .tc main_v47_0) :=
  W5_of m ρ c main_v47_0 (by decide)

/-- The unit-row features of the first round are written by no later stretch or call before the table is laid out. -/
theorem W6_v23_1 (c : Dev nD) : W6 m ρ c (Proc.devRef .tc main_v23_1) = W2 m ρ c (Proc.devRef .tc main_v23_1) :=
  (W6_of_ne m ρ c main_v23_1 (by decide)).trans <| (W5_of m ρ c main_v23_1 (by decide)).trans <|
    (W4_of_ne m ρ c main_v23_1 (by decide)).trans (W3_of m ρ c main_v23_1 (by decide))
/-- The unit-row features of the second round, likewise. -/
theorem W6_v47_1 (c : Dev nD) : W6 m ρ c (Proc.devRef .tc main_v47_1) = W4 m ρ c (Proc.devRef .tc main_v47_1) :=
  (W6_of_ne m ρ c main_v47_1 (by decide)).trans (W5_of m ρ c main_v47_1 (by decide))

/-! ## The index table -/

/-- A three-operand host operation's result, with each operand's contents read at its own buffer. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The index table the gather call is entered with: the three index vectors end to end, the positive and negative item
    indices shifted past the 50000 user rows. -/
theorem V7_tab (c : Dev nD) : V7 m ρ c main_v77 = Tail.idxTab (m ((c : Thread nD τ).loc main_arg0)) (m ((c : Thread nD τ).loc main_arg1)) (m ((c : Thread nD τ).loc main_arg2)) := by
  show StableHlo.after hostOps3 _ (Proc.devRef .tc main_v77) = _
  simp only [StableHlo.after_cons, StableHlo.after_nil]
  repeat (first
    | rw [StableHlo.nullary_result] | rw [StableHlo.unary_result] | rw [StableHlo.binary_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [W6_arg0, W6_arg1, W6_arg2]
  rfl

end Cert.Kernel.Hand

end
-- ==== Proof.PreRange.lean ====
/-
  The precondition's three index ranges, read back. The precondition is a conjunction (an `and` of `jnp.all`s):
  six finiteness tests of the float inputs, then for each of the three index vectors (4096 words each) the test
  "every word w has 0 ≤ w and w < N, both signed" (N = 50000 for the first, 75000 for the other two). When the
  conjunction is 1, each `jnp.all` is 1, so each compared element is 1, and a word that is non-negative signed and
  below N signed (N < 2³¹) has unsigned value below N.
-/
import proofs.«401280_j80350248174011_2_alg».proof.Pre_finite_inputs
import Idealize.ShloMosaic.Lib.ReduceAll
import Idealize.ShloMosaic.Lib.ValueIdx
import Idealize.ShloMosaic.Lib.StableHlo.Predicate

noncomputable section

namespace Cert.PreRange

open Idealize.ShloMosaic
open Cert.Pre_finite_inputs

/-- The scalar shape has one index. -/
instance subsingleton_S_ : Subsingleton S_.Idx := ⟨fun a b => funext fun d => d.elim0⟩

/-- A word that tests 0 ≤ w and w < N signed, with N below 2³¹, lies in [0, N) read signed, and its unsigned value is below N. -/
theorem word_range (w : BitVec 32) (N : Nat) (hN : N < 2 ^ 31)
    (h0 : IntOp.cmpi .sge w 0#32 = 1#1) (h1 : IntOp.cmpi .slt w (BitVec.ofNat 32 N) = 1#1) :
    (0 ≤ w.toInt ∧ w.toInt < N) ∧ w.toNat < N := by
  rw [IntOp.cmpi_sge, show (0#32 : BitVec 32).toInt = 0 from by decide] at h0
  rw [IntOp.cmpi_slt, StableHlo.Predicate.toInt_ofNat_small N hN] at h1
  have hlt : 2 * w.toNat < 2 ^ 32 := BitVec.toInt_pos_iff.1 h0
  have hti : w.toInt = w.toNat := StableHlo.Predicate.toInt_eq_toNat_of_lt (by omega)
  refine ⟨⟨h0, h1⟩, ?_⟩
  rw [hti] at h1
  exact_mod_cast h1

/-- One `jnp.all((v ≥ 0) & (v < N))` that is 1 puts every word of `v` in [0, N). -/
theorem all_range [Facts] (v : IVec S4096 32) (N : Nat) (hN : N < 2 ^ 31) (init : IVec S_ 1)
    (e : Host.reduce IntOp.andi
        (andi (cmpi .sge v (broadcastInDim S4096 ![] Facts.bcast_S_S4096 (constantI S_ 32 0#32)))
              (cmpi .slt v (broadcastInDim S4096 ![] Facts.bcast_S_S4096 (constantI S_ 32 (BitVec.ofNat 32 N)))))
        init Facts.reducesTo_S4096_S_d0 Facts.h_S_ ValueIdx.ix0 = 1#1) (j : S4096.Idx) :
    (0 ≤ (v j).toInt ∧ (v j).toInt < N) ∧ (v j).toNat < N := by
  have ej := Host.reduce_andi_all _ _ _ _ _ e j
  simp only [andi, cmpi, broadcastInDim, constantI] at ej
  obtain ⟨e0, e1⟩ := IntOp.andi_eq_one.1 ej
  exact word_range _ N hN e0 e1

/-- The three index vectors of a passing precondition, signed and unsigned. -/
theorem ranges_full {F : FTy → Type} [FloatOps F] [Facts] (a0 a1 a2 : IVec S4096 32) (a3 a4 : IVec S1250000 32)
    (a5 : FVec F S1250000 .f32) (a6 : FVec F S125000x64 .f32) (a7 : FVec F S3x64x64 .f32) (a8 : FVec F S3x64 .f32)
    (a9 : FVec F S3x64x64 .f32) (a10 : FVec F S3x64 .f32)
    (h : fn (F := F) a0 a1 a2 a3 a4 a5 a6 a7 a8 a9 a10 = fun _ => 1#1) :
    (∀ j, (0 ≤ (a0 j).toInt ∧ (a0 j).toInt < 50000) ∧ (a0 j).toNat < 50000) ∧
    (∀ j, (0 ≤ (a1 j).toInt ∧ (a1 j).toInt < 75000) ∧ (a1 j).toNat < 75000) ∧
    (∀ j, (0 ≤ (a2 j).toInt ∧ (a2 j).toInt < 75000) ∧ (a2 j).toNat < 75000) := by
  have e := congrFun h ValueIdx.ix0
  dsimp only [fn, fn_part1, fn_part2] at e
  rw [show ∀ (x y : IVec S_ 1), andi x y ValueIdx.ix0 = IntOp.andi (x ValueIdx.ix0) (y ValueIdx.ix0) from fun _ _ => rfl] at e
  obtain ⟨e, e2⟩ := IntOp.andi_eq_one.1 e
  rw [show ∀ (x y : IVec S_ 1), andi x y ValueIdx.ix0 = IntOp.andi (x ValueIdx.ix0) (y ValueIdx.ix0) from fun _ _ => rfl] at e
  obtain ⟨e, e1⟩ := IntOp.andi_eq_one.1 e
  rw [show ∀ (x y : IVec S_ 1), andi x y ValueIdx.ix0 = IntOp.andi (x ValueIdx.ix0) (y ValueIdx.ix0) from fun _ _ => rfl] at e
  obtain ⟨-, e0⟩ := IntOp.andi_eq_one.1 e
  exact ⟨all_range a0 50000 (by norm_num) _ e0, all_range a1 75000 (by norm_num) _ e1, all_range a2 75000 (by norm_num) _ e2⟩

/-- The three index ranges, unsigned: every user index is below 50000, every item index below 75000. -/
theorem ranges {F : FTy → Type} [FloatOps F] [Facts] (a0 a1 a2 : IVec S4096 32) (a3 a4 : IVec S1250000 32)
    (a5 : FVec F S1250000 .f32) (a6 : FVec F S125000x64 .f32) (a7 : FVec F S3x64x64 .f32) (a8 : FVec F S3x64 .f32)
    (a9 : FVec F S3x64x64 .f32) (a10 : FVec F S3x64 .f32)
    (h : fn (F := F) a0 a1 a2 a3 a4 a5 a6 a7 a8 a9 a10 = fun _ => 1#1) :
    (∀ j, (a0 j).toNat < 50000) ∧ (∀ j, (a1 j).toNat < 75000) ∧ (∀ j, (a2 j).toNat < 75000) :=
  let r := ranges_full a0 a1 a2 a3 a4 a5 a6 a7 a8 a9 a10 h
  ⟨fun j => (r.1 j).2, fun j => (r.2.1 j).2, fun j => (r.2.2 j).2⟩

/-- The same three ranges read signed. -/
theorem ranges_signed {F : FTy → Type} [FloatOps F] [Facts] (a0 a1 a2 : IVec S4096 32) (a3 a4 : IVec S1250000 32)
    (a5 : FVec F S1250000 .f32) (a6 : FVec F S125000x64 .f32) (a7 : FVec F S3x64x64 .f32) (a8 : FVec F S3x64 .f32)
    (a9 : FVec F S3x64x64 .f32) (a10 : FVec F S3x64 .f32)
    (h : fn (F := F) a0 a1 a2 a3 a4 a5 a6 a7 a8 a9 a10 = fun _ => 1#1) :
    (∀ j, 0 ≤ (a0 j).toInt ∧ (a0 j).toInt < 50000) ∧ (∀ j, 0 ≤ (a1 j).toInt ∧ (a1 j).toInt < 75000) ∧
    (∀ j, 0 ≤ (a2 j).toInt ∧ (a2 j).toInt < 75000) :=
  let r := ranges_full a0 a1 a2 a3 a4 a5 a6 a7 a8 a9 a10 h
  ⟨fun j => (r.1 j).1, fun j => (r.2.1 j).1, fun j => (r.2.2 j).1⟩

end Cert.PreRange

end
-- ==== Proof.K.OkPre.lean ====
/-
  The gather call's side condition from the precondition. The precondition puts the user indices below 50000 and the
  two item index vectors below 75000; the gather's index table is the user indices followed by the item indices moved up
  by 50000, so each of its words is below 125000 and names a row of the table: the call's side condition.
-/
import proofs.«401280_j80350248174011_2_alg».proof.Proof.K.Run
import proofs.«401280_j80350248174011_2_alg».proof.Proof.K.FoldArgs
import proofs.«401280_j80350248174011_2_alg».proof.Proof.K.TailIdx
import proofs.«401280_j80350248174011_2_alg».proof.Proof.PreRange

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The precondition at device c: the printed predicate of the eleven argument arrays is all ones. -/
abbrev PreAt [Cert.Pre_finite_inputs.Facts] (c : Dev nD) : Prop :=
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    = fun _ => 1#1

/-- Under the precondition the three index vectors are in range: users below 50000, items below 75000. -/
theorem ranges_of_pre [Cert.Pre_finite_inputs.Facts] (c : Dev nD) (h : PreAt m c) :
    (∀ j, ((m ((c.tc : Thread nD τ).loc main_arg0)) j).toNat < 50000) ∧
    (∀ j, ((m ((c.tc : Thread nD τ).loc main_arg1)) j).toNat < 75000) ∧
    (∀ j, ((m ((c.tc : Thread nD τ).loc main_arg2)) j).toNat < 75000) :=
  Cert.PreRange.ranges _ _ _ _ _ _ _ _ _ _ _ h

/-- Under the precondition every word of the gather's index table names a row of the table. -/
theorem ok_of_pre [Cert.Pre_finite_inputs.Facts] (h : ∀ c : Dev nD, PreAt m c) : Ok m ρ := by
  obtain ⟨hu, hp, hn⟩ := ranges_of_pre m (0 : Dev nD) (h 0)
  exact Tail.ok3_of_table (tbl m ρ)
    (Tail.idxTab (m (((0 : Dev nD) : Thread nD τ).loc main_arg0)) (m (((0 : Dev nD) : Thread nD τ).loc main_arg1))
      (m (((0 : Dev nD) : Thread nD τ).loc main_arg2)))
    (V7_tab m ρ 0) (Tail.idxTab_lt _ _ _ hu hp hn)

end Cert.Kernel.Hand

end
-- ==== Proof.KI.R0Defs.lean ====
/-
  The fused dense layer of the first message-passing round (pallas_call 0), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×64 block, the whole 64×64 weight block and the whole bias vector: the only rectangles the body touches. -/
abbrev rA0 : Rect S1000x64 := Rect.unit (s := S1000x64) ![0, 0] S1000x64.size inb_S1000x64_S1000x64_0_0
abbrev rW0 : Rect S64x64 := Rect.unit (s := S64x64) ![0, 0] S64x64.size inb_S64x64_S64x64_0_0
abbrev rB0 : Rect S64 := Rect.unit (s := S64) ![0] S64.size inb_S64_S64_0

/-- The new node features of the block: leaky(agg·W1ᵀ + b1) + leaky((agg ⊙ nf)·W2ᵀ + b2), as the body computes them
    from the six input blocks. -/
def newFeat0 (x0 x1 : Vec F S1000x64 .f32) (x2 : Vec F S64x64 .f32) (x3 : Vec F S64 .f32) (x4 : Vec F S64x64 .f32) (x5 : Vec F S64 .f32) :
    FVec F S1000x64 .f32 :=
  k0_pay2 (View.ld x0 rA0) (View.ld x1 rA0) (View.ld x2 rW0) (View.ld x4 rW0) (View.ld x3 rB0) (View.ld x5 rB0)

/-- The row norms of the new features, floored at the small constant. -/
def rowNorm0 (x0 x1 : Vec F S1000x64 .f32) (x2 : Vec F S64x64 .f32) (x3 : Vec F S64 .f32) (x4 : Vec F S64x64 .f32) (x5 : Vec F S64 .f32) :
    FVec F S1000x1 .f32 :=
  k0_pay3 (View.ld x0 rA0) (View.ld x1 rA0) (View.ld x2 rW0) (View.ld x4 rW0) (View.ld x3 rB0) (View.ld x5 rB0)

/-- Window 6's staging buffer after the body: its one store. -/
def out0_6 (x0 x1 : Vec F S1000x64 .f32) (x2 : Vec F S64x64 .f32) (x3 : Vec F S64 .f32) (x4 : Vec F S64x64 .f32) (x5 : Vec F S64 .f32) : Vec F S1000x64 .f32 :=
  View.canon [⟨rA0, newFeat0 x0 x1 x2 x3 x4 x5⟩]

/-- Window 7's staging buffer after the body: the new features divided by their row norms. -/
def out0_7 (x0 x1 : Vec F S1000x64 .f32) (x2 : Vec F S64x64 .f32) (x3 : Vec F S64 .f32) (x4 : Vec F S64x64 .f32) (x5 : Vec F S64 .f32) : Vec F S1000x64 .f32 :=
  View.canon [⟨rA0, k0_pay1 (newFeat0 x0 x1 x2 x3 x4 x5) (rowNorm0 x0 x1 x2 x3 x4 x5)⟩]

/-- The proof data of pipeline 0 on core `c`: the arrays as the region finds them; after the body at point `t` each
    input's buffer at its block and each result's at what the body stored; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) := by dsimp only [dat0]

end Cert.KernelIdeal.Hand

end
-- ==== Proof.KI.R0.lean ====
/-
  The fused dense layer of the first message-passing round (pallas_call 0): the body obligation at the buffer contents
  `V` the region is entered with. Each of the six input windows' staging buffers holds its block at every point — the
  aggregated sums and the node features because they are fetched there, the weights and biases because their block never
  moves after the first point — so the body reads the six blocks, and stores the new features and their unit-length rows
  over the whole of the two result buffers.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import proofs.«401280_j80350248174011_2_alg».proof.Proof.KI.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0's current staging buffer holds its block at every point, fetched there or not: where it is not
    fetched its block index has not moved, and the body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, and the body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, and the body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, and the body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved, and the body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's stores cover the two result buffers -/

/-- One store over the whole 1000×64 buffer covers it. -/
theorem cover0_out (p0 : Vec F S1000x64 .f32) (y : S1000x64.Idx) :
    ∃ pc ∈ ([⟨rA0, p0⟩] : List (View.Piece (Elt F) S1000x64 .f32)), y ∈ pc.1.set :=
  View.cover_of_tiled [⟨rA0, p0⟩] S1000x64.size (by rfl) y

/-! ## The body's triple -/

set_option maxHeartbeats 1000000 in
/-- The kernel body on whole staging memrefs, the six inputs' at read contents `x0 … x5` and the two results' at anything,
    runs to the continuation holding the inputs' as they were, window 6's at the new features of the inputs and
    window 7's at those features over their row norms. -/
theorem sound_kernel0 (c : Dev nD) (E : Set ℕ) (i : grid0.Coords) (arg1 : Memref sig .tc .vmem S1000x64 .f32) (harg1 : arg1.IsWhole) (arg2 : Memref sig .tc .vmem S1000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S1000x64 .f32) (harg7 : arg7.IsWhole) (arg8 : Memref sig .tc .vmem S1000x64 .f32) (harg8 : arg8.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__fused_layer_kernel i arg1 harg1 arg2 harg2 arg3 harg3 arg4 harg4 arg5 harg5 arg6 harg6 arg7 harg7 arg8 harg8) K := by
  simp only [cc0__fused_layer_kernel_eq_skeleton]; unfold cc0__fused_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_out _)
  iexists _; isplitr
  swap; · iexact H7
  ipureintro
  try dsimp only
  exact View.read_writes_eq_canon _ _ _ (cover0_out _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The fused dense layer of the second message-passing round (pallas_call 1), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1000×64 block, the whole 64×64 weight block and the whole bias vector: the only rectangles the body touches. -/
abbrev rA1 : Rect S1000x64 := Rect.unit (s := S1000x64) ![0, 0] S1000x64.size inb_S1000x64_S1000x64_0_0
abbrev rW1 : Rect S64x64 := Rect.unit (s := S64x64) ![0, 0] S64x64.size inb_S64x64_S64x64_0_0
abbrev rB1 : Rect S64 := Rect.unit (s := S64) ![0] S64.size inb_S64_S64_0

/-- The new node features of the block: leaky(agg·W1ᵀ + b1) + leaky((agg ⊙ nf)·W2ᵀ + b2), as the body computes them
    from the six input blocks. -/
def newFeat1 (x0 x1 : Vec F S1000x64 .f32) (x2 : Vec F S64x64 .f32) (x3 : Vec F S64 .f32) (x4 : Vec F S64x64 .f32) (x5 : Vec F S64 .f32) :
    FVec F S1000x64 .f32 :=
  k1_pay2 (View.ld x0 rA1) (View.ld x1 rA1) (View.ld x2 rW1) (View.ld x4 rW1) (View.ld x3 rB1) (View.ld x5 rB1)

/-- The row lengths of the new features: the square root of each row's sum of squares, before the floor. -/
def rowRoot1 (x0 x1 : Vec F S1000x64 .f32) (x2 : Vec F S64x64 .f32) (x3 : Vec F S64 .f32) (x4 : Vec F S64x64 .f32) (x5 : Vec F S64 .f32) :
    FVec F S1000x1 .f32 :=
  k1_pay3 (View.ld x0 rA1) (View.ld x1 rA1) (View.ld x2 rW1) (View.ld x4 rW1) (View.ld x3 rB1) (View.ld x5 rB1)

/-- The row norms of the new features, floored at the small constant. -/
def rowNorm1 (x0 x1 : Vec F S1000x64 .f32) (x2 : Vec F S64x64 .f32) (x3 : Vec F S64 .f32) (x4 : Vec F S64x64 .f32) (x5 : Vec F S64 .f32) :
    FVec F S1000x1 .f32 :=
  maximumf (rowRoot1 x0 x1 x2 x3 x4 x5) (k1_pay4 (F := F))

/-- Window 6's staging buffer after the body: its one store. -/
def out1_6 (x0 x1 : Vec F S1000x64 .f32) (x2 : Vec F S64x64 .f32) (x3 : Vec F S64 .f32) (x4 : Vec F S64x64 .f32) (x5 : Vec F S64 .f32) : Vec F S1000x64 .f32 :=
  View.canon [⟨rA1, newFeat1 x0 x1 x2 x3 x4 x5⟩]

/-- Window 7's staging buffer after the body: the new features divided by their floored row norms (the floor is taken
    inside the stored value, on the row lengths and the small constant). -/
def out1_7 (x0 x1 : Vec F S1000x64 .f32) (x2 : Vec F S64x64 .f32) (x3 : Vec F S64 .f32) (x4 : Vec F S64x64 .f32) (x5 : Vec F S64 .f32) : Vec F S1000x64 .f32 :=
  View.canon [⟨rA1, k1_pay1 (newFeat1 x0 x1 x2 x3 x4 x5) (rowRoot1 x0 x1 x2 x3 x4 x5) (k1_pay4 (F := F))⟩]

/-- The value stored to window 7 is the new features over their floored row norms, spread along each row. -/
theorem stored1_7_eq (x0 x1 : Vec F S1000x64 .f32) (x2 : Vec F S64x64 .f32) (x3 : Vec F S64 .f32) (x4 : Vec F S64x64 .f32) (x5 : Vec F S64 .f32) :
    k1_pay1 (newFeat1 x0 x1 x2 x3 x4 x5) (rowRoot1 x0 x1 x2 x3 x4 x5) (k1_pay4 (F := F)) =
      divf (newFeat1 x0 x1 x2 x3 x4 x5) (broadcastTo S1000x64 (rowNorm1 x0 x1 x2 x3 x4 x5) broadcasts_S1000x1_S1000x64) := rfl

/-- The proof data of pipeline 1 on core `c`: the arrays as the region finds them; after the body at point `t` each
    input's buffer at its block and each result's at what the body stored; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]

end Cert.KernelIdeal.Hand

end
-- ==== Proof.KI.R1.lean ====
/-
  The body obligation of the fused dense layer of the second message-passing round (pallas_call 1): at every grid point
  the body, called on the staging buffers of its eight windows, leaves the six input buffers as it found them and the two
  result buffers at the values named beside the proof data: the new node features, and those features divided by their
  floored row norms.
-/
import proofs.«401280_j80350248174011_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

/- An input window whose body leaves its block in place holds, at every point, the block a fetch there would bring:
   where it is not fetched its block index has not moved since the previous point. Windows 0 and 1 are fetched at every
   point; windows 2 to 5 sit at one constant block and are fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover the result buffers -/

/-- One store of the whole 1000×64 rectangle covers the buffer. -/
theorem cover1_A (p0 : Vec F S1000x64 .f32) (y : S1000x64.Idx) :
    ∃ pc ∈ ([⟨rA1, p0⟩] : List (View.Piece (Elt F) S1000x64 .f32)), y ∈ pc.1.set :=
  View.cover_of_tiled [⟨rA1, p0⟩] S1000x64.size (by rfl) y

/-! ## The body's triple -/

set_option maxHeartbeats 4000000 in
/-- The body on whole staging buffers, the inputs' at contents `xW` and the results' at anything, runs to the
    continuation holding the inputs' as they were and the two results' at `out1_6` and `out1_7` of the inputs'. -/
theorem sound_kernel1 (c : Dev nD) (E : Set ℕ) (i : grid1.Coords) (arg0 : Memref sig .tc .vmem S1000x64 .f32) (harg0 : arg0.IsWhole) (arg1 : Memref sig .tc .vmem S1000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole) (arg7 : Memref sig .tc .vmem S1000x64 .f32) (harg7 : arg7.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out1_6 x0 x1 x2 x3 x4 x5) ∗ owns (c : Thread nD τ) arg7 fullShare (out1_7 x0 x1 x2 x3 x4 x5)) -∗ K ⟨⟩))
      ⊢ wp frame (wpE (defs₀ (F := F)) Variants.none c none) E (cc1__fused_layer_kernel i arg0 harg0 arg1 harg1 arg2 harg2 arg3 harg3 arg4 harg4 arg5 harg5 arg6 harg6 arg7 harg7) K := by
  simp only [cc1__fused_layer_kernel_eq_skeleton]; unfold cc1__fused_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_A _)
  iexists _; isplitr
  swap; · iexact H7
  ipureintro
  try dsimp only
  exact View.read_writes_eq_canon _ _ _ (cover1_A _)

/-! ## The body obligation, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Defs.lean ====
/-
  The fused dense layer of the third message-passing round (pallas_call 2), at the buffer contents `V` the region is
  entered with: a grid of 125 points, point `t` working on node rows 1000·t … 1000·t+999. Window 0 is the aggregated
  neighbourhood sum, window 1 the node features, windows 2 to 5 the two transposed weight matrices and bias vectors
  (whole at every point), windows 6 and 7 the two results: the new node features and their rows scaled to unit length.
  This module only NAMES what a point leaves in the two result blocks and the proof data over them.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 1000×64 block, the whole 64×64 weight block and the whole bias vector: the only rectangles the body touches. -/
abbrev rA2 : Rect S1000x64 := Rect.unit (s := S1000x64) ![0, 0] S1000x64.size inb_S1000x64_S1000x64_0_0
abbrev rW2 : Rect S64x64 := Rect.unit (s := S64x64) ![0, 0] S64x64.size inb_S64x64_S64x64_0_0
abbrev rB2 : Rect S64 := Rect.unit (s := S64) ![0] S64.size inb_S64_S64_0

/-- The new node features of the block: leaky(agg·W1ᵀ + b1) + leaky((agg ⊙ nf)·W2ᵀ + b2), as the body computes them
    from the six input blocks. -/
def newFeat2 (x0 x1 : Vec F S1000x64 .f32) (x2 : Vec F S64x64 .f32) (x3 : Vec F S64 .f32) (x4 : Vec F S64x64 .f32) (x5 : Vec F S64 .f32) :
    FVec F S1000x64 .f32 :=
  k2_pay2 (View.ld x0 rA2) (View.ld x1 rA2) (View.ld x2 rW2) (View.ld x4 rW2) (View.ld x3 rB2) (View.ld x5 rB2)

/-- The row lengths of the new features: the square root of each row's sum of squares, before the floor. -/
def rowRoot2 (x0 x1 : Vec F S1000x64 .f32) (x2 : Vec F S64x64 .f32) (x3 : Vec F S64 .f32) (x4 : Vec F S64x64 .f32) (x5 : Vec F S64 .f32) :
    FVec F S1000x1 .f32 :=
  k2_pay3 (View.ld x0 rA2) (View.ld x1 rA2) (View.ld x2 rW2) (View.ld x4 rW2) (View.ld x3 rB2) (View.ld x5 rB2)

/-- The row norms of the new features, floored at the small constant. -/
def rowNorm2 (x0 x1 : Vec F S1000x64 .f32) (x2 : Vec F S64x64 .f32) (x3 : Vec F S64 .f32) (x4 : Vec F S64x64 .f32) (x5 : Vec F S64 .f32) :
    FVec F S1000x1 .f32 :=
  maximumf (rowRoot2 x0 x1 x2 x3 x4 x5) (k2_pay4 (F := F))

/-- Window 6's staging buffer after the body: its one store. -/
def out2_6 (x0 x1 : Vec F S1000x64 .f32) (x2 : Vec F S64x64 .f32) (x3 : Vec F S64 .f32) (x4 : Vec F S64x64 .f32) (x5 : Vec F S64 .f32) : Vec F S1000x64 .f32 :=
  View.canon [⟨rA2, newFeat2 x0 x1 x2 x3 x4 x5⟩]

/-- Window 7's staging buffer after the body: the new features divided by their floored row norms (the floor is taken
    inside the stored value, on the row lengths and the small constant). -/
def out2_7 (x0 x1 : Vec F S1000x64 .f32) (x2 : Vec F S64x64 .f32) (x3 : Vec F S64 .f32) (x4 : Vec F S64x64 .f32) (x5 : Vec F S64 .f32) : Vec F S1000x64 .f32 :=
  View.canon [⟨rA2, k2_pay1 (newFeat2 x0 x1 x2 x3 x4 x5) (rowRoot2 x0 x1 x2 x3 x4 x5) (k2_pay4 (F := F))⟩]

/-- The value stored to window 7 is the new features over their floored row norms, spread along each row. -/
theorem stored2_7_eq (x0 x1 : Vec F S1000x64 .f32) (x2 : Vec F S64x64 .f32) (x3 : Vec F S64 .f32) (x4 : Vec F S64x64 .f32) (x5 : Vec F S64 .f32) :
    k2_pay1 (newFeat2 x0 x1 x2 x3 x4 x5) (rowRoot2 x0 x1 x2 x3 x4 x5) (k2_pay4 (F := F)) =
      divf (newFeat2 x0 x1 x2 x3 x4 x5) (broadcastTo S1000x64 (rowNorm2 x0 x1 x2 x3 x4 x5) broadcasts_S1000x1_S1000x64) := rfl

/-- The proof data of pipeline 2 on core `c`: the arrays as the region finds them; after the body at point `t` each
    input's buffer at its block and each result's at what the body stored; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]

end Cert.KernelIdeal.Hand

end
-- ==== Proof.KI.R2.lean ====
/-
  The body obligation of the fused dense layer of the third message-passing round (pallas_call 2): at every grid point
  the body, called on the staging buffers of its eight windows, leaves the six input buffers as it found them and the two
  result buffers at the values named beside the proof data: the new node features, and those features divided by their
  floored row norms.
-/
import proofs.«401280_j80350248174011_2_alg».proof.Proof.KI.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

/- An input window whose body leaves its block in place holds, at every point, the block a fetch there would bring:
   where it is not fetched its block index has not moved since the previous point. Windows 0 and 1 are fetched at every
   point; windows 2 to 5 sit at one constant block and are fetched once. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover the result buffers -/

/-- One store of the whole 1000×64 rectangle covers the buffer. -/
theorem cover2_A (p0 : Vec F S1000x64 .f32) (y : S1000x64.Idx) :
    ∃ pc ∈ ([⟨rA2, p0⟩] : List (View.Piece (Elt F) S1000x64 .f32)), y ∈ pc.1.set :=
  View.cover_of_tiled [⟨rA2, p0⟩] S1000x64.size (by rfl) y

/-! ## The body's triple -/

set_option maxHeartbeats 4000000 in
/-- The body on whole staging buffers, the inputs' at contents `xW` and the results' at anything, runs to the
    continuation holding the inputs' as they were and the two results' at `out2_6` and `out2_7` of the inputs'. -/
theorem sound_kernel2 (c : Dev nD) (E : Set ℕ) (i : grid2.Coords) (arg0 : Memref sig .tc .vmem S1000x64 .f32) (harg0 : arg0.IsWhole) (arg1 : Memref sig .tc .vmem S1000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole) (arg7 : Memref sig .tc .vmem S1000x64 .f32) (harg7 : arg7.IsWhole)
    (x0 x1 : Vec F S1000x64 .f32) (x2 : Vec F S64x64 .f32) (x3 : Vec F S64 .f32) (x4 : Vec F S64x64 .f32) (x5 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5) ∗ owns (c : Thread nD τ) arg7 fullShare (out2_7 x0 x1 x2 x3 x4 x5)) -∗ K ⟨⟩))
      ⊢ wp frame (wpE (defs₀ (F := F)) Variants.none c none) E (cc2__fused_layer_kernel i arg0 harg0 arg1 harg1 arg2 harg2 arg3 harg3 arg4 harg4 arg5 harg5 arg6 harg6 arg7 harg7) K := by
  simp only [cc2__fused_layer_kernel_eq_skeleton]; unfold cc2__fused_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_A _)
  iexists _; isplitr
  swap; · iexact H7
  ipureintro
  try dsimp only
  exact View.read_writes_eq_canon _ _ _ (cover2_A _)

/-! ## The body obligation, at a generic point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Defs.lean ====
/-
  The row gather (pallas_call 3), at the buffer contents `V` the region is entered with and at admissible contents
  `a3` of its index table: a grid of 12288 points, point `t` copying the table row whose number the index table holds
  at `t` (a [1,2,128] block of the table viewed [125000,2,128]) into row `t` of the result. Window 0 is the table row,
  window 1 the result row. This module only NAMES what a point leaves in the result block and the proof data over it.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a3 : (pcfg3 (F := F)).Adm)

/-- Window `w`'s block at point `t`, read off its array as the region finds it. -/
def iblk3 (c : Dev nD) (w : Fin (cfg3 a3).W) (t : Fin (cfg3 a3).N) :
    (((cfg3 a3).win w).xblock ((cfg3 a3).grid.coords t)).Idx → Elt F ((cfg3 a3).win w).elt :=
  (((cfg3 a3).win w).blk t).view.read (Elt F) (V c (Pipeline.arrRef spec3 w))

/-- The whole 1×2×128 block: the only rectangle the body touches. -/
abbrev rG3 : Rect S1x2x128 := Rect.unit (s := S1x2x128) ![0, 0, 0] S1x2x128.size inb_S1x2x128_S1x2x128_0_0_0

/-- Window 1's staging buffer after the body: its one store, the table row as loaded. -/
def out3_1 (x0 : Vec F S1x2x128 .f32) : Vec F S1x2x128 .f32 :=
  View.canon [⟨rG3, k3_pay1 (View.ld x0 rG3)⟩]

/-- The proof data of pipeline 3 on core `c`: the arrays as the region finds them; after the body at point `t` the
    table row's buffer at its block and the result's at what the body stored; the scoped rest, the generator register
    and the index table (held whole at the admissible contents) untouched; nothing owed; full shares. -/
def dat3 (c : Dev nD) : Dat τ (Elt F) Unit ℕ (UR sig nD τ) ℕ (cfg3 a3) c where
  A w := V c (Pipeline.arrRef spec3 w)
  after w t := match w with
    | ⟨0, _⟩ => iblk3 V a3 c 0 t
    | ⟨1, _⟩ => out3_1 (iblk3 V a3 c 0 t)
  Φ _ := iprop(Pipeline.ΦA spec3 c ∗
    Pipeline.prefHeld (Ix := Unit) (Name := ℕ) (U := UR sig nD τ) (Lvl := ℕ) pre3 c (fun _ => fullShare) a3.1)
  q _ := fullShare
  owed _ := 0

theorem A_eq3 (c : Dev nD) (w : Fin (cfg3 a3).W) : (dat3 V a3 c).A w = V c (Pipeline.arrRef spec3 w) := by
  dsimp only [dat3]

theorem after3_0 (c : Dev nD) (t : Fin (cfg3 a3).N) : (dat3 V a3 c).after 0 t = iblk3 V a3 c 0 t := by dsimp only [dat3]; rfl
theorem after3_1 (c : Dev nD) (t : Fin (cfg3 a3).N) : (dat3 V a3 c).after 1 t = out3_1 (iblk3 V a3 c 0 t) := by dsimp only [dat3]; rfl

end Cert.KernelIdeal.Hand

end
-- ==== Proof.KI.R3.lean ====
/-
  The row gather (pallas_call 3): the body obligation at the buffer contents `V` the region is entered with and at
  admissible contents `a3` of the index table. The table row's staging buffer holds its block at every point — fetched
  there, or, where the index table repeats an entry, still in place from the point before — so the body loads that row and
  stores it over the whole of the result buffer. The index table itself is held whole in the invariant and is never read
  by the body: it rides through every point untouched.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import proofs.«401280_j80350248174011_2_alg».proof.Proof.KI.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a3 : (pcfg3 (F := F)).Adm)

/-- The table row's current staging buffer holds its block at every point, fetched there or not: unfetched, the block
    index (the index table's entry) has not moved. -/
theorem before3_0_of {c : Dev nD} (dat : Dat τ (Elt F) Unit ℕ (UR sig nD τ) ℕ (cfg3 a3) c) (hA : dat.A 0 = V c (Pipeline.arrRef spec3 0))
    (hafter : ∀ t, dat.after 0 t = iblk3 V a3 c 0 t) (t : Fin (cfg3 a3).N) (d) : dat.before 0 t d = iblk3 V a3 c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store tiles the result block, so it covers it. -/
theorem cover3_1 (p0 : Vec F S1x2x128 .f32) (y : S1x2x128.Idx) :
    ∃ pc ∈ ([⟨rG3, p0⟩] : List (View.Piece (Elt F) S1x2x128 .f32)), y ∈ pc.1.set :=
  View.cover_of_tiled [⟨rG3, p0⟩] S1x2x128.size (by rfl) y

set_option maxHeartbeats 1000000 in
/-- The body on whole staging memrefs, the table row's at read contents and the result's at anything, runs to the
    continuation holding the row as it was and the result at the row loaded; the index table is not touched. -/
theorem sound_kernel3 (c : Dev nD) (E : Set ℕ) (i : grid3.Coords) (arg1 : Memref sig .tc .smem S12288 .i32) (harg1 : arg1.IsWhole)
    (arg2 : Memref sig .tc .vmem S1x2x128 .f32) (harg2 : arg2.IsWhole) (arg3 : Memref sig .tc .vmem S1x2x128 .f32) (harg3 : arg3.IsWhole)
    (x0 : Vec F S1x2x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_1 x0)) -∗ K ⟨⟩))
      ⊢ wp frame (wpE (defs₀ (F := F)) Variants.none c none) E (cc3__gather_kernel i arg1 harg1 arg2 harg2 arg3 harg3) K := by
  simp only [cc3__gather_kernel_eq_skeleton]; unfold cc3__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The table row's current staging buffer holds its block at every point. -/
theorem before3_0 (c : Dev nD) (t : Fin (cfg3 a3).N) (d) : (dat3 V a3 c).before 0 t d = iblk3 V a3 c 0 t :=
  before3_0_of V a3 (dat3 V a3 c) (A_eq3 V a3 c 0) (after3_0 V a3 c) t d

/-- The current staging memref of each window at point `t`. -/
abbrev st3_0 (t : Fin (cfg3 a3).N) := ((cfg3 a3).win 0).stage ((cfg3 a3).slots t 0)
abbrev st3_1 (t : Fin (cfg3 a3).N) := ((cfg3 a3).win 1).stage ((cfg3 a3).slots t 1)

/-- The kernel body at point `t`, on what the pipeline calls it with. -/
abbrev bodyAt3 (t : Fin (cfg3 a3).N) : Prog (TpuEff nD τ sig (Elt F) Λ₀ .tc) PUnit :=
  cc3__gather_kernel (grid3.coords t) (Memref.whole main_v77) (Memref.isWhole_whole _)
    (spec3_0.stage ((cfg3 a3).slots t 0)) (hstage3_0 (((cfg3 a3).slots t 0).cast nbuf3_0))
    (spec3_1.stage ((cfg3 a3).slots t 1)) (hstage3_1 (((cfg3 a3).slots t 1).cast nbuf3_1))

/-- What the body is called with at point `t`, the windows one by one, -/
def bodyPre3 (c : Dev nD) (t : Fin (cfg3 a3).N) : sProp 𝕄 :=
  iprop((dat3 V a3 c).Φ t.castSucc ∗ (dat3 V a3 c).owesAt () t.castSucc
    ∗ (∃ d, owns (c : Thread nD τ) (st3_0 a3 t) fullShare ((dat3 V a3 c).before 0 t d))
    ∗ (∃ d, owns (c : Thread nD τ) (st3_1 a3 t) fullShare ((dat3 V a3 c).before 1 t d)))

/-- and what it returns. -/
def bodyPost3 (c : Dev nD) (t : Fin (cfg3 a3).N) : sProp 𝕄 :=
  iprop((dat3 V a3 c).Φ t.succ ∗ (dat3 V a3 c).owesAt () t.succ
    ∗ owns (c : Thread nD τ) (st3_0 a3 t) fullShare ((dat3 V a3 c).after 0 t)
    ∗ owns (c : Thread nD τ) (st3_1 a3 t) fullShare ((dat3 V a3 c).after 1 t))

/-- The body at any point: the table row's memref holds its block, so the body's triple applies; the invariant (with the
    index table in it) and the core's debts pass through unread. -/
theorem sound_body3 (c : Dev nD) (t : Fin (cfg3 a3).N) :
    bodyPre3 V a3 c t ⊢ wp frame (wpE (defs₀ (F := F)) Variants.none c none) Set.univ (bodyAt3 a3 t) (fun _ => bodyPost3 V a3 c t) := by
  unfold bodyPre3 bodyPost3 bodyAt3
  simp only [before3_0]
  rw [show (dat3 V a3 c).Φ t.succ = (dat3 V a3 c).Φ t.castSucc from rfl,
    show (dat3 V a3 c).owesAt () t.succ = (dat3 V a3 c).owesAt () t.castSucc from rfl,
    after3_0, after3_1]
  iintro ⟨HΦ, Ho, ⟨%d0, H0⟩, ⟨%d1, H1⟩⟩
  iapply (sound_kernel3 c Set.univ _ _ _ _ _ _ _ (iblk3 V a3 c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V a3 c) (defs₀ (F := F)) Variants.none () Set.univ := fun t => by
  rw [bigSep_W3, bigSep_W3]
  exact sound_body3 V a3 c t

end Cert.KernelIdeal.Hand

end
-- ==== Proof.KI.Run.lean ====
/-
  The whole program as a chain of nine segments — five stretches of host operations and the four pallas_calls between
  them — run from the launch to the return. The contents of every unscoped buffer at each of the ten boundaries are a
  fold from the launch memory: a host stretch applies its operations, a pallas_call leaves its arrays at what its
  write-backs leave and every other buffer as entered. The gather call's index table is read off the boundary before it;
  the run needs every entry of it to name a row of the 125000-row table (`Ok`).
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import proofs.«401280_j80350248174011_2_alg».proof.Proof.KI.R0
import proofs.«401280_j80350248174011_2_alg».proof.Proof.KI.R1
import proofs.«401280_j80350248174011_2_alg».proof.Proof.KI.R2
import proofs.«401280_j80350248174011_2_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (pallas_call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (pallas_call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (pallas_call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (the gather call's entry): the table laid out, the index table built. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- The index table's contents when the gather call is entered (one device). -/
def tbl : pre3.Contents (Elt F) := fun j => V7 m ρ (0 : Dev nD) (pre3.ref j)
theorem V7_pre (c : Dev nD) (j : Fin 1) : V7 m ρ c (pre3.ref j) = tbl m ρ j := by
  obtain rfl : c = 0 := Subsingleton.elim _ _; rfl
/-- Every entry of the index table names a row of the table. -/
abbrev Ok : Prop := ok3 (F := F) (tbl m ρ)

variable (hO : Ok m ρ)

/-- The index table as admissible contents. -/
abbrev a3 : (pcfg3 (F := F)).Adm := ⟨tbl m ρ, hO⟩

/-- After the gather call. -/
def W8 (c : Dev nD) : Valuation τ sig (Elt F) :=
  Pipeline.withArrays spec3 c (W7 m ρ c) fun w => (dat3 (V7 m ρ) (a3 m ρ hO) c).arrAt w (cfg3 (a3 m ρ hO)).N
theorem W8_arr (c : Dev nD) (w : Fin (cfg3 (a3 m ρ hO)).W) :
    W8 m ρ hO c (Proc.devRef .tc (Pipeline.arrRef spec3 w)) = (dat3 (V7 m ρ) (a3 m ρ hO) c).arrAt w (cfg3 (a3 m ρ hO)).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ hO c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ hO c b
theorem hF3 (c : Dev nD) (w : Fin (cfg3 (a3 m ρ hO)).W) :
    (dat3 (V7 m ρ) (a3 m ρ hO) c).arrAt w (cfg3 (a3 m ρ hO)).N = V8 m ρ hO c (Pipeline.arrRef spec3 w) :=
  (W8_arr m ρ hO c w).symm
theorem hrest3 (c : Dev nD) : ∀ b, b ∉ Finset.univ.image (Pipeline.arrRef spec3) → V8 m ρ hO c b = V7 m ρ c b :=
  fun b hb => W8_of_ne m ρ hO c b fun w e => hb (Finset.mem_image.mpr ⟨w, Finset.mem_univ _, e⟩)

/-- After the last host stretch: the return. -/
abbrev W9 : Dev nD → Valuation τ sig (Elt F) := fun c => StableHlo.after hostOps4 (W8 m ρ hO c)

/-! ## The proof data family and the thread state -/

/-- Admissible table contents per pallas_call: only the gather call has a table. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => a3 m ρ hO
  | ⟨_ + 4, h⟩ => absurd h (Nat.not_lt.2 (Nat.le_add_left _ _))

/-- Every pallas_call's proof data, each at its entry contents. -/
def pdats : (p : Fin 4) → (c : Dev nD) → Dat τ (Elt F) Unit ℕ (UR sig nD τ) ℕ (Pipeline.pin (pcfgs (F := F)) (adm m ρ hO) p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) (a3 m ρ hO) c
  | ⟨_ + 4, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W9 m ρ hO c) ∗ ∃ r, prngReg c r)

/-! ## The pallas_calls as segments -/

set_option backward.isDefEq.respectTransparency.types false in
/-- Pallas_call 0 as a segment: entered with every unscoped buffer at `W1`, left with them at `W2`: its arrays are split
    out of the unscoped buffers and put back at what the write-backs leave; the generator register passes through the
    region's invariant; nothing is owed. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`: its arrays are split
    out of the unscoped buffers and put back at what the write-backs leave; the generator register passes through the
    region's invariant; nothing is owed. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ c) (V4 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W5`, left with them at `W6`: its arrays are split
    out of the unscoped buffers and put back at what the write-backs leave; the generator register passes through the
    region's invariant; nothing is owed. -/
def reg2 : Pipeline.RegionSeg (pcfgs (F := F)) (adm m ρ hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) (adm m ρ hO) (pdats m ρ hO) (launch2 (F := F)).win (launch2 (F := F)).arr_whole c
      ((pdats m ρ hO 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ hO 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ hO) (Ix := Unit) (Name := ℕ) (U := UR sig nD τ) (Lvl := ℕ)
      (launch2 (F := F)).win (launch2 (F := F)).arr_whole c (pdats m ρ hO) ((pdats m ρ hO 2 c).share_full fun _ => rfl)
      (V5 m ρ c) (V6 m ρ c) ((pdats m ρ hO 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call as a segment: entered with every unscoped buffer at `W7`, left with them at `W8`. Besides its two
    arrays the index table is split out of the unscoped buffers: it rides through the region's invariant whole and
    comes back unchanged. -/
def reg3 : Pipeline.RegionSeg (pcfgs (F := F)) (adm m ρ hO) (pdats m ρ hO) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V7 m ρ) (a3 m ρ hO) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ hO c) ∗ R c)
  X c := iprop(∃ r, prngReg c r)
  Y c := iprop((∃ r, prngReg c r) ∗ Pipeline.prefHeld (Ix := Unit) (Name := ℕ) (U := UR sig nD τ) (Lvl := ℕ) pre3 c (fun _ => fullShare) (tbl m ρ))
  Z c := Pipeline.unscopedRestP (Ix := Unit) (Name := ℕ) (U := UR sig nD τ) (Lvl := ℕ) pre3 spec3 c (V7 m ρ c)
  hentry c := by
    rw [Pipeline.ownSems0_none]
    have hsplit := Pipeline.arrays_of_unscopedBufs (p := 3) (pcfgs (F := F)) (adm m ρ hO) (pdats m ρ hO) (launch3 (F := F)).win (launch3 (F := F)).arr_whole c
      ((pdats m ρ hO 3 c).share_full fun _ => rfl) (V7 m ρ c) fun _ => rfl
    have htb : (fun k => V7 m ρ c ((pcfgs (F := F) 3).pre.ref k)) = tbl m ρ := funext (V7_pre m ρ c)
    rw [Pipeline.unscopedBufs_held, Pipeline.unscopedRest_split (launch3 (F := F)).pre c (V7 m ρ c), htb] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 3 c).Φ 0 = iprop(Pipeline.ΦA spec3 c ∗ Pipeline.prefHeld (Ix := Unit) (Name := ℕ) (U := UR sig nD τ) (Lvl := ℕ) pre3 c (fun _ => fullShare) (tbl m ρ)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m ρ hO 3 c).Φ (Fin.last _) = iprop(Pipeline.ΦA spec3 c ∗ Pipeline.prefHeld (Ix := Unit) (Name := ℕ) (U := UR sig nD τ) (Lvl := ℕ) pre3 c (fun _ => fullShare) (tbl m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m ρ hO) (Ix := Unit) (Name := ℕ) (U := UR sig nD τ) (Lvl := ℕ)
      (launch3 (F := F)).win (launch3 (F := F)).arr_whole c (pdats m ρ hO) ((pdats m ρ hO 3 c).share_full fun _ => rfl)
      (V7 m ρ c) (V8 m ρ hO c) ((pdats m ρ hO 3 c).arrAt · (cfg3 (a3 m ρ hO)).N) (hF3 m ρ hO c) (hrest3 m ρ hO c)
    have htb : (fun k => V7 m ρ c ((pcfgs (F := F) 3).pre.ref k)) = tbl m ρ := funext (V7_pre m ρ c)
    rw [Pipeline.unscopedBufs_held, Pipeline.unscopedRest_split (launch3 (F := F)).pre c (V7 m ρ c), htb] at hjoin
    iintro ⟨Ha, HO, ⟨Hp, Ht⟩, Hrest⟩
    imodintro
    isplitl [Ha Hrest Ht]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ)),
    .region (reg1 m ρ hO),
    .host (hseg hostOps2 hostOps2_sub hostOps2_fresh (W4 m ρ)),
    .region (reg2 m ρ hO),
    .host (hseg hostOps3 hostOps3_sub hostOps3_fresh (W6 m ρ)),
    .region (reg3 m ρ hO),
    .host (hseg hostOps4 hostOps4_sub hostOps4_fresh (W8 m ρ hO)) ]

set_option backward.isDefEq.respectTransparency.types false in
/-- THE RUN. From any memory with zero counters, when every entry of the index table names a table row: every weakly
    fair execution of the program terminates, nothing faulting, and every final memory holds each unscoped buffer at the
    last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by
      rewrite [main_chain c, Pipeline.Seg.run_eq_chain,
        show (segs m ρ hO).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W9 m ρ hO c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ hO c b)
    (hfin := fun c s' => by
      iintro ⟨Hh, HSI⟩
      unfold StableHlo.held
      imodintro
      iapply (pointsTo_read_all (Pipeline.ucRefs τ sig) (fun b => (((c : Thread nD τ)).1, b)) (W9 m ρ hO c) s')
      isplitl [Hh] <;> iassumption)
    (hQ := fun s h => h)

end Cert.KernelIdeal.Hand

end
-- ==== Proof.KI.TailIdx.lean ====
/-
  The kernel program's host tail, read at an index. Before the gather call the host lays the four feature tables side
  by side, builds the gather's index table (the user indices, then the positive and the negative item indices each moved
  up by 50000, the first item row) and views the [125000, 256] table as [125000, 2, 128]; after it, the gathered
  [12288, 2, 128] rows are viewed as [12288, 256] and cut into three blocks of 4096 rows. Each is read here at an index:
  the table's three thirds, the two row-major re-viewings (column c of a 256-wide row is half c / 128, lane c % 128), the
  three row blocks; and the gather call's index map, which reads word (grid coordinate) of the table, with the call's
  side condition that every word names a row of the 125000.
-/
import proofs.«401280_j80350248174011_2_alg».proof.KernelIdeal
import Idealize.ShloMosaic.Lib.ValueIdx
import Idealize.ShloMosaic.Lib.Pipeline.Value

noncomputable section

namespace Cert.KernelIdeal.Tail

open Cert.KernelIdeal Cert.KernelIdeal.Facts₀ Cert.KernelIdeal.Facts
open Idealize.ShloMosaic Idealize.SL.Sem

variable {F : FTy → Type} [FloatOps F] [Cert.KernelIdeal.Facts]

/-! ## The gather's index table -/

/-- The gather's index table: the user indices, then the positive and the negative item indices, each plus 50000. -/
def idxTab (u p n : IVec S4096 32) : IVec S12288 32 :=
  concatenate S12288 0 [⟨S4096, u⟩, ⟨S4096, addi p (broadcastInDim S4096 ![] bcast_S_S4096 (constantI S_ 32 50000#32))⟩,
    ⟨S4096, addi n (broadcastInDim S4096 ![] bcast_S_S4096 (constantI S_ 32 50000#32))⟩] concatenates_S4096_S4096_S4096_S12288_d0

variable (u p n : IVec S4096 32)

/-- Entry k of the first third is user index k. -/
theorem idxTab_user_at (k : Fin 12288) (i : Fin 4096) (hk : k.val = i.val) : idxTab u p n (ValueIdx.ix1 k) = u (ValueIdx.ix1 i) := by
  unfold idxTab
  refine concatenate_apply_piece (t := S12288) 0 _ _ _ 0 ?_ S4096 u ?_ rfl 0 ?_ (ValueIdx.ix1 i) ?_ ?_
  · simp only [List.length_cons, List.length_nil]; omega
  · rfl
  · rfl
  · exact fun b hb => absurd (Subsingleton.elim _ _) hb
  · show 0 + i.val = k.val
    omega

/-- Entry 4096 + k of the table is positive item index k plus 50000. -/
theorem idxTab_pos_at (k : Fin 12288) (i : Fin 4096) (hk : k.val = 4096 + i.val) :
    idxTab u p n (ValueIdx.ix1 k) = p (ValueIdx.ix1 i) + 50000#32 := by
  unfold idxTab
  show _ = (addi p (broadcastInDim S4096 ![] bcast_S_S4096 (constantI S_ 32 50000#32))) (ValueIdx.ix1 i)
  refine concatenate_apply_piece (t := S12288) 0 _ _ _ 1 ?_ S4096
    (addi p (broadcastInDim S4096 ![] bcast_S_S4096 (constantI S_ 32 50000#32))) ?_ rfl 4096 ?_ (ValueIdx.ix1 i) ?_ ?_
  · simp only [List.length_cons, List.length_nil]; omega
  · rfl
  · rfl
  · exact fun b hb => absurd (Subsingleton.elim _ _) hb
  · show 4096 + i.val = k.val
    omega

/-- Entry 8192 + k of the table is negative item index k plus 50000. -/
theorem idxTab_neg_at (k : Fin 12288) (i : Fin 4096) (hk : k.val = 8192 + i.val) :
    idxTab u p n (ValueIdx.ix1 k) = n (ValueIdx.ix1 i) + 50000#32 := by
  unfold idxTab
  show _ = (addi n (broadcastInDim S4096 ![] bcast_S_S4096 (constantI S_ 32 50000#32))) (ValueIdx.ix1 i)
  refine concatenate_apply_piece (t := S12288) 0 _ _ _ 2 ?_ S4096
    (addi n (broadcastInDim S4096 ![] bcast_S_S4096 (constantI S_ 32 50000#32))) ?_ rfl 8192 ?_ (ValueIdx.ix1 i) ?_ ?_
  · simp only [List.length_cons, List.length_nil]; omega
  · rfl
  · rfl
  · exact fun b hb => absurd (Subsingleton.elim _ _) hb
  · show 8192 + i.val = k.val
    omega

theorem idxTab_user (i : Fin 4096) : idxTab u p n (ValueIdx.ix1 ⟨i.val, by omega⟩) = u (ValueIdx.ix1 i) :=
  idxTab_user_at u p n _ i rfl
theorem idxTab_pos (i : Fin 4096) : idxTab u p n (ValueIdx.ix1 ⟨4096 + i.val, by omega⟩) = p (ValueIdx.ix1 i) + 50000#32 :=
  idxTab_pos_at u p n _ i rfl
theorem idxTab_neg (i : Fin 4096) : idxTab u p n (ValueIdx.ix1 ⟨8192 + i.val, by omega⟩) = n (ValueIdx.ix1 i) + 50000#32 :=
  idxTab_neg_at u p n _ i rfl

/-- An item index below 75000 moved up by 50000 does not wrap. -/
theorem toNat_add_50000 (w : BitVec 32) (h : w.toNat < 75000) : (w + 50000#32).toNat = 50000 + w.toNat := by
  rw [BitVec.toNat_add, BitVec.toNat_ofNat]; omega

/-- With the three index vectors in range, every word of the table names a row of the 125000. -/
theorem idxTab_lt (hu : ∀ j, (u j).toNat < 50000) (hp : ∀ j, (p j).toNat < 75000) (hn : ∀ j, (n j).toNat < 75000)
    (i : Fin 12288) : (idxTab u p n (ValueIdx.ix1 i)).toNat < 125000 := by
  by_cases h1 : i.val < 4096
  · rw [idxTab_user_at u p n i ⟨i.val, h1⟩ rfl]
    have := hu (ValueIdx.ix1 ⟨i.val, h1⟩); omega
  · by_cases h2 : i.val < 8192
    · rw [idxTab_pos_at u p n i ⟨i.val - 4096, by omega⟩ (by show i.val = 4096 + (i.val - 4096); omega),
        toNat_add_50000 _ (hp _)]
      have := hp (ValueIdx.ix1 ⟨i.val - 4096, by omega⟩); omega
    · have hi := i.isLt
      rw [idxTab_neg_at u p n i ⟨i.val - 8192, by omega⟩ (by show i.val = 8192 + (i.val - 8192); omega),
        toNat_add_50000 _ (hn _)]
      have := hn (ValueIdx.ix1 ⟨i.val - 8192, by omega⟩); omega

/-! ## The two row-major re-viewings and the three row blocks -/

/-- The [125000, 256] table viewed as [125000, 2, 128]. -/
def view3 (T : FVec F S125000x256 .f32) : FVec F S125000x2x128 .f32 :=
  shapeCast S125000x2x128 T shapeCasts_S125000x256_S125000x2x128

/-- Half a, lane l of row r is column 128·a + l of row r. -/
theorem view3_apply (T : FVec F S125000x256 .f32) (r : Fin 125000) (a : Fin 2) (l : Fin 128) :
    view3 T (ValueIdx.ix3 r a l) = T (ValueIdx.ix2 r ⟨128 * a.val + l.val, by omega⟩) := by
  unfold view3
  refine shapeCast_apply _ _ _ _ ?_
  rw [Shape.rowMajor_val_two, Shape.rowMajor_val_three]
  show r.val * 256 + (128 * a.val + l.val) = (r.val * 2 + a.val) * 128 + l.val
  omega

/-- The gathered [12288, 2, 128] rows viewed as [12288, 256]. -/
def flat (G : FVec F S12288x2x128 .f32) : FVec F S12288x256 .f32 :=
  shapeCast S12288x256 G shapeCasts_S12288x2x128_S12288x256

/-- Column c of row r is half c / 128, lane c % 128 of row r. -/
theorem flat_apply (G : FVec F S12288x2x128 .f32) (r : Fin 12288) (c : Fin 256) :
    flat G (ValueIdx.ix2 r c) = G (ValueIdx.ix3 r ⟨c.val / 128, by omega⟩ ⟨c.val % 128, by omega⟩) := by
  unfold flat
  refine shapeCast_apply _ _ _ _ ?_
  rw [Shape.rowMajor_val_two, Shape.rowMajor_val_three]
  show (r.val * 2 + c.val / 128) * 128 + c.val % 128 = r.val * 256 + c.val
  omega

/-- Rows 0 … 4095, 4096 … 8191, 8192 … 12287 of the flattened rows. -/
def rowsAt0 (G : FVec F S12288x2x128 .f32) : FVec F S4096x256 .f32 :=
  extractStridedSlice S4096x256 ![0, 0] (flat G) slices_S12288x256_S4096x256_0_0
def rowsAt1 (G : FVec F S12288x2x128 .f32) : FVec F S4096x256 .f32 :=
  extractStridedSlice S4096x256 ![4096, 0] (flat G) slices_S12288x256_S4096x256_4096_0
def rowsAt2 (G : FVec F S12288x2x128 .f32) : FVec F S4096x256 .f32 :=
  extractStridedSlice S4096x256 ![8192, 0] (flat G) slices_S12288x256_S4096x256_8192_0

theorem rowsAt0_apply (G : FVec F S12288x2x128 .f32) (i : Fin 4096) (j : Fin 256) :
    rowsAt0 G (ValueIdx.ix2 i j) = G (ValueIdx.ix3 ⟨i.val, by omega⟩ ⟨j.val / 128, by omega⟩ ⟨j.val % 128, by omega⟩) := by
  unfold rowsAt0
  rw [extractStridedSlice_apply _ _ _ _ (ValueIdx.ix2 ⟨i.val, by omega⟩ j)
    (fun a => match a with | ⟨0, _⟩ => (Nat.zero_add _).symm | ⟨1, _⟩ => (Nat.zero_add _).symm)]
  exact flat_apply G _ _

theorem rowsAt1_apply (G : FVec F S12288x2x128 .f32) (i : Fin 4096) (j : Fin 256) :
    rowsAt1 G (ValueIdx.ix2 i j) = G (ValueIdx.ix3 ⟨4096 + i.val, by omega⟩ ⟨j.val / 128, by omega⟩ ⟨j.val % 128, by omega⟩) := by
  unfold rowsAt1
  rw [extractStridedSlice_apply _ _ _ _ (ValueIdx.ix2 ⟨4096 + i.val, by omega⟩ j)
    (fun a => match a with | ⟨0, _⟩ => rfl | ⟨1, _⟩ => (Nat.zero_add _).symm)]
  exact flat_apply G _ _

theorem rowsAt2_apply (G : FVec F S12288x2x128 .f32) (i : Fin 4096) (j : Fin 256) :
    rowsAt2 G (ValueIdx.ix2 i j) = G (ValueIdx.ix3 ⟨8192 + i.val, by omega⟩ ⟨j.val / 128, by omega⟩ ⟨j.val % 128, by omega⟩) := by
  unfold rowsAt2
  rw [extractStridedSlice_apply _ _ _ _ (ValueIdx.ix2 ⟨8192 + i.val, by omega⟩ j)
    (fun a => match a with | ⟨0, _⟩ => rfl | ⟨1, _⟩ => (Nat.zero_add _).symm)]
  exact flat_apply G _ _

/-! ## The gather call's index map and side condition -/

/-- A grid coordinate of the gather call is below 12288. -/
theorem coord_lt (i : grid3.Coords) : (i 0).val < 12288 := (i 0).isLt

/-- The gather call's block index at grid point i: (word i of the table, 0, 0). -/
theorem transform0_eq (pf : pre3.Contents (Elt F)) (tab : IVec S12288 32) (hpf : pf 0 = tab) (i : grid3.Coords) :
    cc3_transform_0 k3_off1_inb numel1_S1 pf i = ![(tab (ValueIdx.ix1 ⟨(i 0).val, coord_lt i⟩)).toNat, 0, 0] := by
  subst hpf
  have hidx : ∀ h1, (Rect.unit (s := S12288) ![(Scalar.indexCast (BitVec.ofNat 32 (i 0).val)).toNat] S1.size (k3_off1_inb i)).emb
      (Shape.Idx.first h1) = ValueIdx.ix1 ⟨(i 0).val, coord_lt i⟩ := by
    intro h1
    funext a
    refine Fin.ext ?_
    obtain rfl : a = (0 : Fin 1) := Subsingleton.elim _ _
    rw [Rect.emb_apply]
    show (BitVec.ofNat 32 (i 0).val).toNat + 1 * (Shape.Idx.first h1 (0 : Fin 1)).val = (i 0).val
    have hz : (Shape.Idx.first h1 (0 : Fin 1)).val = 0 := by
      have : (Shape.Idx.first h1 (0 : Fin 1)).val < 1 := (Shape.Idx.first h1 (0 : Fin 1)).isLt
      omega
    rw [hz, BitVec.toNat_ofNat]
    have := coord_lt i
    omega
  have hw : pf.at 0 (Rect.unit (s := S12288) ![(Scalar.indexCast (BitVec.ofNat 32 (i 0).val)).toNat] S1.size (k3_off1_inb i)) numel1_S1
      = pf 0 (ValueIdx.ix1 ⟨(i 0).val, coord_lt i⟩) := congrArg (pf 0) (hidx _)
  exact congrArg (fun w : BitVec 32 => (![w.toNat, 0, 0] : Fin 3 → Nat)) hw

/-- The gather call's side condition, from the table's words all naming rows of the 125000. -/
theorem ok3_of_table (pf : pre3.Contents (Elt F)) (tab : IVec S12288 32) (hpf : pf 0 = tab)
    (h : ∀ i : Fin 12288, (tab (ValueIdx.ix1 i)).toNat < 125000) : ok3 (F := F) pf := by
  intro i
  refine ⟨?_, .inl rfl⟩
  rw [transform0_eq pf tab hpf i]
  have := h ⟨(i 0).val, coord_lt i⟩
  intro a
  match a with
  | ⟨0, _⟩ => show ((tab _).toNat + 1) * 1 ≤ 125000; omega
  | ⟨1, _⟩ => show (0 + 1) * 2 ≤ 2; omega
  | ⟨2, _⟩ => show (0 + 1) * 128 ≤ 128; omega

end Cert.KernelIdeal.Tail

end
-- ==== Proof.KI.FoldArgs.lean ====
/-
  Reading the run's fold at the buffers no segment writes. The contents of every unscoped buffer at the ten boundaries of
  the program are a fold from the launch memory: a host stretch changes only the buffers its operations write, a
  pallas_call only its result arrays. So each of the eleven arguments holds its launch contents at every boundary, a
  pallas_call's result that no later segment writes is still there at the later boundaries, and the index table the last
  call is entered with is the three index vectors laid end to end, the second and third shifted past the user rows.
-/
import proofs.«401280_j80350248174011_2_alg».proof.Proof.KI.Run
import proofs.«401280_j80350248174011_2_alg».proof.Proof.KI.TailIdx
import proofs.«401280_j80350248174011_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W9_of (hO : Ok m ρ) (c : Dev nD) (r : Ref sig .tc) (h : r ∉ hostOps4_W) :
    W9 m ρ hO c (Proc.devRef .tc r) = W8 m ρ hO c (Proc.devRef .tc r) :=
  StableHlo.after_of_writes_sub hostOps4 _ hostOps4_writes h

/-- The node-feature argument is pallas_call 0's second input window: an input's array is never written. -/
theorem W2_in1 (c : Dev nD) : W2 m ρ c (Proc.devRef .tc main_arg6) = W1 m ρ c (Proc.devRef .tc main_arg6) :=
  (W2_arr m ρ c 1).trans (((dat0 (V1 m ρ) c).arrAt_in 1 rfl _).trans (A_eq0 (V1 m ρ) c 1))

/-! ## The arguments hold their launch contents at every boundary -/
theorem W1_arg0 (c : Dev nD) : W1 m ρ c (Proc.devRef .tc main_arg0) = m ((c : Thread nD τ).loc main_arg0) :=
  (W1_of m ρ c main_arg0 (by decide)).trans rfl
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_of m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_of m ρ c main_arg0 (by decide)).trans (W6_arg0 m ρ c)
theorem W8_arg0 (hO : Ok m ρ) (c : Dev nD) : W8 m ρ hO c (Proc.devRef .tc main_arg0) = m ((c : Thread nD τ).loc main_arg0) :=
  (W8_of_ne m ρ hO c main_arg0 (by decide)).trans (W7_arg0 m ρ c)
theorem W9_arg0 (hO : Ok m ρ) (c : Dev nD) : W9 m ρ hO c (Proc.devRef .tc main_arg0) = m ((c : Thread nD τ).loc main_arg0) :=
  (W9_of m ρ hO c main_arg0 (by decide)).trans (W8_arg0 m ρ hO c)

theorem W1_arg1 (c : Dev nD) : W1 m ρ c (Proc.devRef .tc main_arg1) = m ((c : Thread nD τ).loc main_arg1) :=
  (W1_of m ρ c main_arg1 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (W5_of m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of m ρ c main_arg1 (by decide)).trans (W6_arg1 m ρ c)
theorem W8_arg1 (hO : Ok m ρ) (c : Dev nD) : W8 m ρ hO c (Proc.devRef .tc main_arg1) = m ((c : Thread nD τ).loc main_arg1) :=
  (W8_of_ne m ρ hO c main_arg1 (by decide)).trans (W7_arg1 m ρ c)
theorem W9_arg1 (hO : Ok m ρ) (c : Dev nD) : W9 m ρ hO c (Proc.devRef .tc main_arg1) = m ((c : Thread nD τ).loc main_arg1) :=
  (W9_of m ρ hO c main_arg1 (by decide)).trans (W8_arg1 m ρ hO c)

theorem W1_arg2 (c : Dev nD) : W1 m ρ c (Proc.devRef .tc main_arg2) = m ((c : Thread nD τ).loc main_arg2) :=
  (W1_of m ρ c main_arg2 (by decide)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_of m ρ c main_arg2 (by decide)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of m ρ c main_arg2 (by decide)).trans (W6_arg2 m ρ c)
theorem W8_arg2 (hO : Ok m ρ) (c : Dev nD) : W8 m ρ hO c (Proc.devRef .tc main_arg2) = m ((c : Thread nD τ).loc main_arg2) :=
  (W8_of_ne m ρ hO c main_arg2 (by decide)).trans (W7_arg2 m ρ c)
theorem W9_arg2 (hO : Ok m ρ) (c : Dev nD) : W9 m ρ hO c (Proc.devRef .tc main_arg2) = m ((c : Thread nD τ).loc main_arg2) :=
  (W9_of m ρ hO c main_arg2 (by decide)).trans (W8_arg2 m ρ hO c)

theorem W1_arg3 (c : Dev nD) : W1 m ρ c (Proc.devRef .tc main_arg3) = m ((c : Thread nD τ).loc main_arg3) :=
  (W1_of m ρ c main_arg3 (by decide)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (W5_of m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of m ρ c main_arg3 (by decide)).trans (W6_arg3 m ρ c)
theorem W8_arg3 (hO : Ok m ρ) (c : Dev nD) : W8 m ρ hO c (Proc.devRef .tc main_arg3) = m ((c : Thread nD τ).loc main_arg3) :=
  (W8_of_ne m ρ hO c main_arg3 (by decide)).trans (W7_arg3 m ρ c)
theorem W9_arg3 (hO : Ok m ρ) (c : Dev nD) : W9 m ρ hO c (Proc.devRef .tc main_arg3) = m ((c : Thread nD τ).loc main_arg3) :=
  (W9_of m ρ hO c main_arg3 (by decide)).trans (W8_arg3 m ρ hO c)

theorem W1_arg4 (c : Dev nD) : W1 m ρ c (Proc.devRef .tc main_arg4) = m ((c : Thread nD τ).loc main_arg4) :=
  (W1_of m ρ c main_arg4 (by decide)).trans rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_of m ρ c main_arg4 (by decide)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (W7_of m ρ c main_arg4 (by decide)).trans (W6_arg4 m ρ c)
theorem W8_arg4 (hO : Ok m ρ) (c : Dev nD) : W8 m ρ hO c (Proc.devRef .tc main_arg4) = m ((c : Thread nD τ).loc main_arg4) :=
  (W8_of_ne m ρ hO c main_arg4 (by decide)).trans (W7_arg4 m ρ c)
theorem W9_arg4 (hO : Ok m ρ) (c : Dev nD) : W9 m ρ hO c (Proc.devRef .tc main_arg4) = m ((c : Thread nD τ).loc main_arg4) :=
  (W9_of m ρ hO c main_arg4 (by decide)).trans (W8_arg4 m ρ hO c)

theorem W1_arg5 (c : Dev nD) : W1 m ρ c (Proc.devRef .tc main_arg5) = m ((c : Thread nD τ).loc main_arg5) :=
  (W1_of m ρ c main_arg5 (by decide)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_of m ρ c main_arg5 (by decide)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (W5_of m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_of m ρ c main_arg5 (by decide)).trans (W6_arg5 m ρ c)
theorem W8_arg5 (hO : Ok m ρ) (c : Dev nD) : W8 m ρ hO c (Proc.devRef .tc main_arg5) = m ((c : Thread nD τ).loc main_arg5) :=
  (W8_of_ne m ρ hO c main_arg5 (by decide)).trans (W7_arg5 m ρ c)
theorem W9_arg5 (hO : Ok m ρ) (c : Dev nD) : W9 m ρ hO c (Proc.devRef .tc main_arg5) = m ((c : Thread nD τ).loc main_arg5) :=
  (W9_of m ρ hO c main_arg5 (by decide)).trans (W8_arg5 m ρ hO c)

theorem W1_arg6 (c : Dev nD) : W1 m ρ c (Proc.devRef .tc main_arg6) = m ((c : Thread nD τ).loc main_arg6) :=
  (W1_of m ρ c main_arg6 (by decide)).trans rfl
theorem W2_arg6 (c : Dev nD) : W2 m ρ c (Proc.devRef .tc main_arg6) = m ((c : Thread nD τ).loc main_arg6) :=
  (W2_in1 m ρ c).trans (W1_arg6 m ρ c)
theorem W3_arg6 (c : Dev nD) : W3 m ρ c (Proc.devRef .tc main_arg6) = m ((c : Thread nD τ).loc main_arg6) :=
  (W3_of m ρ c main_arg6 (by decide)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (W5_of m ρ c main_arg6 (by decide)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (W7_of m ρ c main_arg6 (by decide)).trans (W6_arg6 m ρ c)
theorem W8_arg6 (hO : Ok m ρ) (c : Dev nD) : W8 m ρ hO c (Proc.devRef .tc main_arg6) = m ((c : Thread nD τ).loc main_arg6) :=
  (W8_of_ne m ρ hO c main_arg6 (by decide)).trans (W7_arg6 m ρ c)
theorem W9_arg6 (hO : Ok m ρ) (c : Dev nD) : W9 m ρ hO c (Proc.devRef .tc main_arg6) = m ((c : Thread nD τ).loc main_arg6) :=
  (W9_of m ρ hO c main_arg6 (by decide)).trans (W8_arg6 m ρ hO c)

theorem W1_arg7 (c : Dev nD) : W1 m ρ c (Proc.devRef .tc main_arg7) = m ((c : Thread nD τ).loc main_arg7) :=
  (W1_of m ρ c main_arg7 (by decide)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (W3_of m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (W5_of m ρ c main_arg7 (by decide)).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) :=
  (W7_of m ρ c main_arg7 (by decide)).trans (W6_arg7 m ρ c)
theorem W8_arg7 (hO : Ok m ρ) (c : Dev nD) : W8 m ρ hO c (Proc.devRef .tc main_arg7) = m ((c : Thread nD τ).loc main_arg7) :=
  (W8_of_ne m ρ hO c main_arg7 (by decide)).trans (W7_arg7 m ρ c)
theorem W9_arg7 (hO : Ok m ρ) (c : Dev nD) : W9 m ρ hO c (Proc.devRef .tc main_arg7) = m ((c : Thread nD τ).loc main_arg7) :=
  (W9_of m ρ hO c main_arg7 (by decide)).trans (W8_arg7 m ρ hO c)

theorem W1_arg8 (c : Dev nD) : W1 m ρ c (Proc.devRef .tc main_arg8) = m ((c : Thread nD τ).loc main_arg8) :=
  (W1_of m ρ c main_arg8 (by decide)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (W3_of m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (W5_of m ρ c main_arg8 (by decide)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (W7_of m ρ c main_arg8 (by decide)).trans (W6_arg8 m ρ c)
theorem W8_arg8 (hO : Ok m ρ) (c : Dev nD) : W8 m ρ hO c (Proc.devRef .tc main_arg8) = m ((c : Thread nD τ).loc main_arg8) :=
  (W8_of_ne m ρ hO c main_arg8 (by decide)).trans (W7_arg8 m ρ c)
theorem W9_arg8 (hO : Ok m ρ) (c : Dev nD) : W9 m ρ hO c (Proc.devRef .tc main_arg8) = m ((c : Thread nD τ).loc main_arg8) :=
  (W9_of m ρ hO c main_arg8 (by decide)).trans (W8_arg8 m ρ hO c)

theorem W1_arg9 (c : Dev nD) : W1 m ρ c (Proc.devRef .tc main_arg9) = m ((c : Thread nD τ).loc main_arg9) :=
  (W1_of m ρ c main_arg9 (by decide)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (W3_of m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (W5_of m ρ c main_arg9 (by decide)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_of m ρ c main_arg9 (by decide)).trans (W6_arg9 m ρ c)
theorem W8_arg9 (hO : Ok m ρ) (c : Dev nD) : W8 m ρ hO c (Proc.devRef .tc main_arg9) = m ((c : Thread nD τ).loc main_arg9) :=
  (W8_of_ne m ρ hO c main_arg9 (by decide)).trans (W7_arg9 m ρ c)
theorem W9_arg9 (hO : Ok m ρ) (c : Dev nD) : W9 m ρ hO c (Proc.devRef .tc main_arg9) = m ((c : Thread nD τ).loc main_arg9) :=
  (W9_of m ρ hO c main_arg9 (by decide)).trans (W8_arg9 m ρ hO c)

theorem W1_arg10 (c : Dev nD) : W1 m ρ c (Proc.devRef .tc main_arg10) = m ((c : Thread nD τ).loc main_arg10) :=
  (W1_of m ρ c main_arg10 (by decide)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (W3_of m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (W5_of m ρ c main_arg10 (by decide)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_of m ρ c main_arg10 (by decide)).trans (W6_arg10 m ρ c)
theorem W8_arg10 (hO : Ok m ρ) (c : Dev nD) : W8 m ρ hO c (Proc.devRef .tc main_arg10) = m ((c : Thread nD τ).loc main_arg10) :=
  (W8_of_ne m ρ hO c main_arg10 (by decide)).trans (W7_arg10 m ρ c)
theorem W9_arg10 (hO : Ok m ρ) (c : Dev nD) : W9 m ρ hO c (Proc.devRef .tc main_arg10) = m ((c : Thread nD τ).loc main_arg10) :=
  (W9_of m ρ hO c main_arg10 (by decide)).trans (W8_arg10 m ρ hO c)

/-! ## What passes through -/

/-- The new features of the first round are pallas_call 1's second input and nothing in the second host stretch. -/
theorem V3_nf (c : Dev nD) : V3 m ρ c main_v23_0 = W2 m ρ c (Proc.devRef .tc main_v23_0) :=
  W3_of m ρ c main_v23_0 (by decide)
/-- The new features of the second round, likewise, at pallas_call 2's entry. -/
theorem V5_nf (c : Dev nD) : V5 m ρ c main_v47_0 = W4 m ρ c (Proc.devRef .tc main_v47_0) :=
  W5_of m ρ c main_v47_0 (by decide)

/-- The unit-row features of the first round are written by no later stretch or call before the table is laid out. -/
theorem W6_v23_1 (c : Dev nD) : W6 m ρ c (Proc.devRef .tc main_v23_1) = W2 m ρ c (Proc.devRef .tc main_v23_1) :=
  (W6_of_ne m ρ c main_v23_1 (by decide)).trans <| (W5_of m ρ c main_v23_1 (by decide)).trans <|
    (W4_of_ne m ρ c main_v23_1 (by decide)).trans (W3_of m ρ c main_v23_1 (by decide))
/-- The unit-row features of the second round, likewise. -/
theorem W6_v47_1 (c : Dev nD) : W6 m ρ c (Proc.devRef .tc main_v47_1) = W4 m ρ c (Proc.devRef .tc main_v47_1) :=
  (W6_of_ne m ρ c main_v47_1 (by decide)).trans (W5_of m ρ c main_v47_1 (by decide))

/-! ## The index table -/

/-- A three-operand host operation's result, with each operand's contents read at its own buffer. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The index table the gather call is entered with: the three index vectors end to end, the positive and negative item
    indices shifted past the 50000 user rows. -/
theorem V7_tab (c : Dev nD) : V7 m ρ c main_v77 = Tail.idxTab (m ((c : Thread nD τ).loc main_arg0)) (m ((c : Thread nD τ).loc main_arg1)) (m ((c : Thread nD τ).loc main_arg2)) := by
  show StableHlo.after hostOps3 _ (Proc.devRef .tc main_v77) = _
  simp only [StableHlo.after_cons, StableHlo.after_nil]
  repeat (first
    | rw [StableHlo.nullary_result] | rw [StableHlo.unary_result] | rw [StableHlo.binary_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [W6_arg0, W6_arg1, W6_arg2]
  rfl

end Cert.KernelIdeal.Hand

end
-- ==== Proof.KI.OkPre.lean ====
/-
  The gather call's side condition from the precondition. The precondition puts the user indices below 50000 and the
  two item index vectors below 75000; the gather's index table is the user indices followed by the item indices moved up
  by 50000, so each of its words is below 125000 and names a row of the table: the call's side condition.
-/
import proofs.«401280_j80350248174011_2_alg».proof.Proof.KI.Run
import proofs.«401280_j80350248174011_2_alg».proof.Proof.KI.FoldArgs
import proofs.«401280_j80350248174011_2_alg».proof.Proof.KI.TailIdx
import proofs.«401280_j80350248174011_2_alg».proof.Proof.PreRange

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The precondition at device c: the printed predicate of the eleven argument arrays is all ones. -/
abbrev PreAt [Cert.Pre_finite_inputs.Facts] (c : Dev nD) : Prop :=
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    = fun _ => 1#1

/-- Under the precondition the three index vectors are in range: users below 50000, items below 75000. -/
theorem ranges_of_pre [Cert.Pre_finite_inputs.Facts] (c : Dev nD) (h : PreAt m c) :
    (∀ j, ((m ((c.tc : Thread nD τ).loc main_arg0)) j).toNat < 50000) ∧
    (∀ j, ((m ((c.tc : Thread nD τ).loc main_arg1)) j).toNat < 75000) ∧
    (∀ j, ((m ((c.tc : Thread nD τ).loc main_arg2)) j).toNat < 75000) :=
  Cert.PreRange.ranges _ _ _ _ _ _ _ _ _ _ _ h

/-- Under the precondition every word of the gather's index table names a row of the table. -/
theorem ok_of_pre [Cert.Pre_finite_inputs.Facts] (h : ∀ c : Dev nD, PreAt m c) : Ok m ρ := by
  obtain ⟨hu, hp, hn⟩ := ranges_of_pre m (0 : Dev nD) (h 0)
  exact Tail.ok3_of_table (tbl m ρ)
    (Tail.idxTab (m (((0 : Dev nD) : Thread nD τ).loc main_arg0)) (m (((0 : Dev nD) : Thread nD τ).loc main_arg1))
      (m (((0 : Dev nD) : Thread nD τ).loc main_arg2)))
    (V7_tab m ρ 0) (Tail.idxTab_lt _ _ _ hu hp hn)

end Cert.KernelIdeal.Hand

end
-- ==== Proof.RI.Layer.lean ====
/-
  The reference's message-passing round as whole-array functions: the sparse neighbourhood sum
  (a row gather at wrapped column indices, scaled by the edge weights, scatter-added at the row indices), the new node
  features  leaky(agg·W1ᵀ + b1) + leaky((agg ⊙ nf)·W2ᵀ + b2)  with slope 1/5 below zero, and the rows divided by
  max(‖row‖₂, ε). Each is the composition of the host operations the reference applies, named once so that both
  programs' results can be stated over them.
-/
import proofs.«401280_j80350248174011_2_alg».proof.ReferenceIdeal

noncomputable section

namespace Cert.ReferenceIdeal.Layer

open Cert.ReferenceIdeal Cert.ReferenceIdeal.Facts₀ Cert.ReferenceIdeal.Facts
open Idealize.ShloMosaic Idealize.SL.Sem

variable {F : FTy → Type} [FloatOps F] [Cert.ReferenceIdeal.Facts]

/-- Column indices with the negative ones wrapped once by the number of nodes. -/
def wrapCol (col : IVec S1250000 32) : IVec S1250000x1 32 :=
  broadcastInDim S1250000x1 ![0] bcast_S1250000_S1250000x1_0
    (select (cmpi .slt col (broadcastInDim S1250000 ![] bcast_S_S1250000 (constantI S_ 32 0#32)))
      (addi col (broadcastInDim S1250000 ![] bcast_S_S1250000 (constantI S_ 32 125000#32))) col)

/-- The sparse neighbourhood sum: agg[row[e]] += vals[e] · x[col[e]] over the edges e, from zero. -/
def spmm (row col : IVec S1250000 32) (vals : FVec F S1250000 .f32) (x : FVec F S125000x64 .f32) : FVec F S125000x64 .f32 :=
  Host.scatterAdd scatter_S125000x64_S1250000x1_S1250000x64_1_0_0_1
    (broadcastInDim S125000x64 ![] bcast_S_S125000x64 (constant S_ .f32 0x00000000#32))
    (broadcastInDim S1250000x1 ![0] bcast_S1250000_S1250000x1_0 row)
    (mulf (broadcastInDim S1250000x64 ![0, 1] bcast_S1250000x1_S1250000x64_0_1 (broadcastInDim S1250000x1 ![0] bcast_S1250000_S1250000x1_0 vals))
      (Host.gather gather_S125000x64_S1250000x1_S1250000x64_1_0_n_n_0_1_164 x (wrapCol col)))

/-- Layer l's transposed weight matrix out of the stacked [3,64,64] array. -/
def wT0 (w : FVec F S3x64x64 .f32) : FVec F S64x64 .f32 :=
  transpose S64x64 [1, 0] (shapeCast S64x64 (extractStridedSlice S1x64x64 ![0, 0, 0] w slices_S3x64x64_S1x64x64_0_0_0) shapeCasts_S1x64x64_S64x64) transposes_S64x64_S64x64_1_0
def wT1 (w : FVec F S3x64x64 .f32) : FVec F S64x64 .f32 :=
  transpose S64x64 [1, 0] (shapeCast S64x64 (extractStridedSlice S1x64x64 ![1, 0, 0] w slices_S3x64x64_S1x64x64_1_0_0) shapeCasts_S1x64x64_S64x64) transposes_S64x64_S64x64_1_0
def wT2 (w : FVec F S3x64x64 .f32) : FVec F S64x64 .f32 :=
  transpose S64x64 [1, 0] (shapeCast S64x64 (extractStridedSlice S1x64x64 ![2, 0, 0] w slices_S3x64x64_S1x64x64_2_0_0) shapeCasts_S1x64x64_S64x64) transposes_S64x64_S64x64_1_0

/-- Layer l's bias vector out of the stacked [3,64] array. -/
def bV0 (b : FVec F S3x64 .f32) : FVec F S64 .f32 :=
  shapeCast S64 (extractStridedSlice S1x64 ![0, 0] b slices_S3x64_S1x64_0_0) shapeCasts_S1x64_S64
def bV1 (b : FVec F S3x64 .f32) : FVec F S64 .f32 :=
  shapeCast S64 (extractStridedSlice S1x64 ![1, 0] b slices_S3x64_S1x64_1_0) shapeCasts_S1x64_S64
def bV2 (b : FVec F S3x64 .f32) : FVec F S64 .f32 :=
  shapeCast S64 (extractStridedSlice S1x64 ![2, 0] b slices_S3x64_S1x64_2_0) shapeCasts_S1x64_S64

/-- y ↦ y where y ≥ 0, (1/5)·y elsewhere, elementwise. -/
def leaky (y : FVec F S125000x64 .f32) : FVec F S125000x64 .f32 :=
  select (cmpf .oge y (broadcastInDim S125000x64 ![] bcast_S_S125000x64 (constant S_ .f32 0x00000000#32))) y
    (mulf (broadcastInDim S125000x64 ![] bcast_S_S125000x64 (id (constant S_ .f32 0x3E4CCCCD#32))) y)

/-- A bias vector laid along every row. -/
def biasRows (b : FVec F S64 .f32) : FVec F S125000x64 .f32 :=
  broadcastInDim S125000x64 ![0, 1] bcast_S1x64_S125000x64_0_1 (broadcastInDim S1x64 ![1] bcast_S64_S1x64_1 b)

/-- The new node features of one round from the neighbourhood sum `a`, the old features `x`, the transposed weights
    and the biases. -/
def newFeat (a x : FVec F S125000x64 .f32) (w1t : FVec F S64x64 .f32) (b1 : FVec F S64 .f32) (w2t : FVec F S64x64 .f32) (b2 : FVec F S64 .f32) :
    FVec F S125000x64 .f32 :=
  addf (leaky (addf (Host.dotGeneral dot_S125000x64_S64x64_S125000x64_1_0_0_1_n_n none a w1t) (biasRows b1)))
    (leaky (addf (Host.dotGeneral dot_S125000x64_S64x64_S125000x64_1_0_0_1_n_n none (mulf a x) w2t) (biasRows b2)))

/-- The rows' Euclidean norms as a column. -/
def rowNorm (y : FVec F S125000x64 .f32) : FVec F S125000x1 .f32 :=
  Host.sqrt (broadcastInDim S125000x1 ![0] bcast_S125000_S125000x1_0
    (Host.reduceAdd (mulf y y) (constant S_ .f32 0x00000000#32) reducesTo_S125000x64_S125000_d1 h_S_))

/-- Every row divided by its norm floored at ε. -/
def unitRows (y : FVec F S125000x64 .f32) : FVec F S125000x64 .f32 :=
  Host.divf y (broadcastInDim S125000x64 ![0, 1] bcast_S125000x1_S125000x64_0_1
    (maximumf (rowNorm y) (broadcastInDim S125000x1 ![] bcast_S_S125000x1 (constant S_ .f32 0x2B8CBCCC#32))))

/-- The four feature tables side by side: [125000, 256]. -/
def table (e n1 n2 n3 : FVec F S125000x64 .f32) : FVec F S125000x256 .f32 :=
  concatenate S125000x256 1 [⟨S125000x64, e⟩, ⟨S125000x64, n1⟩, ⟨S125000x64, n2⟩, ⟨S125000x64, n3⟩]
    concatenates_S125000x64_S125000x64_S125000x64_S125000x64_S125000x256_d1

/-! ## The three rounds and the three results, as functions of the eleven arguments -/

section Rounds

variable (row col : IVec S1250000 32) (vals : FVec F S1250000 .f32) (e : FVec F S125000x64 .f32)
  (W1 : FVec F S3x64x64 .f32) (b1 : FVec F S3x64 .f32) (W2 : FVec F S3x64x64 .f32) (b2 : FVec F S3x64 .f32)

/-- The node features after round 1, 2, 3. -/
def feat1 : FVec F S125000x64 .f32 := newFeat (spmm row col vals e) e (wT0 W1) (bV0 b1) (wT0 W2) (bV0 b2)
def feat2 : FVec F S125000x64 .f32 :=
  newFeat (spmm row col vals (feat1 row col vals e W1 b1 W2 b2)) (feat1 row col vals e W1 b1 W2 b2) (wT1 W1) (bV1 b1) (wT1 W2) (bV1 b2)
def feat3 : FVec F S125000x64 .f32 :=
  newFeat (spmm row col vals (feat2 row col vals e W1 b1 W2 b2)) (feat2 row col vals e W1 b1 W2 b2) (wT2 W1) (bV2 b1) (wT2 W2) (bV2 b2)

/-- The embedding table: the input embedding beside the three rounds' unit-row features. -/
def fullTable : FVec F S125000x256 .f32 :=
  table e (unitRows (feat1 row col vals e W1 b1 W2 b2)) (unitRows (feat2 row col vals e W1 b1 W2 b2)) (unitRows (feat3 row col vals e W1 b1 W2 b2))

end Rounds

/-- A batch of indices with the negative ones wrapped once by `n`, as a column. -/
def wrapIdx (n : BitVec 32) (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 n))) idx)

/-- The user rows: rows of the first 50000 table rows at the user indices. -/
def userRows (T : FVec F S125000x256 .f32) (user : IVec S4096 32) : FVec F S4096x256 .f32 :=
  Host.gather gather_S50000x256_S4096x1_S4096x256_1_0_n_n_0_1_1256
    (extractStridedSlice S50000x256 ![0, 0] T slices_S125000x256_S50000x256_0_0) (wrapIdx 50000#32 user)

/-- The item rows: rows of the last 75000 table rows at the item indices. -/
def itemRows (T : FVec F S125000x256 .f32) (item : IVec S4096 32) : FVec F S4096x256 .f32 :=
  Host.gather gather_S75000x256_S4096x1_S4096x256_1_0_n_n_0_1_1256
    (extractStridedSlice S75000x256 ![50000, 0] T slices_S125000x256_S75000x256_50000_0) (wrapIdx 75000#32 item)

end Cert.ReferenceIdeal.Layer

end
-- ==== Proof.KI.Fold.lean ====
/-
  The first message-passing round's entry, read off the run's fold. The first host stretch computes, from the launch
  arguments, the sparse neighbourhood sum of the embedding (a row gather at the wrapped column indices, scaled by the
  edge weights, scatter-added at the row indices) and cuts the first layer's two transposed weight matrices and two
  bias vectors out of the stacked arrays: the six arrays pallas_call 0 is entered with are the reference's own functions
  of the arguments.
-/
import proofs.«401280_j80350248174011_2_alg».proof.Proof.KI.FoldArgs
import proofs.«401280_j80350248174011_2_alg».proof.Proof.RI.Layer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Cert.ReferenceIdeal.Facts]

variable (m : (ℓ : Loc nD τ sig) → Buf (Elt F) ℓ) (ρ : Dev nD → PrngReg)

/-- The node features the first round is entered with are the embedding argument. -/
theorem V1_nf (c : Dev nD) : V1 m ρ c main_arg6 = (m ((c : Thread nD τ).loc main_arg6)) := W1_arg6 m ρ c

set_option maxHeartbeats 1600000 in
/-- The neighbourhood sum the first round is entered with: the sparse product of the adjacency (row indices, column
    indices, edge weights) with the embedding. -/
theorem V1_agg (c : Dev nD) : V1 m ρ c main_v12 = Cert.ReferenceIdeal.Layer.spmm (m ((c : Thread nD τ).loc main_arg3)) (m ((c : Thread nD τ).loc main_arg4)) (m ((c : Thread nD τ).loc main_arg5)) (m ((c : Thread nD τ).loc main_arg6)) := by
  show StableHlo.after hostOps0 _ (Proc.devRef .tc main_v12) = _
  after_results_simp
  rfl

/-- The first layer's first weight matrix, transposed. -/
theorem V1_w1 (c : Dev nD) : V1 m ρ c main_v15 = Cert.ReferenceIdeal.Layer.wT0 (m ((c : Thread nD τ).loc main_arg7)) := by
  show StableHlo.after hostOps0 _ (Proc.devRef .tc main_v15) = _
  after_results
  rfl

/-- The first layer's first bias vector. -/
theorem V1_b1 (c : Dev nD) : V1 m ρ c main_v20 = Cert.ReferenceIdeal.Layer.bV0 (m ((c : Thread nD τ).loc main_arg8)) := by
  show StableHlo.after hostOps0 _ (Proc.devRef .tc main_v20) = _
  after_results
  rfl

/-- The first layer's second weight matrix, transposed. -/
theorem V1_w2 (c : Dev nD) : V1 m ρ c main_v18 = Cert.ReferenceIdeal.Layer.wT0 (m ((c : Thread nD τ).loc main_arg9)) := by
  show StableHlo.after hostOps0 _ (Proc.devRef .tc main_v18) = _
  after_results
  rfl

/-- The first layer's second bias vector. -/
theorem V1_b2 (c : Dev nD) : V1 m ρ c main_v22 = Cert.ReferenceIdeal.Layer.bV0 (m ((c : Thread nD τ).loc main_arg10)) := by
  show StableHlo.after hostOps0 _ (Proc.devRef .tc main_v22) = _
  after_results
  rfl

end Cert.KernelIdeal.Hand

end
-- ==== Proof.KI.Fold2.lean ====
/-
  Reading the run's fold at the entries of the second and third message-passing rounds. The host stretch before each of
  these pallas_calls computes, from the arguments and the previous round's new node features, the six arrays the call
  reads: the sparse neighbourhood sum of the previous round's features (a row gather at the wrapped column indices,
  scaled by the edge weights, scatter-added at the row indices), the round's two transposed weight matrices and its two
  bias vectors. Each is the reference's whole-array function of the arguments' launch contents.
-/
import proofs.«401280_j80350248174011_2_alg».proof.Proof.KI.Run
import proofs.«401280_j80350248174011_2_alg».proof.Proof.KI.FoldArgs
import proofs.«401280_j80350248174011_2_alg».proof.Proof.Gen.KernelIdeal.Regions
import proofs.«401280_j80350248174011_2_alg».proof.Proof.RI.Layer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.ReferenceIdeal (Layer.spmm Layer.wrapCol Layer.wT1 Layer.wT2 Layer.bV1 Layer.bV2)

variable {F : FTy → Type} [FloatOps F] [Cert.ReferenceIdeal.Facts]

variable (m : (ℓ : Loc nD τ sig) → Buf (Elt F) ℓ) (ρ : Dev nD → PrngReg)

/-! ## Round 2's entry: what the second host stretch leaves in pallas_call 1's input arrays -/

set_option maxHeartbeats 1000000 in
/-- The neighbourhood sum of round 2: the sparse sum of the first round's new features. -/
theorem V3_agg (c : Dev nD) : V3 m ρ c main_v36 =
    Layer.spmm (m ((c : Thread nD τ).loc main_arg3)) (m ((c : Thread nD τ).loc main_arg4)) (m ((c : Thread nD τ).loc main_arg5))
      (W2 m ρ c (Proc.devRef .tc main_v23_0)) := by
  show StableHlo.after hostOps1 _ (Proc.devRef .tc main_v36) = _
  after_results_simp
  rw [W2_arg3, W2_arg4, W2_arg5]
  rfl

/-- Round 2's first transposed weight matrix. -/
theorem V3_w1 (c : Dev nD) : V3 m ρ c main_v39 = Layer.wT1 (m ((c : Thread nD τ).loc main_arg7)) := by
  show StableHlo.after hostOps1 _ (Proc.devRef .tc main_v39) = _
  after_results
  rw [W2_arg7]
  rfl

/-- Round 2's first bias vector. -/
theorem V3_b1 (c : Dev nD) : V3 m ρ c main_v44 = Layer.bV1 (m ((c : Thread nD τ).loc main_arg8)) := by
  show StableHlo.after hostOps1 _ (Proc.devRef .tc main_v44) = _
  after_results
  rw [W2_arg8]
  rfl

/-- Round 2's second transposed weight matrix. -/
theorem V3_w2 (c : Dev nD) : V3 m ρ c main_v42 = Layer.wT1 (m ((c : Thread nD τ).loc main_arg9)) := by
  show StableHlo.after hostOps1 _ (Proc.devRef .tc main_v42) = _
  after_results
  rw [W2_arg9]
  rfl

/-- Round 2's second bias vector. -/
theorem V3_b2 (c : Dev nD) : V3 m ρ c main_v46 = Layer.bV1 (m ((c : Thread nD τ).loc main_arg10)) := by
  show StableHlo.after hostOps1 _ (Proc.devRef .tc main_v46) = _
  after_results
  rw [W2_arg10]
  rfl

/-! ## Round 3's entry: what the third host stretch leaves in pallas_call 2's input arrays -/

set_option maxHeartbeats 1000000 in
/-- The neighbourhood sum of round 3: the sparse sum of the second round's new features. -/
theorem V5_agg (c : Dev nD) : V5 m ρ c main_v60 =
    Layer.spmm (m ((c : Thread nD τ).loc main_arg3)) (m ((c : Thread nD τ).loc main_arg4)) (m ((c : Thread nD τ).loc main_arg5))
      (W4 m ρ c (Proc.devRef .tc main_v47_0)) := by
  show StableHlo.after hostOps2 _ (Proc.devRef .tc main_v60) = _
  after_results_simp
  rw [W4_arg3, W4_arg4, W4_arg5]
  rfl

/-- Round 3's first transposed weight matrix. -/
theorem V5_w1 (c : Dev nD) : V5 m ρ c main_v63 = Layer.wT2 (m ((c : Thread nD τ).loc main_arg7)) := by
  show StableHlo.after hostOps2 _ (Proc.devRef .tc main_v63) = _
  after_results
  rw [W4_arg7]
  rfl

/-- Round 3's first bias vector. -/
theorem V5_b1 (c : Dev nD) : V5 m ρ c main_v68 = Layer.bV2 (m ((c : Thread nD τ).loc main_arg8)) := by
  show StableHlo.after hostOps2 _ (Proc.devRef .tc main_v68) = _
  after_results
  rw [W4_arg8]
  rfl

/-- Round 3's second transposed weight matrix. -/
theorem V5_w2 (c : Dev nD) : V5 m ρ c main_v66 = Layer.wT2 (m ((c : Thread nD τ).loc main_arg9)) := by
  show StableHlo.after hostOps2 _ (Proc.devRef .tc main_v66) = _
  after_results
  rw [W4_arg9]
  rfl

/-- Round 3's second bias vector. -/
theorem V5_b2 (c : Dev nD) : V5 m ρ c main_v70 = Layer.bV2 (m ((c : Thread nD τ).loc main_arg10)) := by
  show StableHlo.after hostOps2 _ (Proc.devRef .tc main_v70) = _
  after_results
  rw [W4_arg10]
  rfl

end Cert.KernelIdeal.Hand

end
-- ==== Proof.KI.Fold3.lean ====
/-
  Reading the run's fold at the tail of the program. Before the gather call the host lays the input embedding and the
  three rounds' unit-length rows side by side as one [125000, 256] table and views each 256-wide row as two halves of
  128 lanes: that is the reference's table of the same four arrays, re-viewed. After the gather call the host flattens
  the gathered [12288, 2, 128] rows to [12288, 256] and returns its three blocks of 4096 rows.
-/
import proofs.«401280_j80350248174011_2_alg».proof.Proof.KI.Run
import proofs.«401280_j80350248174011_2_alg».proof.Proof.KI.FoldArgs
import proofs.«401280_j80350248174011_2_alg».proof.Proof.KI.TailIdx
import proofs.«401280_j80350248174011_2_alg».proof.Proof.RI.Layer
import proofs.«401280_j80350248174011_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

variable [Cert.ReferenceIdeal.Facts]

/-- The table the gather call reads, as it is entered: the input embedding beside the three rounds' unit-length rows,
    each 256-wide row viewed as two halves of 128 lanes. -/
theorem V7_view (c : Dev nD) :
    V7 m ρ c main_v78 = Tail.view3 (Cert.ReferenceIdeal.Layer.table (m ((c : Thread nD τ).loc main_arg6))
      (W2 m ρ c (Proc.devRef .tc main_v23_1)) (W4 m ρ c (Proc.devRef .tc main_v47_1)) (W6 m ρ c (Proc.devRef .tc main_v71_1))) := by
  show StableHlo.after hostOps3 _ (Proc.devRef .tc main_v78) = _
  rw [← W6_arg6 m ρ c, ← W6_v23_1 m ρ c, ← W6_v47_1 m ρ c]
  after_results
  rfl

/-- The user rows returned: rows 0 … 4095 of the gathered rows, flattened. -/
theorem W9_r0 (hO : Ok m ρ) (c : Dev nD) :
    W9 m ρ hO c (Proc.devRef .tc main_v81) = Tail.rowsAt0 (W8 m ρ hO c (Proc.devRef .tc main_v79)) := by
  show StableHlo.after hostOps4 _ (Proc.devRef .tc main_v81) = _
  after_results
  rfl

/-- The positive item rows returned: rows 4096 … 8191. -/
theorem W9_r1 (hO : Ok m ρ) (c : Dev nD) :
    W9 m ρ hO c (Proc.devRef .tc main_v82) = Tail.rowsAt1 (W8 m ρ hO c (Proc.devRef .tc main_v79)) := by
  show StableHlo.after hostOps4 _ (Proc.devRef .tc main_v82) = _
  after_results
  rfl

/-- The negative item rows returned: rows 8192 … 12287. -/
theorem W9_r2 (hO : Ok m ρ) (c : Dev nD) :
    W9 m ρ hO c (Proc.devRef .tc main_v83) = Tail.rowsAt2 (W8 m ρ hO c (Proc.devRef .tc main_v79)) := by
  show StableHlo.after hostOps4 _ (Proc.devRef .tc main_v83) = _
  after_results
  rfl

end Cert.KernelIdeal.Hand

end
-- ==== Proof.Spec.lean ====
/-
  One row of the dense layer over the extended reals. For a node's neighbourhood sum `a` and old features `x` (64
  entries each), transposed weights `w1t`, `w2t` (entry (k, j): input k to output j) and biases `b1`, `b2`:
    feat j  = lk (Σₖ a k · w1t k j + b1 j) + lk (Σₖ (a k · x k) · w2t k j + b2 j),   lk y = y for y ≥ 0, (1/5)·y below,
    unit j  = feat j / max (√(Σⱼ feat j²), ε).
  Both programs compute exactly these, row by row; the two sides are compared through them.
-/
import Idealize.ShloMosaic.PureOps.Ideal

noncomputable section

namespace Cert.Spec

open Idealize.ShloMosaic

/-- The slope below zero: the float nearest 1/5, read as the exact rational it denotes. -/
abbrev slope : EReal := Ideal.ofBits .f32 0x3E4CCCCD#32
/-- The floor under a row norm: the float nearest 1e-12. -/
abbrev eps : EReal := Ideal.ofBits .f32 0x2B8CBCCC#32

/-- The leaky rectifier. -/
def lk (y : EReal) : EReal := if 0 ≤ y then y else slope * y

/-- Output `j` of one node's new features. -/
def rowFeat (a x : Fin 64 → EReal) (w1t w2t : Fin 64 → Fin 64 → EReal) (b1 b2 : Fin 64 → EReal) (j : Fin 64) : EReal :=
  lk ((∑ k, a k * w1t k j) + b1 j) + lk ((∑ k, (a k * x k) * w2t k j) + b2 j)

/-- The row's Euclidean norm floored at ε. -/
def rowNrm (f : Fin 64 → EReal) : EReal := max (Ideal.sqrt (∑ j, f j * f j)) eps

/-- The row scaled by its floored norm. -/
def rowUnit (f : Fin 64 → EReal) (j : Fin 64) : EReal := Ideal.div (f j) (rowNrm f)

end Cert.Spec

end
-- ==== Proof.KI.PayIdx0.lean ====
/-
  What the body of the first fused dense layer (pallas_call 0) stores, read at an index, over the extended reals.
  Row p, lane q of the new features is the row formula of the layer at the six input blocks:
    lk (Σₖ agg[p,k] · W1ᵀ[k,q] + b1[q]) + lk (Σₖ (agg[p,k] · nf[p,k]) · W2ᵀ[k,q] + b2[q]),
  and row p, lane q of the second result is that row's entry q over the row's Euclidean norm floored at ε.
  The steps: a load through the whole-block rectangle reads the block; the narrowing to bf16 is the identity on the
  extended reals; a block product into the zero accumulator is the sum over the 64 inner positions; a bias laid as one
  row and repeated reads its lane; the rectifier's compare-and-select is the case split on 0 ≤ y; the lane sum of the
  squares is a sum over the 64 lanes, laid as a column and repeated across the lanes.
-/
import proofs.«401280_j80350248174011_2_alg».proof.Proof.KI.R0Defs
import proofs.«401280_j80350248174011_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The contraction's index maps, coordinate by coordinate -/

theorem lhs0_0 (j : S1000x64.Idx) (k : dot_S1000x64_S64x64_S1000x64_1_0_0_1_n_n.contr.Idx) :
    (dot_S1000x64_S64x64_S1000x64_1_0_0_1_n_n.lhsIdx j k 0 : ℕ) = j 0 := by
  simp [DotDims.lhsIdx, dot_S1000x64_S64x64_S1000x64_1_0_0_1_n_n]; rfl
theorem lhs0_1 (j : S1000x64.Idx) (k : dot_S1000x64_S64x64_S1000x64_1_0_0_1_n_n.contr.Idx) :
    (dot_S1000x64_S64x64_S1000x64_1_0_0_1_n_n.lhsIdx j k 1 : ℕ) = k ⟨0, by decide⟩ := by
  simp [DotDims.lhsIdx, dot_S1000x64_S64x64_S1000x64_1_0_0_1_n_n]; rfl
theorem rhs0_0 (j : S1000x64.Idx) (k : dot_S1000x64_S64x64_S1000x64_1_0_0_1_n_n.contr.Idx) :
    (dot_S1000x64_S64x64_S1000x64_1_0_0_1_n_n.rhsIdx j k 0 : ℕ) = k ⟨0, by decide⟩ := by
  simp [DotDims.rhsIdx, dot_S1000x64_S64x64_S1000x64_1_0_0_1_n_n]; rfl
theorem rhs0_1 (j : S1000x64.Idx) (k : dot_S1000x64_S64x64_S1000x64_1_0_0_1_n_n.contr.Idx) :
    (dot_S1000x64_S64x64_S1000x64_1_0_0_1_n_n.rhsIdx j k 1 : ℕ) = j 1 := by
  simp [DotDims.rhsIdx, dot_S1000x64_S64x64_S1000x64_1_0_0_1_n_n]; rfl

/-- A block product into the zero accumulator, at row `p` and column `q`: the sum over the 64 inner positions. -/
theorem mm0_apply (L : FVec Ideal S1000x64 .bf16) (R : FVec Ideal S64x64 .bf16) (p : Fin 1000) (q : Fin 64) :
    matmul dot_S1000x64_S64x64_S1000x64_1_0_0_1_n_n none L R (constant (F := Ideal) S1000x64 .f32 0x00000000#32) (ix2 p q)
      = ∑ k : Fin 64, L (ix2 p k) * R (ix2 k q) := by
  simp only [matmul]
  rw [Ideal.matmul_constant_zero_apply,
    ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  congr 1
  · congr 1; funext a; apply Fin.ext
    match a with
    | ⟨0, _⟩ => exact lhs0_0 _ _
    | ⟨1, _⟩ => exact (lhs0_1 _ _).trans hk
  · congr 1; funext a; apply Fin.ext
    match a with
    | ⟨0, _⟩ => exact (rhs0_0 _ _).trans hk
    | ⟨1, _⟩ => exact rhs0_1 _ _

/-- The leaky rectifier as the body spells it — keep where not below zero, else the slope times it — at an index. -/
theorem leaky0_apply (A : FVec Ideal S1000x64 .f32) (i : S1000x64.Idx) :
    select (cmpf .oge A (broadcast S1000x64 (Scalar.ofBits (F := Ideal) .f32 0x00000000#32))) A
        (mulf (broadcast S1000x64 (Scalar.ofBits (F := Ideal) .f32 0x3E4CCCCD#32)) A) i = Cert.Spec.lk (A i) := by
  rw [select_apply, cmpf_apply, mulf_apply, broadcast_apply, broadcast_apply, Ideal.cmpf_def]
  unfold Cert.Spec.lk Ideal.cmp
  simp only [Ideal.ofBits_def, Ideal.ofBits_zero_f32]
  by_cases h : (0 : EReal) ≤ A i
  · rw [if_pos h]; simp only [h, decide_true, BitVec.ofBool_true]; exact select_one _ _
  · rw [if_neg h]; simp only [h, decide_false, BitVec.ofBool_false]; exact select_zero _ _

/-! ## Layout steps at an index -/

theorem hz2 : (![0, 0] : Fin 2 → Nat) = fun _ => 0 := funext fun a => by fin_cases a <;> rfl
theorem hz1 : (![0] : Fin 1 → Nat) = fun _ => 0 := funext fun a => by fin_cases a <;> rfl

/-- A bias vector laid as one row and repeated down the 1000 rows reads, at (p, q), its entry q. -/
theorem biasRow0_apply (b : FVec Ideal S64 .f32) (p : Fin 1000) (q : Fin 64) :
    broadcastTo S1000x64 (shapeCast S1x64 b shapeCasts_S64_S1x64) broadcasts_S1x64_S1000x64 (ix2 p q) = b (ix1 q) := by
  rw [broadcastTo_1b_ab_apply, shapeCast_a_1a_apply]

/-- A length-1000 vector laid as one column reads, at (p, u), its entry p. -/
theorem col0_apply (v : FVec Ideal S1000 .f32) (p : Fin 1000) (u : Fin 1) :
    shapeCast S1000x1 v shapeCasts_S1000_S1000x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- One column repeated across the 64 lanes reads, at (p, q), the column's entry p. -/
theorem colBcast0_apply (v : FVec Ideal S1000x1 .f32) (p : Fin 1000) (q : Fin 64) :
    broadcastTo S1000x64 v broadcasts_S1000x1_S1000x64 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The sum over the 64 lanes of row p. -/
theorem rowSum0_apply (v : FVec Ideal S1000x64 .f32) (h : S1000x64.Reduces [1] S1000) (hφ : FKind.Formats .f32)
    (hacc : (0x00000000#32 : BitVec 32) = FKind.add.neutral .f32 hφ) (p : Fin 1000) :
    multiReduction (F := Ideal) .add [1] S1000 v 0x00000000#32 h hφ hacc (ix1 p) = ∑ j : Fin 64, v (ix2 p j) := by
  refine (Ideal.multiReduction_add_single v 0x00000000#32 h hφ hacc (ix1 p)).trans ?_
  refine Finset.sum_congr rfl fun k _ => ?_
  congr 1; funext a; apply Fin.ext
  match a with
  | ⟨0, _⟩ => rfl
  | ⟨1, _⟩ => rfl

/-! ## What the body stores, at an index -/

variable (x0 x1 : Vec Ideal S1000x64 .f32) (x2 x4 : Vec Ideal S64x64 .f32) (x3 x5 : Vec Ideal S64 .f32) (p : Fin 1000) (q : Fin 64)

theorem newFeat0_apply : newFeat0 (F := Ideal) x0 x1 x2 x3 x4 x5 (ix2 p q)
    = Cert.Spec.rowFeat (fun k => x0 (ix2 p k)) (fun k => x1 (ix2 p k)) (fun k j => x2 (ix2 k j)) (fun k j => x4 (ix2 k j))
        (fun j => x3 (ix1 j)) (fun j => x5 (ix1 j)) q := by
  unfold newFeat0
  simp only [View.ld_unit_zero (S := S1000x64) hz2, View.ld_unit_zero (S := S64x64) hz2, View.ld_unit_zero (S := S64) hz1]
  unfold k0_pay2
  simp only [shapeCast_self]
  rw [addf_apply, leaky0_apply, leaky0_apply, addf_apply, addf_apply, mm0_apply, mm0_apply, biasRow0_apply, biasRow0_apply]
  unfold Cert.Spec.rowFeat
  simp only [truncf_apply, mulf_apply]

/-- The floored norm of row p of the new features. -/
theorem rowNorm0_apply (u : Fin 1) : rowNorm0 (F := Ideal) x0 x1 x2 x3 x4 x5 (ix2 p u)
    = Cert.Spec.rowNrm (fun j => newFeat0 (F := Ideal) x0 x1 x2 x3 x4 x5 (ix2 p j)) := by
  unfold rowNorm0 newFeat0 k0_pay3
  rw [maximumf_apply, broadcast_apply]
  unfold Cert.Spec.rowNrm
  show max (Ideal.sqrt (shapeCast S1000x1 _ shapeCasts_S1000_S1000x1 (ix2 p u))) _ = _
  rw [col0_apply]
  exact congrArg₂ max (congrArg Ideal.sqrt (rowSum0_apply _ _ _ _ p)) rfl

theorem unit0_apply : k0_pay1 (F := Ideal) (newFeat0 x0 x1 x2 x3 x4 x5) (rowNorm0 x0 x1 x2 x3 x4 x5) (ix2 p q)
    = Cert.Spec.rowUnit (fun j => newFeat0 (F := Ideal) x0 x1 x2 x3 x4 x5 (ix2 p j)) q := by
  unfold k0_pay1
  rw [divf_apply, colBcast0_apply, rowNorm0_apply]
  rfl

end Cert.KernelIdeal.Hand

end
-- ==== Proof.RI.LayerIdx.lean ====
/-
  The reference's dense layer READ AT AN INDEX over the extended reals. At node row r and output column j the new
  features are  lk (Σₖ a[r,k]·w1t[k,j] + b1[j]) + lk (Σₖ (a[r,k]·x[r,k])·w2t[k,j] + b2[j]),  and the unit rows are
  y[r,j] / max (√(Σₖ y[r,k]²), ε): the one-row formulas of the specification, at row r of the whole arrays.
-/
import proofs.«401280_j80350248174011_2_alg».proof.Proof.RI.Layer
import proofs.«401280_j80350248174011_2_alg».proof.Proof.Spec
import Idealize.ShloMosaic.Lib.ValueIdx
import Idealize.ShloMosaic.Lib.Pipeline.Value
import Idealize.ShloMosaic.PureOps.Ideal.Laws

noncomputable section

namespace Cert.ReferenceIdeal.LayerIdx

open Cert.ReferenceIdeal Cert.ReferenceIdeal.Facts₀ Cert.ReferenceIdeal.Facts
open Idealize.ShloMosaic Idealize.ShloMosaic.ValueIdx
open scoped BigOperators

variable [Cert.ReferenceIdeal.Facts]

/-! ## The contraction's index maps, coordinate by coordinate -/

/-- The contraction has one axis … -/
theorem contr_rank : dot_S125000x64_S64x64_S125000x64_1_0_0_1_n_n.contr.rank = 1 := rfl
/-- … of extent 64. -/
theorem contr_size : dot_S125000x64_S64x64_S125000x64_1_0_0_1_n_n.contr.size ⟨0, Nat.one_pos⟩ = 64 := rfl

theorem lhs_0 (i : S125000x64.Idx) (k : dot_S125000x64_S64x64_S125000x64_1_0_0_1_n_n.contr.Idx) :
    (dot_S125000x64_S64x64_S125000x64_1_0_0_1_n_n.lhsIdx i k 0 : ℕ) = i 0 := by
  simp [DotDims.lhsIdx, dot_S125000x64_S64x64_S125000x64_1_0_0_1_n_n]; rfl
theorem lhs_1 (i : S125000x64.Idx) (k : dot_S125000x64_S64x64_S125000x64_1_0_0_1_n_n.contr.Idx) :
    (dot_S125000x64_S64x64_S125000x64_1_0_0_1_n_n.lhsIdx i k 1 : ℕ) = k ⟨0, Nat.one_pos⟩ := by
  simp [DotDims.lhsIdx, dot_S125000x64_S64x64_S125000x64_1_0_0_1_n_n]; rfl
theorem rhs_0 (i : S125000x64.Idx) (k : dot_S125000x64_S64x64_S125000x64_1_0_0_1_n_n.contr.Idx) :
    (dot_S125000x64_S64x64_S125000x64_1_0_0_1_n_n.rhsIdx i k 0 : ℕ) = k ⟨0, Nat.one_pos⟩ := by
  simp [DotDims.rhsIdx, dot_S125000x64_S64x64_S125000x64_1_0_0_1_n_n]; rfl
theorem rhs_1 (i : S125000x64.Idx) (k : dot_S125000x64_S64x64_S125000x64_1_0_0_1_n_n.contr.Idx) :
    (dot_S125000x64_S64x64_S125000x64_1_0_0_1_n_n.rhsIdx i k 1 : ℕ) = i 1 := by
  simp [DotDims.rhsIdx, dot_S125000x64_S64x64_S125000x64_1_0_0_1_n_n]; rfl

/-- The contraction's indices are `Fin 64`. -/
abbrev cEq : dot_S125000x64_S64x64_S125000x64_1_0_0_1_n_n.contr.Idx ≃ Fin 64 :=
  contrEquiv1 dot_S125000x64_S64x64_S125000x64_1_0_0_1_n_n 64 contr_rank contr_size

theorem cEq_symm_val (k : Fin 64) : ((cEq.symm k) ⟨0, Nat.one_pos⟩ : ℕ) = k.val :=
  contrEquiv1_symm_val dot_S125000x64_S64x64_S125000x64_1_0_0_1_n_n 64 contr_rank contr_size k

/-- The left operand is read at (r, k) … -/
theorem lhsIdx_eq (r : Fin 125000) (j k : Fin 64) :
    dot_S125000x64_S64x64_S125000x64_1_0_0_1_n_n.lhsIdx (ix2 r j) (cEq.symm k) = ix2 r k :=
  Shape.idx_ext₂ (lhs_0 _ _) ((lhs_1 _ _).trans (cEq_symm_val k))
/-- … and the right one at (k, j). -/
theorem rhsIdx_eq (r : Fin 125000) (j k : Fin 64) :
    dot_S125000x64_S64x64_S125000x64_1_0_0_1_n_n.rhsIdx (ix2 r j) (cEq.symm k) = ix2 k j :=
  Shape.idx_ext₂ ((rhs_0 _ _).trans (cEq_symm_val k)) (rhs_1 _ _)

/-! ## The operations read at an index -/

/-- The product of the rows with a 64 × 64 matrix, at (r, j): the sum over k of row r's entry k times the matrix's
    entry (k, j). -/
theorem dot_apply (a : FVec Ideal S125000x64 .f32) (w : FVec Ideal S64x64 .f32) (r : Fin 125000) (j : Fin 64) :
    Host.dotGeneral dot_S125000x64_S64x64_S125000x64_1_0_0_1_n_n none a w (ix2 r j) = ∑ k : Fin 64, a (ix2 r k) * w (ix2 k j) := by
  refine (Ideal.dotGeneral_apply _ none .single a w (ix2 r j)).trans ?_
  rw [← Equiv.sum_comp cEq.symm]
  refine Finset.sum_congr rfl fun k _ => ?_
  rw [lhsIdx_eq, rhsIdx_eq]

/-- A bias vector laid along every row, at (r, j): its entry j. -/
theorem biasRows_apply (b : FVec Ideal S64 .f32) (r : Fin 125000) (j : Fin 64) :
    Layer.biasRows (F := Ideal) b (ix2 r j) = b (ix1 j) := by
  unfold Layer.biasRows
  refine (broadcastInDim_apply ![0, 1] bcast_S1x64_S125000x64_0_1 _ (ix2 r j) (ix2 (0 : Fin 1) j) ?_).trans ?_
  · intro a
    match a with
    | ⟨0, _⟩ => rfl
    | ⟨1, _⟩ => rfl
  · refine broadcastInDim_apply ![1] bcast_S64_S1x64_1 b (ix2 (0 : Fin 1) j) (ix1 j) ?_
    intro a
    match a with
    | ⟨0, _⟩ => rfl

/-- The rectifier at an index is the one-entry rectifier of the entry. -/
theorem leaky_apply (y : FVec Ideal S125000x64 .f32) (i : S125000x64.Idx) :
    Layer.leaky (F := Ideal) y i = Cert.Spec.lk (y i) := by
  show Scalar.select (Ideal.cmp .oge (y i) (Ideal.ofBits .f32 0x00000000#32)) (y i) (Ideal.ofBits .f32 0x3E4CCCCD#32 * y i) = _
  rw [Ideal.ofBits_zero_f32]
  unfold Cert.Spec.lk Scalar.select Ideal.cmp
  by_cases h : (0 : EReal) ≤ y i
  · simp [h]
  · simp [h]

/-- THE NEW FEATURES AT (r, j): the specification's row formula at row r of the whole arrays. -/
theorem newFeat_apply (a x : FVec Ideal S125000x64 .f32) (w1t w2t : FVec Ideal S64x64 .f32) (b1 b2 : FVec Ideal S64 .f32)
    (r : Fin 125000) (j : Fin 64) :
    Layer.newFeat (F := Ideal) a x w1t b1 w2t b2 (ix2 r j)
      = Cert.Spec.rowFeat (fun k => a (ix2 r k)) (fun k => x (ix2 r k)) (fun k j => w1t (ix2 k j)) (fun k j => w2t (ix2 k j))
          (fun j => b1 (ix1 j)) (fun j => b2 (ix1 j)) j := by
  unfold Layer.newFeat Cert.Spec.rowFeat
  rw [addf_apply, leaky_apply, leaky_apply, addf_apply, addf_apply, dot_apply, dot_apply, biasRows_apply, biasRows_apply]
  rfl

/-- A vector of m entries stood up as a column [m, 1], at (r, 0): its entry r. -/
theorem bcast_col_apply {α : Type} {m : ℕ} (h : (⟨1, ![m]⟩ : Shape).BroadcastsInDim ⟨2, ![m, 1]⟩ ![0])
    (x : (⟨1, ![m]⟩ : Shape).Idx → α) (r : Fin m) :
    broadcastInDim ⟨2, ![m, 1]⟩ ![0] h x (ix2 r (0 : Fin 1)) = x (ix1 r) := by
  refine broadcastInDim_apply ![0] h x (ix2 r (0 : Fin 1)) (ix1 r) ?_
  intro a
  match a with
  | ⟨0, _⟩ =>
    show r.val = if m = 1 then 0 else r.val
    split
    · have := r.isLt; omega
    · rfl

/-- A column [m, 1] laid along n columns, at (r, j): the column's entry (r, 0). -/
theorem bcast_colRows_apply {α : Type} {m n : ℕ} (h : (⟨2, ![m, 1]⟩ : Shape).BroadcastsInDim ⟨2, ![m, n]⟩ ![0, 1])
    (x : (⟨2, ![m, 1]⟩ : Shape).Idx → α) (r : Fin m) (j : Fin n) :
    broadcastInDim ⟨2, ![m, n]⟩ ![0, 1] h x (ix2 r j) = x (ix2 r (0 : Fin 1)) := by
  refine broadcastInDim_apply ![0, 1] h x (ix2 r j) (ix2 r (0 : Fin 1)) ?_
  intro a
  match a with
  | ⟨0, _⟩ =>
    show r.val = if m = 1 then 0 else r.val
    split
    · have := r.isLt; omega
    · rfl
  | ⟨1, _⟩ => rfl

/-- The host's square root, quotient and sum at an index are the extended reals' of the entries. -/
theorem hostSqrt_apply {s : Shape} (x : FVec Ideal s .f32) (i : s.Idx) : Host.sqrt x i = Ideal.sqrt (x i) := rfl
theorem hostDivf_apply {s : Shape} (x y : FVec Ideal s .f32) (i : s.Idx) : Host.divf x y i = Ideal.div (x i) (y i) := rfl
theorem hostReduceAdd_apply {s t u : Shape} {axes : List (Fin s.rank)} (x : FVec Ideal s .f32) (init : u.Idx → Ideal .f32)
    (h : s.ReducesTo axes t) (hu : 0 < u.numel) (i : t.Idx) :
    Host.reduceAdd x init h hu i = Ideal.hostReduceAdd h x (init (Shape.Idx.first hu)) i := rfl

/-- The rows' Euclidean norms at (r, 0): the root of the sum over k of row r's squared entries. -/
theorem rowNorm_apply (y : FVec Ideal S125000x64 .f32) (r : Fin 125000) :
    Layer.rowNorm (F := Ideal) y (ix2 r (0 : Fin 1)) = Ideal.sqrt (∑ k : Fin 64, y (ix2 r k) * y (ix2 r k)) := by
  have hred : S125000x64.Reduces [1] S125000 := by decide
  unfold Layer.rowNorm
  rw [hostSqrt_apply]
  refine congrArg Ideal.sqrt ?_
  refine (bcast_col_apply bcast_S125000_S125000x1_0 _ r).trans ?_
  · rw [hostReduceAdd_apply, constant_apply, Ideal.hostReduceAdd_single reducesTo_S125000x64_S125000_d1 hred,
      Ideal.ofBits_zero_f32, zero_add]
    refine Finset.sum_congr rfl fun k _ => ?_
    have hk : hred.lift (ix1 r) k = ix2 r k := Shape.idx_ext₂ rfl rfl
    rw [hk]; rfl

/-- THE UNIT ROWS AT (r, j): the specification's row formula at row r of the whole array. -/
theorem unitRows_apply (y : FVec Ideal S125000x64 .f32) (r : Fin 125000) (j : Fin 64) :
    Layer.unitRows (F := Ideal) y (ix2 r j) = Cert.Spec.rowUnit (fun j => y (ix2 r j)) j := by
  unfold Layer.unitRows Cert.Spec.rowUnit Cert.Spec.rowNrm
  rw [hostDivf_apply]
  refine congrArg (Ideal.div (y (ix2 r j))) ?_
  refine (bcast_colRows_apply bcast_S125000x1_S125000x64_0_1 _ r j).trans ?_
  · rw [maximumf_apply, rowNorm_apply]
    rfl

end Cert.ReferenceIdeal.LayerIdx

end
-- ==== Proof.KI.Val0.lean ====
/-
  From blocks to the array for the fused dense layer of the first message-passing round (pallas_call 0), over the
  extended reals. Point `t` of the 125-point grid works on node rows 1000·t … 1000·t+999: its blocks of the
  neighbourhood sums, the node features and the two results are those rows, and its blocks of the two transposed weight
  matrices and the two bias vectors are the whole arrays. So every entry a point writes back is the reference's entry at
  the node row it sits at — both are one row's `Cert.Spec.rowFeat`, respectively `Cert.Spec.rowUnit`, of the same row
  functions (the row norm needs the whole row of new features, which lies in the one block) — and since the blocks of the
  125 points tile the 125000 rows (row `r` is in the block of point `r / 1000`), the two result arrays after the region
  are the reference's whole-array layer functions of the region's operands.
-/
import proofs.«401280_j80350248174011_2_alg».proof.Proof.KI.R0Defs
import proofs.«401280_j80350248174011_2_alg».proof.Proof.KI.PayIdx0
import proofs.«401280_j80350248174011_2_alg».proof.Proof.RI.Layer
import proofs.«401280_j80350248174011_2_alg».proof.Proof.RI.LayerIdx
import proofs.«401280_j80350248174011_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

variable (V : (c : Dev nD) → (b : Ref sig .tc) → Buf (Elt Ideal) ((c : Thread nD τ).loc b))

/-! ## One entry of a block against one entry of the array -/

/-- An entry of the block's new features is the reference's entry at the node row the block row sits at, once the
    two input rows agree and the weights and biases are the whole arrays. -/
theorem feat_entry0 (x0 x1 : Vec Ideal S1000x64 .f32) (x2 x4 : Vec Ideal S64x64 .f32) (x3 x5 : Vec Ideal S64 .f32)
    (A X : FVec Ideal S125000x64 .f32) (w1t w2t : FVec Ideal S64x64 .f32) (b1 b2 : FVec Ideal S64 .f32)
    (p : Fin 1000) (r : Fin 125000)
    (e0 : ∀ k : Fin 64, x0 (ix2 p k) = A (ix2 r k)) (e1 : ∀ k : Fin 64, x1 (ix2 p k) = X (ix2 r k))
    (e2 : x2 = w1t) (e3 : x3 = b1) (e4 : x4 = w2t) (e5 : x5 = b2) (q : Fin 64) :
    newFeat0 (F := Ideal) x0 x1 x2 x3 x4 x5 (ix2 p q) = Cert.ReferenceIdeal.Layer.newFeat A X w1t b1 w2t b2 (ix2 r q) := by
  subst e2 e3 e4 e5
  rw [newFeat0_apply, Cert.ReferenceIdeal.LayerIdx.newFeat_apply]
  simp only [e0, e1]

/-- The same over indices: `i` in the block at row `p`, `i'` in the array at row `r`, on the same column `q`. -/
theorem feat_at0 (x0 x1 : Vec Ideal S1000x64 .f32) (x2 x4 : Vec Ideal S64x64 .f32) (x3 x5 : Vec Ideal S64 .f32)
    (A X : FVec Ideal S125000x64 .f32) (w1t w2t : FVec Ideal S64x64 .f32) (b1 b2 : FVec Ideal S64 .f32)
    (i : S1000x64.Idx) (i' : S125000x64.Idx) (p : Fin 1000) (q : Fin 64) (r : Fin 125000)
    (hi : i = ix2 p q) (hi' : i' = ix2 r q)
    (e0 : ∀ k : Fin 64, x0 (ix2 p k) = A (ix2 r k)) (e1 : ∀ k : Fin 64, x1 (ix2 p k) = X (ix2 r k))
    (e2 : x2 = w1t) (e3 : x3 = b1) (e4 : x4 = w2t) (e5 : x5 = b2) :
    newFeat0 (F := Ideal) x0 x1 x2 x3 x4 x5 i = Cert.ReferenceIdeal.Layer.newFeat A X w1t b1 w2t b2 i' := by
  subst hi hi'
  exact feat_entry0 x0 x1 x2 x4 x3 x5 A X w1t w2t b1 b2 p r e0 e1 e2 e3 e4 e5 q

/-- An entry of the block's unit-length rows is the reference's: the whole row of new features is in the block. -/
theorem unit_at0 (x0 x1 : Vec Ideal S1000x64 .f32) (x2 x4 : Vec Ideal S64x64 .f32) (x3 x5 : Vec Ideal S64 .f32)
    (A X : FVec Ideal S125000x64 .f32) (w1t w2t : FVec Ideal S64x64 .f32) (b1 b2 : FVec Ideal S64 .f32)
    (i : S1000x64.Idx) (i' : S125000x64.Idx) (p : Fin 1000) (q : Fin 64) (r : Fin 125000)
    (hi : i = ix2 p q) (hi' : i' = ix2 r q)
    (e0 : ∀ k : Fin 64, x0 (ix2 p k) = A (ix2 r k)) (e1 : ∀ k : Fin 64, x1 (ix2 p k) = X (ix2 r k))
    (e2 : x2 = w1t) (e3 : x3 = b1) (e4 : x4 = w2t) (e5 : x5 = b2) :
    k0_pay1 (F := Ideal) (newFeat0 x0 x1 x2 x3 x4 x5) (rowNorm0 x0 x1 x2 x3 x4 x5) i
      = Cert.ReferenceIdeal.Layer.unitRows (Cert.ReferenceIdeal.Layer.newFeat A X w1t b1 w2t b2) i' := by
  subst hi hi'
  rw [unit0_apply, Cert.ReferenceIdeal.LayerIdx.unitRows_apply]
  have hrow : (fun j : Fin 64 => newFeat0 (F := Ideal) x0 x1 x2 x3 x4 x5 (ix2 p j))
      = fun j : Fin 64 => Cert.ReferenceIdeal.Layer.newFeat A X w1t b1 w2t b2 (ix2 r j) :=
    funext fun j => feat_entry0 x0 x1 x2 x4 x3 x5 A X w1t w2t b1 b2 p r e0 e1 e2 e3 e4 e5 j
  rw [hrow]

/-! ## The index maps over the grid, and the blocks read off the arrays -/

/-- The printed index maps, decided over the grid: at point `t` the row-blocked windows sit at block row `t`, column
    block 0; the weights and biases at block 0 on every axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt_N0 (t : Fin cfg0.N) : t.val < 125 := lt_of_lt_of_eq t.isLt N_0

/-- Row `p` of window 0's block at point `t` is row `1000·t + p` of the neighbourhood sums. -/
theorem blk0_0_row (c : Dev nD) (t : Fin cfg0.N) (p : Fin 1000) (k : Fin 64) (r : Fin 125000) (hr : r.val = 1000 * t.val + p.val) :
    (iblk0 (F := Ideal) V c 0 t : Vec Ideal S1000x64 .f32) (ix2 p k) = (V c main_v12 : Vec Ideal S125000x64 .f32) (ix2 r k) := by
  obtain ⟨e0, e1, -⟩ := idx_facts0 t
  show (V c main_v12 : Vec Ideal S125000x64 .f32) (((cfg0.win 0).blk t).view.emb (ix2 p k)) = _
  refine congrArg (V c main_v12 : Vec Ideal S125000x64 .f32) ?_
  funext a; apply Fin.ext
  match a with
  | ⟨0, _⟩ => show win0_0.index t (0 : Fin 2) * 1000 + 1 * p.val = r.val; omega
  | ⟨1, _⟩ => show win0_0.index t (1 : Fin 2) * 64 + 1 * k.val = k.val; omega

/-- Row `p` of window 1's block at point `t` is row `1000·t + p` of the node features. -/
theorem blk0_1_row (c : Dev nD) (t : Fin cfg0.N) (p : Fin 1000) (k : Fin 64) (r : Fin 125000) (hr : r.val = 1000 * t.val + p.val) :
    (iblk0 (F := Ideal) V c 1 t : Vec Ideal S1000x64 .f32) (ix2 p k) = (V c main_arg6 : Vec Ideal S125000x64 .f32) (ix2 r k) := by
  obtain ⟨-, -, e0, e1, -⟩ := idx_facts0 t
  show (V c main_arg6 : Vec Ideal S125000x64 .f32) (((cfg0.win 1).blk t).view.emb (ix2 p k)) = _
  refine congrArg (V c main_arg6 : Vec Ideal S125000x64 .f32) ?_
  funext a; apply Fin.ext
  match a with
  | ⟨0, _⟩ => show win0_1.index t (0 : Fin 2) * 1000 + 1 * p.val = r.val; omega
  | ⟨1, _⟩ => show win0_1.index t (1 : Fin 2) * 64 + 1 * k.val = k.val; omega

/-- Window 2's block is the whole first weight matrix at every point. -/
theorem blk0_2_whole (c : Dev nD) (t : Fin cfg0.N) :
    (iblk0 (F := Ideal) V c 2 t : Vec Ideal S64x64 .f32) = (V c main_v15 : Vec Ideal S64x64 .f32) := by
  obtain ⟨-, -, -, -, e0, e1, -⟩ := idx_facts0 t
  funext j
  show (V c main_v15 : Vec Ideal S64x64 .f32) (((cfg0.win 2).blk t).view.emb j) = _
  refine congrArg (V c main_v15 : Vec Ideal S64x64 .f32) ?_
  funext a; apply Fin.ext
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- Window 3's block is the whole first bias vector. -/
theorem blk0_3_whole (c : Dev nD) (t : Fin cfg0.N) :
    (iblk0 (F := Ideal) V c 3 t : Vec Ideal S64 .f32) = (V c main_v20 : Vec Ideal S64 .f32) := by
  obtain ⟨-, -, -, -, -, -, e0, -⟩ := idx_facts0 t
  funext j
  show (V c main_v20 : Vec Ideal S64 .f32) (((cfg0.win 3).blk t).view.emb j) = _
  refine congrArg (V c main_v20 : Vec Ideal S64 .f32) ?_
  funext a; apply Fin.ext
  match a with
  | ⟨0, _⟩ => show win0_3.index t (0 : Fin 1) * 64 + 1 * (j 0).val = (j 0).val; omega

/-- Window 4's block is the whole second weight matrix. -/
theorem blk0_4_whole (c : Dev nD) (t : Fin cfg0.N) :
    (iblk0 (F := Ideal) V c 4 t : Vec Ideal S64x64 .f32) = (V c main_v18 : Vec Ideal S64x64 .f32) := by
  obtain ⟨-, -, -, -, -, -, -, e0, e1, -⟩ := idx_facts0 t
  funext j
  show (V c main_v18 : Vec Ideal S64x64 .f32) (((cfg0.win 4).blk t).view.emb j) = _
  refine congrArg (V c main_v18 : Vec Ideal S64x64 .f32) ?_
  funext a; apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- Window 5's block is the whole second bias vector. -/
theorem blk0_5_whole (c : Dev nD) (t : Fin cfg0.N) :
    (iblk0 (F := Ideal) V c 5 t : Vec Ideal S64 .f32) = (V c main_v22 : Vec Ideal S64 .f32) := by
  obtain ⟨-, -, -, -, -, -, -, -, -, e0, -⟩ := idx_facts0 t
  funext j
  show (V c main_v22 : Vec Ideal S64 .f32) (((cfg0.win 5).blk t).view.emb j) = _
  refine congrArg (V c main_v22 : Vec Ideal S64 .f32) ?_
  funext a; apply Fin.ext
  match a with
  | ⟨0, _⟩ => show win0_5.index t (0 : Fin 1) * 64 + 1 * (j 0).val = (j 0).val; omega

/-! ## What a point writes back, and the arrays after the region -/

/-- WHAT POINT `t` WRITES BACK through window 6 is block `t` of the reference's new features of the operands. -/
theorem flushed0_6_eq (c : Dev nD) (A X : FVec Ideal S125000x64 .f32) (w1t w2t : FVec Ideal S64x64 .f32) (b1 b2 : FVec Ideal S64 .f32)
    (h0 : V c main_v12 = A) (h1 : V c main_arg6 = X) (h2 : V c main_v15 = w1t) (h3 : V c main_v20 = b1)
    (h4 : V c main_v18 = w2t) (h5 : V c main_v22 = b2) (t : Fin cfg0.N) :
    (dat0 (F := Ideal) V c).flushed 6 t
      = ((cfg0.win 6).blk t).view.read (Elt Ideal) (Cert.ReferenceIdeal.Layer.newFeat A X w1t b1 w2t b2) := by
  show (cfg0.win 6).cut (grid0.coords t) ((dat0 V c).after 6 t) = _
  rw [after0_6]
  unfold out0_6
  rw [View.canon_unit_zero hz2]
  have ht := lt_N0 t
  obtain ⟨-, -, -, -, -, -, -, -, -, -, e60, e61, -⟩ := idx_facts0 t
  funext y
  have hy0 : (y 0).val < 1000 := (y 0).isLt
  have hy1 : (y 1).val < 64 := (y 1).isLt
  refine feat_at0 (iblk0 V c 0 t) (iblk0 V c 1 t) (iblk0 V c 2 t) (iblk0 V c 4 t) (iblk0 V c 3 t) (iblk0 V c 5 t) A X w1t w2t b1 b2
    ((cfg0.win 6).xinj (grid0.coords t) y) (((cfg0.win 6).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win0_6.index t (0 : Fin 2) * 1000 + 1 * (y 0).val = 1000 * t.val + (y 0).val; omega
    | ⟨1, _⟩ => show win0_6.index t (1 : Fin 2) * 64 + 1 * (y 1).val = (y 1).val; omega
  · intro k; rw [← h0]; exact blk0_0_row V c t _ k _ rfl
  · intro k; rw [← h1]; exact blk0_1_row V c t _ k _ rfl
  · rw [← h2]; exact blk0_2_whole V c t
  · rw [← h3]; exact blk0_3_whole V c t
  · rw [← h4]; exact blk0_4_whole V c t
  · rw [← h5]; exact blk0_5_whole V c t

/-- WHAT POINT `t` WRITES BACK through window 7 is block `t` of the reference's unit-length rows of its new features. -/
theorem flushed0_7_eq (c : Dev nD) (A X : FVec Ideal S125000x64 .f32) (w1t w2t : FVec Ideal S64x64 .f32) (b1 b2 : FVec Ideal S64 .f32)
    (h0 : V c main_v12 = A) (h1 : V c main_arg6 = X) (h2 : V c main_v15 = w1t) (h3 : V c main_v20 = b1)
    (h4 : V c main_v18 = w2t) (h5 : V c main_v22 = b2) (t : Fin cfg0.N) :
    (dat0 (F := Ideal) V c).flushed 7 t
      = ((cfg0.win 7).blk t).view.read (Elt Ideal)
          (Cert.ReferenceIdeal.Layer.unitRows (Cert.ReferenceIdeal.Layer.newFeat A X w1t b1 w2t b2)) := by
  show (cfg0.win 7).cut (grid0.coords t) ((dat0 V c).after 7 t) = _
  rw [after0_7]
  unfold out0_7
  rw [View.canon_unit_zero hz2]
  have ht := lt_N0 t
  obtain ⟨-, -, -, -, -, -, -, -, -, -, -, -, e70, e71⟩ := idx_facts0 t
  funext y
  have hy0 : (y 0).val < 1000 := (y 0).isLt
  have hy1 : (y 1).val < 64 := (y 1).isLt
  refine unit_at0 (iblk0 V c 0 t) (iblk0 V c 1 t) (iblk0 V c 2 t) (iblk0 V c 4 t) (iblk0 V c 3 t) (iblk0 V c 5 t) A X w1t w2t b1 b2
    ((cfg0.win 7).xinj (grid0.coords t) y) (((cfg0.win 7).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win0_7.index t (0 : Fin 2) * 1000 + 1 * (y 0).val = 1000 * t.val + (y 0).val; omega
    | ⟨1, _⟩ => show win0_7.index t (1 : Fin 2) * 64 + 1 * (y 1).val = (y 1).val; omega
  · intro k; rw [← h0]; exact blk0_0_row V c t _ k _ rfl
  · intro k; rw [← h1]; exact blk0_1_row V c t _ k _ rfl
  · rw [← h2]; exact blk0_2_whole V c t
  · rw [← h3]; exact blk0_3_whole V c t
  · rw [← h4]; exact blk0_4_whole V c t
  · rw [← h5]; exact blk0_5_whole V c t

/-- An index of the first result array is in point `t`'s block iff each coordinate is in the block's range on its axis. -/
theorem mem_blk0_6 (t : Fin cfg0.N) (i : S125000x64.Idx) :
    i ∈ ((cfg0.win 6).blk t).view.set ↔ ∀ a : Fin 2, win0_6.index t a * S1000x64.size a ≤ (i a).val ∧ (i a).val < win0_6.index t a * S1000x64.size a + S1000x64.size a := by
  show i ∈ ((View.whole main_v23_0).slice (win0_6.rect t)).set ↔ _
  rw [View.set_slice_whole, Rect.mem_set_unit]
  exact Iff.rfl

/-- The same for the second result array. -/
theorem mem_blk0_7 (t : Fin cfg0.N) (i : S125000x64.Idx) :
    i ∈ ((cfg0.win 7).blk t).view.set ↔ ∀ a : Fin 2, win0_7.index t a * S1000x64.size a ≤ (i a).val ∧ (i a).val < win0_7.index t a * S1000x64.size a + S1000x64.size a := by
  show i ∈ ((View.whole main_v23_1).slice (win0_7.rect t)).set ↔ _
  rw [View.set_slice_whole, Rect.mem_set_unit]
  exact Iff.rfl

/-- Every index of the first result array is in the block of the point its row divided by 1000 names. -/
theorem cover0_6 (i : S125000x64.Idx) : ∃ t : Fin cfg0.N, (cfg0.win 6).flush t = true ∧ i ∈ ((cfg0.win 6).blk t).view.set := by
  have hi0 : (i 0).val < 125000 := (i 0).isLt
  have hi1 : (i 1).val < 64 := (i 1).isLt
  obtain ⟨t, ht⟩ : ∃ t : Fin cfg0.N, t.val = (i 0).val / 1000 := ⟨⟨(i 0).val / 1000, by rw [show cfg0.N = 125 from N_0]; omega⟩, rfl⟩
  obtain ⟨-, -, -, -, -, -, -, -, -, -, e60, e61, -⟩ := idx_facts0 t
  refine ⟨t, flush0_6 t, ?_⟩
  rw [mem_blk0_6]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 64 ≤ (i 1).val ∧ (i 1).val < win0_6.index t (1 : Fin 2) * 64 + 64; omega

/-- The same for the second result array. -/
theorem cover0_7 (i : S125000x64.Idx) : ∃ t : Fin cfg0.N, (cfg0.win 7).flush t = true ∧ i ∈ ((cfg0.win 7).blk t).view.set := by
  have hi0 : (i 0).val < 125000 := (i 0).isLt
  have hi1 : (i 1).val < 64 := (i 1).isLt
  obtain ⟨t, ht⟩ : ∃ t : Fin cfg0.N, t.val = (i 0).val / 1000 := ⟨⟨(i 0).val / 1000, by rw [show cfg0.N = 125 from N_0]; omega⟩, rfl⟩
  obtain ⟨-, -, -, -, -, -, -, -, -, -, -, -, e70, e71⟩ := idx_facts0 t
  refine ⟨t, flush0_7 t, ?_⟩
  rw [mem_blk0_7]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 64 ≤ (i 1).val ∧ (i 1).val < win0_7.index t (1 : Fin 2) * 64 + 64; omega

/-- THE FIRST RESULT ARRAY after the region: the reference's new features of the region's operands. -/
theorem region0_feat (c : Dev nD) (A X : FVec Ideal S125000x64 .f32) (w1t w2t : FVec Ideal S64x64 .f32) (b1 b2 : FVec Ideal S64 .f32)
    (h0 : V c main_v12 = A) (h1 : V c main_arg6 = X) (h2 : V c main_v15 = w1t) (h3 : V c main_v20 = b1)
    (h4 : V c main_v18 = w2t) (h5 : V c main_v22 = b2) :
    (dat0 (F := Ideal) V c).arrAt 6 cfg0.N = Cert.ReferenceIdeal.Layer.newFeat A X w1t b1 w2t b2 :=
  (dat0 (F := Ideal) V c).arrAt_eq_of_cover 6 (Cert.ReferenceIdeal.Layer.newFeat A X w1t b1 w2t b2)
    (fun t _ => flushed0_6_eq V c A X w1t w2t b1 b2 h0 h1 h2 h3 h4 h5 t) cover0_6

/-- THE SECOND RESULT ARRAY after the region: the reference's unit-length rows of those new features. -/
theorem region0_unit (c : Dev nD) (A X : FVec Ideal S125000x64 .f32) (w1t w2t : FVec Ideal S64x64 .f32) (b1 b2 : FVec Ideal S64 .f32)
    (h0 : V c main_v12 = A) (h1 : V c main_arg6 = X) (h2 : V c main_v15 = w1t) (h3 : V c main_v20 = b1)
    (h4 : V c main_v18 = w2t) (h5 : V c main_v22 = b2) :
    (dat0 (F := Ideal) V c).arrAt 7 cfg0.N
      = Cert.ReferenceIdeal.Layer.unitRows (Cert.ReferenceIdeal.Layer.newFeat A X w1t b1 w2t b2) :=
  (dat0 (F := Ideal) V c).arrAt_eq_of_cover 7 (Cert.ReferenceIdeal.Layer.unitRows (Cert.ReferenceIdeal.Layer.newFeat A X w1t b1 w2t b2))
    (fun t _ => flushed0_7_eq V c A X w1t w2t b1 b2 h0 h1 h2 h3 h4 h5 t) cover0_7

end Cert.KernelIdeal.Hand

end
-- ==== Proof.KI.Same1.lean ====
/-
  The dense layer of the second message-passing round stores the SAME functions of its six input blocks as the layer of
  the first round: the two printed bodies differ only by a reshape of the node-feature block to its own shape, which is
  the identity, and by where the floor of the row norms at the small constant is taken — inside the stored quotient here,
  before it there —, which is the same value.
-/
import proofs.«401280_j80350248174011_2_alg».proof.Proof.KI.R0Defs
import proofs.«401280_j80350248174011_2_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The new features: a reshape to the same shape is the identity, on every block it is applied to. -/
theorem newFeat1_eq (x0 x1 : Vec F S1000x64 .f32) (x2 : Vec F S64x64 .f32) (x3 : Vec F S64 .f32) (x4 : Vec F S64x64 .f32) (x5 : Vec F S64 .f32) :
    newFeat1 x0 x1 x2 x3 x4 x5 = newFeat0 x0 x1 x2 x3 x4 x5 := by
  unfold newFeat1 newFeat0 k1_pay2 k0_pay2
  simp only [shapeCast_self]

/-- The floored row norms: the same square root of the same row sums, floored at the same constant. -/
theorem rowNorm1_eq (x0 x1 : Vec F S1000x64 .f32) (x2 : Vec F S64x64 .f32) (x3 : Vec F S64 .f32) (x4 : Vec F S64x64 .f32) (x5 : Vec F S64 .f32) :
    rowNorm1 x0 x1 x2 x3 x4 x5 = rowNorm0 x0 x1 x2 x3 x4 x5 := by
  have h := newFeat1_eq x0 x1 x2 x3 x4 x5
  unfold newFeat1 newFeat0 at h
  unfold rowNorm1 rowRoot1 rowNorm0 k1_pay3 k1_pay4 k0_pay3
  rw [h]

/-- Window 6 is left at the same contents. -/
theorem out1_6_eq (x0 x1 : Vec F S1000x64 .f32) (x2 : Vec F S64x64 .f32) (x3 : Vec F S64 .f32) (x4 : Vec F S64x64 .f32) (x5 : Vec F S64 .f32) :
    out1_6 x0 x1 x2 x3 x4 x5 = out0_6 x0 x1 x2 x3 x4 x5 := by
  unfold out1_6 out0_6
  rw [newFeat1_eq]

/-- Window 7 is left at the same contents: the new features over their floored row norms. -/
theorem out1_7_eq (x0 x1 : Vec F S1000x64 .f32) (x2 : Vec F S64x64 .f32) (x3 : Vec F S64 .f32) (x4 : Vec F S64x64 .f32) (x5 : Vec F S64 .f32) :
    out1_7 x0 x1 x2 x3 x4 x5 = out0_7 x0 x1 x2 x3 x4 x5 := by
  unfold out1_7 out0_7
  rw [stored1_7_eq, newFeat1_eq, rowNorm1_eq]
  rfl

end Cert.KernelIdeal.Hand

end
-- ==== Proof.KI.Val1.lean ====
/-
  From blocks to the array for the fused dense layer of the second message-passing round (pallas_call 1), over the
  extended reals. The body leaves in its two result blocks what the first round's body leaves in its own, as functions of
  the six input blocks, so the entry-by-entry comparison with the reference made for the first round applies unchanged.
  Point `t` of the 125-point grid works on node rows 1000·t … 1000·t+999: its blocks of the neighbourhood sums, the node
  features and the two results are those rows, its blocks of the weights and biases are the whole arrays, and the blocks
  of the 125 points tile the 125000 rows (row `r` is in the block of point `r / 1000`). So the two result arrays after
  the region are the reference's whole-array layer functions of the region's operands.
-/
import proofs.«401280_j80350248174011_2_alg».proof.Proof.KI.R1Defs
import proofs.«401280_j80350248174011_2_alg».proof.Proof.KI.Same1
import proofs.«401280_j80350248174011_2_alg».proof.Proof.KI.Val0
import proofs.«401280_j80350248174011_2_alg».proof.Proof.RI.Layer
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

variable (V : (c : Dev nD) → (b : Ref sig .tc) → Buf (Elt Ideal) ((c : Thread nD τ).loc b))

/-! ## The index maps over the grid, and the blocks read off the arrays -/

/-- The printed index maps, decided over the grid: at point `t` the row-blocked windows sit at block row `t`, column
    block 0; the weights and biases at block 0 on every axis. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt_N1 (t : Fin cfg1.N) : t.val < 125 := lt_of_lt_of_eq t.isLt N_1

/-- Row `p` of window 0's block at point `t` is row `1000·t + p` of the neighbourhood sums. -/
theorem blk1_0_row (c : Dev nD) (t : Fin cfg1.N) (p : Fin 1000) (k : Fin 64) (r : Fin 125000) (hr : r.val = 1000 * t.val + p.val) :
    (iblk1 (F := Ideal) V c 0 t : Vec Ideal S1000x64 .f32) (ix2 p k) = (V c main_v36 : Vec Ideal S125000x64 .f32) (ix2 r k) := by
  obtain ⟨e0, e1, -⟩ := idx_facts1 t
  show (V c main_v36 : Vec Ideal S125000x64 .f32) (((cfg1.win 0).blk t).view.emb (ix2 p k)) = _
  refine congrArg (V c main_v36 : Vec Ideal S125000x64 .f32) ?_
  funext a; apply Fin.ext
  match a with
  | ⟨0, _⟩ => show win1_0.index t (0 : Fin 2) * 1000 + 1 * p.val = r.val; omega
  | ⟨1, _⟩ => show win1_0.index t (1 : Fin 2) * 64 + 1 * k.val = k.val; omega

/-- Row `p` of window 1's block at point `t` is row `1000·t + p` of the node features. -/
theorem blk1_1_row (c : Dev nD) (t : Fin cfg1.N) (p : Fin 1000) (k : Fin 64) (r : Fin 125000) (hr : r.val = 1000 * t.val + p.val) :
    (iblk1 (F := Ideal) V c 1 t : Vec Ideal S1000x64 .f32) (ix2 p k) = (V c main_v23_0 : Vec Ideal S125000x64 .f32) (ix2 r k) := by
  obtain ⟨-, -, e0, e1, -⟩ := idx_facts1 t
  show (V c main_v23_0 : Vec Ideal S125000x64 .f32) (((cfg1.win 1).blk t).view.emb (ix2 p k)) = _
  refine congrArg (V c main_v23_0 : Vec Ideal S125000x64 .f32) ?_
  funext a; apply Fin.ext
  match a with
  | ⟨0, _⟩ => show win1_1.index t (0 : Fin 2) * 1000 + 1 * p.val = r.val; omega
  | ⟨1, _⟩ => show win1_1.index t (1 : Fin 2) * 64 + 1 * k.val = k.val; omega

/-- Window 2's block is the whole first weight matrix at every point. -/
theorem blk1_2_whole (c : Dev nD) (t : Fin cfg1.N) :
    (iblk1 (F := Ideal) V c 2 t : Vec Ideal S64x64 .f32) = (V c main_v39 : Vec Ideal S64x64 .f32) := by
  obtain ⟨-, -, -, -, e0, e1, -⟩ := idx_facts1 t
  funext j
  show (V c main_v39 : Vec Ideal S64x64 .f32) (((cfg1.win 2).blk t).view.emb j) = _
  refine congrArg (V c main_v39 : Vec Ideal S64x64 .f32) ?_
  funext a; apply Fin.ext
  match a with
  | ⟨0, _⟩ => show win1_2.index t (0 : Fin 2) * 64 + 1 * (j 0).val = (j 0).val; omega
  | ⟨1, _⟩ => show win1_2.index t (1 : Fin 2) * 64 + 1 * (j 1).val = (j 1).val; omega

/-- Window 3's block is the whole first bias vector. -/
theorem blk1_3_whole (c : Dev nD) (t : Fin cfg1.N) :
    (iblk1 (F := Ideal) V c 3 t : Vec Ideal S64 .f32) = (V c main_v44 : Vec Ideal S64 .f32) := by
  obtain ⟨-, -, -, -, -, -, e0, -⟩ := idx_facts1 t
  funext j
  show (V c main_v44 : Vec Ideal S64 .f32) (((cfg1.win 3).blk t).view.emb j) = _
  refine congrArg (V c main_v44 : Vec Ideal S64 .f32) ?_
  funext a; apply Fin.ext
  match a with
  | ⟨0, _⟩ => show win1_3.index t (0 : Fin 1) * 64 + 1 * (j 0).val = (j 0).val; omega

/-- Window 4's block is the whole second weight matrix. -/
theorem blk1_4_whole (c : Dev nD) (t : Fin cfg1.N) :
    (iblk1 (F := Ideal) V c 4 t : Vec Ideal S64x64 .f32) = (V c main_v42 : Vec Ideal S64x64 .f32) := by
  obtain ⟨-, -, -, -, -, -, -, e0, e1, -⟩ := idx_facts1 t
  funext j
  show (V c main_v42 : Vec Ideal S64x64 .f32) (((cfg1.win 4).blk t).view.emb j) = _
  refine congrArg (V c main_v42 : Vec Ideal S64x64 .f32) ?_
  funext a; apply Fin.ext
  match a with
  | ⟨0, _⟩ => show win1_4.index t (0 : Fin 2) * 64 + 1 * (j 0).val = (j 0).val; omega
  | ⟨1, _⟩ => show win1_4.index t (1 : Fin 2) * 64 + 1 * (j 1).val = (j 1).val; omega

/-- Window 5's block is the whole second bias vector. -/
theorem blk1_5_whole (c : Dev nD) (t : Fin cfg1.N) :
    (iblk1 (F := Ideal) V c 5 t : Vec Ideal S64 .f32) = (V c main_v46 : Vec Ideal S64 .f32) := by
  obtain ⟨-, -, -, -, -, -, -, -, -, e0, -⟩ := idx_facts1 t
  funext j
  show (V c main_v46 : Vec Ideal S64 .f32) (((cfg1.win 5).blk t).view.emb j) = _
  refine congrArg (V c main_v46 : Vec Ideal S64 .f32) ?_
  funext a; apply Fin.ext
  match a with
  | ⟨0, _⟩ => show win1_5.index t (0 : Fin 1) * 64 + 1 * (j 0).val = (j 0).val; omega

/-! ## What a point writes back, and the arrays after the region -/

/-- WHAT POINT `t` WRITES BACK through window 6 is block `t` of the reference's new features of the operands. -/
theorem flushed1_6_eq (c : Dev nD) (A X : FVec Ideal S125000x64 .f32) (w1t w2t : FVec Ideal S64x64 .f32) (b1 b2 : FVec Ideal S64 .f32)
    (h0 : V c main_v36 = A) (h1 : V c main_v23_0 = X) (h2 : V c main_v39 = w1t) (h3 : V c main_v44 = b1)
    (h4 : V c main_v42 = w2t) (h5 : V c main_v46 = b2) (t : Fin cfg1.N) :
    (dat1 (F := Ideal) V c).flushed 6 t
      = ((cfg1.win 6).blk t).view.read (Elt Ideal) (Cert.ReferenceIdeal.Layer.newFeat A X w1t b1 w2t b2) := by
  show (cfg1.win 6).cut (grid1.coords t) ((dat1 V c).after 6 t) = _
  rw [after1_6, out1_6_eq]
  unfold out0_6
  rw [View.canon_unit_zero hz2]
  have ht := lt_N1 t
  obtain ⟨-, -, -, -, -, -, -, -, -, -, e60, e61, -⟩ := idx_facts1 t
  funext y
  have hy0 : (y 0).val < 1000 := (y 0).isLt
  have hy1 : (y 1).val < 64 := (y 1).isLt
  refine feat_at0 (iblk1 V c 0 t) (iblk1 V c 1 t) (iblk1 V c 2 t) (iblk1 V c 4 t) (iblk1 V c 3 t) (iblk1 V c 5 t) A X w1t w2t b1 b2
    ((cfg1.win 6).xinj (grid1.coords t) y) (((cfg1.win 6).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win1_6.index t (0 : Fin 2) * 1000 + 1 * (y 0).val = 1000 * t.val + (y 0).val; omega
    | ⟨1, _⟩ => show win1_6.index t (1 : Fin 2) * 64 + 1 * (y 1).val = (y 1).val; omega
  · intro k; rw [← h0]; exact blk1_0_row V c t _ k _ rfl
  · intro k; rw [← h1]; exact blk1_1_row V c t _ k _ rfl
  · rw [← h2]; exact blk1_2_whole V c t
  · rw [← h3]; exact blk1_3_whole V c t
  · rw [← h4]; exact blk1_4_whole V c t
  · rw [← h5]; exact blk1_5_whole V c t

/-- WHAT POINT `t` WRITES BACK through window 7 is block `t` of the reference's unit-length rows of its new features. -/
theorem flushed1_7_eq (c : Dev nD) (A X : FVec Ideal S125000x64 .f32) (w1t w2t : FVec Ideal S64x64 .f32) (b1 b2 : FVec Ideal S64 .f32)
    (h0 : V c main_v36 = A) (h1 : V c main_v23_0 = X) (h2 : V c main_v39 = w1t) (h3 : V c main_v44 = b1)
    (h4 : V c main_v42 = w2t) (h5 : V c main_v46 = b2) (t : Fin cfg1.N) :
    (dat1 (F := Ideal) V c).flushed 7 t
      = ((cfg1.win 7).blk t).view.read (Elt Ideal)
          (Cert.ReferenceIdeal.Layer.unitRows (Cert.ReferenceIdeal.Layer.newFeat A X w1t b1 w2t b2)) := by
  show (cfg1.win 7).cut (grid1.coords t) ((dat1 V c).after 7 t) = _
  rw [after1_7, out1_7_eq]
  unfold out0_7
  rw [View.canon_unit_zero hz2]
  have ht := lt_N1 t
  obtain ⟨-, -, -, -, -, -, -, -, -, -, -, -, e70, e71⟩ := idx_facts1 t
  funext y
  have hy0 : (y 0).val < 1000 := (y 0).isLt
  have hy1 : (y 1).val < 64 := (y 1).isLt
  refine unit_at0 (iblk1 V c 0 t) (iblk1 V c 1 t) (iblk1 V c 2 t) (iblk1 V c 4 t) (iblk1 V c 3 t) (iblk1 V c 5 t) A X w1t w2t b1 b2
    ((cfg1.win 7).xinj (grid1.coords t) y) (((cfg1.win 7).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win1_7.index t (0 : Fin 2) * 1000 + 1 * (y 0).val = 1000 * t.val + (y 0).val; omega
    | ⟨1, _⟩ => show win1_7.index t (1 : Fin 2) * 64 + 1 * (y 1).val = (y 1).val; omega
  · intro k; rw [← h0]; exact blk1_0_row V c t _ k _ rfl
  · intro k; rw [← h1]; exact blk1_1_row V c t _ k _ rfl
  · rw [← h2]; exact blk1_2_whole V c t
  · rw [← h3]; exact blk1_3_whole V c t
  · rw [← h4]; exact blk1_4_whole V c t
  · rw [← h5]; exact blk1_5_whole V c t

/-- An index of the first result array is in point `t`'s block iff each coordinate is in the block's range on its axis. -/
theorem mem_blk1_6 (t : Fin cfg1.N) (i : S125000x64.Idx) :
    i ∈ ((cfg1.win 6).blk t).view.set ↔ ∀ a : Fin 2, win1_6.index t a * S1000x64.size a ≤ (i a).val ∧ (i a).val < win1_6.index t a * S1000x64.size a + S1000x64.size a := by
  show i ∈ ((View.whole main_v47_0).slice (win1_6.rect t)).set ↔ _
  rw [View.set_slice_whole, Rect.mem_set_unit]
  exact Iff.rfl

/-- The same for the second result array. -/
theorem mem_blk1_7 (t : Fin cfg1.N) (i : S125000x64.Idx) :
    i ∈ ((cfg1.win 7).blk t).view.set ↔ ∀ a : Fin 2, win1_7.index t a * S1000x64.size a ≤ (i a).val ∧ (i a).val < win1_7.index t a * S1000x64.size a + S1000x64.size a := by
  show i ∈ ((View.whole main_v47_1).slice (win1_7.rect t)).set ↔ _
  rw [View.set_slice_whole, Rect.mem_set_unit]
  exact Iff.rfl

/-- Every index of the first result array is in the block of the point its row divided by 1000 names. -/
theorem cover1_6 (i : S125000x64.Idx) : ∃ t : Fin cfg1.N, (cfg1.win 6).flush t = true ∧ i ∈ ((cfg1.win 6).blk t).view.set := by
  have hi0 : (i 0).val < 125000 := (i 0).isLt
  have hi1 : (i 1).val < 64 := (i 1).isLt
  obtain ⟨t, ht⟩ : ∃ t : Fin cfg1.N, t.val = (i 0).val / 1000 := ⟨⟨(i 0).val / 1000, by rw [show cfg1.N = 125 from N_1]; omega⟩, rfl⟩
  obtain ⟨-, -, -, -, -, -, -, -, -, -, e60, e61, -⟩ := idx_facts1 t
  refine ⟨t, flush1_6 t, ?_⟩
  rw [mem_blk1_6]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 64 ≤ (i 1).val ∧ (i 1).val < win1_6.index t (1 : Fin 2) * 64 + 64; omega

/-- The same for the second result array. -/
theorem cover1_7 (i : S125000x64.Idx) : ∃ t : Fin cfg1.N, (cfg1.win 7).flush t = true ∧ i ∈ ((cfg1.win 7).blk t).view.set := by
  have hi0 : (i 0).val < 125000 := (i 0).isLt
  have hi1 : (i 1).val < 64 := (i 1).isLt
  obtain ⟨t, ht⟩ : ∃ t : Fin cfg1.N, t.val = (i 0).val / 1000 := ⟨⟨(i 0).val / 1000, by rw [show cfg1.N = 125 from N_1]; omega⟩, rfl⟩
  obtain ⟨-, -, -, -, -, -, -, -, -, -, -, -, e70, e71⟩ := idx_facts1 t
  refine ⟨t, flush1_7 t, ?_⟩
  rw [mem_blk1_7]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 64 ≤ (i 1).val ∧ (i 1).val < win1_7.index t (1 : Fin 2) * 64 + 64; omega

/-- THE FIRST RESULT ARRAY after the region: the reference's new features of the region's operands. -/
theorem region1_feat (c : Dev nD) (A X : FVec Ideal S125000x64 .f32) (w1t w2t : FVec Ideal S64x64 .f32) (b1 b2 : FVec Ideal S64 .f32)
    (h0 : V c main_v36 = A) (h1 : V c main_v23_0 = X) (h2 : V c main_v39 = w1t) (h3 : V c main_v44 = b1)
    (h4 : V c main_v42 = w2t) (h5 : V c main_v46 = b2) :
    (dat1 (F := Ideal) V c).arrAt 6 cfg1.N = Cert.ReferenceIdeal.Layer.newFeat A X w1t b1 w2t b2 :=
  (dat1 (F := Ideal) V c).arrAt_eq_of_cover 6 (Cert.ReferenceIdeal.Layer.newFeat A X w1t b1 w2t b2)
    (fun t _ => flushed1_6_eq V c A X w1t w2t b1 b2 h0 h1 h2 h3 h4 h5 t) cover1_6

/-- THE SECOND RESULT ARRAY after the region: the reference's unit-length rows of those new features. -/
theorem region1_unit (c : Dev nD) (A X : FVec Ideal S125000x64 .f32) (w1t w2t : FVec Ideal S64x64 .f32) (b1 b2 : FVec Ideal S64 .f32)
    (h0 : V c main_v36 = A) (h1 : V c main_v23_0 = X) (h2 : V c main_v39 = w1t) (h3 : V c main_v44 = b1)
    (h4 : V c main_v42 = w2t) (h5 : V c main_v46 = b2) :
    (dat1 (F := Ideal) V c).arrAt 7 cfg1.N
      = Cert.ReferenceIdeal.Layer.unitRows (Cert.ReferenceIdeal.Layer.newFeat A X w1t b1 w2t b2) :=
  (dat1 (F := Ideal) V c).arrAt_eq_of_cover 7 (Cert.ReferenceIdeal.Layer.unitRows (Cert.ReferenceIdeal.Layer.newFeat A X w1t b1 w2t b2))
    (fun t _ => flushed1_7_eq V c A X w1t w2t b1 b2 h0 h1 h2 h3 h4 h5 t) cover1_7

end Cert.KernelIdeal.Hand

end
-- ==== Proof.KI.Same2.lean ====
/-
  The dense layer of the third message-passing round stores the SAME functions of its six input blocks as the layer of
  the first round: the two printed bodies differ only by a reshape of the node-feature block to its own shape, which is
  the identity, and by where the floor of the row norms at the small constant is taken — inside the stored quotient here,
  before it there —, which is the same value.
-/
import proofs.«401280_j80350248174011_2_alg».proof.Proof.KI.R0Defs
import proofs.«401280_j80350248174011_2_alg».proof.Proof.KI.R2Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The new features: a reshape to the same shape is the identity, on every block it is applied to. -/
theorem newFeat2_eq (x0 x1 : Vec F S1000x64 .f32) (x2 : Vec F S64x64 .f32) (x3 : Vec F S64 .f32) (x4 : Vec F S64x64 .f32) (x5 : Vec F S64 .f32) :
    newFeat2 x0 x1 x2 x3 x4 x5 = newFeat0 x0 x1 x2 x3 x4 x5 := by
  unfold newFeat2 newFeat0 k2_pay2 k0_pay2
  simp only [shapeCast_self]

/-- The floored row norms: the same square root of the same row sums, floored at the same constant. -/
theorem rowNorm2_eq (x0 x1 : Vec F S1000x64 .f32) (x2 : Vec F S64x64 .f32) (x3 : Vec F S64 .f32) (x4 : Vec F S64x64 .f32) (x5 : Vec F S64 .f32) :
    rowNorm2 x0 x1 x2 x3 x4 x5 = rowNorm0 x0 x1 x2 x3 x4 x5 := by
  have h := newFeat2_eq x0 x1 x2 x3 x4 x5
  unfold newFeat2 newFeat0 at h
  unfold rowNorm2 rowRoot2 rowNorm0 k2_pay3 k2_pay4 k0_pay3
  rw [h]

/-- Window 6 is left at the same contents. -/
theorem out2_6_eq (x0 x1 : Vec F S1000x64 .f32) (x2 : Vec F S64x64 .f32) (x3 : Vec F S64 .f32) (x4 : Vec F S64x64 .f32) (x5 : Vec F S64 .f32) :
    out2_6 x0 x1 x2 x3 x4 x5 = out0_6 x0 x1 x2 x3 x4 x5 := by
  unfold out2_6 out0_6
  rw [newFeat2_eq]

/-- Window 7 is left at the same contents: the new features over their floored row norms. -/
theorem out2_7_eq (x0 x1 : Vec F S1000x64 .f32) (x2 : Vec F S64x64 .f32) (x3 : Vec F S64 .f32) (x4 : Vec F S64x64 .f32) (x5 : Vec F S64 .f32) :
    out2_7 x0 x1 x2 x3 x4 x5 = out0_7 x0 x1 x2 x3 x4 x5 := by
  unfold out2_7 out0_7
  rw [stored2_7_eq, newFeat2_eq, rowNorm2_eq]
  rfl

end Cert.KernelIdeal.Hand

end
-- ==== Proof.KI.Val2.lean ====
/-
  From blocks to the array for the fused dense layer of the third message-passing round (pallas_call 2), over the
  extended reals. The body leaves in its two result blocks what the first round's body leaves in its own, as functions of
  the six input blocks, so the entry-by-entry comparison with the reference made for the first round applies unchanged.
  Point `t` of the 125-point grid works on node rows 1000·t … 1000·t+999: its blocks of the neighbourhood sums, the node
  features and the two results are those rows, its blocks of the weights and biases are the whole arrays, and the blocks
  of the 125 points tile the 125000 rows (row `r` is in the block of point `r / 1000`). So the two result arrays after
  the region are the reference's whole-array layer functions of the region's operands.
-/
import proofs.«401280_j80350248174011_2_alg».proof.Proof.KI.R2Defs
import proofs.«401280_j80350248174011_2_alg».proof.Proof.KI.Same2
import proofs.«401280_j80350248174011_2_alg».proof.Proof.KI.Val0
import proofs.«401280_j80350248174011_2_alg».proof.Proof.RI.Layer
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.ReferenceIdeal.Facts]

variable (V : (c : Dev nD) → (b : Ref sig .tc) → Buf (Elt Ideal) ((c : Thread nD τ).loc b))

/-! ## The index maps over the grid, and the blocks read off the arrays -/

/-- The printed index maps, decided over the grid: at point `t` the row-blocked windows sit at block row `t`, column
    block 0; the weights and biases at block 0 on every axis. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem lt_N2 (t : Fin cfg2.N) : t.val < 125 := lt_of_lt_of_eq t.isLt N_2

/-- Row `p` of window 0's block at point `t` is row `1000·t + p` of the neighbourhood sums. -/
theorem blk2_0_row (c : Dev nD) (t : Fin cfg2.N) (p : Fin 1000) (k : Fin 64) (r : Fin 125000) (hr : r.val = 1000 * t.val + p.val) :
    (iblk2 (F := Ideal) V c 0 t : Vec Ideal S1000x64 .f32) (ix2 p k) = (V c main_v60 : Vec Ideal S125000x64 .f32) (ix2 r k) := by
  obtain ⟨e0, e1, -⟩ := idx_facts2 t
  show (V c main_v60 : Vec Ideal S125000x64 .f32) (((cfg2.win 0).blk t).view.emb (ix2 p k)) = _
  refine congrArg (V c main_v60 : Vec Ideal S125000x64 .f32) ?_
  funext a; apply Fin.ext
  match a with
  | ⟨0, _⟩ => show win2_0.index t (0 : Fin 2) * 1000 + 1 * p.val = r.val; omega
  | ⟨1, _⟩ => show win2_0.index t (1 : Fin 2) * 64 + 1 * k.val = k.val; omega

/-- Row `p` of window 1's block at point `t` is row `1000·t + p` of the node features. -/
theorem blk2_1_row (c : Dev nD) (t : Fin cfg2.N) (p : Fin 1000) (k : Fin 64) (r : Fin 125000) (hr : r.val = 1000 * t.val + p.val) :
    (iblk2 (F := Ideal) V c 1 t : Vec Ideal S1000x64 .f32) (ix2 p k) = (V c main_v47_0 : Vec Ideal S125000x64 .f32) (ix2 r k) := by
  obtain ⟨-, -, e0, e1, -⟩ := idx_facts2 t
  show (V c main_v47_0 : Vec Ideal S125000x64 .f32) (((cfg2.win 1).blk t).view.emb (ix2 p k)) = _
  refine congrArg (V c main_v47_0 : Vec Ideal S125000x64 .f32) ?_
  funext a; apply Fin.ext
  match a with
  | ⟨0, _⟩ => show win2_1.index t (0 : Fin 2) * 1000 + 1 * p.val = r.val; omega
  | ⟨1, _⟩ => show win2_1.index t (1 : Fin 2) * 64 + 1 * k.val = k.val; omega

/-- Window 2's block is the whole first weight matrix at every point. -/
theorem blk2_2_whole (c : Dev nD) (t : Fin cfg2.N) :
    (iblk2 (F := Ideal) V c 2 t : Vec Ideal S64x64 .f32) = (V c main_v63 : Vec Ideal S64x64 .f32) := by
  obtain ⟨-, -, -, -, e0, e1, -⟩ := idx_facts2 t
  funext j
  show (V c main_v63 : Vec Ideal S64x64 .f32) (((cfg2.win 2).blk t).view.emb j) = _
  refine congrArg (V c main_v63 : Vec Ideal S64x64 .f32) ?_
  funext a; apply Fin.ext
  match a with
  | ⟨0, _⟩ => show win2_2.index t (0 : Fin 2) * 64 + 1 * (j 0).val = (j 0).val; omega
  | ⟨1, _⟩ => show win2_2.index t (1 : Fin 2) * 64 + 1 * (j 1).val = (j 1).val; omega

/-- Window 3's block is the whole first bias vector. -/
theorem blk2_3_whole (c : Dev nD) (t : Fin cfg2.N) :
    (iblk2 (F := Ideal) V c 3 t : Vec Ideal S64 .f32) = (V c main_v68 : Vec Ideal S64 .f32) := by
  obtain ⟨-, -, -, -, -, -, e0, -⟩ := idx_facts2 t
  funext j
  show (V c main_v68 : Vec Ideal S64 .f32) (((cfg2.win 3).blk t).view.emb j) = _
  refine congrArg (V c main_v68 : Vec Ideal S64 .f32) ?_
  funext a; apply Fin.ext
  match a with
  | ⟨0, _⟩ => show win2_3.index t (0 : Fin 1) * 64 + 1 * (j 0).val = (j 0).val; omega

/-- Window 4's block is the whole second weight matrix. -/
theorem blk2_4_whole (c : Dev nD) (t : Fin cfg2.N) :
    (iblk2 (F := Ideal) V c 4 t : Vec Ideal S64x64 .f32) = (V c main_v66 : Vec Ideal S64x64 .f32) := by
  obtain ⟨-, -, -, -, -, -, -, e0, e1, -⟩ := idx_facts2 t
  funext j
  show (V c main_v66 : Vec Ideal S64x64 .f32) (((cfg2.win 4).blk t).view.emb j) = _
  refine congrArg (V c main_v66 : Vec Ideal S64x64 .f32) ?_
  funext a; apply Fin.ext
  match a with
  | ⟨0, _⟩ => show win2_4.index t (0 : Fin 2) * 64 + 1 * (j 0).val = (j 0).val; omega
  | ⟨1, _⟩ => show win2_4.index t (1 : Fin 2) * 64 + 1 * (j 1).val = (j 1).val; omega

/-- Window 5's block is the whole second bias vector. -/
theorem blk2_5_whole (c : Dev nD) (t : Fin cfg2.N) :
    (iblk2 (F := Ideal) V c 5 t : Vec Ideal S64 .f32) = (V c main_v70 : Vec Ideal S64 .f32) := by
  obtain ⟨-, -, -, -, -, -, -, -, -, e0, -⟩ := idx_facts2 t
  funext j
  show (V c main_v70 : Vec Ideal S64 .f32) (((cfg2.win 5).blk t).view.emb j) = _
  refine congrArg (V c main_v70 : Vec Ideal S64 .f32) ?_
  funext a; apply Fin.ext
  match a with
  | ⟨0, _⟩ => show win2_5.index t (0 : Fin 1) * 64 + 1 * (j 0).val = (j 0).val; omega

/-! ## What a point writes back, and the arrays after the region -/

/-- WHAT POINT `t` WRITES BACK through window 6 is block `t` of the reference's new features of the operands. -/
theorem flushed2_6_eq (c : Dev nD) (A X : FVec Ideal S125000x64 .f32) (w1t w2t : FVec Ideal S64x64 .f32) (b1 b2 : FVec Ideal S64 .f32)
    (h0 : V c main_v60 = A) (h1 : V c main_v47_0 = X) (h2 : V c main_v63 = w1t) (h3 : V c main_v68 = b1)
    (h4 : V c main_v66 = w2t) (h5 : V c main_v70 = b2) (t : Fin cfg2.N) :
    (dat2 (F := Ideal) V c).flushed 6 t
      = ((cfg2.win 6).blk t).view.read (Elt Ideal) (Cert.ReferenceIdeal.Layer.newFeat A X w1t b1 w2t b2) := by
  show (cfg2.win 6).cut (grid2.coords t) ((dat2 V c).after 6 t) = _
  rw [after2_6, out2_6_eq]
  unfold out0_6
  rw [View.canon_unit_zero hz2]
  have ht := lt_N2 t
  obtain ⟨-, -, -, -, -, -, -, -, -, -, e60, e61, -⟩ := idx_facts2 t
  funext y
  have hy0 : (y 0).val < 1000 := (y 0).isLt
  have hy1 : (y 1).val < 64 := (y 1).isLt
  refine feat_at0 (iblk2 V c 0 t) (iblk2 V c 1 t) (iblk2 V c 2 t) (iblk2 V c 4 t) (iblk2 V c 3 t) (iblk2 V c 5 t) A X w1t w2t b1 b2
    ((cfg2.win 6).xinj (grid2.coords t) y) (((cfg2.win 6).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win2_6.index t (0 : Fin 2) * 1000 + 1 * (y 0).val = 1000 * t.val + (y 0).val; omega
    | ⟨1, _⟩ => show win2_6.index t (1 : Fin 2) * 64 + 1 * (y 1).val = (y 1).val; omega
  · intro k; rw [← h0]; exact blk2_0_row V c t _ k _ rfl
  · intro k; rw [← h1]; exact blk2_1_row V c t _ k _ rfl
  · rw [← h2]; exact blk2_2_whole V c t
  · rw [← h3]; exact blk2_3_whole V c t
  · rw [← h4]; exact blk2_4_whole V c t
  · rw [← h5]; exact blk2_5_whole V c t

/-- WHAT POINT `t` WRITES BACK through window 7 is block `t` of the reference's unit-length rows of its new features. -/
theorem flushed2_7_eq (c : Dev nD) (A X : FVec Ideal S125000x64 .f32) (w1t w2t : FVec Ideal S64x64 .f32) (b1 b2 : FVec Ideal S64 .f32)
    (h0 : V c main_v60 = A) (h1 : V c main_v47_0 = X) (h2 : V c main_v63 = w1t) (h3 : V c main_v68 = b1)
    (h4 : V c main_v66 = w2t) (h5 : V c main_v70 = b2) (t : Fin cfg2.N) :
    (dat2 (F := Ideal) V c).flushed 7 t
      = ((cfg2.win 7).blk t).view.read (Elt Ideal)
          (Cert.ReferenceIdeal.Layer.unitRows (Cert.ReferenceIdeal.Layer.newFeat A X w1t b1 w2t b2)) := by
  show (cfg2.win 7).cut (grid2.coords t) ((dat2 V c).after 7 t) = _
  rw [after2_7, out2_7_eq]
  unfold out0_7
  rw [View.canon_unit_zero hz2]
  have ht := lt_N2 t
  obtain ⟨-, -, -, -, -, -, -, -, -, -, -, -, e70, e71⟩ := idx_facts2 t
  funext y
  have hy0 : (y 0).val < 1000 := (y 0).isLt
  have hy1 : (y 1).val < 64 := (y 1).isLt
  refine unit_at0 (iblk2 V c 0 t) (iblk2 V c 1 t) (iblk2 V c 2 t) (iblk2 V c 4 t) (iblk2 V c 3 t) (iblk2 V c 5 t) A X w1t w2t b1 b2
    ((cfg2.win 7).xinj (grid2.coords t) y) (((cfg2.win 7).blk t).view.emb y)
    ⟨(y 0).val, hy0⟩ ⟨(y 1).val, hy1⟩ ⟨1000 * t.val + (y 0).val, by omega⟩ ?_ ?_ ?_ ?_ ?_ ?_ ?_ ?_
  · funext a
    match a with
    | ⟨0, _⟩ => rfl
    | ⟨1, _⟩ => rfl
  · funext a; apply Fin.ext
    match a with
    | ⟨0, _⟩ => show win2_7.index t (0 : Fin 2) * 1000 + 1 * (y 0).val = 1000 * t.val + (y 0).val; omega
    | ⟨1, _⟩ => show win2_7.index t (1 : Fin 2) * 64 + 1 * (y 1).val = (y 1).val; omega
  · intro k; rw [← h0]; exact blk2_0_row V c t _ k _ rfl
  · intro k; rw [← h1]; exact blk2_1_row V c t _ k _ rfl
  · rw [← h2]; exact blk2_2_whole V c t
  · rw [← h3]; exact blk2_3_whole V c t
  · rw [← h4]; exact blk2_4_whole V c t
  · rw [← h5]; exact blk2_5_whole V c t

/-- An index of the first result array is in point `t`'s block iff each coordinate is in the block's range on its axis. -/
theorem mem_blk2_6 (t : Fin cfg2.N) (i : S125000x64.Idx) :
    i ∈ ((cfg2.win 6).blk t).view.set ↔ ∀ a : Fin 2, win2_6.index t a * S1000x64.size a ≤ (i a).val ∧ (i a).val < win2_6.index t a * S1000x64.size a + S1000x64.size a := by
  show i ∈ ((View.whole main_v71_0).slice (win2_6.rect t)).set ↔ _
  rw [View.set_slice_whole, Rect.mem_set_unit]
  exact Iff.rfl

/-- The same for the second result array. -/
theorem mem_blk2_7 (t : Fin cfg2.N) (i : S125000x64.Idx) :
    i ∈ ((cfg2.win 7).blk t).view.set ↔ ∀ a : Fin 2, win2_7.index t a * S1000x64.size a ≤ (i a).val ∧ (i a).val < win2_7.index t a * S1000x64.size a + S1000x64.size a := by
  show i ∈ ((View.whole main_v71_1).slice (win2_7.rect t)).set ↔ _
  rw [View.set_slice_whole, Rect.mem_set_unit]
  exact Iff.rfl

/-- Every index of the first result array is in the block of the point its row divided by 1000 names. -/
theorem cover2_6 (i : S125000x64.Idx) : ∃ t : Fin cfg2.N, (cfg2.win 6).flush t = true ∧ i ∈ ((cfg2.win 6).blk t).view.set := by
  have hi0 : (i 0).val < 125000 := (i 0).isLt
  have hi1 : (i 1).val < 64 := (i 1).isLt
  obtain ⟨t, ht⟩ : ∃ t : Fin cfg2.N, t.val = (i 0).val / 1000 := ⟨⟨(i 0).val / 1000, by rw [show cfg2.N = 125 from N_2]; omega⟩, rfl⟩
  obtain ⟨-, -, -, -, -, -, -, -, -, -, e60, e61, -⟩ := idx_facts2 t
  refine ⟨t, flush2_6 t, ?_⟩
  rw [mem_blk2_6]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 64 ≤ (i 1).val ∧ (i 1).val < win2_6.index t (1 : Fin 2) * 64 + 64; omega

/-- The same for the second result array. -/
theorem cover2_7 (i : S125000x64.Idx) : ∃ t : Fin cfg2.N, (cfg2.win 7).flush t = true ∧ i ∈ ((cfg2.win 7).blk t).view.set := by
  have hi0 : (i 0).val < 125000 := (i 0).isLt
  have hi1 : (i 1).val < 64 := (i 1).isLt
  obtain ⟨t, ht⟩ : ∃ t : Fin cfg2.N, t.val = (i 0).val / 1000 := ⟨⟨(i 0).val / 1000, by rw [show cfg2.N = 125 from N_2]; omega⟩, rfl⟩
  obtain ⟨-, -, -, -, -, -, -, -, -, -, -, -, e70, e71⟩ := idx_facts2 t
  refine ⟨t, flush2_7 t, ?_⟩
  rw [mem_blk2_7]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 64 ≤ (i 1).val ∧ (i 1).val < win2_7.index t (1 : Fin 2) * 64 + 64; omega

/-- THE FIRST RESULT ARRAY after the region: the reference's new features of the region's operands. -/
theorem region2_feat (c : Dev nD) (A X : FVec Ideal S125000x64 .f32) (w1t w2t : FVec Ideal S64x64 .f32) (b1 b2 : FVec Ideal S64 .f32)
    (h0 : V c main_v60 = A) (h1 : V c main_v47_0 = X) (h2 : V c main_v63 = w1t) (h3 : V c main_v68 = b1)
    (h4 : V c main_v66 = w2t) (h5 : V c main_v70 = b2) :
    (dat2 (F := Ideal) V c).arrAt 6 cfg2.N = Cert.ReferenceIdeal.Layer.newFeat A X w1t b1 w2t b2 :=
  (dat2 (F := Ideal) V c).arrAt_eq_of_cover 6 (Cert.ReferenceIdeal.Layer.newFeat A X w1t b1 w2t b2)
    (fun t _ => flushed2_6_eq V c A X w1t w2t b1 b2 h0 h1 h2 h3 h4 h5 t) cover2_6

/-- THE SECOND RESULT ARRAY after the region: the reference's unit-length rows of those new features. -/
theorem region2_unit (c : Dev nD) (A X : FVec Ideal S125000x64 .f32) (w1t w2t : FVec Ideal S64x64 .f32) (b1 b2 : FVec Ideal S64 .f32)
    (h0 : V c main_v60 = A) (h1 : V c main_v47_0 = X) (h2 : V c main_v63 = w1t) (h3 : V c main_v68 = b1)
    (h4 : V c main_v66 = w2t) (h5 : V c main_v70 = b2) :
    (dat2 (F := Ideal) V c).arrAt 7 cfg2.N
      = Cert.ReferenceIdeal.Layer.unitRows (Cert.ReferenceIdeal.Layer.newFeat A X w1t b1 w2t b2) :=
  (dat2 (F := Ideal) V c).arrAt_eq_of_cover 7 (Cert.ReferenceIdeal.Layer.unitRows (Cert.ReferenceIdeal.Layer.newFeat A X w1t b1 w2t b2))
    (fun t _ => flushed2_7_eq V c A X w1t w2t b1 b2 h0 h1 h2 h3 h4 h5 t) cover2_7

end Cert.KernelIdeal.Hand

end
-- ==== Proof.KI.Val3.lean ====
/-
  The row gather (pallas_call 3), from blocks to the array: after the region, row `i` of the result array is the row of
  the input table that the index table names at `i`. A pure copy, so the statement holds over any float type. Point `t`
  loads the block (table[t], 0, 0) of the table viewed [125000,2,128] and writes it back as block (t, 0, 0) of the
  result; the result's blocks are its rows, every point writes its row back, and row `i` is covered by point `i`.
-/
import proofs.«401280_j80350248174011_2_alg».proof.Proof.Gen.KernelIdeal.Launch
import proofs.«401280_j80350248174011_2_alg».proof.Proof.Gen.KernelIdeal.Skeleton
import proofs.«401280_j80350248174011_2_alg».proof.Proof.Gen.KernelIdeal.Points
import proofs.«401280_j80350248174011_2_alg».proof.Proof.KI.R3Defs
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))
variable (a3 : (pcfg3 (F := F)).Adm)

/-- The grid has 12288 points, one axis. -/
theorem grid3_N : grid3.N = 12288 := by decide +kernel
theorem grid3_stride : grid3.stride 0 = 1 := by decide +kernel
theorem N3_eq : (cfg3 a3).N = 12288 := grid3_N

/-- The one coordinate of point `t` is `t`. -/
theorem coords3_val (t : Fin (cfg3 a3).N) : ((cfg3 a3).grid.coords t 0).val = t.val := by
  have h : t.val < 12288 := lt_of_lt_of_eq t.isLt (N3_eq a3)
  show t.val / grid3.stride 0 % 12288 = t.val
  rw [grid3_stride]
  omega

/-- A 32-bit word of a number below 12288 is that number. -/
theorem word3_toNat (n : Nat) (h : n < 12288) : (BitVec.ofNat 32 n).toNat = n := by
  rw [BitVec.toNat_ofNat]; omega

/-- The table row's block index at a point is the index table's entry there (and zeros). -/
theorem gatherIdx_eq (pf : pre3.Contents (Elt F)) (tab : IVec S12288 32) (hpf : pf 0 = tab) (i : grid3.Coords) :
    cc3_transform_0 k3_off1_inb numel1_S1 pf i = ![(tab (ix1 ⟨(i 0).val, (i 0).isLt⟩)).toNat, 0, 0] := by
  subst hpf
  have hi : (i 0).val < 12288 := (i 0).isLt
  unfold cc3_transform_0
  dsimp only
  refine congrArg (fun x => (![BitVec.toNat (pf 0 x), 0, 0] : Fin 3 → ℕ)) (?_ : _ = ix1 ⟨(i 0).val, hi⟩)
  funext d; apply Fin.ext
  match d with
  | ⟨0, _⟩ =>
    show (BitVec.ofNat 32 (i 0).val).toNat + 1 * 0 = (i 0).val
    rw [word3_toNat _ hi]; omega

theorem hz3 : (![0, 0, 0] : Fin 3 → Nat) = fun _ => 0 := funext fun a => by fin_cases a <;> rfl

/-- The grid point with coordinate `i`. -/
def pt3 (i : Fin 12288) : grid3.Coords := fun a => match a with | ⟨0, _⟩ => i

/-- Every entry of an admissible index table names a row of the table. -/
theorem tab_lt (tab : IVec S12288 32) (htab : a3.1 0 = tab) (i : Fin 12288) : (tab (ix1 i)).toNat < 125000 := by
  have h : (cc3_transform_0 k3_off1_inb numel1_S1 a3.1 (pt3 i) 0 + 1) * 1 ≤ 125000 := hinb3 a3.1 a3.2 0 (pt3 i) 0
  rw [gatherIdx_eq a3.1 tab htab (pt3 i)] at h
  have h' : ((tab (ix1 i)).toNat + 1) * 1 ≤ 125000 := h
  omega

/-- The table row a point copies: its index-table entry (capped inside the table, where an admissible table's is anyway). -/
def row3 (tab : IVec S12288 32) (i : Fin 12288) : Fin 125000 := ⟨min (tab (ix1 i)).toNat 124999, by omega⟩

theorem row3_val (tab : IVec S12288 32) (htab : a3.1 0 = tab) (i : Fin 12288) : (row3 tab i).val = (tab (ix1 i)).toNat := by
  have := tab_lt a3 tab htab i
  show min _ 124999 = _; omega

/-- What the result array ends holding: row `i` is row `row3 i` of the table. -/
abbrev G3 (T3 : FVec F S125000x2x128 .f32) (tab : IVec S12288 32) : S12288x2x128.Idx → Elt F .f32 :=
  fun y => T3 (ValueIdx.ix3 (row3 tab (y 0)) (y 1) (y 2))

/-- The body's payload is the loaded block. -/
theorem pay3_eq (x0 : Vec F S1x2x128 .f32) : k3_pay1 x0 = x0 := by unfold k3_pay1; dsimp only; rw [shapeCast_self]

/-- The result window's block index at point `t` is `(t, 0, 0)`. -/
theorem idx3_1 (t : Fin (cfg3 a3).N) : ((cfg3 a3).win 1).index t = ![t.val, 0, 0] := by
  have h : t.val < 12288 := lt_of_lt_of_eq t.isLt (N3_eq a3)
  show cc3_transform_1 ((cfg3 a3).grid.coords t) = _
  unfold cc3_transform_1
  dsimp only
  rw [coords3_val, word3_toNat _ h]
  rfl

/-- The table window's block index at point `t` is `(table[t], 0, 0)`. -/
theorem idx3_0 (tab : IVec S12288 32) (htab : a3.1 0 = tab) (t : Fin (cfg3 a3).N) :
    ((cfg3 a3).win 0).index t = ![(tab (ix1 ⟨t.val, lt_of_lt_of_eq t.isLt (N3_eq a3)⟩)).toNat, 0, 0] := by
  show cc3_transform_0 k3_off1_inb numel1_S1 a3.1 ((cfg3 a3).grid.coords t) = _
  rw [gatherIdx_eq a3.1 tab htab]
  have e : (⟨((cfg3 a3).grid.coords t 0).val, ((cfg3 a3).grid.coords t 0).isLt⟩ : Fin 12288) = ⟨t.val, lt_of_lt_of_eq t.isLt (N3_eq a3)⟩ :=
    Fin.ext (coords3_val a3 t)
  rw [e]

/-- The result window is written back at every point. -/
theorem flush3_1 (t : Fin (cfg3 a3).N) : ((cfg3 a3).win 1).flush t = true := by
  unfold Window.flush
  have hO : ((cfg3 a3).win 1).isOut = true := rfl
  rw [hO, Bool.true_and, Bool.or_eq_true, decide_eq_true_eq, decide_eq_true_eq]
  by_cases h : t.val + 1 < (cfg3 a3).grid.N
  · right
    refine ⟨h, fun e => ?_⟩
    have e0 := congrFun e (⟨0, by decide⟩ : Fin 3)
    rw [idx3_1, idx3_1] at e0
    have e1 : t.val + 1 = t.val := e0
    omega
  · left
    have : t.val < (cfg3 a3).grid.N := t.isLt
    omega

/-- The body leaves in the result block exactly the table row it loaded. -/
theorem out3_1_eq (x0 : Vec F S1x2x128 .f32) : out3_1 x0 = x0 := by
  unfold out3_1
  rw [View.canon_unit_zero hz3, View.ld_unit_zero (S := S1x2x128) hz3, pay3_eq]

/-- WHAT POINT `t` WRITES BACK is block `t` of `G3`: the table row its index-table entry names. -/
theorem flushed3_eq (c : Dev nD) (T3 : FVec F S125000x2x128 .f32) (tab : IVec S12288 32) (hT : V c main_v78 = T3) (htab : a3.1 0 = tab)
    (t : Fin (cfg3 a3).N) :
    (dat3 V a3 c).flushed 1 t = (((cfg3 a3).win 1).blk t).view.read (Elt F) (G3 T3 tab) := by
  show ((cfg3 a3).win 1).cut ((cfg3 a3).grid.coords t) ((dat3 V a3 c).after 1 t) = _
  rw [after3_1, out3_1_eq (iblk3 V a3 c 0 t)]
  funext j
  show V c main_v78 ((((cfg3 a3).win 0).blk t).view.emb j) = G3 T3 tab ((((cfg3 a3).win 1).blk t).view.emb j)
  rw [hT]
  have ht : t.val < 12288 := lt_of_lt_of_eq t.isLt (N3_eq a3)
  have hj0 : (j (0 : Fin 3)).val < 1 := (j (0 : Fin 3)).isLt
  have i1 := idx3_1 a3 t
  have i0 := idx3_0 a3 tab htab t
  have e1 : ((((cfg3 a3).win 1).blk t).view.emb j) (0 : Fin 3) = (⟨t.val, ht⟩ : Fin 12288) := Fin.ext (by
    show ((cfg3 a3).win 1).index t (0 : Fin 3) * 1 + 1 * (j (0 : Fin 3)).val = t.val
    rw [i1]
    show t.val * 1 + 1 * (j (0 : Fin 3)).val = t.val
    omega)
  show T3 _ = T3 (ValueIdx.ix3 (row3 tab (((((cfg3 a3).win 1).blk t).view.emb j) (0 : Fin 3)))
    (((((cfg3 a3).win 1).blk t).view.emb j) (1 : Fin 3)) (((((cfg3 a3).win 1).blk t).view.emb j) (2 : Fin 3)))
  rw [e1]
  congr 1
  funext a
  apply Fin.ext
  match a with
  | ⟨0, _⟩ =>
    show ((cfg3 a3).win 0).index t (0 : Fin 3) * 1 + 1 * (j (0 : Fin 3)).val = (row3 tab ⟨t.val, ht⟩).val
    rw [i0, row3_val a3 tab htab]
    show (tab (ix1 ⟨t.val, ht⟩)).toNat * 1 + 1 * (j (0 : Fin 3)).val = _
    omega
  | ⟨1, _⟩ =>
    show ((cfg3 a3).win 0).index t (1 : Fin 3) * 2 + 1 * (j (1 : Fin 3)).val = ((cfg3 a3).win 1).index t (1 : Fin 3) * 2 + 1 * (j (1 : Fin 3)).val
    rw [i0, i1]
    rfl
  | ⟨2, _⟩ =>
    show ((cfg3 a3).win 0).index t (2 : Fin 3) * 128 + 1 * (j (2 : Fin 3)).val = ((cfg3 a3).win 1).index t (2 : Fin 3) * 128 + 1 * (j (2 : Fin 3)).val
    rw [i0, i1]
    rfl

/-- An index of the result array is in point `t`'s block iff each coordinate is in the block's range on its axis. -/
theorem mem_blk3 (t : Fin (cfg3 a3).N) (i : S12288x2x128.Idx) :
    i ∈ (((cfg3 a3).win 1).blk t).view.set ↔ ∀ a : Fin 3, ((cfg3 a3).win 1).index t a * S1x2x128.size a ≤ (i a).val ∧ (i a).val < ((cfg3 a3).win 1).index t a * S1x2x128.size a + S1x2x128.size a := by
  exact (Finset.ext_iff.mp (View.set_slice_whole main_v79 (((cfg3 a3).win 1).rect t)) i).trans Rect.mem_set_unit

/-- Row `i` of the result is covered by point `i`. -/
theorem cover3 (i : S12288x2x128.Idx) :
    ∃ t : Fin (cfg3 a3).N, ((cfg3 a3).win 1).flush t = true ∧ i ∈ (((cfg3 a3).win 1).blk t).view.set := by
  have h0 : (i (0 : Fin 3)).val < 12288 := (i (0 : Fin 3)).isLt
  have h1 : (i (1 : Fin 3)).val < 2 := (i (1 : Fin 3)).isLt
  have h2 : (i (2 : Fin 3)).val < 128 := (i (2 : Fin 3)).isLt
  refine ⟨⟨(i (0 : Fin 3)).val, lt_of_lt_of_eq h0 (N3_eq a3).symm⟩, flush3_1 a3 _, ?_⟩
  rw [mem_blk3]
  intro a
  rw [idx3_1]
  match a with
  | ⟨0, _⟩ => show (i (0 : Fin 3)).val * 1 ≤ (i (0 : Fin 3)).val ∧ (i (0 : Fin 3)).val < (i (0 : Fin 3)).val * 1 + 1; omega
  | ⟨1, _⟩ => show 0 * 2 ≤ (i (1 : Fin 3)).val ∧ (i (1 : Fin 3)).val < 0 * 2 + 2; omega
  | ⟨2, _⟩ => show 0 * 128 ≤ (i (2 : Fin 3)).val ∧ (i (2 : Fin 3)).val < 0 * 128 + 128; omega

/-- THE RESULT ARRAY after the region: row `i` is the table row the index table names at `i`. -/
theorem final3 (c : Dev nD) (T3 : FVec F S125000x2x128 .f32) (tab : IVec S12288 32) (hT : V c main_v78 = T3) (htab : a3.1 0 = tab) :
    (dat3 V a3 c).arrAt 1 (cfg3 a3).N = G3 T3 tab :=
  (dat3 V a3 c).arrAt_eq_of_cover 1 (G3 T3 tab) (fun t _ => flushed3_eq V a3 c T3 tab hT htab t) (cover3 a3)

/-- Row `i` of the result array after the region is row `table[i]` of the input table. -/
theorem region3_rows (c : Dev nD) (T3 : FVec F S125000x2x128 .f32) (tab : IVec S12288 32) (hT : V c main_v78 = T3) (htab : a3.1 0 = tab)
    (i : Fin 12288) (a : Fin 2) (l : Fin 128) (hlt : (tab (ix1 i)).toNat < 125000) :
    (dat3 V a3 c).arrAt 1 (cfg3 a3).N (ValueIdx.ix3 i a l) = T3 (ValueIdx.ix3 ⟨(tab (ix1 i)).toNat, hlt⟩ a l) := by
  rw [final3 V a3 c T3 tab hT htab]
  show T3 (ValueIdx.ix3 (row3 tab i) a l) = _
  congr 2
  exact Fin.ext (row3_val a3 tab htab i)

end Cert.KernelIdeal.Hand

end
-- ==== Proof.RI.GatherIdx.lean ====
/-
  The reference's two final row gathers read at an index. `x[idx]` of whole rows of a table [N, D] at a column [R, 1]
  of start indices reads, at (i, j), the table at (the start index idx[i, 0] read signed and clamped into [0, N − 1], j).
  The reference first wraps negative indices once by the table's height; an index already in [0, N) is left as it is,
  and the clamp is the identity on it. The user table is rows 0 … 49999 of the embedding table and the item table rows
  50000 … 124999, so row r of the item table is row 50000 + r of the whole.
-/
import proofs.«401280_j80350248174011_2_alg».proof.Proof.RI.Layer
import Idealize.ShloMosaic.Lib.Affine
import Idealize.ShloMosaic.Lib.ValueIdx
import Idealize.ShloMosaic.Lib.StableHlo.Predicate

noncomputable section

namespace Cert.ReferenceIdeal.GatherIdx

open Cert.ReferenceIdeal Cert.ReferenceIdeal.Facts₀ Cert.ReferenceIdeal.Facts
open Idealize.ShloMosaic Idealize.ShloMosaic.ValueIdx

/-! ## A gather of whole rows, read at an index -/

/-- The dimension numbers of `x[idx]` over the rows of a table [N, D] at a column [R, 1] of start indices: the row axis
    collapsed and start-indexed, the column axis the one offset axis, the whole row taken. -/
abbrev rowDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row gather at (i, j): the table at (idx[i, 0] read signed and clamped into [0, N − 1], j). -/
theorem gather_rows_apply {α : Type} {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (i : Fin R) (j : Fin D) :
    Host.gather (rowDims N R D wf) x idx (ix2 i j)
      = x (ix2 ⟨min (idx (ix2 i (0 : Fin 1))).toInt.toNat (N - 1), by omega⟩ j) := by
  unfold Host.gather
  congr 1
  funext a
  refine Fin.ext ?_
  match a with
  | ⟨0, _⟩ =>
    show (rowDims N R D wf).start (ix2 i j) idx 0 + (rowDims N R D wf).batchCoord (ix2 i j) 0
        + (rowDims N R D wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R D wf).startIndexMap from List.mem_singleton.mpr rfl)]
    have hsi : (rowDims N R D wf).siIdx (ix2 i j) ⟨List.idxOf (0 : Fin 2) (rowDims N R D wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N R D wf).start (ix2 i j) idx 1 + (rowDims N R D wf).batchCoord (ix2 i j) 1
        + (rowDims N R D wf).offCoord (ix2 i j) 1 = j.val
    rw [GatherDims.batchCoord_eq_zero _ _ _ List.not_mem_nil]
    have hs : (rowDims N R D wf).start (ix2 i j) idx 1 = 0 := by
      unfold GatherDims.start
      rw [dif_neg (show ¬ (1 : Fin 2) ∈ (rowDims N R D wf).startIndexMap from
        (show ¬ (1 : Fin 2) ∈ ([0] : List (Fin 2)) from by decide))]
    have ho : (rowDims N R D wf).offCoord (ix2 i j) 1 = j.val := by
      unfold GatherDims.offCoord
      rw [dif_pos (show (1 : Fin 2) ∈ (rowDims N R D wf).sKept from
        (GatherDims.mem_sKept _ _).2 ⟨(show ¬ (1 : Fin 2) ∈ ([0] : List (Fin 2)) from by decide), List.not_mem_nil⟩)]
      rfl
    rw [hs, ho]; omega

/-! ## The reference's wrapped indices, its two tables -/

variable {F : FTy → Type} [FloatOps F] [Cert.ReferenceIdeal.Facts]

/-- A word below 2³¹ is non-negative read signed, so the reference's wrap leaves it as it is. -/
theorem wrapIdx_apply (n : BitVec 32) (idx : IVec S4096 32) (i : Fin 4096) (h : (idx (ix1 i)).toNat < 2 ^ 31) :
    Layer.wrapIdx n idx (ix2 i (0 : Fin 1)) = idx (ix1 i) := by
  unfold Layer.wrapIdx
  have hb : ∀ v : IVec S4096 32, broadcastInDim S4096x1 ![0] bcast_S4096_S4096x1_0 v (ix2 i (0 : Fin 1)) = v (ix1 i) := by
    intro v
    simp only [broadcastInDim]
    congr 1
    funext a
    match a with
    | ⟨0, _⟩ => rfl
  rw [hb, select_apply]
  have hc : cmpi .slt idx (broadcastInDim S4096 ![] bcast_S_S4096 (constantI S_ 32 0#32)) (ix1 i) = 0#1 := by
    show IntOp.cmpi .slt (idx (ix1 i)) 0#32 = 0#1
    apply eq_zero_of_ne_one
    rw [IntOp.cmpi_slt, StableHlo.Predicate.toInt_eq_toNat_of_lt h, show (0#32 : BitVec 32).toInt = 0 from by decide]
    omega
  rw [hc, select_zero]

/-- A word below 2³¹ read signed and then as a natural number is its unsigned value. -/
theorem toInt_toNat (w : BitVec 32) (h : w.toNat < 2 ^ 31) : w.toInt.toNat = w.toNat := by
  rw [StableHlo.Predicate.toInt_eq_toNat_of_lt h]; exact Int.toNat_natCast _

/-- A user row: at an index below 50000, row idx[i] of the embedding table. -/
theorem userRows_apply (T : FVec F S125000x256 .f32) (idx : IVec S4096 32) (i : Fin 4096) (j : Fin 256)
    (h : (idx (ix1 i)).toNat < 50000) :
    Layer.userRows T idx (ix2 i j) = T (ix2 ⟨(idx (ix1 i)).toNat, by omega⟩ j) := by
  unfold Layer.userRows
  rw [show gather_S50000x256_S4096x1_S4096x256_1_0_n_n_0_1_1256
      = rowDims 50000 4096 256 gather_S50000x256_S4096x1_S4096x256_1_0_n_n_0_1_1256_wf from rfl,
    gather_rows_apply (by norm_num)]
  unfold extractStridedSlice
  congr 1
  funext a
  refine Fin.ext ?_
  match a with
  | ⟨0, _⟩ =>
    show 0 + min (Layer.wrapIdx 50000#32 idx (ix2 i (0 : Fin 1))).toInt.toNat (50000 - 1) = (idx (ix1 i)).toNat
    rw [wrapIdx_apply _ _ _ (by omega), toInt_toNat _ (by omega)]; omega
  | ⟨1, _⟩ => show 0 + j.val = j.val; omega

/-- An item row: at an index below 75000, row 50000 + idx[i] of the embedding table. -/
theorem itemRows_apply (T : FVec F S125000x256 .f32) (idx : IVec S4096 32) (i : Fin 4096) (j : Fin 256)
    (h : (idx (ix1 i)).toNat < 75000) :
    Layer.itemRows T idx (ix2 i j) = T (ix2 ⟨50000 + (idx (ix1 i)).toNat, by omega⟩ j) := by
  unfold Layer.itemRows
  rw [show gather_S75000x256_S4096x1_S4096x256_1_0_n_n_0_1_1256
      = rowDims 75000 4096 256 gather_S75000x256_S4096x1_S4096x256_1_0_n_n_0_1_1256_wf from rfl,
    gather_rows_apply (by norm_num)]
  unfold extractStridedSlice
  congr 1
  funext a
  refine Fin.ext ?_
  match a with
  | ⟨0, _⟩ =>
    show 50000 + min (Layer.wrapIdx 75000#32 idx (ix2 i (0 : Fin 1))).toInt.toNat (75000 - 1) = 50000 + (idx (ix1 i)).toNat
    rw [wrapIdx_apply _ _ _ (by omega), toInt_toNat _ (by omega)]; omega
  | ⟨1, _⟩ => show 0 + j.val = j.val; omega

end Cert.ReferenceIdeal.GatherIdx

end
-- ==== Proof.KI.Result.lean ====
/-
  The kernel program's three results are the reference's functions of the arguments, at the extended reals: the three
  rounds' new features and unit-row features are the reference's, the laid-out table is the reference's table viewed
  [125000, 2, 128], and each returned block of 4096 rows is the reference's row gather of that table.
-/
import proofs.«401280_j80350248174011_2_alg».proof.Proof.KI.Run
import proofs.«401280_j80350248174011_2_alg».proof.Proof.KI.TailIdx
import proofs.«401280_j80350248174011_2_alg».proof.Proof.KI.FoldArgs
import proofs.«401280_j80350248174011_2_alg».proof.Proof.KI.Fold
import proofs.«401280_j80350248174011_2_alg».proof.Proof.KI.Fold2
import proofs.«401280_j80350248174011_2_alg».proof.Proof.KI.Fold3
import proofs.«401280_j80350248174011_2_alg».proof.Proof.KI.Val0
import proofs.«401280_j80350248174011_2_alg».proof.Proof.KI.Val1
import proofs.«401280_j80350248174011_2_alg».proof.Proof.KI.Val2
import proofs.«401280_j80350248174011_2_alg».proof.Proof.KI.Val3
import proofs.«401280_j80350248174011_2_alg».proof.Proof.RI.Layer
import proofs.«401280_j80350248174011_2_alg».proof.Proof.RI.GatherIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Cert.ReferenceIdeal (Layer.spmm Layer.wT0 Layer.wT1 Layer.wT2 Layer.bV0 Layer.bV1 Layer.bV2 Layer.newFeat Layer.unitRows
  Layer.table Layer.feat1 Layer.feat2 Layer.feat3 Layer.fullTable Layer.userRows Layer.itemRows)

set_option hygiene false in
set_option quotPrecheck false in
local notation "A0" => m ((c : Thread nD τ).loc main_arg0)
set_option hygiene false in
set_option quotPrecheck false in
local notation "A1" => m ((c : Thread nD τ).loc main_arg1)
set_option hygiene false in
set_option quotPrecheck false in
local notation "A2" => m ((c : Thread nD τ).loc main_arg2)
set_option hygiene false in
set_option quotPrecheck false in
local notation "A3" => m ((c : Thread nD τ).loc main_arg3)
set_option hygiene false in
set_option quotPrecheck false in
local notation "A4" => m ((c : Thread nD τ).loc main_arg4)
set_option hygiene false in
set_option quotPrecheck false in
local notation "A5" => m ((c : Thread nD τ).loc main_arg5)
set_option hygiene false in
set_option quotPrecheck false in
local notation "A6" => m ((c : Thread nD τ).loc main_arg6)
set_option hygiene false in
set_option quotPrecheck false in
local notation "A7" => m ((c : Thread nD τ).loc main_arg7)
set_option hygiene false in
set_option quotPrecheck false in
local notation "A8" => m ((c : Thread nD τ).loc main_arg8)
set_option hygiene false in
set_option quotPrecheck false in
local notation "A9" => m ((c : Thread nD τ).loc main_arg9)
set_option hygiene false in
set_option quotPrecheck false in
local notation "A10" => m ((c : Thread nD τ).loc main_arg10)

/-! ## The results -/

variable [Cert.ReferenceIdeal.Facts]
variable (m : (ℓ : Loc nD τ sig) → Buf (Elt Ideal) ℓ) (ρ : Dev nD → PrngReg) (c : Dev nD)

/-- Round 1's new features are the reference's. -/
theorem feat1_eq : W2 m ρ c (Proc.devRef .tc main_v23_0) = Layer.feat1 (F := Ideal) A3 A4 A5 A6 A7 A8 A9 A10 :=
  (W2_arr m ρ c 6).trans (region0_feat (V1 m ρ) c _ _ _ _ _ _ (V1_agg m ρ c) (V1_nf m ρ c) (V1_w1 m ρ c) (V1_b1 m ρ c)
    (V1_w2 m ρ c) (V1_b2 m ρ c))
/-- Round 1's unit-row features are the reference's. -/
theorem unit1_eq : W2 m ρ c (Proc.devRef .tc main_v23_1) = Layer.unitRows (F := Ideal) (Layer.feat1 (F := Ideal) A3 A4 A5 A6 A7 A8 A9 A10) :=
  (W2_arr m ρ c 7).trans (region0_unit (V1 m ρ) c _ _ _ _ _ _ (V1_agg m ρ c) (V1_nf m ρ c) (V1_w1 m ρ c) (V1_b1 m ρ c)
    (V1_w2 m ρ c) (V1_b2 m ρ c))

/-- Round 2's new features are the reference's. -/
theorem feat2_eq : W4 m ρ c (Proc.devRef .tc main_v47_0) = Layer.feat2 (F := Ideal) A3 A4 A5 A6 A7 A8 A9 A10 :=
  (W4_arr m ρ c 6).trans (region1_feat (V3 m ρ) c _ _ _ _ _ _
    ((V3_agg m ρ c).trans (congrArg (Layer.spmm (F := Ideal) A3 A4 A5) (feat1_eq m ρ c))) ((V3_nf m ρ c).trans (feat1_eq m ρ c))
    (V3_w1 m ρ c) (V3_b1 m ρ c) (V3_w2 m ρ c) (V3_b2 m ρ c))
/-- Round 2's unit-row features are the reference's. -/
theorem unit2_eq : W4 m ρ c (Proc.devRef .tc main_v47_1) = Layer.unitRows (F := Ideal) (Layer.feat2 (F := Ideal) A3 A4 A5 A6 A7 A8 A9 A10) :=
  (W4_arr m ρ c 7).trans (region1_unit (V3 m ρ) c _ _ _ _ _ _
    ((V3_agg m ρ c).trans (congrArg (Layer.spmm (F := Ideal) A3 A4 A5) (feat1_eq m ρ c))) ((V3_nf m ρ c).trans (feat1_eq m ρ c))
    (V3_w1 m ρ c) (V3_b1 m ρ c) (V3_w2 m ρ c) (V3_b2 m ρ c))

/-- Round 3's new features are the reference's. -/
theorem feat3_eq : W6 m ρ c (Proc.devRef .tc main_v71_0) = Layer.feat3 (F := Ideal) A3 A4 A5 A6 A7 A8 A9 A10 :=
  (W6_arr m ρ c 6).trans (region2_feat (V5 m ρ) c _ _ _ _ _ _
    ((V5_agg m ρ c).trans (congrArg (Layer.spmm (F := Ideal) A3 A4 A5) (feat2_eq m ρ c))) ((V5_nf m ρ c).trans (feat2_eq m ρ c))
    (V5_w1 m ρ c) (V5_b1 m ρ c) (V5_w2 m ρ c) (V5_b2 m ρ c))
/-- Round 3's unit-row features are the reference's. -/
theorem unit3_eq : W6 m ρ c (Proc.devRef .tc main_v71_1) = Layer.unitRows (F := Ideal) (Layer.feat3 (F := Ideal) A3 A4 A5 A6 A7 A8 A9 A10) :=
  (W6_arr m ρ c 7).trans (region2_unit (V5 m ρ) c _ _ _ _ _ _
    ((V5_agg m ρ c).trans (congrArg (Layer.spmm (F := Ideal) A3 A4 A5) (feat2_eq m ρ c))) ((V5_nf m ρ c).trans (feat2_eq m ρ c))
    (V5_w1 m ρ c) (V5_b1 m ρ c) (V5_w2 m ρ c) (V5_b2 m ρ c))

/-- The table the gather call reads is the reference's table, viewed [125000, 2, 128]. -/
theorem table_eq : V7 m ρ c main_v78 = Tail.view3 (Layer.fullTable (F := Ideal) A3 A4 A5 A6 A7 A8 A9 A10) := by
  rw [V7_view m ρ c, unit1_eq m ρ c, unit2_eq m ρ c, unit3_eq m ρ c]
  rfl

variable (hO : Ok m ρ)

/-- The index table the gather call is entered with. -/
theorem tab_eq : (a3 m ρ hO).1 0 = Tail.idxTab A0 A1 A2 :=
  (V7_pre m ρ c 0).symm.trans (V7_tab m ρ c)

/-- Half a, lane l of gathered row i: the reference's table at (the row the index table names, column 128·a + l). -/
theorem gathered_apply (hu : ∀ j, (A0 j).toNat < 50000) (hp : ∀ j, (A1 j).toNat < 75000) (hn : ∀ j, (A2 j).toNat < 75000)
    (i : Fin 12288) (a : Fin 2) (l : Fin 128) :
    W8 m ρ hO c (Proc.devRef .tc main_v79) (ValueIdx.ix3 i a l)
      = Layer.fullTable (F := Ideal) A3 A4 A5 A6 A7 A8 A9 A10
          (ValueIdx.ix2 ⟨(Tail.idxTab A0 A1 A2 (ValueIdx.ix1 i)).toNat, Tail.idxTab_lt A0 A1 A2 hu hp hn i⟩ ⟨128 * a.val + l.val, by omega⟩) := by
  refine (congrFun (W8_arr m ρ hO c 1) (ValueIdx.ix3 i a l)).trans ?_
  refine (region3_rows (V7 m ρ) (a3 m ρ hO) c _ _ (table_eq m ρ c) (tab_eq m ρ c hO) i a l
    (Tail.idxTab_lt A0 A1 A2 hu hp hn i)).trans ?_
  exact Tail.view3_apply _ _ a l

/-- The first result: the reference's user rows. -/
theorem result0 (hu : ∀ j, (A0 j).toNat < 50000) (hp : ∀ j, (A1 j).toNat < 75000) (hn : ∀ j, (A2 j).toNat < 75000) :
    W9 m ρ hO c (Proc.devRef .tc main_v81) = Layer.userRows (F := Ideal) (Layer.fullTable (F := Ideal) A3 A4 A5 A6 A7 A8 A9 A10) A0 := by
  funext idx
  obtain ⟨i, j, rfl⟩ : ∃ (i : Fin 4096) (j : Fin 256), idx = ValueIdx.ix2 i j := ⟨idx 0, idx 1, ValueIdx.eq_ix2 idx⟩
  rw [W9_r0 m ρ hO c, Tail.rowsAt0_apply, gathered_apply m ρ c hO hu hp hn,
    Cert.ReferenceIdeal.GatherIdx.userRows_apply _ _ i j (hu _)]
  refine congrArg _ (Shape.idx_ext₂ ?_ ?_)
  · exact congrArg BitVec.toNat (Tail.idxTab_user A0 A1 A2 i)
  · show 128 * (j.val / 128) + j.val % 128 = j.val
    omega

/-- The second result: the reference's item rows at the positive items. -/
theorem result1 (hu : ∀ j, (A0 j).toNat < 50000) (hp : ∀ j, (A1 j).toNat < 75000) (hn : ∀ j, (A2 j).toNat < 75000) :
    W9 m ρ hO c (Proc.devRef .tc main_v82) = Layer.itemRows (F := Ideal) (Layer.fullTable (F := Ideal) A3 A4 A5 A6 A7 A8 A9 A10) A1 := by
  funext idx
  obtain ⟨i, j, rfl⟩ : ∃ (i : Fin 4096) (j : Fin 256), idx = ValueIdx.ix2 i j := ⟨idx 0, idx 1, ValueIdx.eq_ix2 idx⟩
  rw [W9_r1 m ρ hO c, Tail.rowsAt1_apply, gathered_apply m ρ c hO hu hp hn,
    Cert.ReferenceIdeal.GatherIdx.itemRows_apply _ _ i j (hp _)]
  refine congrArg _ (Shape.idx_ext₂ ?_ ?_)
  · show (Tail.idxTab A0 A1 A2 (ValueIdx.ix1 ⟨4096 + i.val, _⟩)).toNat = 50000 + (A1 (ValueIdx.ix1 i)).toNat
    rw [Tail.idxTab_pos A0 A1 A2 i, Tail.toNat_add_50000 _ (hp _)]
  · show 128 * (j.val / 128) + j.val % 128 = j.val
    omega

/-- The third result: the reference's item rows at the negative items. -/
theorem result2 (hu : ∀ j, (A0 j).toNat < 50000) (hp : ∀ j, (A1 j).toNat < 75000) (hn : ∀ j, (A2 j).toNat < 75000) :
    W9 m ρ hO c (Proc.devRef .tc main_v83) = Layer.itemRows (F := Ideal) (Layer.fullTable (F := Ideal) A3 A4 A5 A6 A7 A8 A9 A10) A2 := by
  funext idx
  obtain ⟨i, j, rfl⟩ : ∃ (i : Fin 4096) (j : Fin 256), idx = ValueIdx.ix2 i j := ⟨idx 0, idx 1, ValueIdx.eq_ix2 idx⟩
  rw [W9_r2 m ρ hO c, Tail.rowsAt2_apply, gathered_apply m ρ c hO hu hp hn,
    Cert.ReferenceIdeal.GatherIdx.itemRows_apply _ _ i j (hn _)]
  refine congrArg _ (Shape.idx_ext₂ ?_ ?_)
  · show (Tail.idxTab A0 A1 A2 (ValueIdx.ix1 ⟨8192 + i.val, _⟩)).toNat = 50000 + (A2 (ValueIdx.ix1 i)).toNat
    rw [Tail.idxTab_neg A0 A1 A2 i, Tail.toNat_add_50000 _ (hn _)]
  · show 128 * (j.val / 128) + j.val % 128 = j.val
    omega

end Cert.KernelIdeal.Hand

end
-- ==== Proof.RI.Run.lean ====
/-
  The reference program's @main as a list of its host operations, the outlined functions' operations written at their
  call sites over each call's own buffers, and its run: every weakly fair execution terminates with every buffer at the
  fold of the operations' results over the launch contents. The list is cut into six stretches (three rounds, each in
  two pieces, the last piece the final gathers) so that a fact about one round speaks of a short list.
-/
import proofs.«401280_j80350248174011_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Round 1: the neighbourhood sum of the input embedding, the new features (value %34) and their unit rows (value %39). -/
abbrev ops1a : List (HloOp τ sig (Elt F)) :=
  [ StableHlo.unary main_arg5 main_v0 (broadcastInDim S1250000x1 ![0] bcast_S1250000_S1250000x1_0 : (⟨S1250000, .f32⟩ : BufTy).Contents (Elt F) → (⟨S1250000x1, .f32⟩ : BufTy).Contents (Elt F)),
    StableHlo.nullary main_c (constantI S_ 32 0#32),
    StableHlo.unary main_c main_v1 (broadcastInDim S1250000 ![] bcast_S_S1250000 : (⟨S_, .i32⟩ : BufTy).Contents (Elt F) → (⟨S1250000, .i32⟩ : BufTy).Contents (Elt F)),
    StableHlo.binary main_arg4 main_v1 main_v2 (cmpi .slt : (⟨S1250000, .i32⟩ : BufTy).Contents (Elt F) → (⟨S1250000, .i32⟩ : BufTy).Contents (Elt F) → (⟨S1250000, .i1⟩ : BufTy).Contents (Elt F)),
    StableHlo.nullary main_c_0 (constantI S_ 32 125000#32),
    StableHlo.unary main_c_0 main_v3 (broadcastInDim S1250000 ![] bcast_S_S1250000 : (⟨S_, .i32⟩ : BufTy).Contents (Elt F) → (⟨S1250000, .i32⟩ : BufTy).Contents (Elt F)),
    StableHlo.binary main_arg4 main_v3 main_v4 (addi : (⟨S1250000, .i32⟩ : BufTy).Contents (Elt F) → (⟨S1250000, .i32⟩ : BufTy).Contents (Elt F) → (⟨S1250000, .i32⟩ : BufTy).Contents (Elt F)),
    StableHlo.ternary main_v2 main_v4 main_arg4 main_v5 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v5 main_v6 (broadcastInDim S1250000x1 ![0] bcast_S1250000_S1250000x1_0 : (⟨S1250000, .i32⟩ : BufTy).Contents (Elt F) → (⟨S1250000x1, .i32⟩ : BufTy).Contents (Elt F)),
    StableHlo.binary main_arg6 main_v6 main_v7 ((fun x i => Host.gather gather_S125000x64_S1250000x1_S1250000x64_1_0_n_n_0_1_164 x i) : (⟨S125000x64, .f32⟩ : BufTy).Contents (Elt F) → (⟨S1250000x1, .i32⟩ : BufTy).Contents (Elt F) → (⟨S1250000x64, .f32⟩ : BufTy).Contents (Elt F)),
    StableHlo.unary main_v0 main_v8 (broadcastInDim S1250000x64 ![0, 1] bcast_S1250000x1_S1250000x64_0_1 : (⟨S1250000x1, .f32⟩ : BufTy).Contents (Elt F) → (⟨S1250000x64, .f32⟩ : BufTy).Contents (Elt F)),
    StableHlo.binary main_v8 main_v7 main_v9 (mulf : (⟨S1250000x64, .f32⟩ : BufTy).Contents (Elt F) → (⟨S1250000x64, .f32⟩ : BufTy).Contents (Elt F) → (⟨S1250000x64, .f32⟩ : BufTy).Contents (Elt F)),
    StableHlo.nullary main_cst (constant S_ .f32 0x00000000#32),
    StableHlo.unary main_cst main_v10 (broadcastInDim S125000x64 ![] bcast_S_S125000x64 : (⟨S_, .f32⟩ : BufTy).Contents (Elt F) → (⟨S125000x64, .f32⟩ : BufTy).Contents (Elt F)),
    StableHlo.unary main_arg3 main_v11 (broadcastInDim S1250000x1 ![0] bcast_S1250000_S1250000x1_0 : (⟨S1250000, .i32⟩ : BufTy).Contents (Elt F) → (⟨S1250000x1, .i32⟩ : BufTy).Contents (Elt F)),
    StableHlo.ternary main_v10 main_v11 main_v9 main_v12 ((fun x i u => Host.scatterAdd scatter_S125000x64_S1250000x1_S1250000x64_1_0_0_1 x i u) : (⟨S125000x64, .f32⟩ : BufTy).Contents (Elt F) → (⟨S1250000x1, .i32⟩ : BufTy).Contents (Elt F) → (⟨S1250000x64, .f32⟩ : BufTy).Contents (Elt F) → (⟨S125000x64, .f32⟩ : BufTy).Contents (Elt F)),
    StableHlo.unary main_arg7 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v13 main_v14 rfl shapeCasts_S1x64x64_S64x64,
    StableHlo.unary main_v14 main_v15 ((transpose S64x64 [1, 0] · transposes_S64x64_S64x64_1_0) : (⟨S64x64, .f32⟩ : BufTy).Contents (Elt F) → (⟨S64x64, .f32⟩ : BufTy).Contents (Elt F)),
    StableHlo.binary main_v12 main_v15 main_v16 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg8 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.unary main_v18 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S125000x64 ![0, 1] bcast_S1x64_S125000x64_0_1 : (⟨S1x64, .f32⟩ : BufTy).Contents (Elt F) → (⟨S125000x64, .f32⟩ : BufTy).Contents (Elt F)),
    StableHlo.binary main_v16 main_v20 main_v21 (addf : (⟨S125000x64, .f32⟩ : BufTy).Contents (Elt F) → (⟨S125000x64, .f32⟩ : BufTy).Contents (Elt F) → (⟨S125000x64, .f32⟩ : BufTy).Contents (Elt F)),
    StableHlo.nullary main_cst_1 (constant S_ .f32 0x3E4CCCCD#32),
    TRef.nullary main_call0.cst (constant S_ .f32 0x00000000#32),
    TRef.unary main_call0.cst main_call0.v0 (broadcastInDim S125000x64 ![] bcast_S_S125000x64),
    TRef.binary (.of main_v21 : TRef sig ⟨S125000x64, .f32⟩) main_call0.v0 main_call0.v1 (cmpf .oge),
    TRef.unary (.of main_cst_1 : TRef sig ⟨S_, .f32⟩) main_call0.v2 id,
    TRef.unary main_call0.v2 main_call0.v3 (broadcastInDim S125000x64 ![] bcast_S_S125000x64),
    TRef.binary main_call0.v3 (.of main_v21 : TRef sig ⟨S125000x64, .f32⟩) main_call0.v4 mulf,
    TRef.ternary main_call0.v1 (.of main_v21 : TRef sig ⟨S125000x64, .f32⟩) main_call0.v4 main_call0.call0.v0 select,
    StableHlo.binary main_v12 main_arg6 main_v23 (mulf : (⟨S125000x64, .f32⟩ : BufTy).Contents (Elt F) → (⟨S125000x64, .f32⟩ : BufTy).Contents (Elt F) → (⟨S125000x64, .f32⟩ : BufTy).Contents (Elt F)),
    StableHlo.unary main_arg9 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v24 main_v25 rfl shapeCasts_S1x64x64_S64x64,
    StableHlo.unary main_v25 main_v26 ((transpose S64x64 [1, 0] · transposes_S64x64_S64x64_1_0) : (⟨S64x64, .f32⟩ : BufTy).Contents (Elt F) → (⟨S64x64, .f32⟩ : BufTy).Contents (Elt F)),
    StableHlo.binary main_v23 main_v26 main_v27 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg10 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S125000x64 ![0, 1] bcast_S1x64_S125000x64_0_1 : (⟨S1x64, .f32⟩ : BufTy).Contents (Elt F) → (⟨S125000x64, .f32⟩ : BufTy).Contents (Elt F)),
    StableHlo.binary main_v27 main_v31 main_v32 (addf : (⟨S125000x64, .f32⟩ : BufTy).Contents (Elt F) → (⟨S125000x64, .f32⟩ : BufTy).Contents (Elt F) → (⟨S125000x64, .f32⟩ : BufTy).Contents (Elt F)),
    StableHlo.nullary main_cst_2 (constant S_ .f32 0x3E4CCCCD#32),
    TRef.nullary main_call1.cst (constant S_ .f32 0x00000000#32),
    TRef.unary main_call1.cst main_call1.v0 (broadcastInDim S125000x64 ![] bcast_S_S125000x64),
    TRef.binary (.of main_v32 : TRef sig ⟨S125000x64, .f32⟩) main_call1.v0 main_call1.v1 (cmpf .oge),
    TRef.unary (.of main_cst_2 : TRef sig ⟨S_, .f32⟩) main_call1.v2 id,
    TRef.unary main_call1.v2 main_call1.v3 (broadcastInDim S125000x64 ![] bcast_S_S125000x64),
    TRef.binary main_call1.v3 (.of main_v32 : TRef sig ⟨S125000x64, .f32⟩) main_call1.v4 mulf,
    TRef.ternary main_call1.v1 (.of main_v32 : TRef sig ⟨S125000x64, .f32⟩) main_call1.v4 main_call1.call0.v0 select,
    StableHlo.binary main_v22 main_v33 main_v34 (addf : (⟨S125000x64, .f32⟩ : BufTy).Contents (Elt F) → (⟨S125000x64, .f32⟩ : BufTy).Contents (Elt F) → (⟨S125000x64, .f32⟩ : BufTy).Contents (Elt F)),
    TRef.binary (.of main_v34 : TRef sig ⟨S125000x64, .f32⟩) (.of main_v34 : TRef sig ⟨S125000x64, .f32⟩) main_call2.v0 mulf,
    TRef.nullary main_call2.cst (constant S_ .f32 0x00000000#32),
    TRef.binary main_call2.v0 main_call2.cst main_call2.v1 (fun x v => Host.reduceAdd x v reducesTo_S125000x64_S125000_d1 h_S_),
    TRef.unary main_call2.v1 main_call2.v2 (broadcastInDim S125000x1 ![0] bcast_S125000_S125000x1_0),
    TRef.unary main_call2.v2 main_call2.v3 Host.sqrt,
    StableHlo.nullary main_cst_3 (constant S_ .f32 0x2B8CBCCC#32),
    StableHlo.unary main_cst_3 main_v36 (broadcastInDim S125000x1 ![] bcast_S_S125000x1 : (⟨S_, .f32⟩ : BufTy).Contents (Elt F) → (⟨S125000x1, .f32⟩ : BufTy).Contents (Elt F)),
    StableHlo.binary main_v35 main_v36 main_v37 (maximumf : (⟨S125000x1, .f32⟩ : BufTy).Contents (Elt F) → (⟨S125000x1, .f32⟩ : BufTy).Contents (Elt F) → (⟨S125000x1, .f32⟩ : BufTy).Contents (Elt F)),
    StableHlo.unary main_v37 main_v38 (broadcastInDim S125000x64 ![0, 1] bcast_S125000x1_S125000x64_0_1 : (⟨S125000x1, .f32⟩ : BufTy).Contents (Elt F) → (⟨S125000x64, .f32⟩ : BufTy).Contents (Elt F)),
    StableHlo.binary main_v34 main_v38 main_v39 (Host.divf : (⟨S125000x64, .f32⟩ : BufTy).Contents (Elt F) → (⟨S125000x64, .f32⟩ : BufTy).Contents (Elt F) → (⟨S125000x64, .f32⟩ : BufTy).Contents (Elt F)) ]

/-- Round 2 begins: the edge weights as a column, the wrapped column indices, the gathered rows of the round-1 features scaled by the weights, and the zero table. -/
abbrev ops1b : List (HloOp τ sig (Elt F)) :=
  [ StableHlo.unary main_arg5 main_v40 (broadcastInDim S1250000x1 ![0] bcast_S1250000_S1250000x1_0 : (⟨S1250000, .f32⟩ : BufTy).Contents (Elt F) → (⟨S1250000x1, .f32⟩ : BufTy).Contents (Elt F)),
    StableHlo.nullary main_c_4 (constantI S_ 32 0#32),
    StableHlo.unary main_c_4 main_v41 (broadcastInDim S1250000 ![] bcast_S_S1250000 : (⟨S_, .i32⟩ : BufTy).Contents (Elt F) → (⟨S1250000, .i32⟩ : BufTy).Contents (Elt F)),
    StableHlo.binary main_arg4 main_v41 main_v42 (cmpi .slt : (⟨S1250000, .i32⟩ : BufTy).Contents (Elt F) → (⟨S1250000, .i32⟩ : BufTy).Contents (Elt F) → (⟨S1250000, .i1⟩ : BufTy).Contents (Elt F)),
    StableHlo.nullary main_c_5 (constantI S_ 32 125000#32),
    StableHlo.unary main_c_5 main_v43 (broadcastInDim S1250000 ![] bcast_S_S1250000 : (⟨S_, .i32⟩ : BufTy).Contents (Elt F) → (⟨S1250000, .i32⟩ : BufTy).Contents (Elt F)),
    StableHlo.binary main_arg4 main_v43 main_v44 (addi : (⟨S1250000, .i32⟩ : BufTy).Contents (Elt F) → (⟨S1250000, .i32⟩ : BufTy).Contents (Elt F) → (⟨S1250000, .i32⟩ : BufTy).Contents (Elt F)),
    StableHlo.ternary main_v42 main_v44 main_arg4 main_v45 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v45 main_v46 (broadcastInDim S1250000x1 ![0] bcast_S1250000_S1250000x1_0 : (⟨S1250000, .i32⟩ : BufTy).Contents (Elt F) → (⟨S1250000x1, .i32⟩ : BufTy).Contents (Elt F)),
    StableHlo.binary main_v34 main_v46 main_v47 ((fun x i => Host.gather gather_S125000x64_S1250000x1_S1250000x64_1_0_n_n_0_1_164 x i) : (⟨S125000x64, .f32⟩ : BufTy).Contents (Elt F) → (⟨S1250000x1, .i32⟩ : BufTy).Contents (Elt F) → (⟨S1250000x64, .f32⟩ : BufTy).Contents (Elt F)),
    StableHlo.unary main_v40 main_v48 (broadcastInDim S1250000x64 ![0, 1] bcast_S1250000x1_S1250000x64_0_1 : (⟨S1250000x1, .f32⟩ : BufTy).Contents (Elt F) → (⟨S1250000x64, .f32⟩ : BufTy).Contents (Elt F)),
    StableHlo.binary main_v48 main_v47 main_v49 (mulf : (⟨S1250000x64, .f32⟩ : BufTy).Contents (Elt F) → (⟨S1250000x64, .f32⟩ : BufTy).Contents (Elt F) → (⟨S1250000x64, .f32⟩ : BufTy).Contents (Elt F)),
    StableHlo.nullary main_cst_6 (constant S_ .f32 0x00000000#32),
    StableHlo.unary main_cst_6 main_v50 (broadcastInDim S125000x64 ![] bcast_S_S125000x64 : (⟨S_, .f32⟩ : BufTy).Contents (Elt F) → (⟨S125000x64, .f32⟩ : BufTy).Contents (Elt F)) ]

/-- Round 2 ends: the neighbourhood sum, the new features (value %74) and their unit rows (value %79). -/
abbrev ops2a : List (HloOp τ sig (Elt F)) :=
  [ StableHlo.unary main_arg3 main_v51 (broadcastInDim S1250000x1 ![0] bcast_S1250000_S1250000x1_0 : (⟨S1250000, .i32⟩ : BufTy).Contents (Elt F) → (⟨S1250000x1, .i32⟩ : BufTy).Contents (Elt F)),
    StableHlo.ternary main_v50 main_v51 main_v49 main_v52 ((fun x i u => Host.scatterAdd scatter_S125000x64_S1250000x1_S1250000x64_1_0_0_1 x i u) : (⟨S125000x64, .f32⟩ : BufTy).Contents (Elt F) → (⟨S1250000x1, .i32⟩ : BufTy).Contents (Elt F) → (⟨S1250000x64, .f32⟩ : BufTy).Contents (Elt F) → (⟨S125000x64, .f32⟩ : BufTy).Contents (Elt F)),
    StableHlo.unary main_arg7 main_v53 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v53 main_v54 rfl shapeCasts_S1x64x64_S64x64,
    StableHlo.unary main_v54 main_v55 ((transpose S64x64 [1, 0] · transposes_S64x64_S64x64_1_0) : (⟨S64x64, .f32⟩ : BufTy).Contents (Elt F) → (⟨S64x64, .f32⟩ : BufTy).Contents (Elt F)),
    StableHlo.binary main_v52 main_v55 main_v56 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg8 main_v57 ((extractStridedSlice S1x64 ![1, 0] · slices_S3x64_S1x64_1_0) : (⟨S3x64, .f32⟩ : BufTy).Contents (Elt F) → (⟨S1x64, .f32⟩ : BufTy).Contents (Elt F)),
    StableHlo.reshape main_v57 main_v58 rfl shapeCasts_S1x64_S64,
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S125000x64 ![0, 1] bcast_S1x64_S125000x64_0_1 : (⟨S1x64, .f32⟩ : BufTy).Contents (Elt F) → (⟨S125000x64, .f32⟩ : BufTy).Contents (Elt F)),
    StableHlo.binary main_v56 main_v60 main_v61 (addf : (⟨S125000x64, .f32⟩ : BufTy).Contents (Elt F) → (⟨S125000x64, .f32⟩ : BufTy).Contents (Elt F) → (⟨S125000x64, .f32⟩ : BufTy).Contents (Elt F)),
    StableHlo.nullary main_cst_7 (constant S_ .f32 0x3E4CCCCD#32),
    TRef.nullary main_call3.cst (constant S_ .f32 0x00000000#32),
    TRef.unary main_call3.cst main_call3.v0 (broadcastInDim S125000x64 ![] bcast_S_S125000x64),
    TRef.binary (.of main_v61 : TRef sig ⟨S125000x64, .f32⟩) main_call3.v0 main_call3.v1 (cmpf .oge),
    TRef.unary (.of main_cst_7 : TRef sig ⟨S_, .f32⟩) main_call3.v2 id,
    TRef.unary main_call3.v2 main_call3.v3 (broadcastInDim S125000x64 ![] bcast_S_S125000x64),
    TRef.binary main_call3.v3 (.of main_v61 : TRef sig ⟨S125000x64, .f32⟩) main_call3.v4 mulf,
    TRef.ternary main_call3.v1 (.of main_v61 : TRef sig ⟨S125000x64, .f32⟩) main_call3.v4 main_call3.call0.v0 select,
    StableHlo.binary main_v52 main_v34 main_v63 (mulf : (⟨S125000x64, .f32⟩ : BufTy).Contents (Elt F) → (⟨S125000x64, .f32⟩ : BufTy).Contents (Elt F) → (⟨S125000x64, .f32⟩ : BufTy).Contents (Elt F)),
    StableHlo.unary main_arg9 main_v64 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v64 main_v65 rfl shapeCasts_S1x64x64_S64x64,
    StableHlo.unary main_v65 main_v66 ((transpose S64x64 [1, 0] · transposes_S64x64_S64x64_1_0) : (⟨S64x64, .f32⟩ : BufTy).Contents (Elt F) → (⟨S64x64, .f32⟩ : BufTy).Contents (Elt F)),
    StableHlo.binary main_v63 main_v66 main_v67 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg10 main_v68 ((extractStridedSlice S1x64 ![1, 0] · slices_S3x64_S1x64_1_0) : (⟨S3x64, .f32⟩ : BufTy).Contents (Elt F) → (⟨S1x64, .f32⟩ : BufTy).Contents (Elt F)),
    StableHlo.reshape main_v68 main_v69 rfl shapeCasts_S1x64_S64,
    StableHlo.unary main_v69 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S125000x64 ![0, 1] bcast_S1x64_S125000x64_0_1 : (⟨S1x64, .f32⟩ : BufTy).Contents (Elt F) → (⟨S125000x64, .f32⟩ : BufTy).Contents (Elt F)),
    StableHlo.binary main_v67 main_v71 main_v72 (addf : (⟨S125000x64, .f32⟩ : BufTy).Contents (Elt F) → (⟨S125000x64, .f32⟩ : BufTy).Contents (Elt F) → (⟨S125000x64, .f32⟩ : BufTy).Contents (Elt F)),
    StableHlo.nullary main_cst_8 (constant S_ .f32 0x3E4CCCCD#32),
    TRef.nullary main_call4.cst (constant S_ .f32 0x00000000#32),
    TRef.unary main_call4.cst main_call4.v0 (broadcastInDim S125000x64 ![] bcast_S_S125000x64),
    TRef.binary (.of main_v72 : TRef sig ⟨S125000x64, .f32⟩) main_call4.v0 main_call4.v1 (cmpf .oge),
    TRef.unary (.of main_cst_8 : TRef sig ⟨S_, .f32⟩) main_call4.v2 id,
    TRef.unary main_call4.v2 main_call4.v3 (broadcastInDim S125000x64 ![] bcast_S_S125000x64),
    TRef.binary main_call4.v3 (.of main_v72 : TRef sig ⟨S125000x64, .f32⟩) main_call4.v4 mulf,
    TRef.ternary main_call4.v1 (.of main_v72 : TRef sig ⟨S125000x64, .f32⟩) main_call4.v4 main_call4.call0.v0 select,
    StableHlo.binary main_v62 main_v73 main_v74 (addf : (⟨S125000x64, .f32⟩ : BufTy).Contents (Elt F) → (⟨S125000x64, .f32⟩ : BufTy).Contents (Elt F) → (⟨S125000x64, .f32⟩ : BufTy).Contents (Elt F)),
    TRef.binary (.of main_v74 : TRef sig ⟨S125000x64, .f32⟩) (.of main_v74 : TRef sig ⟨S125000x64, .f32⟩) main_call5.v0 mulf,
    TRef.nullary main_call5.cst (constant S_ .f32 0x00000000#32),
    TRef.binary main_call5.v0 main_call5.cst main_call5.v1 (fun x v => Host.reduceAdd x v reducesTo_S125000x64_S125000_d1 h_S_),
    TRef.unary main_call5.v1 main_call5.v2 (broadcastInDim S125000x1 ![0] bcast_S125000_S125000x1_0),
    TRef.unary main_call5.v2 main_call5.v3 Host.sqrt,
    StableHlo.nullary main_cst_9 (constant S_ .f32 0x2B8CBCCC#32),
    StableHlo.unary main_cst_9 main_v76 (broadcastInDim S125000x1 ![] bcast_S_S125000x1 : (⟨S_, .f32⟩ : BufTy).Contents (Elt F) → (⟨S125000x1, .f32⟩ : BufTy).Contents (Elt F)),
    StableHlo.binary main_v75 main_v76 main_v77 (maximumf : (⟨S125000x1, .f32⟩ : BufTy).Contents (Elt F) → (⟨S125000x1, .f32⟩ : BufTy).Contents (Elt F) → (⟨S125000x1, .f32⟩ : BufTy).Contents (Elt F)),
    StableHlo.unary main_v77 main_v78 (broadcastInDim S125000x64 ![0, 1] bcast_S125000x1_S125000x64_0_1 : (⟨S125000x1, .f32⟩ : BufTy).Contents (Elt F) → (⟨S125000x64, .f32⟩ : BufTy).Contents (Elt F)),
    StableHlo.binary main_v74 main_v78 main_v79 (Host.divf : (⟨S125000x64, .f32⟩ : BufTy).Contents (Elt F) → (⟨S125000x64, .f32⟩ : BufTy).Contents (Elt F) → (⟨S125000x64, .f32⟩ : BufTy).Contents (Elt F)) ]

/-- Round 3 begins: the gather of the round-2 features, their neighbourhood sum, the first dense branch and the product for the second. -/
abbrev ops2b : List (HloOp τ sig (Elt F)) :=
  [ StableHlo.unary main_arg5 main_v80 (broadcastInDim S1250000x1 ![0] bcast_S1250000_S1250000x1_0 : (⟨S1250000, .f32⟩ : BufTy).Contents (Elt F) → (⟨S1250000x1, .f32⟩ : BufTy).Contents (Elt F)),
    StableHlo.nullary main_c_10 (constantI S_ 32 0#32),
    StableHlo.unary main_c_10 main_v81 (broadcastInDim S1250000 ![] bcast_S_S1250000 : (⟨S_, .i32⟩ : BufTy).Contents (Elt F) → (⟨S1250000, .i32⟩ : BufTy).Contents (Elt F)),
    StableHlo.binary main_arg4 main_v81 main_v82 (cmpi .slt : (⟨S1250000, .i32⟩ : BufTy).Contents (Elt F) → (⟨S1250000, .i32⟩ : BufTy).Contents (Elt F) → (⟨S1250000, .i1⟩ : BufTy).Contents (Elt F)),
    StableHlo.nullary main_c_11 (constantI S_ 32 125000#32),
    StableHlo.unary main_c_11 main_v83 (broadcastInDim S1250000 ![] bcast_S_S1250000 : (⟨S_, .i32⟩ : BufTy).Contents (Elt F) → (⟨S1250000, .i32⟩ : BufTy).Contents (Elt F)),
    StableHlo.binary main_arg4 main_v83 main_v84 (addi : (⟨S1250000, .i32⟩ : BufTy).Contents (Elt F) → (⟨S1250000, .i32⟩ : BufTy).Contents (Elt F) → (⟨S1250000, .i32⟩ : BufTy).Contents (Elt F)),
    StableHlo.ternary main_v82 main_v84 main_arg4 main_v85 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v85 main_v86 (broadcastInDim S1250000x1 ![0] bcast_S1250000_S1250000x1_0 : (⟨S1250000, .i32⟩ : BufTy).Contents (Elt F) → (⟨S1250000x1, .i32⟩ : BufTy).Contents (Elt F)),
    StableHlo.binary main_v74 main_v86 main_v87 ((fun x i => Host.gather gather_S125000x64_S1250000x1_S1250000x64_1_0_n_n_0_1_164 x i) : (⟨S125000x64, .f32⟩ : BufTy).Contents (Elt F) → (⟨S1250000x1, .i32⟩ : BufTy).Contents (Elt F) → (⟨S1250000x64, .f32⟩ : BufTy).Contents (Elt F)),
    StableHlo.unary main_v80 main_v88 (broadcastInDim S1250000x64 ![0, 1] bcast_S1250000x1_S1250000x64_0_1 : (⟨S1250000x1, .f32⟩ : BufTy).Contents (Elt F) → (⟨S1250000x64, .f32⟩ : BufTy).Contents (Elt F)),
    StableHlo.binary main_v88 main_v87 main_v89 (mulf : (⟨S1250000x64, .f32⟩ : BufTy).Contents (Elt F) → (⟨S1250000x64, .f32⟩ : BufTy).Contents (Elt F) → (⟨S1250000x64, .f32⟩ : BufTy).Contents (Elt F)),
    StableHlo.nullary main_cst_12 (constant S_ .f32 0x00000000#32),
    StableHlo.unary main_cst_12 main_v90 (broadcastInDim S125000x64 ![] bcast_S_S125000x64 : (⟨S_, .f32⟩ : BufTy).Contents (Elt F) → (⟨S125000x64, .f32⟩ : BufTy).Contents (Elt F)),
    StableHlo.unary main_arg3 main_v91 (broadcastInDim S1250000x1 ![0] bcast_S1250000_S1250000x1_0 : (⟨S1250000, .i32⟩ : BufTy).Contents (Elt F) → (⟨S1250000x1, .i32⟩ : BufTy).Contents (Elt F)),
    StableHlo.ternary main_v90 main_v91 main_v89 main_v92 ((fun x i u => Host.scatterAdd scatter_S125000x64_S1250000x1_S1250000x64_1_0_0_1 x i u) : (⟨S125000x64, .f32⟩ : BufTy).Contents (Elt F) → (⟨S1250000x1, .i32⟩ : BufTy).Contents (Elt F) → (⟨S1250000x64, .f32⟩ : BufTy).Contents (Elt F) → (⟨S125000x64, .f32⟩ : BufTy).Contents (Elt F)),
    StableHlo.unary main_arg7 main_v93 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v93 main_v94 rfl shapeCasts_S1x64x64_S64x64,
    StableHlo.unary main_v94 main_v95 ((transpose S64x64 [1, 0] · transposes_S64x64_S64x64_1_0) : (⟨S64x64, .f32⟩ : BufTy).Contents (Elt F) → (⟨S64x64, .f32⟩ : BufTy).Contents (Elt F)),
    StableHlo.binary main_v92 main_v95 main_v96 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg8 main_v97 ((extractStridedSlice S1x64 ![2, 0] · slices_S3x64_S1x64_2_0) : (⟨S3x64, .f32⟩ : BufTy).Contents (Elt F) → (⟨S1x64, .f32⟩ : BufTy).Contents (Elt F)),
    StableHlo.reshape main_v97 main_v98 rfl shapeCasts_S1x64_S64,
    StableHlo.unary main_v98 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S125000x64 ![0, 1] bcast_S1x64_S125000x64_0_1 : (⟨S1x64, .f32⟩ : BufTy).Contents (Elt F) → (⟨S125000x64, .f32⟩ : BufTy).Contents (Elt F)),
    StableHlo.binary main_v96 main_v100 main_v101 (addf : (⟨S125000x64, .f32⟩ : BufTy).Contents (Elt F) → (⟨S125000x64, .f32⟩ : BufTy).Contents (Elt F) → (⟨S125000x64, .f32⟩ : BufTy).Contents (Elt F)),
    StableHlo.nullary main_cst_13 (constant S_ .f32 0x3E4CCCCD#32),
    TRef.nullary main_call6.cst (constant S_ .f32 0x00000000#32),
    TRef.unary main_call6.cst main_call6.v0 (broadcastInDim S125000x64 ![] bcast_S_S125000x64),
    TRef.binary (.of main_v101 : TRef sig ⟨S125000x64, .f32⟩) main_call6.v0 main_call6.v1 (cmpf .oge),
    TRef.unary (.of main_cst_13 : TRef sig ⟨S_, .f32⟩) main_call6.v2 id,
    TRef.unary main_call6.v2 main_call6.v3 (broadcastInDim S125000x64 ![] bcast_S_S125000x64),
    TRef.binary main_call6.v3 (.of main_v101 : TRef sig ⟨S125000x64, .f32⟩) main_call6.v4 mulf,
    TRef.ternary main_call6.v1 (.of main_v101 : TRef sig ⟨S125000x64, .f32⟩) main_call6.v4 main_call6.call0.v0 select,
    StableHlo.binary main_v92 main_v74 main_v103 (mulf : (⟨S125000x64, .f32⟩ : BufTy).Contents (Elt F) → (⟨S125000x64, .f32⟩ : BufTy).Contents (Elt F) → (⟨S125000x64, .f32⟩ : BufTy).Contents (Elt F)) ]

/-- Round 3 ends: the second dense branch, the new features (value %114) and their unit rows (value %119). -/
abbrev ops3a : List (HloOp τ sig (Elt F)) :=
  [ StableHlo.unary main_arg9 main_v104 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v104 main_v105 rfl shapeCasts_S1x64x64_S64x64,
    StableHlo.unary main_v105 main_v106 ((transpose S64x64 [1, 0] · transposes_S64x64_S64x64_1_0) : (⟨S64x64, .f32⟩ : BufTy).Contents (Elt F) → (⟨S64x64, .f32⟩ : BufTy).Contents (Elt F)),
    StableHlo.binary main_v103 main_v106 main_v107 ((fun l r => Host.dotGeneral dot_S125000x64_S64x64_S125000x64_1_0_0_1_n_n none l r) : (⟨S125000x64, .f32⟩ : BufTy).Contents (Elt F) → (⟨S64x64, .f32⟩ : BufTy).Contents (Elt F) → (⟨S125000x64, .f32⟩ : BufTy).Contents (Elt F)),
    StableHlo.unary main_arg10 main_v108 ((extractStridedSlice S1x64 ![2, 0] · slices_S3x64_S1x64_2_0) : (⟨S3x64, .f32⟩ : BufTy).Contents (Elt F) → (⟨S1x64, .f32⟩ : BufTy).Contents (Elt F)),
    StableHlo.reshape main_v108 main_v109 rfl shapeCasts_S1x64_S64,
    StableHlo.unary main_v109 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S125000x64 ![0, 1] bcast_S1x64_S125000x64_0_1 : (⟨S1x64, .f32⟩ : BufTy).Contents (Elt F) → (⟨S125000x64, .f32⟩ : BufTy).Contents (Elt F)),
    StableHlo.binary main_v107 main_v111 main_v112 (addf : (⟨S125000x64, .f32⟩ : BufTy).Contents (Elt F) → (⟨S125000x64, .f32⟩ : BufTy).Contents (Elt F) → (⟨S125000x64, .f32⟩ : BufTy).Contents (Elt F)),
    StableHlo.nullary main_cst_14 (constant S_ .f32 0x3E4CCCCD#32),
    TRef.nullary main_call7.cst (constant S_ .f32 0x00000000#32),
    TRef.unary main_call7.cst main_call7.v0 (broadcastInDim S125000x64 ![] bcast_S_S125000x64),
    TRef.binary (.of main_v112 : TRef sig ⟨S125000x64, .f32⟩) main_call7.v0 main_call7.v1 (cmpf .oge),
    TRef.unary (.of main_cst_14 : TRef sig ⟨S_, .f32⟩) main_call7.v2 id,
    TRef.unary main_call7.v2 main_call7.v3 (broadcastInDim S125000x64 ![] bcast_S_S125000x64),
    TRef.binary main_call7.v3 (.of main_v112 : TRef sig ⟨S125000x64, .f32⟩) main_call7.v4 mulf,
    TRef.ternary main_call7.v1 (.of main_v112 : TRef sig ⟨S125000x64, .f32⟩) main_call7.v4 main_call7.call0.v0 select,
    StableHlo.binary main_v102 main_v113 main_v114 (addf : (⟨S125000x64, .f32⟩ : BufTy).Contents (Elt F) → (⟨S125000x64, .f32⟩ : BufTy).Contents (Elt F) → (⟨S125000x64, .f32⟩ : BufTy).Contents (Elt F)),
    TRef.binary (.of main_v114 : TRef sig ⟨S125000x64, .f32⟩) (.of main_v114 : TRef sig ⟨S125000x64, .f32⟩) main_call8.v0 mulf,
    TRef.nullary main_call8.cst (constant S_ .f32 0x00000000#32),
    TRef.binary main_call8.v0 main_call8.cst main_call8.v1 (fun x v => Host.reduceAdd x v reducesTo_S125000x64_S125000_d1 h_S_),
    TRef.unary main_call8.v1 main_call8.v2 (broadcastInDim S125000x1 ![0] bcast_S125000_S125000x1_0),
    TRef.unary main_call8.v2 main_call8.v3 Host.sqrt,
    StableHlo.nullary main_cst_15 (constant S_ .f32 0x2B8CBCCC#32),
    StableHlo.unary main_cst_15 main_v116 (broadcastInDim S125000x1 ![] bcast_S_S125000x1 : (⟨S_, .f32⟩ : BufTy).Contents (Elt F) → (⟨S125000x1, .f32⟩ : BufTy).Contents (Elt F)),
    StableHlo.binary main_v115 main_v116 main_v117 (maximumf : (⟨S125000x1, .f32⟩ : BufTy).Contents (Elt F) → (⟨S125000x1, .f32⟩ : BufTy).Contents (Elt F) → (⟨S125000x1, .f32⟩ : BufTy).Contents (Elt F)),
    StableHlo.unary main_v117 main_v118 (broadcastInDim S125000x64 ![0, 1] bcast_S125000x1_S125000x64_0_1 : (⟨S125000x1, .f32⟩ : BufTy).Contents (Elt F) → (⟨S125000x64, .f32⟩ : BufTy).Contents (Elt F)),
    StableHlo.binary main_v114 main_v118 main_v119 (Host.divf : (⟨S125000x64, .f32⟩ : BufTy).Contents (Elt F) → (⟨S125000x64, .f32⟩ : BufTy).Contents (Elt F) → (⟨S125000x64, .f32⟩ : BufTy).Contents (Elt F)) ]

/-- The table of the four feature blocks side by side, its user and item parts, and the three row gathers at the wrapped indices. -/
abbrev ops3b : List (HloOp τ sig (Elt F)) :=
  [ StableHlo.nary ![main_arg6, main_v39, main_v79, main_v119] main_v120 (fun u => concatenate S125000x256 1 [⟨S125000x64, u 0⟩, ⟨S125000x64, u 1⟩, ⟨S125000x64, u 2⟩, ⟨S125000x64, u 3⟩] concatenates_S125000x64_S125000x64_S125000x64_S125000x64_S125000x256_d1),
    StableHlo.unary main_v120 main_v121 ((extractStridedSlice S50000x256 ![0, 0] · slices_S125000x256_S50000x256_0_0) : (⟨S125000x256, .f32⟩ : BufTy).Contents (Elt F) → (⟨S50000x256, .f32⟩ : BufTy).Contents (Elt F)),
    StableHlo.unary main_v120 main_v122 ((extractStridedSlice S75000x256 ![50000, 0] · slices_S125000x256_S75000x256_50000_0) : (⟨S125000x256, .f32⟩ : BufTy).Contents (Elt F) → (⟨S75000x256, .f32⟩ : BufTy).Contents (Elt F)),
    StableHlo.nullary main_c_16 (constantI S_ 32 0#32),
    StableHlo.unary main_c_16 main_v123 (broadcastInDim S4096 ![] bcast_S_S4096 : (⟨S_, .i32⟩ : BufTy).Contents (Elt F) → (⟨S4096, .i32⟩ : BufTy).Contents (Elt F)),
    StableHlo.binary main_arg0 main_v123 main_v124 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 50000#32),
    StableHlo.unary main_c_17 main_v125 (broadcastInDim S4096 ![] bcast_S_S4096 : (⟨S_, .i32⟩ : BufTy).Contents (Elt F) → (⟨S4096, .i32⟩ : BufTy).Contents (Elt F)),
    StableHlo.binary main_arg0 main_v125 main_v126 (addi : (⟨S4096, .i32⟩ : BufTy).Contents (Elt F) → (⟨S4096, .i32⟩ : BufTy).Contents (Elt F) → (⟨S4096, .i32⟩ : BufTy).Contents (Elt F)),
    StableHlo.ternary main_v124 main_v126 main_arg0 main_v127 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v127 main_v128 (broadcastInDim S4096x1 ![0] bcast_S4096_S4096x1_0 : (⟨S4096, .i32⟩ : BufTy).Contents (Elt F) → (⟨S4096x1, .i32⟩ : BufTy).Contents (Elt F)),
    StableHlo.binary main_v121 main_v128 main_v129 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_18 (constantI S_ 32 0#32),
    StableHlo.unary main_c_18 main_v130 (broadcastInDim S4096 ![] bcast_S_S4096 : (⟨S_, .i32⟩ : BufTy).Contents (Elt F) → (⟨S4096, .i32⟩ : BufTy).Contents (Elt F)),
    StableHlo.binary main_arg1 main_v130 main_v131 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 75000#32),
    StableHlo.unary main_c_19 main_v132 (broadcastInDim S4096 ![] bcast_S_S4096 : (⟨S_, .i32⟩ : BufTy).Contents (Elt F) → (⟨S4096, .i32⟩ : BufTy).Contents (Elt F)),
    StableHlo.binary main_arg1 main_v132 main_v133 (addi : (⟨S4096, .i32⟩ : BufTy).Contents (Elt F) → (⟨S4096, .i32⟩ : BufTy).Contents (Elt F) → (⟨S4096, .i32⟩ : BufTy).Contents (Elt F)),
    StableHlo.ternary main_v131 main_v133 main_arg1 main_v134 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v134 main_v135 (broadcastInDim S4096x1 ![0] bcast_S4096_S4096x1_0 : (⟨S4096, .i32⟩ : BufTy).Contents (Elt F) → (⟨S4096x1, .i32⟩ : BufTy).Contents (Elt F)),
    StableHlo.binary main_v122 main_v135 main_v136 ((fun x i => Host.gather gather_S75000x256_S4096x1_S4096x256_1_0_n_n_0_1_1256 x i) : (⟨S75000x256, .f32⟩ : BufTy).Contents (Elt F) → (⟨S4096x1, .i32⟩ : BufTy).Contents (Elt F) → (⟨S4096x256, .f32⟩ : BufTy).Contents (Elt F)),
    StableHlo.nullary main_c_20 (constantI S_ 32 0#32),
    StableHlo.unary main_c_20 main_v137 (broadcastInDim S4096 ![] bcast_S_S4096 : (⟨S_, .i32⟩ : BufTy).Contents (Elt F) → (⟨S4096, .i32⟩ : BufTy).Contents (Elt F)),
    StableHlo.binary main_arg2 main_v137 main_v138 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 75000#32),
    StableHlo.unary main_c_21 main_v139 (broadcastInDim S4096 ![] bcast_S_S4096 : (⟨S_, .i32⟩ : BufTy).Contents (Elt F) → (⟨S4096, .i32⟩ : BufTy).Contents (Elt F)),
    StableHlo.binary main_arg2 main_v139 main_v140 (addi : (⟨S4096, .i32⟩ : BufTy).Contents (Elt F) → (⟨S4096, .i32⟩ : BufTy).Contents (Elt F) → (⟨S4096, .i32⟩ : BufTy).Contents (Elt F)),
    StableHlo.ternary main_v138 main_v140 main_arg2 main_v141 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v141 main_v142 (broadcastInDim S4096x1 ![0] bcast_S4096_S4096x1_0 : (⟨S4096, .i32⟩ : BufTy).Contents (Elt F) → (⟨S4096x1, .i32⟩ : BufTy).Contents (Elt F)),
    StableHlo.binary main_v122 main_v142 main_v143 ((fun x i => Host.gather gather_S75000x256_S4096x1_S4096x256_1_0_n_n_0_1_1256 x i) : (⟨S75000x256, .f32⟩ : BufTy).Contents (Elt F) → (⟨S4096x1, .i32⟩ : BufTy).Contents (Elt F) → (⟨S4096x256, .f32⟩ : BufTy).Contents (Elt F)) ]

/-- @main's 216 operations, in order. -/
abbrev ops : List (HloOp τ sig (Elt F)) :=
  (ops1a ++ ops1b) ++ ((ops2a ++ ops2b) ++ (ops3a ++ ops3b))

set_option maxRecDepth 8192 in
theorem part0_eq (d : Dev nD) : main_part0 (F := F) d = seq (ops1a ++ ops1b) := by
  simp only [main_part0, fn_leaky_relu.body, fn_where.body, fn_norm.body, seq_append, seq, bind_assoc, pure_bind]
  rfl

set_option maxRecDepth 8192 in
theorem part1_eq (d : Dev nD) : main_part1 (F := F) d = seq (ops2a ++ ops2b) := by
  simp only [main_part1, fn_leaky_relu.body, fn_where.body, fn_norm.body, seq_append, seq, bind_assoc, pure_bind]
  rfl

set_option maxRecDepth 8192 in
theorem part2_eq (d : Dev nD) : main_part2 (F := F) d = seq (ops3a ++ ops3b) := by
  simp only [main_part2, fn_leaky_relu.body, fn_where.body, fn_norm.body, seq_append, seq, bind_assoc, pure_bind]

/-- @main is that straight line: its three windows are the three pairs of stretches. -/
theorem main_eq (d : Dev nD) : main (F := F) d = seq ops := by
  simp only [main, part0_eq, part1_eq, part2_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops1a_sub : (ops1a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops1a_fresh : ∀ op ∈ (ops1a : List (HloOp τ sig (Elt F))), op.fresh = ∅ := by
  intro _ h; (repeat (cases h with | head => rfl | tail _ h => ?_)); exact nomatch h

theorem ops1b_sub : (ops1b : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩

theorem ops1b_fresh : ∀ op ∈ (ops1b : List (HloOp τ sig (Elt F))), op.fresh = ∅ := by
  intro _ h; (repeat (cases h with | head => rfl | tail _ h => ?_)); exact nomatch h

theorem ops2a_sub : (ops2a : List (HloOp τ sig (Elt F))).Forall fun op => op.bufs ⊆ tcRefs τ sig :=
  ⟨unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops2a_fresh : ∀ op ∈ (ops2a : List (HloOp τ sig (Elt F))), op.fresh = ∅ := by
  intro _ h; (repeat (cases h with | head => rfl | tail _ h => ?_)); exact nomatch h

theorem ops2b_sub : (ops2b : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

theorem ops2b_fresh : ∀ op ∈ (ops2b : List (HloOp τ sig (Elt F))), op.fresh = ∅ := by
  intro _ h; (repeat (cases h with | head => rfl | tail _ h => ?_)); exact nomatch h

theorem ops3a_sub : (ops3a : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops3a_fresh : ∀ op ∈ (ops3a : List (HloOp τ sig (Elt F))), op.fresh = ∅ := by
  intro _ h; (repeat (cases h with | head => rfl | tail _ h => ?_)); exact nomatch h

theorem ops3b_sub : (ops3b : List (HloOp τ sig (Elt F))).Forall fun op => op.bufs ⊆ tcRefs τ sig :=
  ⟨nary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops3b_fresh : ∀ op ∈ (ops3b : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  refine List.forall_iff_forall_mem.mpr fun op h => ?_
  simp only [ops, List.mem_append] at h
  rcases h with (h | h) | (h | h) | (h | h)
  · exact List.forall_iff_forall_mem.mp ops1a_sub op h
  · exact List.forall_iff_forall_mem.mp ops1b_sub op h
  · exact List.forall_iff_forall_mem.mp ops2a_sub op h
  · exact List.forall_iff_forall_mem.mp ops2b_sub op h
  · exact List.forall_iff_forall_mem.mp ops3a_sub op h
  · exact List.forall_iff_forall_mem.mp ops3b_sub op h

theorem ops_fresh : ∀ op ∈ (ops : List (HloOp τ sig (Elt F))), op.fresh = ∅ := by
  intro op h
  simp only [ops, List.mem_append] at h
  rcases h with (h | h) | (h | h) | (h | h)
  · exact ops1a_fresh op h
  · exact ops1b_fresh op h
  · exact ops2a_fresh op h
  · exact ops2b_fresh op h
  · exact ops3a_fresh op h
  · exact ops3b_fresh op h

/-- At the compiled mesh, for any float values, from any memory with zero counters: every weakly fair execution of @main
    terminates, and every final state has each buffer at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.LibFold.lean ====
/-
  A general fact about a straight line of host operations: the contents after two lines run end to end are the
  contents after the second line, started from the contents after the first. With it a long line is evaluated
  stretch by stretch, each stretch from whatever contents the one before left.
-/
import Idealize.ShloMosaic.Lib.StableHlo.Run

namespace Cert.LibFold

open Idealize.ShloMosaic Idealize.ShloMosaic.StableHlo

variable {τ : Topo} {sig : RefSig} {Val : EltTy → Type}

/-- The fold of a line that is two lines end to end. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibFold
-- ==== Proof.RI.Value.lean ====
/-
  The reference's three results as functions of its eleven arguments: the fold of its operations over any buffer
  contents is evaluated round by round — each round's new features and their unit rows from the round before, every
  argument left as it was — and the final gathers read the table of the four feature blocks side by side.
-/
import proofs.«401280_j80350248174011_2_alg».proof.Proof.RI.Run
import proofs.«401280_j80350248174011_2_alg».proof.Proof.RI.Layer
import proofs.«401280_j80350248174011_2_alg».proof.Proof.LibFold

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## One stretch at a time, from any contents

Each equation holds whatever the gathers, the scatter-add, the row sum and the layout operations compute: they enter
only as opaque functions of their operands. -/

section Stretches

attribute [local irreducible] Host.scatterAdd Host.gather Host.reduceAdd broadcastInDim transpose extractStridedSlice shapeCast concatenate

variable (V : Valuation τ sig (Elt F))

/-- Round 1's new features. -/
theorem r1_feat : after ops1a V (main_v34 : DevRef τ sig) = Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

/-- Round 1's unit rows. -/
theorem r1_unit : after ops1a V (main_v39 : DevRef τ sig) = Layer.unitRows (Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) := by
  after_results_simp
  rfl

theorem r1_arg0 : after ops1a V (main_arg0 : DevRef τ sig) = V (main_arg0 : DevRef τ sig) := by after_results_simp
theorem r1_arg1 : after ops1a V (main_arg1 : DevRef τ sig) = V (main_arg1 : DevRef τ sig) := by after_results_simp
theorem r1_arg2 : after ops1a V (main_arg2 : DevRef τ sig) = V (main_arg2 : DevRef τ sig) := by after_results_simp
theorem r1_arg3 : after ops1a V (main_arg3 : DevRef τ sig) = V (main_arg3 : DevRef τ sig) := by after_results_simp
theorem r1_arg4 : after ops1a V (main_arg4 : DevRef τ sig) = V (main_arg4 : DevRef τ sig) := by after_results_simp
theorem r1_arg5 : after ops1a V (main_arg5 : DevRef τ sig) = V (main_arg5 : DevRef τ sig) := by after_results_simp
theorem r1_arg6 : after ops1a V (main_arg6 : DevRef τ sig) = V (main_arg6 : DevRef τ sig) := by after_results_simp
theorem r1_arg7 : after ops1a V (main_arg7 : DevRef τ sig) = V (main_arg7 : DevRef τ sig) := by after_results_simp
theorem r1_arg8 : after ops1a V (main_arg8 : DevRef τ sig) = V (main_arg8 : DevRef τ sig) := by after_results_simp
theorem r1_arg9 : after ops1a V (main_arg9 : DevRef τ sig) = V (main_arg9 : DevRef τ sig) := by after_results_simp
theorem r1_arg10 : after ops1a V (main_arg10 : DevRef τ sig) = V (main_arg10 : DevRef τ sig) := by after_results_simp

/-- Round 2's new features from round 1's. -/
theorem r2_feat : after ops2a (after ops1b V) (main_v74 : DevRef τ sig) = Layer.newFeat (Layer.spmm (V (main_arg3 : DevRef τ sig)) (V (main_arg4 : DevRef τ sig)) (V (main_arg5 : DevRef τ sig)) (V (main_v34 : DevRef τ sig))) (V (main_v34 : DevRef τ sig)) (Layer.wT1 (V (main_arg7 : DevRef τ sig))) (Layer.bV1 (V (main_arg8 : DevRef τ sig))) (Layer.wT1 (V (main_arg9 : DevRef τ sig))) (Layer.bV1 (V (main_arg10 : DevRef τ sig))) := by
  after_results_simp
  rfl

/-- Round 2's unit rows. -/
theorem r2_unit : after ops2a (after ops1b V) (main_v79 : DevRef τ sig) = Layer.unitRows (Layer.newFeat (Layer.spmm (V (main_arg3 : DevRef τ sig)) (V (main_arg4 : DevRef τ sig)) (V (main_arg5 : DevRef τ sig)) (V (main_v34 : DevRef τ sig))) (V (main_v34 : DevRef τ sig)) (Layer.wT1 (V (main_arg7 : DevRef τ sig))) (Layer.bV1 (V (main_arg8 : DevRef τ sig))) (Layer.wT1 (V (main_arg9 : DevRef τ sig))) (Layer.bV1 (V (main_arg10 : DevRef τ sig)))) := by
  after_results_simp
  rfl

theorem r2_v39 : after ops2a (after ops1b V) (main_v39 : DevRef τ sig) = V (main_v39 : DevRef τ sig) := by after_results_simp
theorem r2_arg0 : after ops2a (after ops1b V) (main_arg0 : DevRef τ sig) = V (main_arg0 : DevRef τ sig) := by after_results_simp
theorem r2_arg1 : after ops2a (after ops1b V) (main_arg1 : DevRef τ sig) = V (main_arg1 : DevRef τ sig) := by after_results_simp
theorem r2_arg2 : after ops2a (after ops1b V) (main_arg2 : DevRef τ sig) = V (main_arg2 : DevRef τ sig) := by after_results_simp
theorem r2_arg3 : after ops2a (after ops1b V) (main_arg3 : DevRef τ sig) = V (main_arg3 : DevRef τ sig) := by after_results_simp
theorem r2_arg4 : after ops2a (after ops1b V) (main_arg4 : DevRef τ sig) = V (main_arg4 : DevRef τ sig) := by after_results_simp
theorem r2_arg5 : after ops2a (after ops1b V) (main_arg5 : DevRef τ sig) = V (main_arg5 : DevRef τ sig) := by after_results_simp
theorem r2_arg6 : after ops2a (after ops1b V) (main_arg6 : DevRef τ sig) = V (main_arg6 : DevRef τ sig) := by after_results_simp
theorem r2_arg7 : after ops2a (after ops1b V) (main_arg7 : DevRef τ sig) = V (main_arg7 : DevRef τ sig) := by after_results_simp
theorem r2_arg8 : after ops2a (after ops1b V) (main_arg8 : DevRef τ sig) = V (main_arg8 : DevRef τ sig) := by after_results_simp
theorem r2_arg9 : after ops2a (after ops1b V) (main_arg9 : DevRef τ sig) = V (main_arg9 : DevRef τ sig) := by after_results_simp
theorem r2_arg10 : after ops2a (after ops1b V) (main_arg10 : DevRef τ sig) = V (main_arg10 : DevRef τ sig) := by after_results_simp

/-- Round 3's new features from round 2's. -/
theorem r3_feat : after ops3a (after ops2b V) (main_v114 : DevRef τ sig) = Layer.newFeat (Layer.spmm (V (main_arg3 : DevRef τ sig)) (V (main_arg4 : DevRef τ sig)) (V (main_arg5 : DevRef τ sig)) (V (main_v74 : DevRef τ sig))) (V (main_v74 : DevRef τ sig)) (Layer.wT2 (V (main_arg7 : DevRef τ sig))) (Layer.bV2 (V (main_arg8 : DevRef τ sig))) (Layer.wT2 (V (main_arg9 : DevRef τ sig))) (Layer.bV2 (V (main_arg10 : DevRef τ sig))) := by
  after_results_simp
  rfl

/-- Round 3's unit rows. -/
theorem r3_unit : after ops3a (after ops2b V) (main_v119 : DevRef τ sig) = Layer.unitRows (Layer.newFeat (Layer.spmm (V (main_arg3 : DevRef τ sig)) (V (main_arg4 : DevRef τ sig)) (V (main_arg5 : DevRef τ sig)) (V (main_v74 : DevRef τ sig))) (V (main_v74 : DevRef τ sig)) (Layer.wT2 (V (main_arg7 : DevRef τ sig))) (Layer.bV2 (V (main_arg8 : DevRef τ sig))) (Layer.wT2 (V (main_arg9 : DevRef τ sig))) (Layer.bV2 (V (main_arg10 : DevRef τ sig)))) := by
  after_results_simp
  rfl

theorem r3_v39 : after ops3a (after ops2b V) (main_v39 : DevRef τ sig) = V (main_v39 : DevRef τ sig) := by after_results_simp
theorem r3_v79 : after ops3a (after ops2b V) (main_v79 : DevRef τ sig) = V (main_v79 : DevRef τ sig) := by after_results_simp
theorem r3_arg0 : after ops3a (after ops2b V) (main_arg0 : DevRef τ sig) = V (main_arg0 : DevRef τ sig) := by after_results_simp
theorem r3_arg1 : after ops3a (after ops2b V) (main_arg1 : DevRef τ sig) = V (main_arg1 : DevRef τ sig) := by after_results_simp
theorem r3_arg2 : after ops3a (after ops2b V) (main_arg2 : DevRef τ sig) = V (main_arg2 : DevRef τ sig) := by after_results_simp
theorem r3_arg3 : after ops3a (after ops2b V) (main_arg3 : DevRef τ sig) = V (main_arg3 : DevRef τ sig) := by after_results_simp
theorem r3_arg4 : after ops3a (after ops2b V) (main_arg4 : DevRef τ sig) = V (main_arg4 : DevRef τ sig) := by after_results_simp
theorem r3_arg5 : after ops3a (after ops2b V) (main_arg5 : DevRef τ sig) = V (main_arg5 : DevRef τ sig) := by after_results_simp
theorem r3_arg6 : after ops3a (after ops2b V) (main_arg6 : DevRef τ sig) = V (main_arg6 : DevRef τ sig) := by after_results_simp
theorem r3_arg7 : after ops3a (after ops2b V) (main_arg7 : DevRef τ sig) = V (main_arg7 : DevRef τ sig) := by after_results_simp
theorem r3_arg8 : after ops3a (after ops2b V) (main_arg8 : DevRef τ sig) = V (main_arg8 : DevRef τ sig) := by after_results_simp
theorem r3_arg9 : after ops3a (after ops2b V) (main_arg9 : DevRef τ sig) = V (main_arg9 : DevRef τ sig) := by after_results_simp
theorem r3_arg10 : after ops3a (after ops2b V) (main_arg10 : DevRef τ sig) = V (main_arg10 : DevRef τ sig) := by after_results_simp

/-- The three gathers out of the table of the four blocks. -/
theorem r4_user : after ops3b V (main_v129 : DevRef τ sig) = Layer.userRows (Layer.table (V (main_arg6 : DevRef τ sig)) (V (main_v39 : DevRef τ sig)) (V (main_v79 : DevRef τ sig)) (V (main_v119 : DevRef τ sig))) (V (main_arg0 : DevRef τ sig)) := by
  after_results_simp
  rfl

theorem r4_pos : after ops3b V (main_v136 : DevRef τ sig) = Layer.itemRows (Layer.table (V (main_arg6 : DevRef τ sig)) (V (main_v39 : DevRef τ sig)) (V (main_v79 : DevRef τ sig)) (V (main_v119 : DevRef τ sig))) (V (main_arg1 : DevRef τ sig)) := by
  after_results_simp
  rfl

theorem r4_neg : after ops3b V (main_v143 : DevRef τ sig) = Layer.itemRows (Layer.table (V (main_arg6 : DevRef τ sig)) (V (main_v39 : DevRef τ sig)) (V (main_v79 : DevRef τ sig)) (V (main_v119 : DevRef τ sig))) (V (main_arg2 : DevRef τ sig)) := by
  after_results_simp
  rfl

theorem r4_arg0 : after ops3b V (main_arg0 : DevRef τ sig) = V (main_arg0 : DevRef τ sig) := by after_results_simp
theorem r4_arg1 : after ops3b V (main_arg1 : DevRef τ sig) = V (main_arg1 : DevRef τ sig) := by after_results_simp
theorem r4_arg2 : after ops3b V (main_arg2 : DevRef τ sig) = V (main_arg2 : DevRef τ sig) := by after_results_simp
theorem r4_arg3 : after ops3b V (main_arg3 : DevRef τ sig) = V (main_arg3 : DevRef τ sig) := by after_results_simp
theorem r4_arg4 : after ops3b V (main_arg4 : DevRef τ sig) = V (main_arg4 : DevRef τ sig) := by after_results_simp
theorem r4_arg5 : after ops3b V (main_arg5 : DevRef τ sig) = V (main_arg5 : DevRef τ sig) := by after_results_simp
theorem r4_arg6 : after ops3b V (main_arg6 : DevRef τ sig) = V (main_arg6 : DevRef τ sig) := by after_results_simp
theorem r4_arg7 : after ops3b V (main_arg7 : DevRef τ sig) = V (main_arg7 : DevRef τ sig) := by after_results_simp
theorem r4_arg8 : after ops3b V (main_arg8 : DevRef τ sig) = V (main_arg8 : DevRef τ sig) := by after_results_simp
theorem r4_arg9 : after ops3b V (main_arg9 : DevRef τ sig) = V (main_arg9 : DevRef τ sig) := by after_results_simp
theorem r4_arg10 : after ops3b V (main_arg10 : DevRef τ sig) = V (main_arg10 : DevRef τ sig) := by after_results_simp

end Stretches

/-! ## The contents after each round -/

/-- The contents after round 1, 2, 3. -/
def after1 (V : Valuation τ sig (Elt F)) : Valuation τ sig (Elt F) := after ops1a V
def after2 (V : Valuation τ sig (Elt F)) : Valuation τ sig (Elt F) := after ops2a (after ops1b (after1 V))
def after3 (V : Valuation τ sig (Elt F)) : Valuation τ sig (Elt F) := after ops3a (after ops2b (after2 V))

/-- The whole line is the final gathers run from the contents after round 3. -/
theorem after_ops (V : Valuation τ sig (Elt F)) : after ops V = after ops3b (after3 V) := by
  simp only [ops, Cert.LibFold.after_append, after3, after2, after1]

variable (V : Valuation τ sig (Elt F))

theorem after1_arg0 : after1 V (main_arg0 : DevRef τ sig) = V (main_arg0 : DevRef τ sig) := r1_arg0 V
theorem after1_arg1 : after1 V (main_arg1 : DevRef τ sig) = V (main_arg1 : DevRef τ sig) := r1_arg1 V
theorem after1_arg2 : after1 V (main_arg2 : DevRef τ sig) = V (main_arg2 : DevRef τ sig) := r1_arg2 V
theorem after1_arg3 : after1 V (main_arg3 : DevRef τ sig) = V (main_arg3 : DevRef τ sig) := r1_arg3 V
theorem after1_arg4 : after1 V (main_arg4 : DevRef τ sig) = V (main_arg4 : DevRef τ sig) := r1_arg4 V
theorem after1_arg5 : after1 V (main_arg5 : DevRef τ sig) = V (main_arg5 : DevRef τ sig) := r1_arg5 V
theorem after1_arg6 : after1 V (main_arg6 : DevRef τ sig) = V (main_arg6 : DevRef τ sig) := r1_arg6 V
theorem after1_arg7 : after1 V (main_arg7 : DevRef τ sig) = V (main_arg7 : DevRef τ sig) := r1_arg7 V
theorem after1_arg8 : after1 V (main_arg8 : DevRef τ sig) = V (main_arg8 : DevRef τ sig) := r1_arg8 V
theorem after1_arg9 : after1 V (main_arg9 : DevRef τ sig) = V (main_arg9 : DevRef τ sig) := r1_arg9 V
theorem after1_arg10 : after1 V (main_arg10 : DevRef τ sig) = V (main_arg10 : DevRef τ sig) := r1_arg10 V
theorem after1_feat : after1 V (main_v34 : DevRef τ sig) = Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := r1_feat V
theorem after1_unit : after1 V (main_v39 : DevRef τ sig) = Layer.unitRows (Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) := r1_unit V

theorem after2_arg0 : after2 V (main_arg0 : DevRef τ sig) = V (main_arg0 : DevRef τ sig) := (r2_arg0 (after1 V)).trans (after1_arg0 V)
theorem after2_arg1 : after2 V (main_arg1 : DevRef τ sig) = V (main_arg1 : DevRef τ sig) := (r2_arg1 (after1 V)).trans (after1_arg1 V)
theorem after2_arg2 : after2 V (main_arg2 : DevRef τ sig) = V (main_arg2 : DevRef τ sig) := (r2_arg2 (after1 V)).trans (after1_arg2 V)
theorem after2_arg3 : after2 V (main_arg3 : DevRef τ sig) = V (main_arg3 : DevRef τ sig) := (r2_arg3 (after1 V)).trans (after1_arg3 V)
theorem after2_arg4 : after2 V (main_arg4 : DevRef τ sig) = V (main_arg4 : DevRef τ sig) := (r2_arg4 (after1 V)).trans (after1_arg4 V)
theorem after2_arg5 : after2 V (main_arg5 : DevRef τ sig) = V (main_arg5 : DevRef τ sig) := (r2_arg5 (after1 V)).trans (after1_arg5 V)
theorem after2_arg6 : after2 V (main_arg6 : DevRef τ sig) = V (main_arg6 : DevRef τ sig) := (r2_arg6 (after1 V)).trans (after1_arg6 V)
theorem after2_arg7 : after2 V (main_arg7 : DevRef τ sig) = V (main_arg7 : DevRef τ sig) := (r2_arg7 (after1 V)).trans (after1_arg7 V)
theorem after2_arg8 : after2 V (main_arg8 : DevRef τ sig) = V (main_arg8 : DevRef τ sig) := (r2_arg8 (after1 V)).trans (after1_arg8 V)
theorem after2_arg9 : after2 V (main_arg9 : DevRef τ sig) = V (main_arg9 : DevRef τ sig) := (r2_arg9 (after1 V)).trans (after1_arg9 V)
theorem after2_arg10 : after2 V (main_arg10 : DevRef τ sig) = V (main_arg10 : DevRef τ sig) := (r2_arg10 (after1 V)).trans (after1_arg10 V)
theorem after2_feat : after2 V (main_v74 : DevRef τ sig) = Layer.feat2 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after2, r2_feat, after1_arg3, after1_arg4, after1_arg5, after1_arg7, after1_arg8, after1_arg9, after1_arg10, after1_feat]
  rfl
theorem after2_unit : after2 V (main_v79 : DevRef τ sig) = Layer.unitRows (Layer.feat2 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) := by
  rw [after2, r2_unit, after1_arg3, after1_arg4, after1_arg5, after1_arg7, after1_arg8, after1_arg9, after1_arg10, after1_feat]
  rfl
theorem after2_unit1 : after2 V (main_v39 : DevRef τ sig) = Layer.unitRows (Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) :=
  (r2_v39 (after1 V)).trans (after1_unit V)

theorem after3_arg0 : after3 V (main_arg0 : DevRef τ sig) = V (main_arg0 : DevRef τ sig) := (r3_arg0 (after2 V)).trans (after2_arg0 V)
theorem after3_arg1 : after3 V (main_arg1 : DevRef τ sig) = V (main_arg1 : DevRef τ sig) := (r3_arg1 (after2 V)).trans (after2_arg1 V)
theorem after3_arg2 : after3 V (main_arg2 : DevRef τ sig) = V (main_arg2 : DevRef τ sig) := (r3_arg2 (after2 V)).trans (after2_arg2 V)
theorem after3_arg3 : after3 V (main_arg3 : DevRef τ sig) = V (main_arg3 : DevRef τ sig) := (r3_arg3 (after2 V)).trans (after2_arg3 V)
theorem after3_arg4 : after3 V (main_arg4 : DevRef τ sig) = V (main_arg4 : DevRef τ sig) := (r3_arg4 (after2 V)).trans (after2_arg4 V)
theorem after3_arg5 : after3 V (main_arg5 : DevRef τ sig) = V (main_arg5 : DevRef τ sig) := (r3_arg5 (after2 V)).trans (after2_arg5 V)
theorem after3_arg6 : after3 V (main_arg6 : DevRef τ sig) = V (main_arg6 : DevRef τ sig) := (r3_arg6 (after2 V)).trans (after2_arg6 V)
theorem after3_arg7 : after3 V (main_arg7 : DevRef τ sig) = V (main_arg7 : DevRef τ sig) := (r3_arg7 (after2 V)).trans (after2_arg7 V)
theorem after3_arg8 : after3 V (main_arg8 : DevRef τ sig) = V (main_arg8 : DevRef τ sig) := (r3_arg8 (after2 V)).trans (after2_arg8 V)
theorem after3_arg9 : after3 V (main_arg9 : DevRef τ sig) = V (main_arg9 : DevRef τ sig) := (r3_arg9 (after2 V)).trans (after2_arg9 V)
theorem after3_arg10 : after3 V (main_arg10 : DevRef τ sig) = V (main_arg10 : DevRef τ sig) := (r3_arg10 (after2 V)).trans (after2_arg10 V)
theorem after3_feat : after3 V (main_v114 : DevRef τ sig) = Layer.feat3 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after3, r3_feat, after2_arg3, after2_arg4, after2_arg5, after2_arg7, after2_arg8, after2_arg9, after2_arg10, after2_feat]
  rfl
theorem after3_unit : after3 V (main_v119 : DevRef τ sig) = Layer.unitRows (Layer.feat3 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) := by
  rw [after3, r3_unit, after2_arg3, after2_arg4, after2_arg5, after2_arg7, after2_arg8, after2_arg9, after2_arg10, after2_feat]
  rfl
theorem after3_unit2 : after3 V (main_v79 : DevRef τ sig) = Layer.unitRows (Layer.feat2 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) :=
  (r3_v79 (after2 V)).trans (after2_unit V)
theorem after3_unit1 : after3 V (main_v39 : DevRef τ sig) = Layer.unitRows (Layer.feat1 (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) :=
  (r3_v39 (after2 V)).trans (after2_unit1 V)

/-- The table the final gathers read is the full table of the arguments. -/
theorem table_eq : Layer.table ((after3 V) (main_arg6 : DevRef τ sig)) (after3 V (main_v39 : DevRef τ sig)) (after3 V (main_v79 : DevRef τ sig)) (after3 V (main_v119 : DevRef τ sig))
    = Layer.fullTable (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after3_arg6, after3_unit1, after3_unit2, after3_unit]
  rfl

/-! ## The results -/

/-- The user rows. -/
theorem result0 : after ops V (main_v129 : DevRef τ sig) = Layer.userRows (Layer.fullTable (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg0 : DevRef τ sig)) := by
  rw [after_ops, r4_user, table_eq, after3_arg0]

/-- The positive item rows. -/
theorem result1 : after ops V (main_v136 : DevRef τ sig) = Layer.itemRows (Layer.fullTable (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg1 : DevRef τ sig)) := by
  rw [after_ops, r4_pos, table_eq, after3_arg1]

/-- The negative item rows. -/
theorem result2 : after ops V (main_v143 : DevRef τ sig) = Layer.itemRows (Layer.fullTable (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg2 : DevRef τ sig)) := by
  rw [after_ops, r4_neg, table_eq, after3_arg2]

/-- Argument 0 is left as it was. -/
theorem arg0_eq : after ops V (main_arg0 : DevRef τ sig) = V (main_arg0 : DevRef τ sig) := by
  rw [after_ops, r4_arg0, after3_arg0]
/-- Argument 1 is left as it was. -/
theorem arg1_eq : after ops V (main_arg1 : DevRef τ sig) = V (main_arg1 : DevRef τ sig) := by
  rw [after_ops, r4_arg1, after3_arg1]
/-- Argument 2 is left as it was. -/
theorem arg2_eq : after ops V (main_arg2 : DevRef τ sig) = V (main_arg2 : DevRef τ sig) := by
  rw [after_ops, r4_arg2, after3_arg2]
/-- Argument 3 is left as it was. -/
theorem arg3_eq : after ops V (main_arg3 : DevRef τ sig) = V (main_arg3 : DevRef τ sig) := by
  rw [after_ops, r4_arg3, after3_arg3]
/-- Argument 4 is left as it was. -/
theorem arg4_eq : after ops V (main_arg4 : DevRef τ sig) = V (main_arg4 : DevRef τ sig) := by
  rw [after_ops, r4_arg4, after3_arg4]
/-- Argument 5 is left as it was. -/
theorem arg5_eq : after ops V (main_arg5 : DevRef τ sig) = V (main_arg5 : DevRef τ sig) := by
  rw [after_ops, r4_arg5, after3_arg5]
/-- Argument 6 is left as it was. -/
theorem arg6_eq : after ops V (main_arg6 : DevRef τ sig) = V (main_arg6 : DevRef τ sig) := by
  rw [after_ops, r4_arg6, after3_arg6]
/-- Argument 7 is left as it was. -/
theorem arg7_eq : after ops V (main_arg7 : DevRef τ sig) = V (main_arg7 : DevRef τ sig) := by
  rw [after_ops, r4_arg7, after3_arg7]
/-- Argument 8 is left as it was. -/
theorem arg8_eq : after ops V (main_arg8 : DevRef τ sig) = V (main_arg8 : DevRef τ sig) := by
  rw [after_ops, r4_arg8, after3_arg8]
/-- Argument 9 is left as it was. -/
theorem arg9_eq : after ops V (main_arg9 : DevRef τ sig) = V (main_arg9 : DevRef τ sig) := by
  rw [after_ops, r4_arg9, after3_arg9]
/-- Argument 10 is left as it was. -/
theorem arg10_eq : after ops V (main_arg10 : DevRef τ sig) = V (main_arg10 : DevRef τ sig) := by
  rw [after_ops, r4_arg10, after3_arg10]

/-! ## At the launch contents of a device -/

section AtLaunch

variable (m : (ℓ : Loc nD τ sig) → Buf (Elt F) ℓ) (c : Dev nD)

/-- The user rows, from the memory the program is launched in. -/
theorem result0_at : after ops (launchContents m c) (Proc.devRef .tc main_v129)
    = Layer.userRows (Layer.fullTable (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg0)) :=
  result0 (launchContents m c)

/-- The positive item rows, from the memory the program is launched in. -/
theorem result1_at : after ops (launchContents m c) (Proc.devRef .tc main_v136)
    = Layer.itemRows (Layer.fullTable (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) :=
  result1 (launchContents m c)

/-- The negative item rows, from the memory the program is launched in. -/
theorem result2_at : after ops (launchContents m c) (Proc.devRef .tc main_v143)
    = Layer.itemRows (Layer.fullTable (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2)) :=
  result2 (launchContents m c)

theorem arg0_at : after ops (launchContents m c) (Proc.devRef .tc main_arg0) = m ((c.tc : Thread nD τ).loc main_arg0) :=
  arg0_eq (launchContents m c)
theorem arg1_at : after ops (launchContents m c) (Proc.devRef .tc main_arg1) = m ((c.tc : Thread nD τ).loc main_arg1) :=
  arg1_eq (launchContents m c)
theorem arg2_at : after ops (launchContents m c) (Proc.devRef .tc main_arg2) = m ((c.tc : Thread nD τ).loc main_arg2) :=
  arg2_eq (launchContents m c)
theorem arg3_at : after ops (launchContents m c) (Proc.devRef .tc main_arg3) = m ((c.tc : Thread nD τ).loc main_arg3) :=
  arg3_eq (launchContents m c)
theorem arg4_at : after ops (launchContents m c) (Proc.devRef .tc main_arg4) = m ((c.tc : Thread nD τ).loc main_arg4) :=
  arg4_eq (launchContents m c)
theorem arg5_at : after ops (launchContents m c) (Proc.devRef .tc main_arg5) = m ((c.tc : Thread nD τ).loc main_arg5) :=
  arg5_eq (launchContents m c)
theorem arg6_at : after ops (launchContents m c) (Proc.devRef .tc main_arg6) = m ((c.tc : Thread nD τ).loc main_arg6) :=
  arg6_eq (launchContents m c)
theorem arg7_at : after ops (launchContents m c) (Proc.devRef .tc main_arg7) = m ((c.tc : Thread nD τ).loc main_arg7) :=
  arg7_eq (launchContents m c)
theorem arg8_at : after ops (launchContents m c) (Proc.devRef .tc main_arg8) = m ((c.tc : Thread nD τ).loc main_arg8) :=
  arg8_eq (launchContents m c)
theorem arg9_at : after ops (launchContents m c) (Proc.devRef .tc main_arg9) = m ((c.tc : Thread nD τ).loc main_arg9) :=
  arg9_eq (launchContents m c)
theorem arg10_at : after ops (launchContents m c) (Proc.devRef .tc main_arg10) = m ((c.tc : Thread nD τ).loc main_arg10) :=
  arg10_eq (launchContents m c)

end AtLaunch

end Cert.ReferenceIdeal.Hand

end
-- ==== Proof.lean ====
/-
  NGCF message passing, three rounds, against its jnp reference, over the extended reals.

  Both programs compute, per round, the sparse neighbourhood sum  agg[row[e]] += vals[e] · x[col[e]]  with the same host
  operations, then the dense layer  new = leaky(agg·W1ᵀ + b1) + leaky((agg ⊙ x)·W2ᵀ + b2)  (slope 1/5) and its rows scaled
  by 1 / max(‖row‖₂, ε). The reference applies the layer to whole [125000, 64] arrays; the kernel program tiles the node
  axis into 125 blocks of 1000 rows, each row's 64 outputs depending on that row alone, so block by block the two agree
  (the matrix product into a zero accumulator is the same sum over k; narrowing to bf16 is the identity on the extended
  reals; the lane sum is the host's row sum). The four feature tables are laid side by side ([125000, 256]); the
  reference takes rows user / 50000 + pos_item / 50000 + neg_item of it by three host gathers, the kernel program by one
  gather call over the table viewed [125000, 2, 128], driven by the index table (user, pos_item + 50000, neg_item + 50000),
  followed by three row slices. Under the index ranges of the precondition (0 ≤ user < 50000, 0 ≤ pos_item, neg_item < 75000)
  no index is wrapped or clamped and every table entry names a table row, so the results agree entry by entry, and the
  gather call's blocks lie inside the table, which is what its run needs.

  frame_Kernel, frame_KernelIdeal: the run of @main's nine segments (Hand.run_all) read at the argument buffers.
  frame_ReferenceIdeal: the reference's run read at the argument buffers. preserves: the idealization rewrote nothing.
  algebraic: both runs end at  userRows T user, itemRows T pos_item, itemRows T neg_item  of the same table T.
-/
import proofs.«401280_j80350248174011_2_alg».proof.Defs
import proofs.«401280_j80350248174011_2_alg».proof.Proof.Gen.Kernel
import proofs.«401280_j80350248174011_2_alg».proof.Proof.Gen.KernelIdeal
import proofs.«401280_j80350248174011_2_alg».proof.Proof.Gen.ReferenceIdeal
import proofs.«401280_j80350248174011_2_alg».proof.Proof.Gen.Pre_finite_inputs
import proofs.«401280_j80350248174011_2_alg».proof.Proof.K.Run
import proofs.«401280_j80350248174011_2_alg».proof.Proof.K.FoldArgs
import proofs.«401280_j80350248174011_2_alg».proof.Proof.K.OkPre
import proofs.«401280_j80350248174011_2_alg».proof.Proof.KI.Run
import proofs.«401280_j80350248174011_2_alg».proof.Proof.KI.FoldArgs
import proofs.«401280_j80350248174011_2_alg».proof.Proof.KI.OkPre
import proofs.«401280_j80350248174011_2_alg».proof.Proof.KI.Result
import proofs.«401280_j80350248174011_2_alg».proof.Proof.RI.Run
import proofs.«401280_j80350248174011_2_alg».proof.Proof.RI.Value
import Idealize.ShloMosaic.Adequacy
import Idealize.ShloMosaic.Init

noncomputable section

namespace Cert.Proof

open Idealize.ShloMosaic Idealize.ShloMosaic.TcCoe Idealize.SL.Sem

/-- The word-level program runs and leaves its arguments as launched: the index ranges make every table entry a row. -/
theorem frame_K : Cert.frame_Kernel := fun m g hpre =>
  (θ_run (Cert.Kernel.defs (F := Bits)) _ _).mono
    (fun r h c => ⟨(h c _ (Cert.Kernel.Hand.mem_uc Cert.Kernel.main_arg0 (by decide))).trans (Cert.Kernel.Hand.W9_arg0 m g _ c),
      (h c _ (Cert.Kernel.Hand.mem_uc Cert.Kernel.main_arg1 (by decide))).trans (Cert.Kernel.Hand.W9_arg1 m g _ c),
      (h c _ (Cert.Kernel.Hand.mem_uc Cert.Kernel.main_arg2 (by decide))).trans (Cert.Kernel.Hand.W9_arg2 m g _ c),
      (h c _ (Cert.Kernel.Hand.mem_uc Cert.Kernel.main_arg3 (by decide))).trans (Cert.Kernel.Hand.W9_arg3 m g _ c),
      (h c _ (Cert.Kernel.Hand.mem_uc Cert.Kernel.main_arg4 (by decide))).trans (Cert.Kernel.Hand.W9_arg4 m g _ c),
      (h c _ (Cert.Kernel.Hand.mem_uc Cert.Kernel.main_arg5 (by decide))).trans (Cert.Kernel.Hand.W9_arg5 m g _ c),
      (h c _ (Cert.Kernel.Hand.mem_uc Cert.Kernel.main_arg6 (by decide))).trans (Cert.Kernel.Hand.W9_arg6 m g _ c),
      (h c _ (Cert.Kernel.Hand.mem_uc Cert.Kernel.main_arg7 (by decide))).trans (Cert.Kernel.Hand.W9_arg7 m g _ c),
      (h c _ (Cert.Kernel.Hand.mem_uc Cert.Kernel.main_arg8 (by decide))).trans (Cert.Kernel.Hand.W9_arg8 m g _ c),
      (h c _ (Cert.Kernel.Hand.mem_uc Cert.Kernel.main_arg9 (by decide))).trans (Cert.Kernel.Hand.W9_arg9 m g _ c),
      (h c _ (Cert.Kernel.Hand.mem_uc Cert.Kernel.main_arg10 (by decide))).trans (Cert.Kernel.Hand.W9_arg10 m g _ c)⟩)
    (Cert.Kernel.Hand.run_all (F := Bits) m g (Cert.Kernel.Hand.ok_of_pre m g hpre))

/-- The same for the idealized program. -/
theorem frame_KI : Cert.frame_KernelIdeal := fun m g hpre =>
  (θ_run (Cert.KernelIdeal.defs (F := Ideal)) _ _).mono
    (fun r h c => ⟨(h c _ (Cert.KernelIdeal.Hand.mem_uc Cert.KernelIdeal.main_arg0 (by decide))).trans (Cert.KernelIdeal.Hand.W9_arg0 m g _ c),
      (h c _ (Cert.KernelIdeal.Hand.mem_uc Cert.KernelIdeal.main_arg1 (by decide))).trans (Cert.KernelIdeal.Hand.W9_arg1 m g _ c),
      (h c _ (Cert.KernelIdeal.Hand.mem_uc Cert.KernelIdeal.main_arg2 (by decide))).trans (Cert.KernelIdeal.Hand.W9_arg2 m g _ c),
      (h c _ (Cert.KernelIdeal.Hand.mem_uc Cert.KernelIdeal.main_arg3 (by decide))).trans (Cert.KernelIdeal.Hand.W9_arg3 m g _ c),
      (h c _ (Cert.KernelIdeal.Hand.mem_uc Cert.KernelIdeal.main_arg4 (by decide))).trans (Cert.KernelIdeal.Hand.W9_arg4 m g _ c),
      (h c _ (Cert.KernelIdeal.Hand.mem_uc Cert.KernelIdeal.main_arg5 (by decide))).trans (Cert.KernelIdeal.Hand.W9_arg5 m g _ c),
      (h c _ (Cert.KernelIdeal.Hand.mem_uc Cert.KernelIdeal.main_arg6 (by decide))).trans (Cert.KernelIdeal.Hand.W9_arg6 m g _ c),
      (h c _ (Cert.KernelIdeal.Hand.mem_uc Cert.KernelIdeal.main_arg7 (by decide))).trans (Cert.KernelIdeal.Hand.W9_arg7 m g _ c),
      (h c _ (Cert.KernelIdeal.Hand.mem_uc Cert.KernelIdeal.main_arg8 (by decide))).trans (Cert.KernelIdeal.Hand.W9_arg8 m g _ c),
      (h c _ (Cert.KernelIdeal.Hand.mem_uc Cert.KernelIdeal.main_arg9 (by decide))).trans (Cert.KernelIdeal.Hand.W9_arg9 m g _ c),
      (h c _ (Cert.KernelIdeal.Hand.mem_uc Cert.KernelIdeal.main_arg10 (by decide))).trans (Cert.KernelIdeal.Hand.W9_arg10 m g _ c)⟩)
    (Cert.KernelIdeal.Hand.run_all (F := Ideal) m g (Cert.KernelIdeal.Hand.ok_of_pre m g hpre))

/-- The reference is host operations only: its run, read at the arguments. -/
theorem frame_RI : Cert.frame_ReferenceIdeal := fun m g _ =>
  (θ_run (Cert.ReferenceIdeal.defs (F := Ideal)) _ _).mono
    (fun r h c => ⟨(h c Cert.ReferenceIdeal.main_arg0).trans (Cert.ReferenceIdeal.Hand.arg0_at m c),
      (h c Cert.ReferenceIdeal.main_arg1).trans (Cert.ReferenceIdeal.Hand.arg1_at m c),
      (h c Cert.ReferenceIdeal.main_arg2).trans (Cert.ReferenceIdeal.Hand.arg2_at m c),
      (h c Cert.ReferenceIdeal.main_arg3).trans (Cert.ReferenceIdeal.Hand.arg3_at m c),
      (h c Cert.ReferenceIdeal.main_arg4).trans (Cert.ReferenceIdeal.Hand.arg4_at m c),
      (h c Cert.ReferenceIdeal.main_arg5).trans (Cert.ReferenceIdeal.Hand.arg5_at m c),
      (h c Cert.ReferenceIdeal.main_arg6).trans (Cert.ReferenceIdeal.Hand.arg6_at m c),
      (h c Cert.ReferenceIdeal.main_arg7).trans (Cert.ReferenceIdeal.Hand.arg7_at m c),
      (h c Cert.ReferenceIdeal.main_arg8).trans (Cert.ReferenceIdeal.Hand.arg8_at m c),
      (h c Cert.ReferenceIdeal.main_arg9).trans (Cert.ReferenceIdeal.Hand.arg9_at m c),
      (h c Cert.ReferenceIdeal.main_arg10).trans (Cert.ReferenceIdeal.Hand.arg10_at m c)⟩)
    (Cert.ReferenceIdeal.Hand.run_all (F := Ideal) m g)

/-- The embedding table as a function of the idealized kernel program's arguments. -/
abbrev tableOf (m : (ℓ : Loc Cert.KernelIdeal.nD Cert.KernelIdeal.τ Cert.KernelIdeal.sig) → Buf (Elt Ideal) ℓ) (c : Dev Cert.KernelIdeal.nD) :
    FVec Ideal Cert.ReferenceIdeal.S125000x256 .f32 :=
  Cert.ReferenceIdeal.Layer.fullTable (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- Both idealized programs end at the same three row selections of the same table. -/
theorem algebraic : Cert.algebraic_KernelIdeal_ReferenceIdeal := by
  intro m g m' g' hpre hagree
  have hr := fun c => Cert.KernelIdeal.Hand.ranges_of_pre m c (hpre c)
  refine ⟨fun c => Cert.ReferenceIdeal.Layer.userRows (tableOf m c) (m ((c.tc : Thread Cert.KernelIdeal.nD Cert.KernelIdeal.τ).loc Cert.KernelIdeal.main_arg0)),
    fun c => Cert.ReferenceIdeal.Layer.itemRows (tableOf m c) (m ((c.tc : Thread Cert.KernelIdeal.nD Cert.KernelIdeal.τ).loc Cert.KernelIdeal.main_arg1)),
    fun c => Cert.ReferenceIdeal.Layer.itemRows (tableOf m c) (m ((c.tc : Thread Cert.KernelIdeal.nD Cert.KernelIdeal.τ).loc Cert.KernelIdeal.main_arg2)), ?_, ?_⟩
  · exact (θ_run (Cert.KernelIdeal.defs (F := Ideal)) _ _).mono
      (fun r h c => ⟨(h c _ (Cert.KernelIdeal.Hand.mem_uc Cert.KernelIdeal.main_v81 (by decide))).trans (Cert.KernelIdeal.Hand.result0 m g c _ (hr c).1 (hr c).2.1 (hr c).2.2),
        (h c _ (Cert.KernelIdeal.Hand.mem_uc Cert.KernelIdeal.main_v82 (by decide))).trans (Cert.KernelIdeal.Hand.result1 m g c _ (hr c).1 (hr c).2.1 (hr c).2.2),
        (h c _ (Cert.KernelIdeal.Hand.mem_uc Cert.KernelIdeal.main_v83 (by decide))).trans (Cert.KernelIdeal.Hand.result2 m g c _ (hr c).1 (hr c).2.1 (hr c).2.2),
        (h c _ (Cert.KernelIdeal.Hand.mem_uc Cert.KernelIdeal.main_arg0 (by decide))).trans (Cert.KernelIdeal.Hand.W9_arg0 m g _ c),
        (h c _ (Cert.KernelIdeal.Hand.mem_uc Cert.KernelIdeal.main_arg1 (by decide))).trans (Cert.KernelIdeal.Hand.W9_arg1 m g _ c),
        (h c _ (Cert.KernelIdeal.Hand.mem_uc Cert.KernelIdeal.main_arg2 (by decide))).trans (Cert.KernelIdeal.Hand.W9_arg2 m g _ c),
        (h c _ (Cert.KernelIdeal.Hand.mem_uc Cert.KernelIdeal.main_arg3 (by decide))).trans (Cert.KernelIdeal.Hand.W9_arg3 m g _ c),
        (h c _ (Cert.KernelIdeal.Hand.mem_uc Cert.KernelIdeal.main_arg4 (by decide))).trans (Cert.KernelIdeal.Hand.W9_arg4 m g _ c),
        (h c _ (Cert.KernelIdeal.Hand.mem_uc Cert.KernelIdeal.main_arg5 (by decide))).trans (Cert.KernelIdeal.Hand.W9_arg5 m g _ c),
        (h c _ (Cert.KernelIdeal.Hand.mem_uc Cert.KernelIdeal.main_arg6 (by decide))).trans (Cert.KernelIdeal.Hand.W9_arg6 m g _ c),
        (h c _ (Cert.KernelIdeal.Hand.mem_uc Cert.KernelIdeal.main_arg7 (by decide))).trans (Cert.KernelIdeal.Hand.W9_arg7 m g _ c),
        (h c _ (Cert.KernelIdeal.Hand.mem_uc Cert.KernelIdeal.main_arg8 (by decide))).trans (Cert.KernelIdeal.Hand.W9_arg8 m g _ c),
        (h c _ (Cert.KernelIdeal.Hand.mem_uc Cert.KernelIdeal.main_arg9 (by decide))).trans (Cert.KernelIdeal.Hand.W9_arg9 m g _ c),
        (h c _ (Cert.KernelIdeal.Hand.mem_uc Cert.KernelIdeal.main_arg10 (by decide))).trans (Cert.KernelIdeal.Hand.W9_arg10 m g _ c)⟩)
      (Cert.KernelIdeal.Hand.run_all (F := Ideal) m g (Cert.KernelIdeal.Hand.ok_of_pre m g hpre))
  · refine (θ_run (Cert.ReferenceIdeal.defs (F := Ideal)) _ _).mono (fun r h c => ⟨?_, ?_, ?_,
        (h c Cert.ReferenceIdeal.main_arg0).trans (Cert.ReferenceIdeal.Hand.arg0_at m' c),
        (h c Cert.ReferenceIdeal.main_arg1).trans (Cert.ReferenceIdeal.Hand.arg1_at m' c),
        (h c Cert.ReferenceIdeal.main_arg2).trans (Cert.ReferenceIdeal.Hand.arg2_at m' c),
        (h c Cert.ReferenceIdeal.main_arg3).trans (Cert.ReferenceIdeal.Hand.arg3_at m' c),
        (h c Cert.ReferenceIdeal.main_arg4).trans (Cert.ReferenceIdeal.Hand.arg4_at m' c),
        (h c Cert.ReferenceIdeal.main_arg5).trans (Cert.ReferenceIdeal.Hand.arg5_at m' c),
        (h c Cert.ReferenceIdeal.main_arg6).trans (Cert.ReferenceIdeal.Hand.arg6_at m' c),
        (h c Cert.ReferenceIdeal.main_arg7).trans (Cert.ReferenceIdeal.Hand.arg7_at m' c),
        (h c Cert.ReferenceIdeal.main_arg8).trans (Cert.ReferenceIdeal.Hand.arg8_at m' c),
        (h c Cert.ReferenceIdeal.main_arg9).trans (Cert.ReferenceIdeal.Hand.arg9_at m' c),
        (h c Cert.ReferenceIdeal.main_arg10).trans (Cert.ReferenceIdeal.Hand.arg10_at m' c)⟩)
      (Cert.ReferenceIdeal.Hand.run_all (F := Ideal) m' g')
    · refine ((h c Cert.ReferenceIdeal.main_v129).trans (Cert.ReferenceIdeal.Hand.result0_at m' c)).trans ?_
      rw [(hagree c).1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · refine ((h c Cert.ReferenceIdeal.main_v136).trans (Cert.ReferenceIdeal.Hand.result1_at m' c)).trans ?_
      rw [(hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · refine ((h c Cert.ReferenceIdeal.main_v143).trans (Cert.ReferenceIdeal.Hand.result2_at m' c)).trans ?_
      rw [(hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
